-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "fold_c_134217728_13421773" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v261) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x128x2 : Shape := ⟨3, ![32, 128, 2]⟩
abbrev S32x128 : Shape := ⟨2, ![32, 128]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x128x2 : S_.BroadcastsInDim S32x128x2 (![] : Fin 0 → Fin S32x128x2.rank)
  reducesTo_S32x128x2_S_d0_1_2 : S32x128x2.ReducesTo [0, 1, 2] S_

variable [Facts]

def fn_part1 {F : FTy → Type} [FloatOps F] (main_v13 : IVec S_ 1) (main_v16 : IVec S32x128x2 1) : IVec S_ 1 :=
  let main_c_5 : IVec S_ 1 := constantI S_ 1 1#1
  let main_v17 : IVec S_ 1 := (fun x v => Host.reduce IntOp.andi x v reducesTo_S32x128x2_S_d0_1_2 h_S_) main_v16 main_c_5
  let main_v18 : IVec S_ 1 := andi main_v13 main_v17
  main_v18

def fn {F : FTy → Type} [FloatOps F] (main_arg0 : FVec F S32x256x64x64 .f32) (main_arg1 : FVec F S32x256x64x64 .f32) (main_arg2 : FVec F S32x128x2 .f32) (main_arg3 : FVec F S32x128x2 .f32) (main_arg4 : IVec S32x128 32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S32x128x2 .f32 := Host.absf main_arg2
  let main_cst_2 : FVec F S_ .f32 := constant S_ .f32 0x7F800000#32
  let main_v10 : FVec F S32x128x2 .f32 := broadcastInDim S32x128x2 ![] bcast_S_S32x128x2 main_cst_2
  let main_v11 : IVec S32x128x2 1 := cmpf .olt main_v9 main_v10
  let main_c_3 : IVec S_ 1 := constantI S_ 1 1#1
  let main_v12 : IVec S_ 1 := (fun x v => Host.reduce IntOp.andi x v reducesTo_S32x128x2_S_d0_1_2 h_S_) main_v11 main_c_3
  let main_v13 : IVec S_ 1 := andi main_v8 main_v12
  let main_v14 : FVec F S32x128x2 .f32 := Host.absf main_arg3
  let main_cst_4 : FVec F S_ .f32 := constant S_ .f32 0x7F800000#32
  let main_v15 : FVec F S32x128x2 .f32 := broadcastInDim S32x128x2 ![] bcast_S_S32x128x2 main_cst_4
  let main_v16 : IVec S32x128x2 1 := cmpf .olt main_v14 main_v15
  fn_part1 (F := F) main_v13 main_v16
-- ==== Kernel.lean ====
abbrev S32x256x64x64 : Shape := ⟨4, ![32, 256, 64, 64]⟩
abbrev S32x128x2 : Shape := ⟨3, ![32, 128, 2]⟩
abbrev S32x128 : Shape := ⟨2, ![32, 128]⟩
abbrev S32x256x4096 : Shape := ⟨3, ![32, 256, 4096]⟩
abbrev S1x256x4096 : Shape := ⟨3, ![1, 256, 4096]⟩
abbrev S256x4096 : Shape := ⟨2, ![256, 4096]⟩
abbrev S4096 : Shape := ⟨1, ![4096]⟩
abbrev S1x4096 : Shape := ⟨2, ![1, 4096]⟩
abbrev S32x128x1 : Shape := ⟨3, ![32, 128, 1]⟩
abbrev S_ : Shape := ⟨0, ![]⟩
abbrev S32x128x4 : Shape := ⟨3, ![32, 128, 4]⟩
abbrev S32x8x128 : Shape := ⟨3, ![32, 8, 128]⟩
abbrev S1x128x4 : Shape := ⟨3, ![1, 128, 4]⟩
abbrev S1x8x128 : Shape := ⟨3, ![1, 8, 128]⟩
abbrev S128x4 : Shape := ⟨2, ![128, 4]⟩
abbrev S128x4096 : Shape := ⟨2, ![128, 4096]⟩
abbrev S128x1 : Shape := ⟨2, ![128, 1]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S8x128 : Shape := ⟨2, ![8, 128]⟩
abbrev S32x1x1 : Shape := ⟨3, ![32, 1, 1]⟩
abbrev S32 : Shape := ⟨1, ![32]⟩

abbrev nBuf : Space → Nat
  | .hbm => 224
  | .vmem => 22
  | .smem => 0
  | _ => 0

abbrev hbmTy0_0 (i : Nat) : BufTy := match i % 128 with
  | 0 => ⟨S32x256x64x64, .f32⟩
  | 1 => ⟨S32x256x64x64, .f32⟩
  | 2 => ⟨S32x128x2, .f32⟩
  | 3 => ⟨S32x128x2, .f32⟩
  | 4 => ⟨S32x128, .i32⟩
  | 5 => ⟨S32x256x4096, .f32⟩
  | 6 => ⟨S32x256x4096, .f32⟩
  | 7 => ⟨S32x256x4096, .bf16⟩
  | 8 => ⟨S32x256x4096, .bf16⟩
  | 9 => ⟨S32x128x1, .f32⟩
  | 10 => ⟨S32x128, .f32⟩
  | 11 => ⟨S_, .f32⟩
  | 12 => ⟨S32x128, .f32⟩
  | 13 => ⟨S32x128, .f32⟩
  | 14 => ⟨S_, .f32⟩
  | 15 => ⟨S32x128, .f32⟩
  | 16 => ⟨S32x128, .f32⟩
  | 17 => ⟨S32x128x1, .f32⟩
  | 18 => ⟨S32x128, .f32⟩
  | 19 => ⟨S_, .f32⟩
  | 20 => ⟨S32x128, .f32⟩
  | 21 => ⟨S32x128, .f32⟩
  | 22 => ⟨S_, .f32⟩
  | 23 => ⟨S32x128, .f32⟩
  | 24 => ⟨S32x128, .f32⟩
  | 25 => ⟨S32x128, .f32⟩
  | 26 => ⟨S_, .i32⟩
  | 27 => ⟨S_, .i32⟩
  | 28 => ⟨S_, .f32⟩
  | 29 => ⟨S32x128, .f32⟩
  | 30 => ⟨S32x128, .f32⟩
  | 31 => ⟨S_, .f32⟩
  | 32 => ⟨S32x128, .f32⟩
  | 33 => ⟨S32x128, .f32⟩
  | 34 => ⟨S32x128, .i32⟩
  | 35 => ⟨S32x128, .f32⟩
  | 36 => ⟨S_, .i32⟩
  | 37 => ⟨S_, .i32⟩
  | 38 => ⟨S_, .f32⟩
  | 39 => ⟨S32x128, .f32⟩
  | 40 => ⟨S32x128, .f32⟩
  | 41 => ⟨S_, .f32⟩
  | 42 => ⟨S32x128, .f32⟩
  | 43 => ⟨S32x128, .f32⟩
  | 44 => ⟨S32x128, .i32⟩
  | 45 => ⟨S_, .i32⟩
  | 46 => ⟨S32x128, .i32⟩
  | 47 => ⟨S32x128, .i32⟩
  | 48 => ⟨S_, .i32⟩
  | 49 => ⟨S_, .i32⟩
  | 50 => ⟨S_, .i32⟩
  | 51 => ⟨S32x128, .i32⟩
  | 52 => ⟨S32x128, .i32⟩
  | 53 => ⟨S_, .i32⟩
  | 54 => ⟨S32x128, .i32⟩
  | 55 => ⟨S32x128, .i32⟩
  | 56 => ⟨S_, .i32⟩
  | 57 => ⟨S32x128, .i32⟩
  | 58 => ⟨S32x128, .i32⟩
  | 59 => ⟨S_, .i32⟩
  | 60 => ⟨S_, .i32⟩
  | 61 => ⟨S_, .i32⟩
  | 62 => ⟨S32x128, .i32⟩
  | 63 => ⟨S32x128, .i32⟩
  | 64 => ⟨S_, .i32⟩
  | 65 => ⟨S32x128, .i32⟩
  | 66 => ⟨S32x128, .i32⟩
  | 67 => ⟨S32x128, .f32⟩
  | 68 => ⟨S32x128, .f32⟩
  | 69 => ⟨S32x128, .f32⟩
  | 70 => ⟨S32x128, .f32⟩
  | 71 => ⟨S_, .f32⟩
  | 72 => ⟨S32x128, .f32⟩
  | 73 => ⟨S32x128, .f32⟩
  | 74 => ⟨S_, .f32⟩
  | 75 => ⟨S32x128, .f32⟩
  | 76 => ⟨S32x128, .f32⟩
  | 77 => ⟨S32x128, .f32⟩
  | 78 => ⟨S_, .f32⟩
  | 79 => ⟨S32x128, .f32⟩
  | 80 => ⟨S32x128, .f32⟩
  | 81 => ⟨S32x128, .f32⟩
  | 82 => ⟨S_, .f32⟩
  | 83 => ⟨S32x128, .f32⟩
  | 84 => ⟨S32x128, .f32⟩
  | 85 => ⟨S32x128, .f32⟩
  | 86 => ⟨S32x128, .f32⟩
  | 87 => ⟨S_, .i32⟩
  | 88 => ⟨S32x128, .i32⟩
  | 89 => ⟨S32x128, .i32⟩
  | 90 => ⟨S32x128, .i32⟩
  | 91 => ⟨S_, .i32⟩
  | 92 => ⟨S32x128, .i32⟩
  | 93 => ⟨S32x128, .i32⟩
  | 94 => ⟨S32x128, .i32⟩
  | 95 => ⟨S_, .i32⟩
  | 96 => ⟨S32x128, .i32⟩
  | 97 => ⟨S32x128, .i32⟩
  | 98 => ⟨S32x128, .i32⟩
  | 99 => ⟨S_, .i32⟩
  | 100 => ⟨S32x128, .i32⟩
  | 101 => ⟨S32x128, .i32⟩
  | 102 => ⟨S32x128, .i32⟩
  | 103 => ⟨S32x128x1, .i32⟩
  | 104 => ⟨S32x128x1, .i32⟩
  | 105 => ⟨S32x128x1, .i32⟩
  | 106 => ⟨S32x128x1, .i32⟩
  | 107 => ⟨S32x128x4, .i32⟩
  | 108 => ⟨S32x128x1, .f32⟩
  | 109 => ⟨S32x128x1, .f32⟩
  | 110 => ⟨S32x128x1, .f32⟩
  | 111 => ⟨S32x128x1, .f32⟩
  | 112 => ⟨S32x128x4, .f32⟩
  | 113 => ⟨S32x128x1, .f32⟩
  | 114 => ⟨S32x128, .f32⟩
  | 115 => ⟨S_, .f32⟩
  | 116 => ⟨S32x128, .f32⟩
  | 117 => ⟨S32x128, .f32⟩
  | 118 => ⟨S32x128x1, .f32⟩
  | 119 => ⟨S32x128, .f32⟩
  | 120 => ⟨S_, .f32⟩
  | 121 => ⟨S32x128, .f32⟩
  | 122 => ⟨S32x128, .f32⟩
  | 123 => ⟨S32x128, .f32⟩
  | 124 => ⟨S_, .i32⟩
  | 125 => ⟨S_, .i32⟩
  | 126 => ⟨S_, .f32⟩
  | 127 => ⟨S32x128, .f32⟩
  | _ => ⟨S32x256x64x64, .f32⟩

abbrev hbmTy0_1 (i : Nat) : BufTy := match i % 128 with
  | 0 => ⟨S32x128, .f32⟩
  | 1 => ⟨S_, .f32⟩
  | 2 => ⟨S32x128, .f32⟩
  | 3 => ⟨S32x128, .f32⟩
  | 4 => ⟨S32x128, .i32⟩
  | 5 => ⟨S_, .i32⟩
  | 6 => ⟨S32x128, .i32⟩
  | 7 => ⟨S32x128, .i32⟩
  | 8 => ⟨S_, .i32⟩
  | 9 => ⟨S_, .i32⟩
  | 10 => ⟨S_, .i32⟩
  | 11 => ⟨S32x128, .i32⟩
  | 12 => ⟨S32x128, .i32⟩
  | 13 => ⟨S_, .i32⟩
  | 14 => ⟨S32x128, .i32⟩
  | 15 => ⟨S32x128, .i32⟩
  | 16 => ⟨S32x128, .f32⟩
  | 17 => ⟨S_, .i32⟩
  | 18 => ⟨S_, .i32⟩
  | 19 => ⟨S_, .f32⟩
  | 20 => ⟨S32x128, .f32⟩
  | 21 => ⟨S32x128, .f32⟩
  | 22 => ⟨S_, .f32⟩
  | 23 => ⟨S32x128, .f32⟩
  | 24 => ⟨S32x128, .f32⟩
  | 25 => ⟨S32x128, .i32⟩
  | 26 => ⟨S_, .i32⟩
  | 27 => ⟨S32x128, .i32⟩
  | 28 => ⟨S32x128, .i32⟩
  | 29 => ⟨S_, .i32⟩
  | 30 => ⟨S_, .i32⟩
  | 31 => ⟨S_, .i32⟩
  | 32 => ⟨S32x128, .i32⟩
  | 33 => ⟨S32x128, .i32⟩
  | 34 => ⟨S_, .i32⟩
  | 35 => ⟨S32x128, .i32⟩
  | 36 => ⟨S32x128, .i32⟩
  | 37 => ⟨S32x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S32x128, .f32⟩
  | 47 => ⟨S32x128, .f32⟩
  | 48 => ⟨S32x128, .f32⟩
  | 49 => ⟨S32x128, .f32⟩
  | 50 => ⟨S32x128, .f32⟩
  | 51 => ⟨S32x128, .f32⟩
  | 52 => ⟨S32x128, .f32⟩
  | 53 => ⟨S_, .i32⟩
  | 54 => ⟨S32x128, .i32⟩
  | 55 => ⟨S32x128, .i1⟩
  | 56 => ⟨S32x128, .f32⟩
  | 57 => ⟨S_, .i32⟩
  | 58 => ⟨S32x128, .i32⟩
  | 59 => ⟨S32x128, .i32⟩
  | 60 => ⟨S32x128, .i32⟩
  | 61 => ⟨S_, .i32⟩
  | 62 => ⟨S32x128, .i32⟩
  | 63 => ⟨S32x128, .i32⟩
  | 64 => ⟨S32x128, .i32⟩
  | 65 => ⟨S_, .i32⟩
  | 66 => ⟨S32x128, .i32⟩
  | 67 => ⟨S32x128, .i32⟩
  | 68 => ⟨S32x128, .i32⟩
  | 69 => ⟨S_, .i32⟩
  | 70 => ⟨S32x128, .i32⟩
  | 71 => ⟨S32x128, .i32⟩
  | 72 => ⟨S32x128, .i32⟩
  | 73 => ⟨S32x128x1, .i32⟩
  | 74 => ⟨S32x128x1, .i32⟩
  | 75 => ⟨S32x128x1, .i32⟩
  | 76 => ⟨S32x128x1, .i32⟩
  | 77 => ⟨S32x128x4, .i32⟩
  | 78 => ⟨S32x128x1, .f32⟩
  | 79 => ⟨S32x128x1, .f32⟩
  | 80 => ⟨S32x128x1, .f32⟩
  | 81 => ⟨S32x128x1, .f32⟩
  | 82 => ⟨S32x128x4, .f32⟩
  | 83 => ⟨S32x128x1, .f32⟩
  | 84 => ⟨S32x128x4, .f32⟩
  | 85 => ⟨S32x128x4, .f32⟩
  | 86 => ⟨S32x8x128, .f32⟩
  | 87 => ⟨S32x1x1, .f32⟩
  | 88 => ⟨S32, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x256x4096, .bf16⟩
  | .local _ .vmem, ⟨11, _⟩ => ⟨S1x256x4096, .bf16⟩
  | .local _ .vmem, ⟨12, _⟩ => ⟨S1x128x4, .i32⟩
  | .local _ .vmem, ⟨13, _⟩ => ⟨S1x128x4, .i32⟩
  | .local _ .vmem, ⟨14, _⟩ => ⟨S1x128x4, .f32⟩
  | .local _ .vmem, ⟨15, _⟩ => ⟨S1x128x4, .f32⟩
  | .local _ .vmem, ⟨16, _⟩ => ⟨S1x128x4, .i32⟩
  | .local _ .vmem, ⟨17, _⟩ => ⟨S1x128x4, .i32⟩
  | .local _ .vmem, ⟨18, _⟩ => ⟨S1x128x4, .f32⟩
  | .local _ .vmem, ⟨19, _⟩ => ⟨S1x128x4, .f32⟩
  | .local _ .vmem, ⟨20, _⟩ => ⟨S1x8x128, .f32⟩
  | .local _ .vmem, ⟨21, _⟩ => ⟨S1x8x128, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_v21 : Ref sig .tc := ⟨.hbm, 46, rfl⟩
abbrev main_v22 : Ref sig .tc := ⟨.hbm, 47, rfl⟩
abbrev main_c_7 : Ref sig .tc := ⟨.hbm, 48, rfl⟩
abbrev main_c_8 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v23 : Ref sig .tc := ⟨.hbm, 55, rfl⟩
abbrev main_c_9 : Ref sig .tc := ⟨.hbm, 56, rfl⟩
abbrev main_v24 : Ref sig .tc := ⟨.hbm, 57, rfl⟩
abbrev main_v25 : Ref sig .tc := ⟨.hbm, 58, rfl⟩
abbrev main_c_10 : Ref sig .tc := ⟨.hbm, 59, rfl⟩
abbrev main_c_11 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_12 : Ref sig .tc := ⟨.hbm, 71, rfl⟩
abbrev main_v31 : Ref sig .tc := ⟨.hbm, 72, rfl⟩
abbrev main_v32 : Ref sig .tc := ⟨.hbm, 73, rfl⟩
abbrev main_cst_13 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_14 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_15 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c_16 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_17 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_c_18 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_19 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_20 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_21 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_22 : Ref sig .tc := ⟨.hbm, 124, rfl⟩
abbrev main_c_23 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_v74 : Ref sig .tc := ⟨.hbm, 131, rfl⟩
abbrev main_v75 : Ref sig .tc := ⟨.hbm, 132, rfl⟩
abbrev main_c_24 : Ref sig .tc := ⟨.hbm, 133, rfl⟩
abbrev main_v76 : Ref sig .tc := ⟨.hbm, 134, rfl⟩
abbrev main_v77 : Ref sig .tc := ⟨.hbm, 135, rfl⟩
abbrev main_c_25 : Ref sig .tc := ⟨.hbm, 136, rfl⟩
abbrev main_c_26 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v78 : Ref sig .tc := ⟨.hbm, 143, rfl⟩
abbrev main_v79 : Ref sig .tc := ⟨.hbm, 144, rfl⟩
abbrev main_c_27 : Ref sig .tc := ⟨.hbm, 145, rfl⟩
abbrev main_c_28 : Ref sig .tc := ⟨.hbm, 146, rfl⟩
abbrev main_call6_v0 : Ref sig .tc := ⟨.hbm, 147, rfl⟩
abbrev main_call6_v1 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_v80 : Ref sig .tc := ⟨.hbm, 152, rfl⟩
abbrev main_v81 : Ref sig .tc := ⟨.hbm, 153, rfl⟩
abbrev main_c_29 : Ref sig .tc := ⟨.hbm, 154, rfl⟩
abbrev main_v82 : Ref sig .tc := ⟨.hbm, 155, rfl⟩
abbrev main_v83 : Ref sig .tc := ⟨.hbm, 156, rfl⟩
abbrev main_c_30 : Ref sig .tc := ⟨.hbm, 157, rfl⟩
abbrev main_c_31 : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_c_32 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_c_33 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_c_34 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_c_35 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_c_36 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_cst_37 : Ref sig .tc := ⟨.hbm, 217, rfl⟩
abbrev main_v132 : Ref sig .tc := ⟨.hbm, 218, rfl⟩
abbrev main_cst_38 : Ref sig .tc := ⟨.hbm, 219, rfl⟩
abbrev main_v133 : Ref sig .tc := ⟨.hbm, 220, rfl⟩
abbrev main_cst_39 : Ref sig .tc := ⟨.hbm, 221, rfl⟩
abbrev main_v134 : Ref sig .tc := ⟨.hbm, 222, rfl⟩
abbrev main_v135 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x4 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S32x256x64x64_S32x256x4096 : S32x256x64x64.ShapeCasts S32x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S4096 : S256x4096.Reduces [0] S4096
  shapeCasts_S4096_S1x4096 : S4096.ShapeCasts S1x4096
  broadcasts_S1x4096_S256x4096 : S1x4096.Broadcasts S256x4096
  bitsLt_bf16_f32 : FTy.bits .bf16 < FTy.bits .f32
  shapeCasts_S256x4096_S1x256x4096 : S256x4096.ShapeCasts S1x256x4096
  packedbf16_S1x256x4096_S1x256x4096_0_0_0 : (Rect.unit (s := S1x256x4096) ![0, 0, 0] S1x256x4096.size inb_S1x256x4096_S1x256x4096_0_0_0).PackedRows (EltTy.packing .bf16)
  slices_S32x128x2_S32x128x1_0_0_0 : S32x128x2.Slices ![0, 0, 0] S32x128x1
  shapeCasts_S32x128x1_S32x128 : S32x128x1.ShapeCasts S32x128
  bcast_S_S32x128 : S_.BroadcastsInDim S32x128 (![] : Fin 0 → Fin S32x128.rank)
  slices_S32x128x2_S32x128x1_0_0_1 : S32x128x2.Slices ![0, 0, 1] S32x128x1
  bcast_S32x128_S32x128x1_0_1 : S32x128.BroadcastsInDim S32x128x1 (![0, 1] : Fin 2 → Fin S32x128x1.rank)
  concatenates_S32x128x1_S32x128x1_S32x128x1_S32x128x1_S32x128x4_d2 : Shape.Concatenates [S32x128x1, S32x128x1, S32x128x1, S32x128x1] S32x128x4 2
  bcast_S32x128x1_S32x128x4_0_1_2 : S32x128x1.BroadcastsInDim S32x128x4 (![0, 1, 2] : Fin 3 → Fin S32x128x4.rank)
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  iota_S128x4096_d1_w32 : S128x4096.Iotas .tc 32 [1]
  slices_S128x4_o0_0_S128x1 : S128x4.Slices ![0, 0] S128x1
  broadcasts_S128x1_S128x4096 : S128x1.Broadcasts S128x4096
  shapeCasts_S128x1_S128x1 : S128x1.ShapeCasts S128x1
  slices_S128x4_o0_1_S128x1 : S128x4.Slices ![0, 1] S128x1
  slices_S128x4_o0_2_S128x1 : S128x4.Slices ![0, 2] S128x1
  slices_S128x4_o0_3_S128x1 : S128x4.Slices ![0, 3] S128x1
  reduces_S128x4096_S128 : S128x4096.Reduces [1] S128
  shapeCasts_S128_S128x1 : S128.ShapeCasts S128x1
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32x128_S_d0_1 : S32x128.ReducesTo [0, 1] S_
  h_S_ : 0 < S_.numel
  reducesTo_S32_S_d0 : S32.ReducesTo [0] S_
  dot_S128x4096_S256x4096_S128x256_1_1_0_0_n_n_wf : DotDims.WF S128x4096 S256x4096 S128x256 [1] [1] [0] [0] [] []
  dot_S128x256_S256x4096_S128x4096_1_0_0_1_n_n_wf : DotDims.WF S128x256 S256x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S32x256x4096.size a
  hwx0_1 : ∀ i : grid0.Coords, EltTy.bits .f32 = 32 ∨ (Rect.block (s := S32x256x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S32x256x4096.size a
  hwx0_2 : ∀ i : grid0.Coords, EltTy.bits .bf16 = 32 ∨ (Rect.block (s := S32x256x4096) S1x256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S32x256x4096.size a
  hwx0_3 : ∀ i : grid0.Coords, EltTy.bits .bf16 = 32 ∨ (Rect.block (s := S32x256x4096) S1x256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S32x256x4096.size a
  hwx1_0 : ∀ i : grid1.Coords, EltTy.bits .bf16 = 32 ∨ (Rect.block (s := S32x256x4096) S1x256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S32x256x4096.size a
  hwx1_1 : ∀ i : grid1.Coords, EltTy.bits .bf16 = 32 ∨ (Rect.block (s := S32x256x4096) S1x256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x4.size a ≤ S32x128x4.size a
  hwx1_2 : ∀ i : grid1.Coords, EltTy.bits .i32 = 32 ∨ (Rect.block (s := S32x128x4) S1x128x4.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x4.size a ≤ S32x128x4.size a
  hwx1_3 : ∀ i : grid1.Coords, EltTy.bits .f32 = 32 ∨ (Rect.block (s := S32x128x4) S1x128x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x4.size a ≤ S32x128x4.size a
  hwx1_4 : ∀ i : grid1.Coords, EltTy.bits .i32 = 32 ∨ (Rect.block (s := S32x128x4) S1x128x4.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x4.size a ≤ S32x128x4.size a
  hwx1_5 : ∀ i : grid1.Coords, EltTy.bits .f32 = 32 ∨ (Rect.block (s := S32x128x4) S1x128x4.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x128.size a ≤ S32x8x128.size a
  hwx1_6 : ∀ i : grid1.Coords, EltTy.bits .f32 = 32 ∨ (Rect.block (s := S32x8x128) S1x8x128.size (cc1_transform_6 i) (hinb1_6 i)).WholeWords (EltTy.packing .f32)

variable [Facts₀]

def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf
def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x256x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2_0) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x128x4.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v120) S1x128x4.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v128) S1x128x4.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v129) S1x8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S32x128x2 : Shape := ⟨3, ![32, 128, 2]⟩
abbrev S32x128 : Shape := ⟨2, ![32, 128]⟩
abbrev S_ : Shape := ⟨0, ![]⟩
abbrev S32x64x64 : Shape := ⟨3, ![32, 64, 64]⟩
abbrev S32x1x64x64 : Shape := ⟨4, ![32, 1, 64, 64]⟩
abbrev S32x128x1 : Shape := ⟨3, ![32, 128, 1]⟩
abbrev S32x64x64x256 : Shape := ⟨4, ![32, 64, 64, 256]⟩
abbrev S32 : Shape := ⟨1, ![32]⟩
abbrev S32x1 : Shape := ⟨2, ![32, 1]⟩
abbrev S32x128x3 : Shape := ⟨3, ![32, 128, 3]⟩
abbrev S32x128x256 : Shape := ⟨3, ![32, 128, 256]⟩
abbrev S32x256x4096 : Shape := ⟨3, ![32, 256, 4096]⟩
abbrev S32x128x4096 : Shape := ⟨3, ![32, 128, 4096]⟩
abbrev S32x128x4 : Shape := ⟨3, ![32, 128, 4]⟩
abbrev S32x1x1 : Shape := ⟨3, ![32, 1, 1]⟩
abbrev S128 : Shape := ⟨1, ![128]⟩
abbrev S1x128x1 : Shape := ⟨3, ![1, 128, 1]⟩
abbrev S32x128x4x1 : Shape := ⟨4, ![32, 128, 4, 1]⟩
abbrev S32x128x4x3 : Shape := ⟨4, ![32, 128, 4, 3]⟩

abbrev nBuf : Space → Nat
  | .hbm => 396
  | .vmem => 0
  | .smem => 0
  | _ => 0

abbrev hbmTy0_0 (i : Nat) : BufTy := match i % 128 with
  | 0 => ⟨S32x256x64x64, .f32⟩
  | 1 => ⟨S32x256x64x64, .f32⟩
  | 2 => ⟨S32x128x2, .f32⟩
  | 3 => ⟨S32x128x2, .f32⟩
  | 4 => ⟨S32x128, .i32⟩
  | 5 => ⟨S32x256x64x64, .f32⟩
  | 6 => ⟨S_, .f32⟩
  | 7 => ⟨S32x64x64, .f32⟩
  | 8 => ⟨S32x1x64x64, .f32⟩
  | 9 => ⟨S32x1x64x64, .f32⟩
  | 10 => ⟨S_, .f32⟩
  | 11 => ⟨S32x1x64x64, .f32⟩
  | 12 => ⟨S32x1x64x64, .f32⟩
  | 13 => ⟨S32x256x64x64, .f32⟩
  | 14 => ⟨S32x256x64x64, .f32⟩
  | 15 => ⟨S32x256x64x64, .f32⟩
  | 16 => ⟨S_, .f32⟩
  | 17 => ⟨S32x64x64, .f32⟩
  | 18 => ⟨S32x1x64x64, .f32⟩
  | 19 => ⟨S32x1x64x64, .f32⟩
  | 20 => ⟨S_, .f32⟩
  | 21 => ⟨S32x1x64x64, .f32⟩
  | 22 => ⟨S32x1x64x64, .f32⟩
  | 23 => ⟨S32x256x64x64, .f32⟩
  | 24 => ⟨S32x256x64x64, .f32⟩
  | 25 => ⟨S32x128x1, .f32⟩
  | 26 => ⟨S32x128, .f32⟩
  | 27 => ⟨S_, .f32⟩
  | 28 => ⟨S32x128, .f32⟩
  | 29 => ⟨S32x128, .f32⟩
  | 30 => ⟨S_, .f32⟩
  | 31 => ⟨S32x128, .f32⟩
  | 32 => ⟨S32x128, .f32⟩
  | 33 => ⟨S32x128x1, .f32⟩
  | 34 => ⟨S32x128, .f32⟩
  | 35 => ⟨S_, .f32⟩
  | 36 => ⟨S32x128, .f32⟩
  | 37 => ⟨S32x128, .f32⟩
  | 38 => ⟨S_, .f32⟩
  | 39 => ⟨S32x128, .f32⟩
  | 40 => ⟨S32x128, .f32⟩
  | 41 => ⟨S32x128, .f32⟩
  | 42 => ⟨S_, .i32⟩
  | 43 => ⟨S_, .i32⟩
  | 44 => ⟨S_, .f32⟩
  | 45 => ⟨S32x128, .f32⟩
  | 46 => ⟨S32x128, .f32⟩
  | 47 => ⟨S_, .f32⟩
  | 48 => ⟨S32x128, .f32⟩
  | 49 => ⟨S32x128, .f32⟩
  | 50 => ⟨S32x128, .i32⟩
  | 51 => ⟨S32x128, .f32⟩
  | 52 => ⟨S_, .i32⟩
  | 53 => ⟨S_, .i32⟩
  | 54 => ⟨S_, .f32⟩
  | 55 => ⟨S32x128, .f32⟩
  | 56 => ⟨S32x128, .f32⟩
  | 57 => ⟨S_, .f32⟩
  | 58 => ⟨S32x128, .f32⟩
  | 59 => ⟨S32x128, .f32⟩
  | 60 => ⟨S32x128, .i32⟩
  | 61 => ⟨S_, .i32⟩
  | 62 => ⟨S32x128, .i32⟩
  | 63 => ⟨S32x128, .i32⟩
  | 64 => ⟨S_, .i32⟩
  | 65 => ⟨S_, .i32⟩
  | 66 => ⟨S_, .i32⟩
  | 67 => ⟨S32x128, .i32⟩
  | 68 => ⟨S32x128, .i32⟩
  | 69 => ⟨S_, .i32⟩
  | 70 => ⟨S32x128, .i32⟩
  | 71 => ⟨S32x128, .i32⟩
  | 72 => ⟨S_, .i32⟩
  | 73 => ⟨S32x128, .i32⟩
  | 74 => ⟨S32x128, .i32⟩
  | 75 => ⟨S_, .i32⟩
  | 76 => ⟨S_, .i32⟩
  | 77 => ⟨S_, .i32⟩
  | 78 => ⟨S32x128, .i32⟩
  | 79 => ⟨S32x128, .i32⟩
  | 80 => ⟨S_, .i32⟩
  | 81 => ⟨S32x128, .i32⟩
  | 82 => ⟨S32x128, .i32⟩
  | 83 => ⟨S32x128, .f32⟩
  | 84 => ⟨S32x128, .f32⟩
  | 85 => ⟨S32x128, .f32⟩
  | 86 => ⟨S32x128, .f32⟩
  | 87 => ⟨S32x64x64x256, .f32⟩
  | 88 => ⟨S32, .i32⟩
  | 89 => ⟨S32x1, .i32⟩
  | 90 => ⟨S_, .f32⟩
  | 91 => ⟨S32x128, .f32⟩
  | 92 => ⟨S32x128, .f32⟩
  | 93 => ⟨S_, .f32⟩
  | 94 => ⟨S32x128, .f32⟩
  | 95 => ⟨S32x128, .f32⟩
  | 96 => ⟨S32x128, .f32⟩
  | 97 => ⟨S32x128x1, .f32⟩
  | 98 => ⟨S_, .f32⟩
  | 99 => ⟨S32x128, .f32⟩
  | 100 => ⟨S32x128, .f32⟩
  | 101 => ⟨S32x128, .f32⟩
  | 102 => ⟨S32x128x1, .f32⟩
  | 103 => ⟨S_, .f32⟩
  | 104 => ⟨S32x128, .f32⟩
  | 105 => ⟨S32x128, .f32⟩
  | 106 => ⟨S32x128, .f32⟩
  | 107 => ⟨S32x128x1, .f32⟩
  | 108 => ⟨S32x128, .f32⟩
  | 109 => ⟨S32x128x1, .f32⟩
  | 110 => ⟨S_, .i32⟩
  | 111 => ⟨S32x1, .i32⟩
  | 112 => ⟨S32x1, .i1⟩
  | 113 => ⟨S_, .i32⟩
  | 114 => ⟨S32x1, .i32⟩
  | 115 => ⟨S32x1, .i32⟩
  | 116 => ⟨S32x1, .i32⟩
  | 117 => ⟨S_, .i32⟩
  | 118 => ⟨S32x128, .i32⟩
  | 119 => ⟨S32x128, .i1⟩
  | 120 => ⟨S_, .i32⟩
  | 121 => ⟨S32x128, .i32⟩
  | 122 => ⟨S32x128, .i32⟩
  | 123 => ⟨S32x128, .i32⟩
  | 124 => ⟨S_, .i32⟩
  | 125 => ⟨S32x128, .i32⟩
  | 126 => ⟨S32x128, .i1⟩
  | 127 => ⟨S_, .i32⟩
  | _ => ⟨S32x256x64x64, .f32⟩

abbrev hbmTy0_1 (i : Nat) : BufTy := match i % 128 with
  | 0 => ⟨S32x128, .i32⟩
  | 1 => ⟨S32x128, .i32⟩
  | 2 => ⟨S32x128, .i32⟩
  | 3 => ⟨S32x128, .i32⟩
  | 4 => ⟨S32x128x1, .i32⟩
  | 5 => ⟨S32x128x1, .i32⟩
  | 6 => ⟨S32x128x1, .i32⟩
  | 7 => ⟨S32x128x3, .i32⟩
  | 8 => ⟨S32x128x256, .f32⟩
  | 9 => ⟨S32x128x256, .f32⟩
  | 10 => ⟨S32x128x256, .f32⟩
  | 11 => ⟨S_, .i32⟩
  | 12 => ⟨S32x1, .i32⟩
  | 13 => ⟨S32x1, .i1⟩
  | 14 => ⟨S_, .i32⟩
  | 15 => ⟨S32x1, .i32⟩
  | 16 => ⟨S32x1, .i32⟩
  | 17 => ⟨S32x1, .i32⟩
  | 18 => ⟨S_, .i32⟩
  | 19 => ⟨S32x128, .i32⟩
  | 20 => ⟨S32x128, .i1⟩
  | 21 => ⟨S_, .i32⟩
  | 22 => ⟨S32x128, .i32⟩
  | 23 => ⟨S32x128, .i32⟩
  | 24 => ⟨S32x128, .i32⟩
  | 25 => ⟨S_, .i32⟩
  | 26 => ⟨S32x128, .i32⟩
  | 27 => ⟨S32x128, .i1⟩
  | 28 => ⟨S_, .i32⟩
  | 29 => ⟨S32x128, .i32⟩
  | 30 => ⟨S32x128, .i32⟩
  | 31 => ⟨S32x128, .i32⟩
  | 32 => ⟨S32x128, .i32⟩
  | 33 => ⟨S32x128x1, .i32⟩
  | 34 => ⟨S32x128x1, .i32⟩
  | 35 => ⟨S32x128x1, .i32⟩
  | 36 => ⟨S32x128x3, .i32⟩
  | 37 => ⟨S32x128x256, .f32⟩
  | 38 => ⟨S32x128x256, .f32⟩
  | 39 => ⟨S32x128x256, .f32⟩
  | 40 => ⟨S32x128x256, .f32⟩
  | 41 => ⟨S_, .i32⟩
  | 42 => ⟨S32x1, .i32⟩
  | 43 => ⟨S32x1, .i1⟩
  | 44 => ⟨S_, .i32⟩
  | 45 => ⟨S32x1, .i32⟩
  | 46 => ⟨S32x1, .i32⟩
  | 47 => ⟨S32x1, .i32⟩
  | 48 => ⟨S_, .i32⟩
  | 49 => ⟨S32x128, .i32⟩
  | 50 => ⟨S32x128, .i1⟩
  | 51 => ⟨S_, .i32⟩
  | 52 => ⟨S32x128, .i32⟩
  | 53 => ⟨S32x128, .i32⟩
  | 54 => ⟨S32x128, .i32⟩
  | 55 => ⟨S_, .i32⟩
  | 56 => ⟨S32x128, .i32⟩
  | 57 => ⟨S32x128, .i1⟩
  | 58 => ⟨S_, .i32⟩
  | 59 => ⟨S32x128, .i32⟩
  | 60 => ⟨S32x128, .i32⟩
  | 61 => ⟨S32x128, .i32⟩
  | 62 => ⟨S32x128, .i32⟩
  | 63 => ⟨S32x128x1, .i32⟩
  | 64 => ⟨S32x128x1, .i32⟩
  | 65 => ⟨S32x128x1, .i32⟩
  | 66 => ⟨S32x128x3, .i32⟩
  | 67 => ⟨S32x128x256, .f32⟩
  | 68 => ⟨S32x128x256, .f32⟩
  | 69 => ⟨S32x128x256, .f32⟩
  | 70 => ⟨S32x128x256, .f32⟩
  | 71 => ⟨S_, .i32⟩
  | 72 => ⟨S32x1, .i32⟩
  | 73 => ⟨S32x1, .i1⟩
  | 74 => ⟨S_, .i32⟩
  | 75 => ⟨S32x1, .i32⟩
  | 76 => ⟨S32x1, .i32⟩
  | 77 => ⟨S32x1, .i32⟩
  | 78 => ⟨S_, .i32⟩
  | 79 => ⟨S32x128, .i32⟩
  | 80 => ⟨S32x128, .i1⟩
  | 81 => ⟨S_, .i32⟩
  | 82 => ⟨S32x128, .i32⟩
  | 83 => ⟨S32x128, .i32⟩
  | 84 => ⟨S32x128, .i32⟩
  | 85 => ⟨S_, .i32⟩
  | 86 => ⟨S32x128, .i32⟩
  | 87 => ⟨S32x128, .i1⟩
  | 88 => ⟨S_, .i32⟩
  | 89 => ⟨S32x128, .i32⟩
  | 90 => ⟨S32x128, .i32⟩
  | 91 => ⟨S32x128, .i32⟩
  | 92 => ⟨S32x128, .i32⟩
  | 93 => ⟨S32x128x1, .i32⟩
  | 94 => ⟨S32x128x1, .i32⟩
  | 95 => ⟨S32x128x1, .i32⟩
  | 96 => ⟨S32x128x3, .i32⟩
  | 97 => ⟨S32x128x256, .f32⟩
  | 98 => ⟨S32x128x256, .f32⟩
  | 99 => ⟨S32x128x256, .f32⟩
  | 100 => ⟨S32x128x256, .f32⟩
  | 101 => ⟨S32x256x4096, .f32⟩
  | 102 => ⟨S32x128x4096, .f32⟩
  | 103 => ⟨S_, .f32⟩
  | 104 => ⟨S32x128x4096, .f32⟩
  | 105 => ⟨S32x128x4096, .f32⟩
  | 106 => ⟨S32x128x1, .f32⟩
  | 107 => ⟨S32x128, .f32⟩
  | 108 => ⟨S_, .f32⟩
  | 109 => ⟨S32x128, .f32⟩
  | 110 => ⟨S32x128, .f32⟩
  | 111 => ⟨S32x128x1, .f32⟩
  | 112 => ⟨S32x128, .f32⟩
  | 113 => ⟨S_, .f32⟩
  | 114 => ⟨S32x128, .f32⟩
  | 115 => ⟨S32x128, .f32⟩
  | 116 => ⟨S32x128, .f32⟩
  | 117 => ⟨S_, .i32⟩
  | 118 => ⟨S_, .i32⟩
  | 119 => ⟨S_, .f32⟩
  | 120 => ⟨S32x128, .f32⟩
  | 121 => ⟨S32x128, .f32⟩
  | 122 => ⟨S_, .f32⟩
  | 123 => ⟨S32x128, .f32⟩
  | 124 => ⟨S32x128, .f32⟩
  | 125 => ⟨S32x128, .i32⟩
  | 126 => ⟨S_, .i32⟩
  | 127 => ⟨S32x128, .i32⟩
  | _ => ⟨S32x256x64x64, .f32⟩

abbrev hbmTy0_2 (i : Nat) : BufTy := match i % 128 with
  | 0 => ⟨S32x128, .i32⟩
  | 1 => ⟨S_, .i32⟩
  | 2 => ⟨S_, .i32⟩
  | 3 => ⟨S_, .i32⟩
  | 4 => ⟨S32x128, .i32⟩
  | 5 => ⟨S32x128, .i32⟩
  | 6 => ⟨S_, .i32⟩
  | 7 => ⟨S32x128, .i32⟩
  | 8 => ⟨S32x128, .i32⟩
  | 9 => ⟨S32x128, .f32⟩
  | 10 => ⟨S_, .i32⟩
  | 11 => ⟨S_, .i32⟩
  | 12 => ⟨S_, .f32⟩
  | 13 => ⟨S32x128, .f32⟩
  | 14 => ⟨S32x128, .f32⟩
  | 15 => ⟨S_, .f32⟩
  | 16 => ⟨S32x128, .f32⟩
  | 17 => ⟨S32x128, .f32⟩
  | 18 => ⟨S32x128, .i32⟩
  | 19 => ⟨S_, .i32⟩
  | 20 => ⟨S32x128, .i32⟩
  | 21 => ⟨S32x128, .i32⟩
  | 22 => ⟨S_, .i32⟩
  | 23 => ⟨S_, .i32⟩
  | 24 => ⟨S_, .i32⟩
  | 25 => ⟨S32x128, .i32⟩
  | 26 => ⟨S32x128, .i32⟩
  | 27 => ⟨S_, .i32⟩
  | 28 => ⟨S32x128, .i32⟩
  | 29 => ⟨S32x128, .i32⟩
  | 30 => ⟨S32x128, .f32⟩
  | 31 => ⟨S32x128, .f32⟩
  | 32 => ⟨S32x128, .f32⟩
  | 33 => ⟨S32x128, .f32⟩
  | 34 => ⟨S32x128, .f32⟩
  | 35 => ⟨S32x128, .f32⟩
  | 36 => ⟨S32x128, .f32⟩
  | 37 => ⟨S32x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S_, .i32⟩
  | 47 => ⟨S32x128, .i32⟩
  | 48 => ⟨S32x128, .i1⟩
  | 49 => ⟨S32x128, .f32⟩
  | 50 => ⟨S32x128x1, .f32⟩
  | 51 => ⟨S32x128x1, .f32⟩
  | 52 => ⟨S32x128x1, .f32⟩
  | 53 => ⟨S32x128x1, .f32⟩
  | 54 => ⟨S32x128x4, .f32⟩
  | 55 => ⟨S32x128x1, .f32⟩
  | 56 => ⟨S32x128x4, .f32⟩
  | 57 => ⟨S32x128x4, .f32⟩
  | 58 => ⟨S_, .i32⟩
  | 59 => ⟨S32x128, .i32⟩
  | 60 => ⟨S32x128, .i32⟩
  | 61 => ⟨S32x128, .i32⟩
  | 62 => ⟨S_, .i32⟩
  | 63 => ⟨S32x128, .i32⟩
  | 64 => ⟨S32x128, .i32⟩
  | 65 => ⟨S32x128, .i32⟩
  | 66 => ⟨S_, .i32⟩
  | 67 => ⟨S32x128, .i32⟩
  | 68 => ⟨S32x128, .i32⟩
  | 69 => ⟨S32x128, .i32⟩
  | 70 => ⟨S_, .i32⟩
  | 71 => ⟨S32x128, .i32⟩
  | 72 => ⟨S32x128, .i32⟩
  | 73 => ⟨S32x128, .i32⟩
  | 74 => ⟨S32x128x1, .i32⟩
  | 75 => ⟨S32x128x1, .i32⟩
  | 76 => ⟨S32x128x1, .i32⟩
  | 77 => ⟨S32x128x1, .i32⟩
  | 78 => ⟨S32x128x4, .i32⟩
  | 79 => ⟨S32, .i32⟩
  | 80 => ⟨S32x1x1, .i32⟩
  | 81 => ⟨S128, .i32⟩
  | 82 => ⟨S1x128x1, .i32⟩
  | 83 => ⟨S_, .f32⟩
  | 84 => ⟨S32x128x4096, .f32⟩
  | 85 => ⟨S_, .i32⟩
  | 86 => ⟨S32x1x1, .i32⟩
  | 87 => ⟨S32x1x1, .i1⟩
  | 88 => ⟨S_, .i32⟩
  | 89 => ⟨S32x1x1, .i32⟩
  | 90 => ⟨S32x1x1, .i32⟩
  | 91 => ⟨S32x1x1, .i32⟩
  | 92 => ⟨S_, .i32⟩
  | 93 => ⟨S1x128x1, .i32⟩
  | 94 => ⟨S1x128x1, .i1⟩
  | 95 => ⟨S_, .i32⟩
  | 96 => ⟨S1x128x1, .i32⟩
  | 97 => ⟨S1x128x1, .i32⟩
  | 98 => ⟨S1x128x1, .i32⟩
  | 99 => ⟨S_, .i32⟩
  | 100 => ⟨S32x128x4, .i32⟩
  | 101 => ⟨S32x128x4, .i1⟩
  | 102 => ⟨S_, .i32⟩
  | 103 => ⟨S32x128x4, .i32⟩
  | 104 => ⟨S32x128x4, .i32⟩
  | 105 => ⟨S32x128x4, .i32⟩
  | 106 => ⟨S32x128x4, .i32⟩
  | 107 => ⟨S32x128x4, .i32⟩
  | 108 => ⟨S32x128x4x1, .i32⟩
  | 109 => ⟨S32x128x4x1, .i32⟩
  | 110 => ⟨S32x128x4x1, .i32⟩
  | 111 => ⟨S32x128x4x3, .i32⟩
  | 112 => ⟨S32x128x4096, .f32⟩
  | 113 => ⟨S_, .f32⟩
  | 114 => ⟨S32x128, .f32⟩
  | 115 => ⟨S_, .f32⟩
  | 116 => ⟨S32x128, .f32⟩
  | 117 => ⟨S32x128, .f32⟩
  | 118 => ⟨S32x128x1, .f32⟩
  | 119 => ⟨S32x128x4096, .f32⟩
  | 120 => ⟨S32x128x4096, .f32⟩
  | 121 => ⟨S32x128x4096, .f32⟩
  | 122 => ⟨S_, .f32⟩
  | 123 => ⟨S32x128, .f32⟩
  | 124 => ⟨S32x128x1, .f32⟩
  | 125 => ⟨S32x128x1, .f32⟩
  | 126 => ⟨S32x128x4096, .f32⟩
  | 127 => ⟨S32x128x4096, .f32⟩
  | _ => ⟨S32x256x64x64, .f32⟩

abbrev hbmTy0_3 (i : Nat) : BufTy := match i % 128 with
  | 0 => ⟨S32x128x4096, .f32⟩
  | 1 => ⟨S_, .f32⟩
  | 2 => ⟨S32x128, .f32⟩
  | 3 => ⟨S32x128, .f32⟩
  | 4 => ⟨S_, .f32⟩
  | 5 => ⟨S_, .f32⟩
  | 6 => ⟨S_, .f32⟩
  | 7 => ⟨S_, .f32⟩
  | 8 => ⟨S32x128, .f32⟩
  | 9 => ⟨S_, .f32⟩
  | 10 => ⟨S_, .f32⟩
  | 11 => ⟨S_, .f32⟩
  | _ => ⟨S32x256x64x64, .f32⟩

abbrev hbmTy (i : Nat) : BufTy := match i / 128 with
  | 0 => hbmTy0_0 i
  | 1 => hbmTy0_1 i
  | 2 => hbmTy0_2 i
  | 3 => hbmTy0_3 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_c_7 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_c_9 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v32 : Ref sig .tc := ⟨.hbm, 59, rfl⟩
abbrev main_v33 : Ref sig .tc := ⟨.hbm, 60, rfl⟩
abbrev main_c_10 : Ref sig .tc := ⟨.hbm, 61, rfl⟩
abbrev main_v34 : Ref sig .tc := ⟨.hbm, 62, rfl⟩
abbrev main_v35 : Ref sig .tc := ⟨.hbm, 63, rfl⟩
abbrev main_c_11 : Ref sig .tc := ⟨.hbm, 64, rfl⟩
abbrev main_c_12 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v36 : Ref sig .tc := ⟨.hbm, 71, rfl⟩
abbrev main_c_13 : Ref sig .tc := ⟨.hbm, 72, rfl⟩
abbrev main_v37 : Ref sig .tc := ⟨.hbm, 73, rfl⟩
abbrev main_v38 : Ref sig .tc := ⟨.hbm, 74, rfl⟩
abbrev main_c_14 : Ref sig .tc := ⟨.hbm, 75, rfl⟩
abbrev main_c_15 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_16 : Ref sig .tc := ⟨.hbm, 90, rfl⟩
abbrev main_v47 : Ref sig .tc := ⟨.hbm, 91, rfl⟩
abbrev main_v48 : Ref sig .tc := ⟨.hbm, 92, rfl⟩
abbrev main_cst_17 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_18 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_19 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_c_20 : Ref sig .tc := ⟨.hbm, 110, rfl⟩
abbrev main_v63 : Ref sig .tc := ⟨.hbm, 111, rfl⟩
abbrev main_v64 : Ref sig .tc := ⟨.hbm, 112, rfl⟩
abbrev main_c_21 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_22 : Ref sig .tc := ⟨.hbm, 117, rfl⟩
abbrev main_v68 : Ref sig .tc := ⟨.hbm, 118, rfl⟩
abbrev main_v69 : Ref sig .tc := ⟨.hbm, 119, rfl⟩
abbrev main_c_23 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_24 : Ref sig .tc := ⟨.hbm, 124, rfl⟩
abbrev main_v73 : Ref sig .tc := ⟨.hbm, 125, rfl⟩
abbrev main_v74 : Ref sig .tc := ⟨.hbm, 126, rfl⟩
abbrev main_c_25 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_c_26 : Ref sig .tc := ⟨.hbm, 139, rfl⟩
abbrev main_v86 : Ref sig .tc := ⟨.hbm, 140, rfl⟩
abbrev main_v87 : Ref sig .tc := ⟨.hbm, 141, rfl⟩
abbrev main_c_27 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_c_28 : Ref sig .tc := ⟨.hbm, 146, rfl⟩
abbrev main_v91 : Ref sig .tc := ⟨.hbm, 147, rfl⟩
abbrev main_v92 : Ref sig .tc := ⟨.hbm, 148, rfl⟩
abbrev main_c_29 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_c_30 : Ref sig .tc := ⟨.hbm, 153, rfl⟩
abbrev main_v96 : Ref sig .tc := ⟨.hbm, 154, rfl⟩
abbrev main_v97 : Ref sig .tc := ⟨.hbm, 155, rfl⟩
abbrev main_c_31 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_c_32 : Ref sig .tc := ⟨.hbm, 169, rfl⟩
abbrev main_v110 : Ref sig .tc := ⟨.hbm, 170, rfl⟩
abbrev main_v111 : Ref sig .tc := ⟨.hbm, 171, rfl⟩
abbrev main_c_33 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_c_34 : Ref sig .tc := ⟨.hbm, 176, rfl⟩
abbrev main_v115 : Ref sig .tc := ⟨.hbm, 177, rfl⟩
abbrev main_v116 : Ref sig .tc := ⟨.hbm, 178, rfl⟩
abbrev main_c_35 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_c_36 : Ref sig .tc := ⟨.hbm, 183, rfl⟩
abbrev main_v120 : Ref sig .tc := ⟨.hbm, 184, rfl⟩
abbrev main_v121 : Ref sig .tc := ⟨.hbm, 185, rfl⟩
abbrev main_c_37 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_c_38 : Ref sig .tc := ⟨.hbm, 199, rfl⟩
abbrev main_v134 : Ref sig .tc := ⟨.hbm, 200, rfl⟩
abbrev main_v135 : Ref sig .tc := ⟨.hbm, 201, rfl⟩
abbrev main_c_39 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_c_40 : Ref sig .tc := ⟨.hbm, 206, rfl⟩
abbrev main_v139 : Ref sig .tc := ⟨.hbm, 207, rfl⟩
abbrev main_v140 : Ref sig .tc := ⟨.hbm, 208, rfl⟩
abbrev main_c_41 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_c_42 : Ref sig .tc := ⟨.hbm, 213, rfl⟩
abbrev main_v144 : Ref sig .tc := ⟨.hbm, 214, rfl⟩
abbrev main_v145 : Ref sig .tc := ⟨.hbm, 215, rfl⟩
abbrev main_c_43 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_cst_44 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_cst_45 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_cst_46 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_c_47 : Ref sig .tc := ⟨.hbm, 245, rfl⟩
abbrev main_c_48 : Ref sig .tc := ⟨.hbm, 246, rfl⟩
abbrev main_call4_v0 : Ref sig .tc := ⟨.hbm, 247, rfl⟩
abbrev main_call4_v1 : Ref sig .tc := ⟨.hbm, 248, rfl⟩
abbrev main_call4_v2 : Ref sig .tc := ⟨.hbm, 249, rfl⟩
abbrev main_call4_v3 : Ref sig .tc := ⟨.hbm, 250, rfl⟩
abbrev main_call4_v4 : Ref sig .tc := ⟨.hbm, 251, rfl⟩
abbrev main_v171 : Ref sig .tc := ⟨.hbm, 252, rfl⟩
abbrev main_v172 : Ref sig .tc := ⟨.hbm, 253, rfl⟩
abbrev main_c_49 : Ref sig .tc := ⟨.hbm, 254, rfl⟩
abbrev main_v173 : Ref sig .tc := ⟨.hbm, 255, rfl⟩
abbrev main_v174 : Ref sig .tc := ⟨.hbm, 256, rfl⟩
abbrev main_c_50 : Ref sig .tc := ⟨.hbm, 257, rfl⟩
abbrev main_c_51 : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_v175 : Ref sig .tc := ⟨.hbm, 264, rfl⟩
abbrev main_v176 : Ref sig .tc := ⟨.hbm, 265, rfl⟩
abbrev main_c_52 : Ref sig .tc := ⟨.hbm, 266, rfl⟩
abbrev main_c_53 : Ref sig .tc := ⟨.hbm, 267, rfl⟩
abbrev main_call6_v0 : Ref sig .tc := ⟨.hbm, 268, rfl⟩
abbrev main_call6_v1 : Ref sig .tc := ⟨.hbm, 269, rfl⟩
abbrev main_call6_v2 : Ref sig .tc := ⟨.hbm, 270, rfl⟩
abbrev main_call6_v3 : Ref sig .tc := ⟨.hbm, 271, rfl⟩
abbrev main_call6_v4 : Ref sig .tc := ⟨.hbm, 272, rfl⟩
abbrev main_v177 : Ref sig .tc := ⟨.hbm, 273, rfl⟩
abbrev main_v178 : Ref sig .tc := ⟨.hbm, 274, rfl⟩
abbrev main_c_54 : Ref sig .tc := ⟨.hbm, 275, rfl⟩
abbrev main_v179 : Ref sig .tc := ⟨.hbm, 276, rfl⟩
abbrev main_v180 : Ref sig .tc := ⟨.hbm, 277, rfl⟩
abbrev main_c_55 : Ref sig .tc := ⟨.hbm, 278, rfl⟩
abbrev main_c_56 : Ref sig .tc := ⟨.hbm, 279, rfl⟩
abbrev main_call7_v0 : Ref sig .tc := ⟨.hbm, 280, rfl⟩
abbrev main_call7_v1 : Ref sig .tc := ⟨.hbm, 281, rfl⟩
abbrev main_call7_v2 : Ref sig .tc := ⟨.hbm, 282, rfl⟩
abbrev main_call7_v3 : Ref sig .tc := ⟨.hbm, 283, rfl⟩
abbrev main_call7_v4 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_c_57 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_c_58 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_c_59 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_c_60 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_c_61 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_cst_62 : Ref sig .tc := ⟨.hbm, 339, rfl⟩
abbrev main_v230 : Ref sig .tc := ⟨.hbm, 340, rfl⟩
abbrev main_c_63 : Ref sig .tc := ⟨.hbm, 341, rfl⟩
abbrev main_v231 : Ref sig .tc := ⟨.hbm, 342, rfl⟩
abbrev main_v232 : Ref sig .tc := ⟨.hbm, 343, rfl⟩
abbrev main_c_64 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_c_65 : Ref sig .tc := ⟨.hbm, 348, rfl⟩
abbrev main_v236 : Ref sig .tc := ⟨.hbm, 349, rfl⟩
abbrev main_v237 : Ref sig .tc := ⟨.hbm, 350, rfl⟩
abbrev main_c_66 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_c_67 : Ref sig .tc := ⟨.hbm, 355, rfl⟩
abbrev main_v241 : Ref sig .tc := ⟨.hbm, 356, rfl⟩
abbrev main_v242 : Ref sig .tc := ⟨.hbm, 357, rfl⟩
abbrev main_c_68 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_call8_cst : Ref sig .tc := ⟨.hbm, 369, rfl⟩
abbrev main_call8_v0 : Ref sig .tc := ⟨.hbm, 370, rfl⟩
abbrev main_call8_cst_0 : Ref sig .tc := ⟨.hbm, 371, rfl⟩
abbrev main_call8_v1 : Ref sig .tc := ⟨.hbm, 372, rfl⟩
abbrev main_call8_v2 : Ref sig .tc := ⟨.hbm, 373, rfl⟩
abbrev main_call8_v3 : Ref sig .tc := ⟨.hbm, 374, rfl⟩
abbrev main_call8_v4 : Ref sig .tc := ⟨.hbm, 375, rfl⟩
abbrev main_call8_v5 : Ref sig .tc := ⟨.hbm, 376, rfl⟩
abbrev main_call8_v6 : Ref sig .tc := ⟨.hbm, 377, rfl⟩
abbrev main_call8_cst_1 : Ref sig .tc := ⟨.hbm, 378, rfl⟩
abbrev main_call8_v7 : Ref sig .tc := ⟨.hbm, 379, rfl⟩
abbrev main_call8_v8 : Ref sig .tc := ⟨.hbm, 380, rfl⟩
abbrev main_call8_v9 : Ref sig .tc := ⟨.hbm, 381, rfl⟩
abbrev main_call8_v10 : Ref sig .tc := ⟨.hbm, 382, rfl⟩
abbrev main_v253 : Ref sig .tc := ⟨.hbm, 383, rfl⟩
abbrev main_v254 : Ref sig .tc := ⟨.hbm, 384, rfl⟩
abbrev main_cst_69 : Ref sig .tc := ⟨.hbm, 385, rfl⟩
abbrev main_v255 : Ref sig .tc := ⟨.hbm, 386, rfl⟩
abbrev main_v256 : Ref sig .tc := ⟨.hbm, 387, rfl⟩
abbrev main_cst_70 : Ref sig .tc := ⟨.hbm, 388, rfl⟩
abbrev main_v257 : Ref sig .tc := ⟨.hbm, 389, rfl⟩
abbrev main_cst_71 : Ref sig .tc := ⟨.hbm, 390, rfl⟩
abbrev main_v258 : Ref sig .tc := ⟨.hbm, 391, rfl⟩
abbrev main_v259 : Ref sig .tc := ⟨.hbm, 392, rfl⟩
abbrev main_cst_72 : Ref sig .tc := ⟨.hbm, 393, rfl⟩
abbrev main_v260 : Ref sig .tc := ⟨.hbm, 394, rfl⟩
abbrev main_v261 : Ref sig .tc := ⟨.hbm, 395, rfl⟩

abbrev nD : Nat := 1
abbrev τ : Topo := Topo.v7x

variable {F : FTy → Type} [FloatOps F]

class Facts₀ : Prop where
  reducesTo_S32x256x64x64_S32x64x64_d1 : S32x256x64x64.ReducesTo [1] S32x64x64
  h_S_ : 0 < S_.numel
  bcast_S32x64x64_S32x1x64x64_0_2_3 : S32x64x64.BroadcastsInDim S32x1x64x64 (![0, 2, 3] : Fin 3 → Fin S32x1x64x64.rank)
  bcast_S_S32x1x64x64 : S_.BroadcastsInDim S32x1x64x64 (![] : Fin 0 → Fin S32x1x64x64.rank)
  bcast_S32x1x64x64_S32x256x64x64_0_1_2_3 : S32x1x64x64.BroadcastsInDim S32x256x64x64 (![0, 1, 2, 3] : Fin 4 → Fin S32x256x64x64.rank)
  slices_S32x128x2_S32x128x1_0_0_0 : S32x128x2.Slices ![0, 0, 0] S32x128x1
  shapeCasts_S32x128x1_S32x128 : S32x128x1.ShapeCasts S32x128
  bcast_S_S32x128 : S_.BroadcastsInDim S32x128 (![] : Fin 0 → Fin S32x128.rank)
  slices_S32x128x2_S32x128x1_0_0_1 : S32x128x2.Slices ![0, 0, 1] S32x128x1
  transposes_S32x256x64x64_S32x64x64x256_0_2_3_1 : S32x256x64x64.Transposes [0, 2, 3, 1] S32x64x64x256
  bcast_S32_S32x1_0 : S32.BroadcastsInDim S32x1 (![0] : Fin 1 → Fin S32x1.rank)
  bcast_S32x128_S32x128x1_0_1 : S32x128.BroadcastsInDim S32x128x1 (![0, 1] : Fin 2 → Fin S32x128x1.rank)
  bcast_S_S32x1 : S_.BroadcastsInDim S32x1 (![] : Fin 0 → Fin S32x1.rank)
  bcast_S32x1_S32x128_0_1 : S32x1.BroadcastsInDim S32x128 (![0, 1] : Fin 2 → Fin S32x128.rank)
  concatenates_S32x128x1_S32x128x1_S32x128x1_S32x128x3_d2 : Shape.Concatenates [S32x128x1, S32x128x1, S32x128x1] S32x128x3 2
  bcast_S32x128x1_S32x128x256_0_1_2 : S32x128x1.BroadcastsInDim S32x128x256 (![0, 1, 2] : Fin 3 → Fin S32x128x256.rank)
  shapeCasts_S32x256x64x64_S32x256x4096 : S32x256x64x64.ShapeCasts S32x256x4096
  bcast_S_S32x128x4096 : S_.BroadcastsInDim S32x128x4096 (![] : Fin 0 → Fin S32x128x4096.rank)
  concatenates_S32x128x1_S32x128x1_S32x128x1_S32x128x1_S32x128x4_d2 : Shape.Concatenates [S32x128x1, S32x128x1, S32x128x1, S32x128x1] S32x128x4 2
  bcast_S32x128x1_S32x128x4_0_1_2 : S32x128x1.BroadcastsInDim S32x128x4 (![0, 1, 2] : Fin 3 → Fin S32x128x4.rank)
  bcast_S32_S32x1x1_0 : S32.BroadcastsInDim S32x1x1 (![0] : Fin 1 → Fin S32x1x1.rank)
  bcast_S128_S1x128x1_1 : S128.BroadcastsInDim S1x128x1 (![1] : Fin 1 → Fin S1x128x1.rank)
  bcast_S_S32x1x1 : S_.BroadcastsInDim S32x1x1 (![] : Fin 0 → Fin S32x1x1.rank)
  bcast_S_S1x128x1 : S_.BroadcastsInDim S1x128x1 (![] : Fin 0 → Fin S1x128x1.rank)
  bcast_S_S32x128x4 : S_.BroadcastsInDim S32x128x4 (![] : Fin 0 → Fin S32x128x4.rank)
  bcast_S32x1x1_S32x128x4_0_1_2 : S32x1x1.BroadcastsInDim S32x128x4 (![0, 1, 2] : Fin 3 → Fin S32x128x4.rank)
  bcast_S1x128x1_S32x128x4_0_1_2 : S1x128x1.BroadcastsInDim S32x128x4 (![0, 1, 2] : Fin 3 → Fin S32x128x4.rank)
  bcast_S32x128x4_S32x128x4x1_0_1_2 : S32x128x4.BroadcastsInDim S32x128x4x1 (![0, 1, 2] : Fin 3 → Fin S32x128x4x1.rank)
  concatenates_S32x128x4x1_S32x128x4x1_S32x128x4x1_S32x128x4x3_d3 : Shape.Concatenates [S32x128x4x1, S32x128x4x1, S32x128x4x1] S32x128x4x3 3
  reducesTo_S32x128x4096_S32x128_d2 : S32x128x4096.ReducesTo [2] S32x128
  bcast_S32x128x1_S32x128x4096_0_1_2 : S32x128x1.BroadcastsInDim S32x128x4096 (![0, 1, 2] : Fin 3 → Fin S32x128x4096.rank)
  reducesTo_S32x128_S_d0_1 : S32x128.ReducesTo [0, 1] S_
  gather_S32x64x64x256_S32x128x3_S32x128x256_2_012_n_n_012_2_111256_wf : GatherDims.WF S32x64x64x256 S32x128x3 S32x128x256 [2] [0, 1, 2] [] [0, 1, 2] [] 2 ![1, 1, 1, 256]
  dot_S32x128x256_S32x256x4096_S32x128x4096_2_1_1_2_0_0_wf : DotDims.WF S32x128x256 S32x256x4096 S32x128x4096 [2] [1] [1] [2] [0] [0]
  scatter_S32x128x4096_S32x128x4x3_S32x128x4_n_012_012_3_wf : ScatterDims.WF S32x128x4096 S32x128x4x3 S32x128x4 [] [0, 1, 2] [0, 1, 2] 3

variable [Facts₀]

def gather_S32x64x64x256_S32x128x3_S32x128x256_2_012_n_n_012_2_111256 : GatherDims S32x64x64x256 S32x128x3 S32x128x256 where
  offsetDims := [2]
  collapsedSliceDims := [0, 1, 2]
  operandBatchingDims := []
  startIndicesBatchingDims := []
  startIndexMap := [0, 1, 2]
  indexVectorDim := 2
  sliceSizes := ![1, 1, 1, 256]
  wf := gather_S32x64x64x256_S32x128x3_S32x128x256_2_012_n_n_012_2_111256_wf
def dot_S32x128x256_S32x256x4096_S32x128x4096_2_1_1_2_0_0 : DotDims S32x128x256 S32x256x4096 S32x128x4096 where
  lhsContracting := [2]
  rhsContracting := [1]
  lhsNonContracting := [1]
  rhsNonContracting := [2]
  lhsBatch := [0]
  rhsBatch := [0]
  wf := dot_S32x128x256_S32x256x4096_S32x128x4096_2_1_1_2_0_0_wf
def scatter_S32x128x4096_S32x128x4x3_S32x128x4_n_012_012_3 : ScatterDims S32x128x4096 S32x128x4x3 S32x128x4 where
  updateWindowDims := []
  insertedWindowDims := [0, 1, 2]
  scatterDimsToOperandDims := [0, 1, 2]
  indexVectorDim := 3
  wf := scatter_S32x128x4096_S32x128x4x3_S32x128x4_n_012_012_3_wf

class Facts : Prop extends Facts₀ where

variable [Facts]
-- ==== Proof.NormRegion.lean ====
/- REGION 0 of @main (custom_call 0, the normalizing kernel, pipeline 0) — the KERNEL'S HALF of its frame,
   at a parameter `V`: the TensorCore's buffer contents when the region is entered.

   The body is of the plainest class: at every grid point it loads each of its two input windows' staging
   buffers whole, and stores into each of its two output windows' staging buffers, whole, a pure function
   of the corresponding input block (the block divided by its column norms, rounded to bf16). Before each store
   it also loads the output buffer whole and discards the value, so the outputs may be entered at any contents.
   What the body leaves in an output buffer is therefore a closed function of one input block: the
   store's payload laid over the whole buffer (`stored2`, `stored3`). What it finds in an input buffer is that
   window's block at the point, read off the array as the region finds it (`blockAt`).

   The module gives: the blocks, the outputs after the body, the body's triple on whole staging memrefs, the
   pipeline's proof data `dat` over the untouched invariant, and the body obligation at every point. -/
import proofs.«157332_j6846177869930_1_alg».proof.Proof.Gen.KernelIdeal.Launch
import proofs.«157332_j6846177869930_1_alg».proof.Proof.Gen.KernelIdeal.Skeleton
import proofs.«157332_j6846177869930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1 x 256 x 4096 elements: the structural look recurses once per coordinate of the
-- long axes
set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- window `w`'s block at grid point `t`, read off its array as the region finds it -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or not (unfetched, the block index has not moved): for any proof data whose array is the entry contents and
    whose body leaves the block in place. Input 0; -/
theorem before0_of {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- input 1. -/
theorem before1_of {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and store is of the whole 1 x 256 x 4096 buffer -/

abbrev wholeBlock : Rect S1x256x4096 := Rect.unit (s := S1x256x4096) ![0, 0, 0] S1x256x4096.size inb_S1x256x4096_S1x256x4096_0_0_0

/-! ## What the body leaves in each output window's buffer -/

/-- what the body leaves in output window 2's staging buffer, from input 0's block: its one store's payload over
    the whole buffer -/
def stored2 (x : Vec F S1x256x4096 .f32) : Vec F S1x256x4096 .bf16 :=
  View.canon [⟨wholeBlock, k0_pay1 (View.ld x wholeBlock)⟩]

/-- what the body leaves in output window 3's staging buffer, from input 1's block -/
def stored3 (x : Vec F S1x256x4096 .f32) : Vec F S1x256x4096 .bf16 :=
  View.canon [⟨wholeBlock, k0_pay2 (View.ld x wholeBlock)⟩]

/-- The one whole-buffer store tiles the buffer, so it covers it. -/
theorem cover_whole (p : Vec F S1x256x4096 .bf16) (y : S1x256x4096.Idx) :
    ∃ pc ∈ ([⟨wholeBlock, p⟩] : List (View.Piece (Elt F) S1x256x4096 .bf16)), y ∈ pc.1.set :=
  View.cover_of_tiled [⟨wholeBlock, p⟩] S1x256x4096.size (by rfl) y

/-! ## The body's triple -/

set_option maxHeartbeats 1000000 in
/-- The kernel body on whole staging memrefs, the inputs' at read contents `x0`, `x1` and the outputs' at anything,
    runs to the continuation holding the inputs' as they were and the outputs' at `stored2 x0`, `stored3 x1`. The
    loads of the output buffers read whatever is there and the values are dropped. -/
theorem sound_kernel (c : Dev nD) (E : Set ℕ) (i : grid0.Coords)
    (arg1 : Memref sig .tc .vmem S1x256x4096 .f32) (harg1 : arg1.IsWhole) (arg2 : Memref sig .tc .vmem S1x256x4096 .f32) (harg2 : arg2.IsWhole)
    (arg3 : Memref sig .tc .vmem S1x256x4096 .bf16) (harg3 : arg3.IsWhole) (arg4 : Memref sig .tc .vmem S1x256x4096 .bf16) (harg4 : arg4.IsWhole)
    (x0 x1 : Vec F S1x256x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (stored2 x0) ∗ owns (c : Thread nD τ) arg4 fullShare (stored3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_whole _)
  iexists _; isplitr
  swap; · iexact H3
  ipureintro
  exact View.read_writes_eq_canon _ _ _ (cover_whole _)

/-! ## The pipeline's proof data -/

/-- The proof data of pipeline 0 on core `c`: the arrays as the region finds them; after the body at point `t`
    each input's buffer at its block and each output's at the stored function of the matching input block; the
    invariant the untouched one (the scoped rest and the generator register); nothing owed; full shares. -/
def dat (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => stored2 (blockAt V c 0 t)
    | ⟨3, _⟩ => stored3 (blockAt V c 1 t)
  Φ _ := Pipeline.ΦA spec0 c
  q _ := fullShare
  owed _ := 0

/-- The proof data's arrays are the region-entry contents. -/
theorem dat_A (c : Dev nD) (w : Fin cfg0.W) : (dat V c).A w = V c (Pipeline.arrRef spec0 w) := by
  dsimp only [dat]

/-- What the body leaves, window by window. -/
theorem dat_after0 (c : Dev nD) (t : Fin cfg0.N) : (dat V c).after 0 t = blockAt V c 0 t := by dsimp only [dat]
theorem dat_after1 (c : Dev nD) (t : Fin cfg0.N) : (dat V c).after 1 t = blockAt V c 1 t := by dsimp only [dat]
theorem dat_after2 (c : Dev nD) (t : Fin cfg0.N) : (dat V c).after 2 t = stored2 (blockAt V c 0 t) := by dsimp only [dat]
theorem dat_after3 (c : Dev nD) (t : Fin cfg0.N) : (dat V c).after 3 t = stored3 (blockAt V c 1 t) := by dsimp only [dat]

/-- Each input's current staging buffer holds its block at every point, fetched there or not. -/
theorem dat_before0 (c : Dev nD) (t : Fin cfg0.N) (d) : (dat V c).before 0 t d = blockAt V c 0 t :=
  before0_of V (dat V c) (dat_A V c 0) (dat_after0 V c) t d
theorem dat_before1 (c : Dev nD) (t : Fin cfg0.N) (d) : (dat V c).before 1 t d = blockAt V c 1 t :=
  before1_of V (dat V c) (dat_A V c 1) (dat_after1 V c) t d

/-! ## The body obligation, at a generic point -/

/-- What the body is called with at point `t` (the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, the outputs' hold anything, so the body's triple
    applies; the invariant and the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before0, dat_before1]
  rw [show (dat V c).Φ t.succ = (dat V c).Φ t.castSucc from rfl,
    show (dat V c).owesAt () t.succ = (dat V c).owesAt () t.castSucc from rfl,
    dat_after0, dat_after1, dat_after2, dat_after3]
  iintro ⟨HΦ, Ho, ⟨%d0, H0⟩, ⟨%d1, H1⟩, ⟨%d2, H2⟩, ⟨%d3, H3⟩⟩
  iapply (sound_kernel c Set.univ (grid0.coords t) _ _ _ _ _ _ _ _ (blockAt V c 0 t) (blockAt V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body (c : Dev nD) : BodyObligation (dat (F := F) V c) (defs₀ (F := F)) Variants.none () Set.univ := fun t => by
  rw [bigSep_W0, bigSep_W0]
  exact sound_body V c t

end Cert.KernelIdeal.Norm

end
-- ==== Proof.LossRegion.lean ====
import proofs.«157332_j6846177869930_1_alg».proof.Proof.Gen.KernelIdeal.Launch
import proofs.«157332_j6846177869930_1_alg».proof.Proof.Gen.KernelIdeal.Skeleton
import proofs.«157332_j6846177869930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second pallas_call's body, point by point

The second call of the program runs on a grid of 32 points with seven windows: two feature blocks
(bf16, `1×256×4096`), four small tables (`1×128×4`, two of integers and two of floats) and one output
tile (f32, `1×8×128`). At every point the body reads the six input blocks whole, computes one tile from
them without touching memory again, reads the output tile once (the value is never used) and overwrites
the output tile whole.

This file fixes, for ANY contents `V` of the TensorCore's buffers when the call is entered,

* the block each window shows at each point (`blockAt`),
* the stored tile as a pure function of the six input blocks (`lossPayload`, `stored6`),
* the pipeline's proof data over those (`dat`) with its projections, and
* the body obligation (`body`): inputs are left as found, the output tile holds `stored6` of the inputs.
-/

-- deciding that one rectangle tiles the output tile walks its 1024 coordinates structurally
set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the call is entered
variable (V : (c : Dev nD) → (b : Ref sig .tc) → Buf (Elt F) ((c : Thread nD τ).loc b))

/-! ## The windows' blocks -/

/-- window w's block at grid point t, read off its array as the region finds it -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches: each buffer whole -/

abbrev featBlock : Rect S1x256x4096 := Rect.unit (s := S1x256x4096) ![0, 0, 0] S1x256x4096.size inb_S1x256x4096_S1x256x4096_0_0_0
abbrev tableBlock : Rect S1x128x4 := Rect.unit (s := S1x128x4) ![0, 0, 0] S1x128x4.size inb_S1x128x4_S1x128x4_0_0_0
abbrev lossBlock : Rect S1x8x128 := Rect.unit (s := S1x8x128) ![0, 0, 0] S1x8x128.size inb_S1x8x128_S1x8x128_0_0_0

/-! ## The stored tile -/

/-- the body's one stored value as a pure function of the six loaded blocks (the skeleton's payloads composed) -/
def lossPayload (v0 v2 : Vec F S1x256x4096 .bf16) (v4 : Vec F S1x128x4 .i32) (v6 : Vec F S1x128x4 .f32) (v8 : Vec F S1x128x4 .i32) (v10 : Vec F S1x128x4 .f32) : FVec F S1x8x128 .f32 :=
  k1_pay1 (k1_pay3 v2) (k1_pay11 (k1_pay6 v8) (k1_pay7 v10) (iota .tc S128x4096 32 [1] iota_S128x4096_d1_w32))
    (k1_pay12 (k1_pay2 v0) (k1_pay4 v4) (k1_pay5 v6) (iota .tc S128x4096 32 [1] iota_S128x4096_d1_w32) (k1_pay8 v4 v6) (k1_pay9 v4) (Scalar.ofBits .f32 0x00000000#32) (k1_pay10 v6))

/-- what the body leaves in output window 6's staging buffer, from the six input blocks -/
def stored6 (x0 x1 : Vec F S1x256x4096 .bf16) (x2 : Vec F S1x128x4 .i32) (x3 : Vec F S1x128x4 .f32) (x4 : Vec F S1x128x4 .i32) (x5 : Vec F S1x128x4 .f32) : Vec F S1x8x128 .f32 :=
  View.canon [⟨lossBlock, lossPayload (View.ld x0 featBlock) (View.ld x1 featBlock) (View.ld x2 tableBlock) (View.ld x3 tableBlock) (View.ld x4 tableBlock) (View.ld x5 tableBlock)⟩]

/-- The single store is the whole tile, so every index of the tile lies under it. -/
theorem lossBlock_covers (p : Vec F S1x8x128 .f32) (y : S1x8x128.Idx) :
    ∃ pc ∈ ([⟨lossBlock, p⟩] : List (View.Piece (Elt F) S1x8x128 .f32)), y ∈ pc.1.set :=
  View.cover_of_tiled [⟨lossBlock, p⟩] S1x8x128.size (by rfl) y

/-! ## The body on whole buffers -/

set_option maxHeartbeats 1000000 in
/-- Run on seven whole buffers — the six inputs reading `x0 … x5`, the output holding anything — the body ends with
    the inputs reading what they read and the output reading `stored6 x0 … x5`. The function and its two parts are
    their skeletons: six loads of whole buffers, a pure part, one load of the output whose value is never used, and
    one store of the whole output tile. The store covers the tile, so what the output reads afterwards is the stored
    value alone, whatever it held. -/
theorem kernel_triple (c : Dev nD) (E : Set ℕ) (i : grid1.Coords) (arg1 : Memref sig .tc .vmem S1x256x4096 .bf16) (harg1 : arg1.IsWhole) (arg2 : Memref sig .tc .vmem S1x256x4096 .bf16) (harg2 : arg2.IsWhole) (arg3 : Memref sig .tc .vmem S1x128x4 .i32) (harg3 : arg3.IsWhole) (arg4 : Memref sig .tc .vmem S1x128x4 .f32) (harg4 : arg4.IsWhole) (arg5 : Memref sig .tc .vmem S1x128x4 .i32) (harg5 : arg5.IsWhole) (arg6 : Memref sig .tc .vmem S1x128x4 .f32) (harg6 : arg6.IsWhole) (arg7 : Memref sig .tc .vmem S1x8x128 .f32) (harg7 : arg7.IsWhole)
    (x0 x1 : Vec F S1x256x4096 .bf16) (x2 : Vec F S1x128x4 .i32) (x3 : Vec F S1x128x4 .f32) (x4 : Vec F S1x128x4 .i32) (x5 : Vec F S1x128x4 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (stored6 x0 x1 x2 x3 x4 x5)) -∗ K ⟨⟩))
      ⊢ wp frame (wpE (defs₀ (F := F)) Variants.none c none) E (cc1__main_kernel i arg1 harg1 arg2 harg2 arg3 harg3 arg4 harg4 arg5 harg5 arg6 harg6 arg7 harg7) K := by
  simp only [cc1__main_kernel_eq_skeleton]; unfold cc1__main_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (lossBlock_covers _)

/-! ## The pipeline's proof data -/

/-- The proof data of the call on core `c`: the arrays as the call finds them; after the body at point `t` every input
    buffer still at its block and the output buffer at `stored6` of the six input blocks; the invariant is the scoped
    rest and the generator register, which the body never touches; nothing is owed; shares are full. -/
def dat (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => stored6 (blockAt V c 0 t) (blockAt V c 1 t) (blockAt V c 2 t) (blockAt V c 3 t) (blockAt V c 4 t) (blockAt V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after0 (c : Dev nD) (t : Fin cfg1.N) : (dat V c).after 0 t = blockAt V c 0 t := by dsimp only [dat]
theorem dat_after1 (c : Dev nD) (t : Fin cfg1.N) : (dat V c).after 1 t = blockAt V c 1 t := by dsimp only [dat]
theorem dat_after2 (c : Dev nD) (t : Fin cfg1.N) : (dat V c).after 2 t = blockAt V c 2 t := by dsimp only [dat]
theorem dat_after3 (c : Dev nD) (t : Fin cfg1.N) : (dat V c).after 3 t = blockAt V c 3 t := by dsimp only [dat]
theorem dat_after4 (c : Dev nD) (t : Fin cfg1.N) : (dat V c).after 4 t = blockAt V c 4 t := by dsimp only [dat]
theorem dat_after5 (c : Dev nD) (t : Fin cfg1.N) : (dat V c).after 5 t = blockAt V c 5 t := by dsimp only [dat]
theorem dat_after6 (c : Dev nD) (t : Fin cfg1.N) : (dat V c).after 6 t =
    stored6 (blockAt V c 0 t) (blockAt V c 1 t) (blockAt V c 2 t) (blockAt V c 3 t) (blockAt V c 4 t) (blockAt V c 5 t) := by
  dsimp only [dat]

/-! ## What each input buffer holds when the body runs -/

/-- The block the proof data reads off a window's array is `blockAt`: its arrays are `V`'s. -/
theorem blockOf_eq (c : Dev nD) (w : Fin cfg1.W) (t : Fin cfg1.N) : (dat V c).blockOf w t = blockAt V c w t := by
  unfold Dat.blockOf blockAt; rw [dat_A]

/- Each input window is whole (never cut), never idle, and the body leaves its block in place. So whether or not a
   point fetches it, its current buffer holds the block of that point: a point that does not fetch has the block index
   of the point before, whose block the body left there. -/
theorem before0 (c : Dev nD) (t : Fin cfg1.N) (d) : (dat V c).before 0 t d = blockAt V c 0 t := by
  have hkeep : ∀ s, (cfg1.win 0).cut (cfg1.grid.coords s) ((dat V c).after 0 s) = (dat V c).blockOf 0 s := fun s => by
    rw [dat_after0, blockOf_eq]
  rw [(dat V c).before_in_eq_fetched 0 rfl (fun _ => rfl) (fun _ _ _ => rfl) hkeep t d]
  unfold Dat.fetched; rw [blockOf_eq]; rfl
theorem before1 (c : Dev nD) (t : Fin cfg1.N) (d) : (dat V c).before 1 t d = blockAt V c 1 t := by
  have hkeep : ∀ s, (cfg1.win 1).cut (cfg1.grid.coords s) ((dat V c).after 1 s) = (dat V c).blockOf 1 s := fun s => by
    rw [dat_after1, blockOf_eq]
  rw [(dat V c).before_in_eq_fetched 1 rfl (fun _ => rfl) (fun _ _ _ => rfl) hkeep t d]
  unfold Dat.fetched; rw [blockOf_eq]; rfl
theorem before2 (c : Dev nD) (t : Fin cfg1.N) (d) : (dat V c).before 2 t d = blockAt V c 2 t := by
  have hkeep : ∀ s, (cfg1.win 2).cut (cfg1.grid.coords s) ((dat V c).after 2 s) = (dat V c).blockOf 2 s := fun s => by
    rw [dat_after2, blockOf_eq]
  rw [(dat V c).before_in_eq_fetched 2 rfl (fun _ => rfl) (fun _ _ _ => rfl) hkeep t d]
  unfold Dat.fetched; rw [blockOf_eq]; rfl
theorem before3 (c : Dev nD) (t : Fin cfg1.N) (d) : (dat V c).before 3 t d = blockAt V c 3 t := by
  have hkeep : ∀ s, (cfg1.win 3).cut (cfg1.grid.coords s) ((dat V c).after 3 s) = (dat V c).blockOf 3 s := fun s => by
    rw [dat_after3, blockOf_eq]
  rw [(dat V c).before_in_eq_fetched 3 rfl (fun _ => rfl) (fun _ _ _ => rfl) hkeep t d]
  unfold Dat.fetched; rw [blockOf_eq]; rfl
theorem before4 (c : Dev nD) (t : Fin cfg1.N) (d) : (dat V c).before 4 t d = blockAt V c 4 t := by
  have hkeep : ∀ s, (cfg1.win 4).cut (cfg1.grid.coords s) ((dat V c).after 4 s) = (dat V c).blockOf 4 s := fun s => by
    rw [dat_after4, blockOf_eq]
  rw [(dat V c).before_in_eq_fetched 4 rfl (fun _ => rfl) (fun _ _ _ => rfl) hkeep t d]
  unfold Dat.fetched; rw [blockOf_eq]; rfl
theorem before5 (c : Dev nD) (t : Fin cfg1.N) (d) : (dat V c).before 5 t d = blockAt V c 5 t := by
  have hkeep : ∀ s, (cfg1.win 5).cut (cfg1.grid.coords s) ((dat V c).after 5 s) = (dat V c).blockOf 5 s := fun s => by
    rw [dat_after5, blockOf_eq]
  rw [(dat V c).before_in_eq_fetched 5 rfl (fun _ => rfl) (fun _ _ _ => rfl) hkeep t d]
  unfold Dat.fetched; rw [blockOf_eq]; rfl

/-! ## The body at a generic point -/

/-- What the pipeline hands the body at point `t`: the invariant, the core's dues, and each window's current buffer
    at what it then holds. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- What the body hands back: the same invariant and dues, each buffer at what the proof data says the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- At any point the six input buffers hold their blocks, so the body's run on whole buffers applies; the invariant
    and the dues are not read and pass through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    dat_after0, dat_after1, dat_after2, dat_after3, dat_after4, dat_after5, dat_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_triple c Set.univ (grid1.coords t) _ _ _ _ _ _ _ _ _ _ _ _ _ _
    (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- The library's body obligation for the call, at every point of its grid. -/
theorem body (c : Dev nD) : BodyObligation (dat (F := F) V c) (defs₀ (F := F)) Variants.none () Set.univ := fun t => by
  rw [bigSep_W1, bigSep_W1]
  exact body_at V c t

end Cert.KernelIdeal.Loss

end
-- ==== Proof.IdealRun.lean ====
/- THE LAUNCH of @main: 21 items — host stretches and two kernel regions (items 1 and 19) — run from the launch memory to
   the return. The generated conditional frame states the contents of every unscoped buffer between two items over
   unknowns (what each region leaves in the arrays it may change) and asks, per region, for a segment record entered from
   the contents before it and left at the contents after it. This module fixes the unknowns — each region's arrays at what
   its pipeline's write-backs leave, read off the region's proof data at its entry contents —, builds the two records
   over the regions' kernel halves, and launches: the frame claim at any `F`, and the same run with every unscoped
   buffer's final contents in the post. -/
import proofs.«157332_j6846177869930_1_alg».proof.Proof.Gen.KernelIdeal.Regions
import proofs.«157332_j6846177869930_1_alg».proof.Proof.NormRegion
import proofs.«157332_j6846177869930_1_alg».proof.Proof.LossRegion
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

/-! ## What the two kernel regions leave

The contents between @main's items are written over unknowns: what region 0 leaves in its two output arrays and what
region 1 leaves in its one. They are fixed here, region 0's first (its entry contents do not depend on any unknown),
then region 1's over region 0's. -/

/-- The buffers region 0 is entered from, read at the TensorCore's references. -/
abbrev VIN0 : (c : Dev nD) → (b : Ref sig .tc) → Buf (Elt F) ((c : Thread nD τ).loc b) := fun c b => Gen.V1 m c b

/-- The buffers at region 0's exit: its four arrays at what the pipeline leaves (each input as entered, each output
    with every write-back folded in), every other buffer as entered. -/
def X2 (c : Dev nD) : Valuation τ sig (Elt F) :=
  Pipeline.withArrays spec0 c (Gen.V1 m c) fun w => (Norm.dat (VIN0 m) c).arrAt w cfg0.N

/-- The unknowns with only region 0's answer in them. -/
def outsA : Gen.Outs (F := F) := fun _ r c => X2 m c r

/-- The buffers region 1 is entered from, over given unknowns, read at the TensorCore's references. -/
abbrev VIN1 (o : Gen.Outs (F := F)) : (c : Dev nD) → (b : Ref sig .tc) → Buf (Elt F) ((c : Thread nD τ).loc b) :=
  fun c b => Gen.V19 m o c b

/-- The buffers at region 1's exit: its seven arrays at what the pipeline leaves, every other buffer as entered. -/
def X20 (c : Dev nD) : Valuation τ sig (Elt F) :=
  Pipeline.withArrays spec1 c (Gen.V19 m (outsA m) c) fun w => (Loss.dat (VIN1 m (outsA m)) c).arrAt w cfg1.N

/-- What the regions leave: after item 19 region 1's exit contents, before that region 0's. -/
def outs : Gen.Outs (F := F) := fun J r c => if J = 20 then X20 m c r else X2 m c r

theorem outs_two (r : Ref sig .tc) (c : Dev nD) : outs m 2 r c = X2 m c r := if_neg (by decide)
theorem outs_twenty (r : Ref sig .tc) (c : Dev nD) : outs m 20 r c = X20 m c r := if_pos rfl

/-- The contents after region 0 read the unknowns at item 2 only, where both choices agree. -/
theorem V2_outs (c : Dev nD) : Gen.V2 m (outs m) c = Gen.V2 m (outsA m) c := by
  unfold Gen.V2
  rw [outs_two, outs_two]
  rfl

/-- So do the contents region 1 is entered from: host stretches only between the two regions. -/
theorem V19_outs (c : Dev nD) : Gen.V19 m (outs m) c = Gen.V19 m (outsA m) c := by
  unfold Gen.V19 Gen.V18 Gen.V17 Gen.V16 Gen.V15 Gen.V14 Gen.V13 Gen.V12 Gen.V11 Gen.V10 Gen.V9 Gen.V8 Gen.V7 Gen.V6 Gen.V5 Gen.V4 Gen.V3
  rw [V2_outs]

theorem VIN1_outs : VIN1 m (outs m) = VIN1 m (outsA m) := by
  funext c b
  exact congrFun (V19_outs m c) _

/-! ## What the regions leave, named through the proof data -/

/-- Region 0's first output array ends at the pipeline's fold of its write-backs; -/
theorem outs_norm2 (c : Dev nD) :
    outs m 2 main_v2_0 c = (Norm.dat (fun c b => Gen.V1 m c (Proc.devRef .tc b)) c).arrAt 2 cfg0.N := by
  rw [outs_two]; unfold X2
  exact Pipeline.withArrays_arr spec0 launch0.win.arr_inj c _ _ 2
/-- its second likewise. -/
theorem outs_norm3 (c : Dev nD) :
    outs m 2 main_v2_1 c = (Norm.dat (fun c b => Gen.V1 m c (Proc.devRef .tc b)) c).arrAt 3 cfg0.N := by
  rw [outs_two]; unfold X2
  exact Pipeline.withArrays_arr spec0 launch0.win.arr_inj c _ _ 3
/-- Region 1's output array ends at the pipeline's fold of its write-backs, from the contents region 1 is entered at. -/
theorem outs_loss (c : Dev nD) :
    outs m 20 main_v129 c = (Loss.dat (fun c b => Gen.V19 m (outs m) c (Proc.devRef .tc b)) c).arrAt 6 cfg1.N := by
  rw [outs_twenty, show (fun c b => Gen.V19 m (outs m) c (Proc.devRef .tc b)) = VIN1 m (outsA m) from VIN1_outs m]
  unfold X20
  exact Pipeline.withArrays_arr spec1 launch1.win.arr_inj c _ _ 6

/-! ## The proof data family and the thread state -/

/-- Every pipeline's proof data, each at its region's entry contents. -/
def pdats : (p : Fin 2) → (c : Dev nD) → Dat τ (Elt F) Unit ℕ (Pipeline.UD sig nD τ) ℕ (cfgs p) c
  | ⟨0, _⟩ => fun c => Norm.dat (VIN0 m) c
  | ⟨1, _⟩ => fun c => Loss.dat (VIN1 m (outs m)) c

/-- No core owes another anything: no level is assigned. -/
abbrev L : GSem nD τ sig → Finset Unit := fun _ => ∅
abbrev lv : GSem nD τ sig → Unit → ℕ := fun _ _ => 0

/-- What rides beside the buffers through every item: the core's generator register at some state (a region's
    invariant takes it in and gives it back) and the core owing nothing. -/
abbrev Rest (c : Dev nD) : sProp 𝕄 :=
  iprop((∃ r, prngReg c r) ∗ ∃ W, owes (c : Thread nD τ) (0 : CellTallies nD τ sig Unit) W)
/-- The same rest between any two items. -/
abbrev E : Fin 3 → Dev nD → sProp 𝕄 := fun _ c => Rest (F := F) c

/-- The buffers at region 0's exit, and at region 1's, read at the TensorCore's references. -/
abbrev VOUT0 : (c : Dev nD) → (b : Ref sig .tc) → Buf (Elt F) ((c : Thread nD τ).loc b) := fun c b => Gen.V2 m (outs m) c b
abbrev VOUT1 : (c : Dev nD) → (b : Ref sig .tc) → Buf (Elt F) ((c : Thread nD τ).loc b) := fun c b => Gen.V20 m (outs m) c b

/-- At region 0's exit each of its arrays holds what the pipeline leaves: an input what it held at entry (no item writes
    it meanwhile), an output the unknown chosen above. -/
theorem hF0 (c : Dev nD) : ∀ w : Fin cfg0.W, (pdats m 0 c).arrAt w cfg0.N = VOUT0 m c (Pipeline.arrRef spec0 w)
  | ⟨0, _⟩ => ((Norm.dat (VIN0 m) c).arrAt_in 0 rfl _).trans
      ((Norm.dat_A (VIN0 m) c 0).trans (Gen.V2_of m (outs m) c (Pipeline.arrRef spec0 0) (by decide)).symm)
  | ⟨1, _⟩ => ((Norm.dat (VIN0 m) c).arrAt_in 1 rfl _).trans
      ((Norm.dat_A (VIN0 m) c 1).trans (Gen.V2_of m (outs m) c (Pipeline.arrRef spec0 1) (by decide)).symm)
  | ⟨2, _⟩ => by
      refine (outs_norm2 m c).symm.trans ?_
      show _ = Gen.V2 m (outs m) c main_v2_0
      unfold Gen.V2
      rw [Function.update_of_ne (by decide), Function.update_self]
  | ⟨3, _⟩ => by
      refine (outs_norm3 m c).symm.trans ?_
      show _ = Gen.V2 m (outs m) c main_v2_1
      unfold Gen.V2
      rw [Function.update_self]
/-- Every other buffer holds what it held at entry. -/
theorem hrest0 (c : Dev nD) : ∀ b, b ∉ Finset.univ.image (Pipeline.arrRef spec0) → VOUT0 m c b = VIN0 m c b :=
  fun b hb => Gen.V2_of m (outs m) c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · exact absurd hmem (List.not_mem_nil))

/-- At region 1's exit each of its arrays holds what the pipeline leaves. An input array holds what it held at entry:
    the pipeline never writes it, and region 1 changes no buffer but its output array. Window 0; -/
theorem hF1_0 (c : Dev nD) : (pdats m 1 c).arrAt 0 cfg1.N = VOUT1 m c (Pipeline.arrRef spec1 0) :=
  ((Loss.dat (VIN1 m (outs m)) c).arrAt_in 0 rfl _).trans
    ((Loss.dat_A (VIN1 m (outs m)) c 0).trans (Gen.V20_of m (outs m) c (Pipeline.arrRef spec1 0) (by decide)).symm)
/-- window 1; -/
theorem hF1_1 (c : Dev nD) : (pdats m 1 c).arrAt 1 cfg1.N = VOUT1 m c (Pipeline.arrRef spec1 1) :=
  ((Loss.dat (VIN1 m (outs m)) c).arrAt_in 1 rfl _).trans
    ((Loss.dat_A (VIN1 m (outs m)) c 1).trans (Gen.V20_of m (outs m) c (Pipeline.arrRef spec1 1) (by decide)).symm)
/-- window 2; -/
theorem hF1_2 (c : Dev nD) : (pdats m 1 c).arrAt 2 cfg1.N = VOUT1 m c (Pipeline.arrRef spec1 2) :=
  ((Loss.dat (VIN1 m (outs m)) c).arrAt_in 2 rfl _).trans
    ((Loss.dat_A (VIN1 m (outs m)) c 2).trans (Gen.V20_of m (outs m) c (Pipeline.arrRef spec1 2) (by decide)).symm)
/-- window 3; -/
theorem hF1_3 (c : Dev nD) : (pdats m 1 c).arrAt 3 cfg1.N = VOUT1 m c (Pipeline.arrRef spec1 3) :=
  ((Loss.dat (VIN1 m (outs m)) c).arrAt_in 3 rfl _).trans
    ((Loss.dat_A (VIN1 m (outs m)) c 3).trans (Gen.V20_of m (outs m) c (Pipeline.arrRef spec1 3) (by decide)).symm)
/-- window 4; -/
theorem hF1_4 (c : Dev nD) : (pdats m 1 c).arrAt 4 cfg1.N = VOUT1 m c (Pipeline.arrRef spec1 4) :=
  ((Loss.dat (VIN1 m (outs m)) c).arrAt_in 4 rfl _).trans
    ((Loss.dat_A (VIN1 m (outs m)) c 4).trans (Gen.V20_of m (outs m) c (Pipeline.arrRef spec1 4) (by decide)).symm)
/-- window 5. -/
theorem hF1_5 (c : Dev nD) : (pdats m 1 c).arrAt 5 cfg1.N = VOUT1 m c (Pipeline.arrRef spec1 5) :=
  ((Loss.dat (VIN1 m (outs m)) c).arrAt_in 5 rfl _).trans
    ((Loss.dat_A (VIN1 m (outs m)) c 5).trans (Gen.V20_of m (outs m) c (Pipeline.arrRef spec1 5) (by decide)).symm)
/-- The output array holds the unknown chosen above. -/
theorem hF1_6 (c : Dev nD) : (pdats m 1 c).arrAt 6 cfg1.N = VOUT1 m c (Pipeline.arrRef spec1 6) := by
  refine (outs_loss m c).symm.trans ?_
  show _ = Gen.V20 m (outs m) c main_v129
  unfold Gen.V20
  rw [Function.update_self]
/-- All seven windows. -/
theorem hF1 (c : Dev nD) : ∀ w : Fin cfg1.W, (pdats m 1 c).arrAt w cfg1.N = VOUT1 m c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
/-- Every other buffer holds what it held at entry. -/
theorem hrest1 (c : Dev nD) : ∀ b, b ∉ Finset.univ.image (Pipeline.arrRef spec1) → VOUT1 m c b = VIN1 m (outs m) c b :=
  fun b hb => Gen.V20_of m (outs m) c b fun hmem => hb (by
    rcases List.mem_cons.mp hmem with rfl | hmem
    · exact Finset.mem_image.mpr ⟨6, Finset.mem_univ _, rfl⟩
    · exact absurd hmem (List.not_mem_nil))

/-! ## The regions as segments -/

set_option backward.isDefEq.respectTransparency.types false in
/-- REGION 0 (custom_call 0, pipeline 0) over the thread state: entered from every unscoped buffer at the contents before it, left at the
    contents after it. Its arrays are split out of the unscoped buffers at entry and put back at the exit contents; the
    generator register goes into the region's invariant and comes back; nothing is owed; the kernel has no semaphore of
    its own. -/
def R0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (Norm.body (VIN0 m) c).loose
  hwaits := Pipeline.hwaits_of_owed_zero _ _ _ _ L lv 0 fun _ _ => rfl
  pre c := iprop(StableHlo.held (c : Thread nD τ) (Pipeline.ucRefs τ sig) (Gen.V1 m c) ∗ E (F := F) 0 c)
  post c := iprop(StableHlo.held (c : Thread nD τ) (Pipeline.ucRefs τ sig) (Gen.V2 m (outs m) c) ∗ E (F := F) 1 c)
  X c := iprop(∃ r, prngReg c r)
  Y c := iprop(∃ r, prngReg c r)
  Z c := Pipeline.unscopedRest (Ix := Unit) (Name := ℕ) (U := Pipeline.UD sig nD τ) (Lvl := ℕ) spec0 c (VIN0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VIN0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (VIN0 m c) (VOUT0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1, pipeline 1) over the thread state: entered from every unscoped buffer at the contents before it, left at the
    contents after it. Its arrays are split out of the unscoped buffers at entry and put back at the exit contents; the
    generator register goes into the region's invariant and comes back; nothing is owed; the kernel has no semaphore of
    its own. -/
def R1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (Loss.body (VIN1 m (outs m)) c).loose
  hwaits := Pipeline.hwaits_of_owed_zero _ _ _ _ L lv 1 fun _ _ => rfl
  pre c := iprop(StableHlo.held (c : Thread nD τ) (Pipeline.ucRefs τ sig) (Gen.V19 m (outs m) c) ∗ E (F := F) 1 c)
  post c := iprop(StableHlo.held (c : Thread nD τ) (Pipeline.ucRefs τ sig) (Gen.V20 m (outs m) c) ∗ E (F := F) 2 c)
  X c := iprop(∃ r, prngReg c r)
  Y c := iprop(∃ r, prngReg c r)
  Z c := Pipeline.unscopedRest (Ix := Unit) (Name := ℕ) (U := Pipeline.UD sig nD τ) (Lvl := ℕ) spec1 c (VIN1 m (outs m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VIN1 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (VIN1 m (outs m) c) (VOUT1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The launch element: the pipelines' staging cells funded, no counter of the certificate's own. -/
abbrev u₀ : Pipeline.UD sig nD τ := (initOf (Pipeline.cells cfgs cellOf_inj) (Pipeline.launchToks cfgs cellOf_inj), 1)

/-- It yields the pipeline library's element; no core needs a ghost resource of its own. -/
theorem hu₀ : (ownU (u₀ : Pipeline.UD sig nD τ) : sProp 𝕄)
    ⊢ |={Set.univ}=> iprop(BI.own ((embL : Emb _ 𝕄) (initOf (Pipeline.cells cfgs cellOf_inj) (Pipeline.launchToks cfgs cellOf_inj)))
        ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- The rest state at the launch, on every core at once: the generator register as dealt, the core owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The rest state at the end holds the core owing nothing. -/
theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME at any `F`: from any memory with zero counters every weakly fair execution of @main terminates, nothing
    faulting, and every final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m embL () Variants.none L lv (fun _ _ => rfl) ρ (outs m) (pdats m) 0 (fun _ => iprop(emp)) u₀ hu₀
    E (hE0 ρ) hE2 (R0 m) (fun _ => .rfl) (fun _ => .rfl) (R1 m) (fun _ => .rfl) (fun _ => .rfl)

set_option backward.isDefEq.respectTransparency.types false in
/-- THE RUN, with everything it leaves: the same launch, read at the end against the whole last valuation — every
    unscoped buffer of every core ends at the contents after @main's last item. -/
theorem run_all (ρ : Dev nD → PrngReg) : θ_run defs (onTc (τ := τ) (main (F := F))) ⟨m, fun _ => 0, ρ⟩
    (fun r => ∀ (c : Dev nD), ∀ b ∈ Pipeline.ucRefs τ sig, r.2.mem (((c : Thread nD τ)).1, b) = Gen.V21 m (outs m) c b) := by
  refine Pipeline.θ_run_regions_kit_dev (pcfgs (F := F)) Gen.adm (pdats m) () cellOf_inj embL defs₀ Variants.none L lv m ρ main
    (Gen.segs m (outs m) Variants.none L lv E () (pdats m) (R0 m) (R1 m))
    (fun c Q => by
      rewrite [main_chain c, Pipeline.Seg.run_eq_chain,
        show (Gen.segs m (outs m) Variants.none L lv E () (pdats m) (R0 m) (R1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    0 (fun _ _ => rfl) (fun _ => iprop(emp)) u₀ hu₀
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (hE2 c)⟩)
    (hinit := ?_)
    (QY := fun c s => ∀ b ∈ Pipeline.ucRefs τ sig, s.mem (((c : Thread nD τ)).1, b) = Gen.V21 m (outs m) c b)
    (hfin := fun c s' => ?_) (hQ := fun _ h => h)
  · -- the launch: on each core the unscoped buffers are held at the launch contents, beside the rest state
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every held buffer read against the final state
    unfold StableHlo.held
    iintro ⟨Hh, HSI⟩
    imodintro
    iapply (pointsTo_read_all (Pipeline.ucRefs τ sig) (fun b => (((c : Thread nD τ)).1, b)) (Gen.V21 m (outs m) c) s')
    isplitl [Hh] <;> iassumption

end Cert.KernelIdeal.Whole

end
-- ==== Proof.BitsNormRegion.lean ====
/- REGION 0 of @main (custom_call 0, the normalizing kernel, pipeline 0) — the KERNEL'S HALF of its frame,
   at a parameter `V`: the TensorCore's buffer contents when the region is entered.

   The body is of the plainest class: at every grid point it loads each of its two input windows' staging
   buffers whole, and stores into each of its two output windows' staging buffers, whole, a pure function
   of the corresponding input block (the block divided by its column norms, rounded to bf16). Before each store
   it also loads the output buffer whole and discards the value, so the outputs may be entered at any contents.
   What the body leaves in an output buffer is therefore a closed function of one input block: the
   store's payload laid over the whole buffer (`stored2`, `stored3`). What it finds in an input buffer is that
   window's block at the point, read off the array as the region finds it (`blockAt`).

   The module gives: the blocks, the outputs after the body, the body's triple on whole staging memrefs, the
   pipeline's proof data `dat` over the untouched invariant, and the body obligation at every point. -/
import proofs.«157332_j6846177869930_1_alg».proof.Proof.Gen.Kernel.Launch
import proofs.«157332_j6846177869930_1_alg».proof.Proof.Gen.Kernel.Skeleton
import proofs.«157332_j6846177869930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1 x 256 x 4096 elements: the structural look recurses once per coordinate of the
-- long axes
set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- window `w`'s block at grid point `t`, read off its array as the region finds it -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or not (unfetched, the block index has not moved): for any proof data whose array is the entry contents and
    whose body leaves the block in place. Input 0; -/
theorem before0_of {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- input 1. -/
theorem before1_of {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and store is of the whole 1 x 256 x 4096 buffer -/

abbrev wholeBlock : Rect S1x256x4096 := Rect.unit (s := S1x256x4096) ![0, 0, 0] S1x256x4096.size inb_S1x256x4096_S1x256x4096_0_0_0

/-! ## What the body leaves in each output window's buffer -/

/-- what the body leaves in output window 2's staging buffer, from input 0's block: its one store's payload over
    the whole buffer -/
def stored2 (x : Vec F S1x256x4096 .f32) : Vec F S1x256x4096 .bf16 :=
  View.canon [⟨wholeBlock, k0_pay1 (View.ld x wholeBlock)⟩]

/-- what the body leaves in output window 3's staging buffer, from input 1's block -/
def stored3 (x : Vec F S1x256x4096 .f32) : Vec F S1x256x4096 .bf16 :=
  View.canon [⟨wholeBlock, k0_pay2 (View.ld x wholeBlock)⟩]

/-- The one whole-buffer store tiles the buffer, so it covers it. -/
theorem cover_whole (p : Vec F S1x256x4096 .bf16) (y : S1x256x4096.Idx) :
    ∃ pc ∈ ([⟨wholeBlock, p⟩] : List (View.Piece (Elt F) S1x256x4096 .bf16)), y ∈ pc.1.set :=
  View.cover_of_tiled [⟨wholeBlock, p⟩] S1x256x4096.size (by rfl) y

/-! ## The body's triple -/

set_option maxHeartbeats 1000000 in
/-- The kernel body on whole staging memrefs, the inputs' at read contents `x0`, `x1` and the outputs' at anything,
    runs to the continuation holding the inputs' as they were and the outputs' at `stored2 x0`, `stored3 x1`. The
    loads of the output buffers read whatever is there and the values are dropped. -/
theorem sound_kernel (c : Dev nD) (E : Set ℕ) (i : grid0.Coords)
    (arg1 : Memref sig .tc .vmem S1x256x4096 .f32) (harg1 : arg1.IsWhole) (arg2 : Memref sig .tc .vmem S1x256x4096 .f32) (harg2 : arg2.IsWhole)
    (arg3 : Memref sig .tc .vmem S1x256x4096 .bf16) (harg3 : arg3.IsWhole) (arg4 : Memref sig .tc .vmem S1x256x4096 .bf16) (harg4 : arg4.IsWhole)
    (x0 x1 : Vec F S1x256x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (stored2 x0) ∗ owns (c : Thread nD τ) arg4 fullShare (stored3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_whole _)
  iexists _; isplitr
  swap; · iexact H3
  ipureintro
  exact View.read_writes_eq_canon _ _ _ (cover_whole _)

/-! ## The pipeline's proof data -/

/-- The proof data of pipeline 0 on core `c`: the arrays as the region finds them; after the body at point `t`
    each input's buffer at its block and each output's at the stored function of the matching input block; the
    invariant the untouched one (the scoped rest and the generator register); nothing owed; full shares. -/
def dat (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => stored2 (blockAt V c 0 t)
    | ⟨3, _⟩ => stored3 (blockAt V c 1 t)
  Φ _ := Pipeline.ΦA spec0 c
  q _ := fullShare
  owed _ := 0

/-- The proof data's arrays are the region-entry contents. -/
theorem dat_A (c : Dev nD) (w : Fin cfg0.W) : (dat V c).A w = V c (Pipeline.arrRef spec0 w) := by
  dsimp only [dat]

/-- What the body leaves, window by window. -/
theorem dat_after0 (c : Dev nD) (t : Fin cfg0.N) : (dat V c).after 0 t = blockAt V c 0 t := by dsimp only [dat]
theorem dat_after1 (c : Dev nD) (t : Fin cfg0.N) : (dat V c).after 1 t = blockAt V c 1 t := by dsimp only [dat]
theorem dat_after2 (c : Dev nD) (t : Fin cfg0.N) : (dat V c).after 2 t = stored2 (blockAt V c 0 t) := by dsimp only [dat]
theorem dat_after3 (c : Dev nD) (t : Fin cfg0.N) : (dat V c).after 3 t = stored3 (blockAt V c 1 t) := by dsimp only [dat]

/-- Each input's current staging buffer holds its block at every point, fetched there or not. -/
theorem dat_before0 (c : Dev nD) (t : Fin cfg0.N) (d) : (dat V c).before 0 t d = blockAt V c 0 t :=
  before0_of V (dat V c) (dat_A V c 0) (dat_after0 V c) t d
theorem dat_before1 (c : Dev nD) (t : Fin cfg0.N) (d) : (dat V c).before 1 t d = blockAt V c 1 t :=
  before1_of V (dat V c) (dat_A V c 1) (dat_after1 V c) t d

/-! ## The body obligation, at a generic point -/

/-- What the body is called with at point `t` (the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, the outputs' hold anything, so the body's triple
    applies; the invariant and the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before0, dat_before1]
  rw [show (dat V c).Φ t.succ = (dat V c).Φ t.castSucc from rfl,
    show (dat V c).owesAt () t.succ = (dat V c).owesAt () t.castSucc from rfl,
    dat_after0, dat_after1, dat_after2, dat_after3]
  iintro ⟨HΦ, Ho, ⟨%d0, H0⟩, ⟨%d1, H1⟩, ⟨%d2, H2⟩, ⟨%d3, H3⟩⟩
  iapply (sound_kernel c Set.univ (grid0.coords t) _ _ _ _ _ _ _ _ (blockAt V c 0 t) (blockAt V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body (c : Dev nD) : BodyObligation (dat (F := F) V c) (defs₀ (F := F)) Variants.none () Set.univ := fun t => by
  rw [bigSep_W0, bigSep_W0]
  exact sound_body V c t

end Cert.Kernel.Norm

end
-- ==== Proof.BitsLossRegion.lean ====
import proofs.«157332_j6846177869930_1_alg».proof.Proof.Gen.Kernel.Launch
import proofs.«157332_j6846177869930_1_alg».proof.Proof.Gen.Kernel.Skeleton
import proofs.«157332_j6846177869930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second pallas_call's body, point by point

The second call of the program runs on a grid of 32 points with seven windows: two feature blocks
(bf16, `1×256×4096`), four small tables (`1×128×4`, two of integers and two of floats) and one output
tile (f32, `1×8×128`). At every point the body reads the six input blocks whole, computes one tile from
them without touching memory again, reads the output tile once (the value is never used) and overwrites
the output tile whole.

This file fixes, for ANY contents `V` of the TensorCore's buffers when the call is entered,

* the block each window shows at each point (`blockAt`),
* the stored tile as a pure function of the six input blocks (`lossPayload`, `stored6`),
* the pipeline's proof data over those (`dat`) with its projections, and
* the body obligation (`body`): inputs are left as found, the output tile holds `stored6` of the inputs.
-/

-- deciding that one rectangle tiles the output tile walks its 1024 coordinates structurally
set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the call is entered
variable (V : (c : Dev nD) → (b : Ref sig .tc) → Buf (Elt F) ((c : Thread nD τ).loc b))

/-! ## The windows' blocks -/

/-- window w's block at grid point t, read off its array as the region finds it -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches: each buffer whole -/

abbrev featBlock : Rect S1x256x4096 := Rect.unit (s := S1x256x4096) ![0, 0, 0] S1x256x4096.size inb_S1x256x4096_S1x256x4096_0_0_0
abbrev tableBlock : Rect S1x128x4 := Rect.unit (s := S1x128x4) ![0, 0, 0] S1x128x4.size inb_S1x128x4_S1x128x4_0_0_0
abbrev lossBlock : Rect S1x8x128 := Rect.unit (s := S1x8x128) ![0, 0, 0] S1x8x128.size inb_S1x8x128_S1x8x128_0_0_0

/-! ## The stored tile -/

/-- the body's one stored value as a pure function of the six loaded blocks (the skeleton's payloads composed) -/
def lossPayload (v0 v2 : Vec F S1x256x4096 .bf16) (v4 : Vec F S1x128x4 .i32) (v6 : Vec F S1x128x4 .f32) (v8 : Vec F S1x128x4 .i32) (v10 : Vec F S1x128x4 .f32) : FVec F S1x8x128 .f32 :=
  k1_pay1 (k1_pay3 v2) (k1_pay11 (k1_pay6 v8) (k1_pay7 v10) (iota .tc S128x4096 32 [1] iota_S128x4096_d1_w32))
    (k1_pay12 (k1_pay2 v0) (k1_pay4 v4) (k1_pay5 v6) (iota .tc S128x4096 32 [1] iota_S128x4096_d1_w32) (k1_pay8 v4 v6) (k1_pay9 v4) (Scalar.ofBits .f32 0x00000000#32) (k1_pay10 v6))

/-- what the body leaves in output window 6's staging buffer, from the six input blocks -/
def stored6 (x0 x1 : Vec F S1x256x4096 .bf16) (x2 : Vec F S1x128x4 .i32) (x3 : Vec F S1x128x4 .f32) (x4 : Vec F S1x128x4 .i32) (x5 : Vec F S1x128x4 .f32) : Vec F S1x8x128 .f32 :=
  View.canon [⟨lossBlock, lossPayload (View.ld x0 featBlock) (View.ld x1 featBlock) (View.ld x2 tableBlock) (View.ld x3 tableBlock) (View.ld x4 tableBlock) (View.ld x5 tableBlock)⟩]

/-- The single store is the whole tile, so every index of the tile lies under it. -/
theorem lossBlock_covers (p : Vec F S1x8x128 .f32) (y : S1x8x128.Idx) :
    ∃ pc ∈ ([⟨lossBlock, p⟩] : List (View.Piece (Elt F) S1x8x128 .f32)), y ∈ pc.1.set :=
  View.cover_of_tiled [⟨lossBlock, p⟩] S1x8x128.size (by rfl) y

/-! ## The body on whole buffers -/

set_option maxHeartbeats 1000000 in
/-- Run on seven whole buffers — the six inputs reading `x0 … x5`, the output holding anything — the body ends with
    the inputs reading what they read and the output reading `stored6 x0 … x5`. The function and its two parts are
    their skeletons: six loads of whole buffers, a pure part, one load of the output whose value is never used, and
    one store of the whole output tile. The store covers the tile, so what the output reads afterwards is the stored
    value alone, whatever it held. -/
theorem kernel_triple (c : Dev nD) (E : Set ℕ) (i : grid1.Coords) (arg1 : Memref sig .tc .vmem S1x256x4096 .bf16) (harg1 : arg1.IsWhole) (arg2 : Memref sig .tc .vmem S1x256x4096 .bf16) (harg2 : arg2.IsWhole) (arg3 : Memref sig .tc .vmem S1x128x4 .i32) (harg3 : arg3.IsWhole) (arg4 : Memref sig .tc .vmem S1x128x4 .f32) (harg4 : arg4.IsWhole) (arg5 : Memref sig .tc .vmem S1x128x4 .i32) (harg5 : arg5.IsWhole) (arg6 : Memref sig .tc .vmem S1x128x4 .f32) (harg6 : arg6.IsWhole) (arg7 : Memref sig .tc .vmem S1x8x128 .f32) (harg7 : arg7.IsWhole)
    (x0 x1 : Vec F S1x256x4096 .bf16) (x2 : Vec F S1x128x4 .i32) (x3 : Vec F S1x128x4 .f32) (x4 : Vec F S1x128x4 .i32) (x5 : Vec F S1x128x4 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (stored6 x0 x1 x2 x3 x4 x5)) -∗ K ⟨⟩))
      ⊢ wp frame (wpE (defs₀ (F := F)) Variants.none c none) E (cc1__main_kernel i arg1 harg1 arg2 harg2 arg3 harg3 arg4 harg4 arg5 harg5 arg6 harg6 arg7 harg7) K := by
  simp only [cc1__main_kernel_eq_skeleton]; unfold cc1__main_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (lossBlock_covers _)

/-! ## The pipeline's proof data -/

/-- The proof data of the call on core `c`: the arrays as the call finds them; after the body at point `t` every input
    buffer still at its block and the output buffer at `stored6` of the six input blocks; the invariant is the scoped
    rest and the generator register, which the body never touches; nothing is owed; shares are full. -/
def dat (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => stored6 (blockAt V c 0 t) (blockAt V c 1 t) (blockAt V c 2 t) (blockAt V c 3 t) (blockAt V c 4 t) (blockAt V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after0 (c : Dev nD) (t : Fin cfg1.N) : (dat V c).after 0 t = blockAt V c 0 t := by dsimp only [dat]
theorem dat_after1 (c : Dev nD) (t : Fin cfg1.N) : (dat V c).after 1 t = blockAt V c 1 t := by dsimp only [dat]
theorem dat_after2 (c : Dev nD) (t : Fin cfg1.N) : (dat V c).after 2 t = blockAt V c 2 t := by dsimp only [dat]
theorem dat_after3 (c : Dev nD) (t : Fin cfg1.N) : (dat V c).after 3 t = blockAt V c 3 t := by dsimp only [dat]
theorem dat_after4 (c : Dev nD) (t : Fin cfg1.N) : (dat V c).after 4 t = blockAt V c 4 t := by dsimp only [dat]
theorem dat_after5 (c : Dev nD) (t : Fin cfg1.N) : (dat V c).after 5 t = blockAt V c 5 t := by dsimp only [dat]
theorem dat_after6 (c : Dev nD) (t : Fin cfg1.N) : (dat V c).after 6 t =
    stored6 (blockAt V c 0 t) (blockAt V c 1 t) (blockAt V c 2 t) (blockAt V c 3 t) (blockAt V c 4 t) (blockAt V c 5 t) := by
  dsimp only [dat]

/-! ## What each input buffer holds when the body runs -/

/-- The block the proof data reads off a window's array is `blockAt`: its arrays are `V`'s. -/
theorem blockOf_eq (c : Dev nD) (w : Fin cfg1.W) (t : Fin cfg1.N) : (dat V c).blockOf w t = blockAt V c w t := by
  unfold Dat.blockOf blockAt; rw [dat_A]

/- Each input window is whole (never cut), never idle, and the body leaves its block in place. So whether or not a
   point fetches it, its current buffer holds the block of that point: a point that does not fetch has the block index
   of the point before, whose block the body left there. -/
theorem before0 (c : Dev nD) (t : Fin cfg1.N) (d) : (dat V c).before 0 t d = blockAt V c 0 t := by
  have hkeep : ∀ s, (cfg1.win 0).cut (cfg1.grid.coords s) ((dat V c).after 0 s) = (dat V c).blockOf 0 s := fun s => by
    rw [dat_after0, blockOf_eq]
  rw [(dat V c).before_in_eq_fetched 0 rfl (fun _ => rfl) (fun _ _ _ => rfl) hkeep t d]
  unfold Dat.fetched; rw [blockOf_eq]; rfl
theorem before1 (c : Dev nD) (t : Fin cfg1.N) (d) : (dat V c).before 1 t d = blockAt V c 1 t := by
  have hkeep : ∀ s, (cfg1.win 1).cut (cfg1.grid.coords s) ((dat V c).after 1 s) = (dat V c).blockOf 1 s := fun s => by
    rw [dat_after1, blockOf_eq]
  rw [(dat V c).before_in_eq_fetched 1 rfl (fun _ => rfl) (fun _ _ _ => rfl) hkeep t d]
  unfold Dat.fetched; rw [blockOf_eq]; rfl
theorem before2 (c : Dev nD) (t : Fin cfg1.N) (d) : (dat V c).before 2 t d = blockAt V c 2 t := by
  have hkeep : ∀ s, (cfg1.win 2).cut (cfg1.grid.coords s) ((dat V c).after 2 s) = (dat V c).blockOf 2 s := fun s => by
    rw [dat_after2, blockOf_eq]
  rw [(dat V c).before_in_eq_fetched 2 rfl (fun _ => rfl) (fun _ _ _ => rfl) hkeep t d]
  unfold Dat.fetched; rw [blockOf_eq]; rfl
theorem before3 (c : Dev nD) (t : Fin cfg1.N) (d) : (dat V c).before 3 t d = blockAt V c 3 t := by
  have hkeep : ∀ s, (cfg1.win 3).cut (cfg1.grid.coords s) ((dat V c).after 3 s) = (dat V c).blockOf 3 s := fun s => by
    rw [dat_after3, blockOf_eq]
  rw [(dat V c).before_in_eq_fetched 3 rfl (fun _ => rfl) (fun _ _ _ => rfl) hkeep t d]
  unfold Dat.fetched; rw [blockOf_eq]; rfl
theorem before4 (c : Dev nD) (t : Fin cfg1.N) (d) : (dat V c).before 4 t d = blockAt V c 4 t := by
  have hkeep : ∀ s, (cfg1.win 4).cut (cfg1.grid.coords s) ((dat V c).after 4 s) = (dat V c).blockOf 4 s := fun s => by
    rw [dat_after4, blockOf_eq]
  rw [(dat V c).before_in_eq_fetched 4 rfl (fun _ => rfl) (fun _ _ _ => rfl) hkeep t d]
  unfold Dat.fetched; rw [blockOf_eq]; rfl
theorem before5 (c : Dev nD) (t : Fin cfg1.N) (d) : (dat V c).before 5 t d = blockAt V c 5 t := by
  have hkeep : ∀ s, (cfg1.win 5).cut (cfg1.grid.coords s) ((dat V c).after 5 s) = (dat V c).blockOf 5 s := fun s => by
    rw [dat_after5, blockOf_eq]
  rw [(dat V c).before_in_eq_fetched 5 rfl (fun _ => rfl) (fun _ _ _ => rfl) hkeep t d]
  unfold Dat.fetched; rw [blockOf_eq]; rfl

/-! ## The body at a generic point -/

/-- What the pipeline hands the body at point `t`: the invariant, the core's dues, and each window's current buffer
    at what it then holds. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- What the body hands back: the same invariant and dues, each buffer at what the proof data says the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- At any point the six input buffers hold their blocks, so the body's run on whole buffers applies; the invariant
    and the dues are not read and pass through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    dat_after0, dat_after1, dat_after2, dat_after3, dat_after4, dat_after5, dat_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_triple c Set.univ (grid1.coords t) _ _ _ _ _ _ _ _ _ _ _ _ _ _
    (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- The library's body obligation for the call, at every point of its grid. -/
theorem body (c : Dev nD) : BodyObligation (dat (F := F) V c) (defs₀ (F := F)) Variants.none () Set.univ := fun t => by
  rw [bigSep_W1, bigSep_W1]
  exact body_at V c t

end Cert.Kernel.Loss

end
-- ==== Proof.BitsIdealRun.lean ====
/- THE LAUNCH of @main: 21 items — host stretches and two kernel regions (items 1 and 19) — run from the launch memory to
   the return. The generated conditional frame states the contents of every unscoped buffer between two items over
   unknowns (what each region leaves in the arrays it may change) and asks, per region, for a segment record entered from
   the contents before it and left at the contents after it. This module fixes the unknowns — each region's arrays at what
   its pipeline's write-backs leave, read off the region's proof data at its entry contents —, builds the two records
   over the regions' kernel halves, and launches: the frame claim at any `F`, and the same run with every unscoped
   buffer's final contents in the post. -/
import proofs.«157332_j6846177869930_1_alg».proof.Proof.Gen.Kernel.Regions
import proofs.«157332_j6846177869930_1_alg».proof.Proof.BitsNormRegion
import proofs.«157332_j6846177869930_1_alg».proof.Proof.BitsLossRegion
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## What the two kernel regions leave

The contents between @main's items are written over unknowns: what region 0 leaves in its two output arrays and what
region 1 leaves in its one. They are fixed here, region 0's first (its entry contents do not depend on any unknown),
then region 1's over region 0's. -/

/-- The buffers region 0 is entered from, read at the TensorCore's references. -/
abbrev VIN0 : (c : Dev nD) → (b : Ref sig .tc) → Buf (Elt F) ((c : Thread nD τ).loc b) := fun c b => Gen.V1 m c b

/-- The buffers at region 0's exit: its four arrays at what the pipeline leaves (each input as entered, each output
    with every write-back folded in), every other buffer as entered. -/
def X2 (c : Dev nD) : Valuation τ sig (Elt F) :=
  Pipeline.withArrays spec0 c (Gen.V1 m c) fun w => (Norm.dat (VIN0 m) c).arrAt w cfg0.N

/-- The unknowns with only region 0's answer in them. -/
def outsA : Gen.Outs (F := F) := fun _ r c => X2 m c r

/-- The buffers region 1 is entered from, over given unknowns, read at the TensorCore's references. -/
abbrev VIN1 (o : Gen.Outs (F := F)) : (c : Dev nD) → (b : Ref sig .tc) → Buf (Elt F) ((c : Thread nD τ).loc b) :=
  fun c b => Gen.V19 m o c b

/-- The buffers at region 1's exit: its seven arrays at what the pipeline leaves, every other buffer as entered. -/
def X20 (c : Dev nD) : Valuation τ sig (Elt F) :=
  Pipeline.withArrays spec1 c (Gen.V19 m (outsA m) c) fun w => (Loss.dat (VIN1 m (outsA m)) c).arrAt w cfg1.N

/-- What the regions leave: after item 19 region 1's exit contents, before that region 0's. -/
def outs : Gen.Outs (F := F) := fun J r c => if J = 20 then X20 m c r else X2 m c r

theorem outs_two (r : Ref sig .tc) (c : Dev nD) : outs m 2 r c = X2 m c r := if_neg (by decide)
theorem outs_twenty (r : Ref sig .tc) (c : Dev nD) : outs m 20 r c = X20 m c r := if_pos rfl

/-- The contents after region 0 read the unknowns at item 2 only, where both choices agree. -/
theorem V2_outs (c : Dev nD) : Gen.V2 m (outs m) c = Gen.V2 m (outsA m) c := by
  unfold Gen.V2
  rw [outs_two, outs_two]
  rfl

/-- So do the contents region 1 is entered from: host stretches only between the two regions. -/
theorem V19_outs (c : Dev nD) : Gen.V19 m (outs m) c = Gen.V19 m (outsA m) c := by
  unfold Gen.V19 Gen.V18 Gen.V17 Gen.V16 Gen.V15 Gen.V14 Gen.V13 Gen.V12 Gen.V11 Gen.V10 Gen.V9 Gen.V8 Gen.V7 Gen.V6 Gen.V5 Gen.V4 Gen.V3
  rw [V2_outs]

theorem VIN1_outs : VIN1 m (outs m) = VIN1 m (outsA m) := by
  funext c b
  exact congrFun (V19_outs m c) _

/-! ## What the regions leave, named through the proof data -/

/-- Region 0's first output array ends at the pipeline's fold of its write-backs; -/
theorem outs_norm2 (c : Dev nD) :
    outs m 2 main_v2_0 c = (Norm.dat (fun c b => Gen.V1 m c (Proc.devRef .tc b)) c).arrAt 2 cfg0.N := by
  rw [outs_two]; unfold X2
  exact Pipeline.withArrays_arr spec0 launch0.win.arr_inj c _ _ 2
/-- its second likewise. -/
theorem outs_norm3 (c : Dev nD) :
    outs m 2 main_v2_1 c = (Norm.dat (fun c b => Gen.V1 m c (Proc.devRef .tc b)) c).arrAt 3 cfg0.N := by
  rw [outs_two]; unfold X2
  exact Pipeline.withArrays_arr spec0 launch0.win.arr_inj c _ _ 3
/-- Region 1's output array ends at the pipeline's fold of its write-backs, from the contents region 1 is entered at. -/
theorem outs_loss (c : Dev nD) :
    outs m 20 main_v129 c = (Loss.dat (fun c b => Gen.V19 m (outs m) c (Proc.devRef .tc b)) c).arrAt 6 cfg1.N := by
  rw [outs_twenty, show (fun c b => Gen.V19 m (outs m) c (Proc.devRef .tc b)) = VIN1 m (outsA m) from VIN1_outs m]
  unfold X20
  exact Pipeline.withArrays_arr spec1 launch1.win.arr_inj c _ _ 6

/-! ## The proof data family and the thread state -/

/-- Every pipeline's proof data, each at its region's entry contents. -/
def pdats : (p : Fin 2) → (c : Dev nD) → Dat τ (Elt F) Unit ℕ (Pipeline.UD sig nD τ) ℕ (cfgs p) c
  | ⟨0, _⟩ => fun c => Norm.dat (VIN0 m) c
  | ⟨1, _⟩ => fun c => Loss.dat (VIN1 m (outs m)) c

/-- No core owes another anything: no level is assigned. -/
abbrev L : GSem nD τ sig → Finset Unit := fun _ => ∅
abbrev lv : GSem nD τ sig → Unit → ℕ := fun _ _ => 0

/-- What rides beside the buffers through every item: the core's generator register at some state (a region's
    invariant takes it in and gives it back) and the core owing nothing. -/
abbrev Rest (c : Dev nD) : sProp 𝕄 :=
  iprop((∃ r, prngReg c r) ∗ ∃ W, owes (c : Thread nD τ) (0 : CellTallies nD τ sig Unit) W)
/-- The same rest between any two items. -/
abbrev E : Fin 3 → Dev nD → sProp 𝕄 := fun _ c => Rest (F := F) c

/-- The buffers at region 0's exit, and at region 1's, read at the TensorCore's references. -/
abbrev VOUT0 : (c : Dev nD) → (b : Ref sig .tc) → Buf (Elt F) ((c : Thread nD τ).loc b) := fun c b => Gen.V2 m (outs m) c b
abbrev VOUT1 : (c : Dev nD) → (b : Ref sig .tc) → Buf (Elt F) ((c : Thread nD τ).loc b) := fun c b => Gen.V20 m (outs m) c b

/-- At region 0's exit each of its arrays holds what the pipeline leaves: an input what it held at entry (no item writes
    it meanwhile), an output the unknown chosen above. -/
theorem hF0 (c : Dev nD) : ∀ w : Fin cfg0.W, (pdats m 0 c).arrAt w cfg0.N = VOUT0 m c (Pipeline.arrRef spec0 w)
  | ⟨0, _⟩ => ((Norm.dat (VIN0 m) c).arrAt_in 0 rfl _).trans
      ((Norm.dat_A (VIN0 m) c 0).trans (Gen.V2_of m (outs m) c (Pipeline.arrRef spec0 0) (by decide)).symm)
  | ⟨1, _⟩ => ((Norm.dat (VIN0 m) c).arrAt_in 1 rfl _).trans
      ((Norm.dat_A (VIN0 m) c 1).trans (Gen.V2_of m (outs m) c (Pipeline.arrRef spec0 1) (by decide)).symm)
  | ⟨2, _⟩ => by
      refine (outs_norm2 m c).symm.trans ?_
      show _ = Gen.V2 m (outs m) c main_v2_0
      unfold Gen.V2
      rw [Function.update_of_ne (by decide), Function.update_self]
  | ⟨3, _⟩ => by
      refine (outs_norm3 m c).symm.trans ?_
      show _ = Gen.V2 m (outs m) c main_v2_1
      unfold Gen.V2
      rw [Function.update_self]
/-- Every other buffer holds what it held at entry. -/
theorem hrest0 (c : Dev nD) : ∀ b, b ∉ Finset.univ.image (Pipeline.arrRef spec0) → VOUT0 m c b = VIN0 m c b :=
  fun b hb => Gen.V2_of m (outs m) c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · exact absurd hmem (List.not_mem_nil))

/-- At region 1's exit each of its arrays holds what the pipeline leaves. An input array holds what it held at entry:
    the pipeline never writes it, and region 1 changes no buffer but its output array. Window 0; -/
theorem hF1_0 (c : Dev nD) : (pdats m 1 c).arrAt 0 cfg1.N = VOUT1 m c (Pipeline.arrRef spec1 0) :=
  ((Loss.dat (VIN1 m (outs m)) c).arrAt_in 0 rfl _).trans
    ((Loss.dat_A (VIN1 m (outs m)) c 0).trans (Gen.V20_of m (outs m) c (Pipeline.arrRef spec1 0) (by decide)).symm)
/-- window 1; -/
theorem hF1_1 (c : Dev nD) : (pdats m 1 c).arrAt 1 cfg1.N = VOUT1 m c (Pipeline.arrRef spec1 1) :=
  ((Loss.dat (VIN1 m (outs m)) c).arrAt_in 1 rfl _).trans
    ((Loss.dat_A (VIN1 m (outs m)) c 1).trans (Gen.V20_of m (outs m) c (Pipeline.arrRef spec1 1) (by decide)).symm)
/-- window 2; -/
theorem hF1_2 (c : Dev nD) : (pdats m 1 c).arrAt 2 cfg1.N = VOUT1 m c (Pipeline.arrRef spec1 2) :=
  ((Loss.dat (VIN1 m (outs m)) c).arrAt_in 2 rfl _).trans
    ((Loss.dat_A (VIN1 m (outs m)) c 2).trans (Gen.V20_of m (outs m) c (Pipeline.arrRef spec1 2) (by decide)).symm)
/-- window 3; -/
theorem hF1_3 (c : Dev nD) : (pdats m 1 c).arrAt 3 cfg1.N = VOUT1 m c (Pipeline.arrRef spec1 3) :=
  ((Loss.dat (VIN1 m (outs m)) c).arrAt_in 3 rfl _).trans
    ((Loss.dat_A (VIN1 m (outs m)) c 3).trans (Gen.V20_of m (outs m) c (Pipeline.arrRef spec1 3) (by decide)).symm)
/-- window 4; -/
theorem hF1_4 (c : Dev nD) : (pdats m 1 c).arrAt 4 cfg1.N = VOUT1 m c (Pipeline.arrRef spec1 4) :=
  ((Loss.dat (VIN1 m (outs m)) c).arrAt_in 4 rfl _).trans
    ((Loss.dat_A (VIN1 m (outs m)) c 4).trans (Gen.V20_of m (outs m) c (Pipeline.arrRef spec1 4) (by decide)).symm)
/-- window 5. -/
theorem hF1_5 (c : Dev nD) : (pdats m 1 c).arrAt 5 cfg1.N = VOUT1 m c (Pipeline.arrRef spec1 5) :=
  ((Loss.dat (VIN1 m (outs m)) c).arrAt_in 5 rfl _).trans
    ((Loss.dat_A (VIN1 m (outs m)) c 5).trans (Gen.V20_of m (outs m) c (Pipeline.arrRef spec1 5) (by decide)).symm)
/-- The output array holds the unknown chosen above. -/
theorem hF1_6 (c : Dev nD) : (pdats m 1 c).arrAt 6 cfg1.N = VOUT1 m c (Pipeline.arrRef spec1 6) := by
  refine (outs_loss m c).symm.trans ?_
  show _ = Gen.V20 m (outs m) c main_v129
  unfold Gen.V20
  rw [Function.update_self]
/-- All seven windows. -/
theorem hF1 (c : Dev nD) : ∀ w : Fin cfg1.W, (pdats m 1 c).arrAt w cfg1.N = VOUT1 m c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
/-- Every other buffer holds what it held at entry. -/
theorem hrest1 (c : Dev nD) : ∀ b, b ∉ Finset.univ.image (Pipeline.arrRef spec1) → VOUT1 m c b = VIN1 m (outs m) c b :=
  fun b hb => Gen.V20_of m (outs m) c b fun hmem => hb (by
    rcases List.mem_cons.mp hmem with rfl | hmem
    · exact Finset.mem_image.mpr ⟨6, Finset.mem_univ _, rfl⟩
    · exact absurd hmem (List.not_mem_nil))

/-! ## The regions as segments -/

set_option backward.isDefEq.respectTransparency.types false in
/-- REGION 0 (custom_call 0, pipeline 0) over the thread state: entered from every unscoped buffer at the contents before it, left at the
    contents after it. Its arrays are split out of the unscoped buffers at entry and put back at the exit contents; the
    generator register goes into the region's invariant and comes back; nothing is owed; the kernel has no semaphore of
    its own. -/
def R0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (Norm.body (VIN0 m) c).loose
  hwaits := Pipeline.hwaits_of_owed_zero _ _ _ _ L lv 0 fun _ _ => rfl
  pre c := iprop(StableHlo.held (c : Thread nD τ) (Pipeline.ucRefs τ sig) (Gen.V1 m c) ∗ E (F := F) 0 c)
  post c := iprop(StableHlo.held (c : Thread nD τ) (Pipeline.ucRefs τ sig) (Gen.V2 m (outs m) c) ∗ E (F := F) 1 c)
  X c := iprop(∃ r, prngReg c r)
  Y c := iprop(∃ r, prngReg c r)
  Z c := Pipeline.unscopedRest (Ix := Unit) (Name := ℕ) (U := Pipeline.UD sig nD τ) (Lvl := ℕ) spec0 c (VIN0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VIN0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (VIN0 m c) (VOUT0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1, pipeline 1) over the thread state: entered from every unscoped buffer at the contents before it, left at the
    contents after it. Its arrays are split out of the unscoped buffers at entry and put back at the exit contents; the
    generator register goes into the region's invariant and comes back; nothing is owed; the kernel has no semaphore of
    its own. -/
def R1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (Loss.body (VIN1 m (outs m)) c).loose
  hwaits := Pipeline.hwaits_of_owed_zero _ _ _ _ L lv 1 fun _ _ => rfl
  pre c := iprop(StableHlo.held (c : Thread nD τ) (Pipeline.ucRefs τ sig) (Gen.V19 m (outs m) c) ∗ E (F := F) 1 c)
  post c := iprop(StableHlo.held (c : Thread nD τ) (Pipeline.ucRefs τ sig) (Gen.V20 m (outs m) c) ∗ E (F := F) 2 c)
  X c := iprop(∃ r, prngReg c r)
  Y c := iprop(∃ r, prngReg c r)
  Z c := Pipeline.unscopedRest (Ix := Unit) (Name := ℕ) (U := Pipeline.UD sig nD τ) (Lvl := ℕ) spec1 c (VIN1 m (outs m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VIN1 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (VIN1 m (outs m) c) (VOUT1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The launch element: the pipelines' staging cells funded, no counter of the certificate's own. -/
abbrev u₀ : Pipeline.UD sig nD τ := (initOf (Pipeline.cells cfgs cellOf_inj) (Pipeline.launchToks cfgs cellOf_inj), 1)

/-- It yields the pipeline library's element; no core needs a ghost resource of its own. -/
theorem hu₀ : (ownU (u₀ : Pipeline.UD sig nD τ) : sProp 𝕄)
    ⊢ |={Set.univ}=> iprop(BI.own ((embL : Emb _ 𝕄) (initOf (Pipeline.cells cfgs cellOf_inj) (Pipeline.launchToks cfgs cellOf_inj)))
        ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- The rest state at the launch, on every core at once: the generator register as dealt, the core owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The rest state at the end holds the core owing nothing. -/
theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME at any `F`: from any memory with zero counters every weakly fair execution of @main terminates, nothing
    faulting, and every final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m embL () Variants.none L lv (fun _ _ => rfl) ρ (outs m) (pdats m) 0 (fun _ => iprop(emp)) u₀ hu₀
    E (hE0 ρ) hE2 (R0 m) (fun _ => .rfl) (fun _ => .rfl) (R1 m) (fun _ => .rfl) (fun _ => .rfl)

set_option backward.isDefEq.respectTransparency.types false in
/-- THE RUN, with everything it leaves: the same launch, read at the end against the whole last valuation — every
    unscoped buffer of every core ends at the contents after @main's last item. -/
theorem run_all (ρ : Dev nD → PrngReg) : θ_run defs (onTc (τ := τ) (main (F := F))) ⟨m, fun _ => 0, ρ⟩
    (fun r => ∀ (c : Dev nD), ∀ b ∈ Pipeline.ucRefs τ sig, r.2.mem (((c : Thread nD τ)).1, b) = Gen.V21 m (outs m) c b) := by
  refine Pipeline.θ_run_regions_kit_dev (pcfgs (F := F)) Gen.adm (pdats m) () cellOf_inj embL defs₀ Variants.none L lv m ρ main
    (Gen.segs m (outs m) Variants.none L lv E () (pdats m) (R0 m) (R1 m))
    (fun c Q => by
      rewrite [main_chain c, Pipeline.Seg.run_eq_chain,
        show (Gen.segs m (outs m) Variants.none L lv E () (pdats m) (R0 m) (R1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    0 (fun _ _ => rfl) (fun _ => iprop(emp)) u₀ hu₀
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (hE2 c)⟩)
    (hinit := ?_)
    (QY := fun c s => ∀ b ∈ Pipeline.ucRefs τ sig, s.mem (((c : Thread nD τ)).1, b) = Gen.V21 m (outs m) c b)
    (hfin := fun c s' => ?_) (hQ := fun _ h => h)
  · -- the launch: on each core the unscoped buffers are held at the launch contents, beside the rest state
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every held buffer read against the final state
    unfold StableHlo.held
    iintro ⟨Hh, HSI⟩
    imodintro
    iapply (pointsTo_read_all (Pipeline.ucRefs τ sig) (fun b => (((c : Thread nD τ)).1, b)) (Gen.V21 m (outs m) c) s')
    isplitl [Hh] <;> iassumption

end Cert.Kernel.Whole

end
-- ==== Proof.RefRun.lean ====
/- The reference program's run. Its @main is the straight line of its operations (the eleven consecutive lists of
   RefOps.lean, joined); every operation determines its results and touches TensorCore buffers only. Hence, from any
   memory with zero counters, every weakly fair execution terminates with each TensorCore buffer at the fold of the
   operations' results over the launch contents. -/
import proofs.«157332_j6846177869930_1_alg».proof.Proof.RefOps
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## Properties of every member of a joined list -/

/-- A property of every member of two lists is one of every member of their concatenation. -/
theorem mem_append_all {α : Type} {p : α → Prop} {l₁ l₂ : List α} (h₁ : ∀ a ∈ l₁, p a) (h₂ : ∀ a ∈ l₂, p a) :
    ∀ a ∈ l₁ ++ l₂, p a :=
  fun a ha => (List.mem_append.1 ha).elim (h₁ a) (h₂ a)

/-- The same, over `List.Forall`. -/
theorem forall_append_all {α : Type} {p : α → Prop} {l₁ l₂ : List α} (h₁ : l₁.Forall p) (h₂ : l₂.Forall p) :
    (l₁ ++ l₂).Forall p :=
  List.forall_iff_forall_mem.2 (mem_append_all (List.forall_iff_forall_mem.1 h₁) (List.forall_iff_forall_mem.1 h₂))

/-! ## @main is the line of its operations -/

set_option maxRecDepth 8192 in
set_option maxHeartbeats 4000000 in
/-- @main, statement by statement (each call's body unfolded in place), is the straight line of the operations. -/
theorem main_eq (c : Dev nD) : main (F := F) c = seq (RunP.ops (F := F)) := rfl

/-! ## Every operation determines its results

Each of the eleven lists is a literal: every member is one of its entries, and each entry is a builder's operation, which
leaves no result to be chosen. -/

theorem ops0_fresh : ∀ op ∈ (RunP.ops0 (F := F)), op.fresh = ∅ := by
  intro _ h; (repeat (cases h with | head => rfl | tail _ h => ?_)); exact nomatch h
theorem ops1_fresh : ∀ op ∈ (RunP.ops1 (F := F)), op.fresh = ∅ := by
  intro _ h; (repeat (cases h with | head => rfl | tail _ h => ?_)); exact nomatch h
theorem ops2_fresh : ∀ op ∈ (RunP.ops2 (F := F)), op.fresh = ∅ := by
  intro _ h; (repeat (cases h with | head => rfl | tail _ h => ?_)); exact nomatch h
theorem ops3_fresh : ∀ op ∈ (RunP.ops3 (F := F)), op.fresh = ∅ := by
  intro _ h; (repeat (cases h with | head => rfl | tail _ h => ?_)); exact nomatch h
theorem ops4_fresh : ∀ op ∈ (RunP.ops4 (F := F)), op.fresh = ∅ := by
  intro _ h; (repeat (cases h with | head => rfl | tail _ h => ?_)); exact nomatch h
theorem ops5_fresh : ∀ op ∈ (RunP.ops5 (F := F)), op.fresh = ∅ := by
  intro _ h; (repeat (cases h with | head => rfl | tail _ h => ?_)); exact nomatch h
theorem ops6_fresh : ∀ op ∈ (RunP.ops6 (F := F)), op.fresh = ∅ := by
  intro _ h; (repeat (cases h with | head => rfl | tail _ h => ?_)); exact nomatch h
theorem ops7_fresh : ∀ op ∈ (RunP.ops7 (F := F)), op.fresh = ∅ := by
  intro _ h; (repeat (cases h with | head => rfl | tail _ h => ?_)); exact nomatch h
theorem ops8_fresh : ∀ op ∈ (RunP.ops8 (F := F)), op.fresh = ∅ := by
  intro _ h; (repeat (cases h with | head => rfl | tail _ h => ?_)); exact nomatch h
theorem ops9_fresh : ∀ op ∈ (RunP.ops9 (F := F)), op.fresh = ∅ := by
  intro _ h; (repeat (cases h with | head => rfl | tail _ h => ?_)); exact nomatch h
theorem ops10_fresh : ∀ op ∈ (RunP.ops10 (F := F)), op.fresh = ∅ := by
  intro _ h; (repeat (cases h with | head => rfl | tail _ h => ?_)); exact nomatch h

/-- No operation of the line leaves a result to be chosen. -/
theorem ops_fresh : ∀ op ∈ (RunP.ops (F := F)), op.fresh = ∅ :=
  mem_append_all (mem_append_all (mem_append_all (mem_append_all (mem_append_all (mem_append_all (mem_append_all (mem_append_all (mem_append_all (mem_append_all (ops0_fresh) ops1_fresh) ops2_fresh) ops3_fresh) ops4_fresh) ops5_fresh) ops6_fresh) ops7_fresh) ops8_fresh) ops9_fresh) ops10_fresh

/-- Every operation of the line touches TensorCore buffers only. -/
theorem ops_sub : (RunP.ops (F := F)).Forall fun op => op.bufs ⊆ tcRefs τ sig :=
  forall_append_all (forall_append_all (forall_append_all (forall_append_all (forall_append_all (forall_append_all (forall_append_all (forall_append_all (forall_append_all (forall_append_all (RunP.ops0_sub) RunP.ops1_sub) RunP.ops2_sub) RunP.ops3_sub) RunP.ops4_sub) RunP.ops5_sub) RunP.ops6_sub) RunP.ops7_sub) RunP.ops8_sub) RunP.ops9_sub) RunP.ops10_sub

/-! ## The run -/

/-- On every device, for any float values, from any memory with zero counters: every weakly fair execution of @main
    terminates, and each TensorCore buffer ends at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (RunP.ops (F := F)) (launchContents m d) (Proc.devRef .tc b) :=
  run_seq RunP.scopedRefs_eq RunP.scopedSems_eq defs main (fun _ => RunP.ops) main_eq (fun _ => ops_sub) m ρ
    (hfresh := fun _ => ops_fresh)

end Cert.ReferenceIdeal.RunH

end
-- ==== Proof.RefMid.lean ====
/-
  The reference program's operations in two halves, and what the second half still reads of the first.
  After the first 219 operations (the normalised feature maps, the source keypoints' cell indices and bilinear
  weights, three of the four gathered corner terms summed) nine buffers are read again: the index columns of the
  fourth corner, the transposed normalised source map, the fourth weight, the partial sum, the normalised target
  map, and the two arguments not yet touched. `Mid` says each holds its stage of the arguments.
-/
import proofs.«157332_j6846177869930_1_alg».proof.Proof.RefOps
import proofs.«157332_j6846177869930_1_alg».proof.Proof.RefRead

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The first 219 operations: everything up to the third gathered corner term. -/
abbrev opsA : List (HloOp τ sig (Elt F)) := RunP.ops0 ++ RunP.ops1 ++ RunP.ops2 ++ RunP.ops3 ++ RunP.ops4 ++ RunP.ops5
/-- The remaining 172 operations: the fourth corner, the logits, the soft targets, the loss. -/
abbrev opsB : List (HloOp τ sig (Elt F)) := RunP.ops6 ++ RunP.ops7 ++ RunP.ops8 ++ RunP.ops9 ++ RunP.ops10

theorem ops_split : (RunP.ops : List (HloOp τ sig (Elt F))) = opsA ++ opsB := by
  simp only [RunP.ops, opsA, opsB, List.append_assoc]

/-- The buffers the second half reads of the first, each at its stage of the five arguments. -/
structure Mid (V : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F)) : Prop where
  v150 : V (Proc.devRef .tc main_v150) = ReadP.val_main_v150 (F := F)
  v151 : V (Proc.devRef .tc main_v151) = ReadP.val_main_v151 (F := F) x2
  v152 : V (Proc.devRef .tc main_v152) = ReadP.val_main_v152 (F := F) x2
  v44 : V (Proc.devRef .tc main_v44) = ReadP.val_main_v44 (F := F) x0
  v62 : V (Proc.devRef .tc main_v62) = ReadP.val_main_v62 (F := F) x2
  v133 : V (Proc.devRef .tc main_v133) = ReadP.val_main_v133 (F := F) x0 x2
  v15 : V (Proc.devRef .tc main_v15) = ReadP.val_main_v15 (F := F) x1
  a3 : V (Proc.devRef .tc main_arg3) = x3
  a4 : V (Proc.devRef .tc main_arg4) = x4

end Cert.ReferenceIdeal.Stages

end
-- ==== Proof.LibNary3.lean ====
/-
  Reading a buffer after a line of host operations when one of them takes THREE operands as a family
  (a concatenation of three pieces).

  The contents after a line are a fold: each operation rewrites the buffer it writes and leaves the others. The
  result of an operation over a family of operands reads the earlier contents at `the k-th reference`, k bound; under
  that binder no reference is a literal, so the reading cannot go on into the operands. For a LITERAL family of three
  the lemma below states the result with each operand's contents at its own reference, and the one-pass reading of the
  fold then continues through all three.
-/
import Idealize.ShloMosaic.Lib.StableHlo.Run

namespace Idealize.ShloMosaic.StableHlo

variable {τ : Topo} {sig : RefSig} {Val : EltTy → Type}
variable {x a b y : Ref sig .tc}

/-- The result of an operation over a literal family of three references, each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form the one-pass reading uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The one-pass reading of a fold of host operations at a buffer, going on through three-operand families. -/
macro "after_results_simp3" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RefStagesA.lean ====
/-
  The first half of the reference program, list by list.

  The first 219 operations are six consecutive lists. Between two lists only a few buffers are still of interest: those
  a later operation reads. `LiveK` names them after list K and says each holds its stage (`ReadP.val_…`) of the five
  arguments; the two arguments this half never touches are carried along unchanged. Each list is read on its own, from
  ANY contents satisfying the previous list's facts: at a buffer the list writes, the fold over the list is the
  operation's function of its operands' contents, each read in turn down to the contents before the list, where the facts
  put the incoming stages; a stage's definition is the same composition, so the two sides agree by computation. A
  buffer the list does not write keeps its contents and its fact. Chaining the six gives `Mid` after the half, from any
  starting contents.
-/
import proofs.«157332_j6846177869930_1_alg».proof.Proof.RefMid
import proofs.«157332_j6846177869930_1_alg».proof.Proof.LibNary3

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## What is live between the lists

After each of the first five lists a handful of buffers is read again by a later operation; `LiveK` says each of
them holds its stage of the five arguments, and that the two arguments not read in this half are untouched. After the
sixth list the live buffers are `Mid`'s. -/

/-- After operations 1 to 40: the lower clip bound as a float, the floor of the x coordinate, the upper clip bound, the
    two scaled coordinates, and the two normalised feature maps. -/
structure Live0 (V : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F)) : Prop where
  call0_v0 : V (Proc.devRef .tc main_call0_v0) = ReadP.val_main_call0_v0 (F := F)
  v28 : V (Proc.devRef .tc main_v28) = ReadP.val_main_v28 (F := F) x2
  c_7 : V (Proc.devRef .tc main_c_7) = ReadP.val_main_c_7 (F := F)
  v27 : V (Proc.devRef .tc main_v27) = ReadP.val_main_v27 (F := F) x2
  v21 : V (Proc.devRef .tc main_v21) = ReadP.val_main_v21 (F := F) x2
  v7 : V (Proc.devRef .tc main_v7) = ReadP.val_main_v7 (F := F) x0
  v15 : V (Proc.devRef .tc main_v15) = ReadP.val_main_v15 (F := F) x1
  a3 : V (Proc.devRef .tc main_arg3) = x3
  a4 : V (Proc.devRef .tc main_arg4) = x4

/-- After operations 41 to 80: the four clipped cell indices, the scaled y coordinate, the x fraction, and the two
    normalised maps. -/
structure Live1 (V : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F)) : Prop where
  v33 : V (Proc.devRef .tc main_v33) = ReadP.val_main_v33 (F := F) x2
  v27 : V (Proc.devRef .tc main_v27) = ReadP.val_main_v27 (F := F) x2
  v7 : V (Proc.devRef .tc main_v7) = ReadP.val_main_v7 (F := F) x0
  v41 : V (Proc.devRef .tc main_v41) = ReadP.val_main_v41 (F := F) x2
  v30 : V (Proc.devRef .tc main_v30) = ReadP.val_main_v30 (F := F) x2
  v39 : V (Proc.devRef .tc main_v39) = ReadP.val_main_v39 (F := F) x2
  v36 : V (Proc.devRef .tc main_v36) = ReadP.val_main_v36 (F := F) x2
  v15 : V (Proc.devRef .tc main_v15) = ReadP.val_main_v15 (F := F) x1
  a3 : V (Proc.devRef .tc main_arg3) = x3
  a4 : V (Proc.devRef .tc main_arg4) = x4

/-- After operations 81 to 130: the first corner's three index columns, the transposed source map, the four bilinear
    weights (the first about to be used), the batch index column, the cell indices still to be used, the target map. -/
structure Live2 (V : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F)) : Prop where
  v79 : V (Proc.devRef .tc main_v79) = ReadP.val_main_v79 (F := F)
  v80 : V (Proc.devRef .tc main_v80) = ReadP.val_main_v80 (F := F) x2
  v81 : V (Proc.devRef .tc main_v81) = ReadP.val_main_v81 (F := F) x2
  v44 : V (Proc.devRef .tc main_v44) = ReadP.val_main_v44 (F := F) x0
  v52 : V (Proc.devRef .tc main_v52) = ReadP.val_main_v52 (F := F) x2
  v46 : V (Proc.devRef .tc main_v46) = ReadP.val_main_v46 (F := F)
  v39 : V (Proc.devRef .tc main_v39) = ReadP.val_main_v39 (F := F) x2
  v30 : V (Proc.devRef .tc main_v30) = ReadP.val_main_v30 (F := F) x2
  v56 : V (Proc.devRef .tc main_v56) = ReadP.val_main_v56 (F := F) x2
  v33 : V (Proc.devRef .tc main_v33) = ReadP.val_main_v33 (F := F) x2
  v36 : V (Proc.devRef .tc main_v36) = ReadP.val_main_v36 (F := F) x2
  v60 : V (Proc.devRef .tc main_v60) = ReadP.val_main_v60 (F := F) x2
  v62 : V (Proc.devRef .tc main_v62) = ReadP.val_main_v62 (F := F) x2
  v15 : V (Proc.devRef .tc main_v15) = ReadP.val_main_v15 (F := F) x1
  a3 : V (Proc.devRef .tc main_arg3) = x3
  a4 : V (Proc.devRef .tc main_arg4) = x4

/-- After operations 131 to 159: the second corner's index columns, the first corner's weighted term, and what the
    later corners still read. -/
structure Live3 (V : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F)) : Prop where
  v102 : V (Proc.devRef .tc main_v102) = ReadP.val_main_v102 (F := F)
  v103 : V (Proc.devRef .tc main_v103) = ReadP.val_main_v103 (F := F) x2
  v104 : V (Proc.devRef .tc main_v104) = ReadP.val_main_v104 (F := F) x2
  v44 : V (Proc.devRef .tc main_v44) = ReadP.val_main_v44 (F := F) x0
  v56 : V (Proc.devRef .tc main_v56) = ReadP.val_main_v56 (F := F) x2
  v85 : V (Proc.devRef .tc main_v85) = ReadP.val_main_v85 (F := F) x0 x2
  v46 : V (Proc.devRef .tc main_v46) = ReadP.val_main_v46 (F := F)
  v33 : V (Proc.devRef .tc main_v33) = ReadP.val_main_v33 (F := F) x2
  v36 : V (Proc.devRef .tc main_v36) = ReadP.val_main_v36 (F := F) x2
  v60 : V (Proc.devRef .tc main_v60) = ReadP.val_main_v60 (F := F) x2
  v39 : V (Proc.devRef .tc main_v39) = ReadP.val_main_v39 (F := F) x2
  v62 : V (Proc.devRef .tc main_v62) = ReadP.val_main_v62 (F := F) x2
  v15 : V (Proc.devRef .tc main_v15) = ReadP.val_main_v15 (F := F) x1
  a3 : V (Proc.devRef .tc main_arg3) = x3
  a4 : V (Proc.devRef .tc main_arg4) = x4

/-- After operations 160 to 189: the third corner's index columns, the sum of the first two weighted terms, and what
    the later corners still read. -/
structure Live4 (V : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F)) : Prop where
  v126 : V (Proc.devRef .tc main_v126) = ReadP.val_main_v126 (F := F)
  v127 : V (Proc.devRef .tc main_v127) = ReadP.val_main_v127 (F := F) x2
  v128 : V (Proc.devRef .tc main_v128) = ReadP.val_main_v128 (F := F) x2
  v44 : V (Proc.devRef .tc main_v44) = ReadP.val_main_v44 (F := F) x0
  v60 : V (Proc.devRef .tc main_v60) = ReadP.val_main_v60 (F := F) x2
  v109 : V (Proc.devRef .tc main_v109) = ReadP.val_main_v109 (F := F) x0 x2
  v46 : V (Proc.devRef .tc main_v46) = ReadP.val_main_v46 (F := F)
  v39 : V (Proc.devRef .tc main_v39) = ReadP.val_main_v39 (F := F) x2
  v36 : V (Proc.devRef .tc main_v36) = ReadP.val_main_v36 (F := F) x2
  v62 : V (Proc.devRef .tc main_v62) = ReadP.val_main_v62 (F := F) x2
  v15 : V (Proc.devRef .tc main_v15) = ReadP.val_main_v15 (F := F) x1
  a3 : V (Proc.devRef .tc main_arg3) = x3
  a4 : V (Proc.devRef .tc main_arg4) = x4

variable {W : Valuation τ sig (Elt F)}
  {x0 x1 : (⟨S32x256x64x64, .f32⟩ : BufTy).Contents (Elt F)} {x2 x3 : (⟨S32x128x2, .f32⟩ : BufTy).Contents (Elt F)}
  {x4 : (⟨S32x128, .i32⟩ : BufTy).Contents (Elt F)}

/-- Reads the fold of a list of host operations at one buffer, from the outside in: at each operation the buffer is the
    one it writes (then its function of the operands' contents before it, each read in turn) or another (then what was
    there before it). The contents-before are never walked into, only read where an operand asks. -/
local macro "read_fold" : tactic =>
  `(tactic| (simp only [after_cons, after_nil]
             simp (disch := decide) only [
               ↓nullary_result', ↓unary_result', ↓binary_result', ↓ternary_result', ↓reshape_result', ↓nary3_result',
               ↓nullary_result_ne', ↓unary_result_ne', ↓binary_result_ne', ↓ternary_result_ne', ↓reshape_result_ne',
               ↓nary_result_ne']))

/-- One live buffer after a list, from the facts about the contents before it (in the context). The fold is read at the
    buffer; if the list does not write it, what stands is one of the facts; if it does, the facts put the incoming
    stages into the composition read, and that is the buffer's stage with its definition unfolded as far as the
    incoming ones (a callee's typed references move contents along an equation of types that is the identity). -/
local macro "live_buffer" : tactic =>
  `(tactic| (read_fold
             first
               | done
               | assumption
               | ((try simp only [*]) <;> (try simp only [TRef.ofBuf, TRef.toBuf, cast_eq]) <;> rfl)))

/-- From any contents, operations 1 to 40 leave their live buffers at their stages of the contents' arguments. -/
theorem live0 (V : Valuation τ sig (Elt F)) :
    Live0 (after (RunP.ops0 (F := F)) V) (V (Proc.devRef .tc main_arg0)) (V (Proc.devRef .tc main_arg1))
      (V (Proc.devRef .tc main_arg2)) (V (Proc.devRef .tc main_arg3)) (V (Proc.devRef .tc main_arg4)) := by
  constructor <;> live_buffer

set_option maxHeartbeats 1000000 in
/-- Operations 41 to 80 (the coordinates' floors clipped to the grid and made cell indices, their successors clipped,
    the x fraction) carry `Live0` to `Live1`. -/
theorem live1 (h : Live0 W x0 x1 x2 x3 x4) : Live1 (after (RunP.ops1 (F := F)) W) x0 x1 x2 x3 x4 := by
  obtain ⟨e_call0_v0, e28, e_c_7, e27, e21, e7, e15, ea3, ea4⟩ := h
  constructor <;> live_buffer

set_option maxHeartbeats 4000000 in
/-- Operations 81 to 130 (the y fraction, the source map transposed, the batch index column, the four bilinear
    weights, the first corner's index columns) carry `Live1` to `Live2`. -/
theorem live2 (h : Live1 W x0 x1 x2 x3 x4) : Live2 (after (RunP.ops2 (F := F)) W) x0 x1 x2 x3 x4 := by
  obtain ⟨e33, e27, e7, e41, e30, e39, e36, e15, ea3, ea4⟩ := h
  constructor <;> live_buffer

set_option maxHeartbeats 2000000 in
/-- Operations 131 to 159 (the first corner: its index columns joined, the gather, the weighted term; then the second
    corner's index columns) carry `Live2` to `Live3`. The joined columns sit under the gather as a family of three,
    so at the weighted term the incoming facts are put in by rewriting inside that family. -/
theorem live3 (h : Live2 W x0 x1 x2 x3 x4) : Live3 (after (RunP.ops3 (F := F)) W) x0 x1 x2 x3 x4 := by
  obtain ⟨e79, e80, e81, e44, e52, e46, e39, e30, e56, e33, e36, e60, e62, e15, ea3, ea4⟩ := h
  constructor
  case v85 => read_fold; rw [e79, e80, e81, e44, e52]; rfl
  all_goals live_buffer

set_option maxHeartbeats 2000000 in
/-- Operations 160 to 189 (the second corner gathered, weighted and added; the third corner's index columns) carry
    `Live3` to `Live4`. -/
theorem live4 (h : Live3 W x0 x1 x2 x3 x4) : Live4 (after (RunP.ops4 (F := F)) W) x0 x1 x2 x3 x4 := by
  obtain ⟨e102, e103, e104, e44, e56, e85, e46, e33, e36, e60, e39, e62, e15, ea3, ea4⟩ := h
  constructor
  case v109 => read_fold; rw [e102, e103, e104, e44, e56, e85]; rfl
  all_goals live_buffer

set_option maxHeartbeats 2000000 in
/-- Operations 190 to 219 (the third corner gathered, weighted and added; the fourth corner's index columns) carry
    `Live4` to `Mid`. -/
theorem live5 (h : Live4 W x0 x1 x2 x3 x4) : Mid (after (RunP.ops5 (F := F)) W) x0 x1 x2 x3 x4 := by
  obtain ⟨e126, e127, e128, e44, e60, e109, e46, e39, e36, e62, e15, ea3, ea4⟩ := h
  constructor
  case v133 => read_fold; rw [e126, e127, e128, e44, e60, e109]; rfl
  all_goals live_buffer

/-- From ANY contents `V`, after the first 219 operations each buffer the second half reads holds its stage of `V`'s
    five argument buffers: the six lists one after the other, each list's incoming facts the previous list's. -/
theorem mid_of_launch (V : Valuation τ sig (Elt F)) :
    Mid (after (opsA (F := F)) V) (V (Proc.devRef .tc main_arg0)) (V (Proc.devRef .tc main_arg1))
      (V (Proc.devRef .tc main_arg2)) (V (Proc.devRef .tc main_arg3)) (V (Proc.devRef .tc main_arg4)) := by
  have h := live5 (live4 (live3 (live2 (live1 (live0 V)))))
  simpa only [opsA, StableHlo.after_append] using h

end Cert.ReferenceIdeal.Stages

end
-- ==== Proof.RefLive89.lean ====
/-
  Lists 8 and 9 of the reference program's second half: the soft targets' four corner weights and cell numbers.

  List 8 joins the four bilinear weights of the target keypoint into one array and multiplies it by the keypoint mask
  (as a float), and turns the four corners' (row, column) cell indices into flat cell numbers (64 · row + column), each
  as a column.
  List 9 joins those four columns, wraps negative cell numbers, and builds the batch and keypoint index arrays of the
  scatter that follows, and the zero array it scatters into. As in the first half, each list is read on its own from ANY
  contents satisfying the facts about the buffers it reads, and a buffer it does not write keeps its fact.
-/
import proofs.«157332_j6846177869930_1_alg».proof.Proof.RefMid

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

variable {W : Valuation τ sig (Elt F)}
  {x0 x1 : (⟨S32x256x64x64, .f32⟩ : BufTy).Contents (Elt F)} {x2 x3 : (⟨S32x128x2, .f32⟩ : BufTy).Contents (Elt F)}
  {x4 : (⟨S32x128, .i32⟩ : BufTy).Contents (Elt F)}

/-- Reads the fold of a list of host operations at one buffer, from the outside in: at each operation the buffer is the
    one it writes (then its function of the operands' contents before it, each read in turn) or another (then what was
    there before it). The contents-before are never walked into, only read where an operand asks. -/
local macro "read_fold" : tactic =>
  `(tactic| (simp only [after_cons, after_nil]
             simp (disch := decide) only [
               ↓nullary_result', ↓unary_result', ↓binary_result', ↓ternary_result', ↓reshape_result', ↓nary4_result',
               ↓nullary_result_ne', ↓unary_result_ne', ↓binary_result_ne', ↓ternary_result_ne', ↓reshape_result_ne',
               ↓nary_result_ne']))

/-- One live buffer after a list, from the facts about the contents before it (in the context). The fold is read at the
    buffer; if the list does not write it, what stands is one of the facts; if it does, the facts put the incoming
    stages into the composition read, and that is the buffer's stage with its definition unfolded as far as the
    incoming ones. -/
local macro "live_buffer" : tactic =>
  `(tactic| (read_fold
             first
               | done
               | assumption
               | ((try simp only [*]) <;> rfl)))

/-- List 8 (operations 306 to 329). The four weights are joined as a family of four under the product with the mask,
    so at the masked weights the incoming facts are put in by rewriting inside that family. -/
theorem live8
    (h201 : W (Proc.devRef .tc main_v201) = ReadP.val_main_v201 (F := F) x3) (h202 : W (Proc.devRef .tc main_v202) = ReadP.val_main_v202 (F := F) x3)
    (h203 : W (Proc.devRef .tc main_v203) = ReadP.val_main_v203 (F := F) x3) (h204 : W (Proc.devRef .tc main_v204) = ReadP.val_main_v204 (F := F) x3)
    (h200 : W (Proc.devRef .tc main_v200) = ReadP.val_main_v200 (F := F) x4) (h178 : W (Proc.devRef .tc main_v178) = ReadP.val_main_v178 (F := F) x3)
    (h172 : W (Proc.devRef .tc main_v172) = ReadP.val_main_v172 (F := F) x3) (h181 : W (Proc.devRef .tc main_v181) = ReadP.val_main_v181 (F := F) x3)
    (h175 : W (Proc.devRef .tc main_v175) = ReadP.val_main_v175 (F := F) x3) (h161 : W (Proc.devRef .tc main_v161) = ReadP.val_main_v161 (F := F) x0 x1 x2) :
    after (RunP.ops8 (F := F)) W (Proc.devRef .tc main_v221) = ReadP.val_main_v221 (F := F) x3
    ∧ after (RunP.ops8 (F := F)) W (Proc.devRef .tc main_v222) = ReadP.val_main_v222 (F := F) x3
    ∧ after (RunP.ops8 (F := F)) W (Proc.devRef .tc main_v223) = ReadP.val_main_v223 (F := F) x3
    ∧ after (RunP.ops8 (F := F)) W (Proc.devRef .tc main_v224) = ReadP.val_main_v224 (F := F) x3
    ∧ after (RunP.ops8 (F := F)) W (Proc.devRef .tc main_v208) = ReadP.val_main_v208 (F := F) x3 x4
    ∧ after (RunP.ops8 (F := F)) W (Proc.devRef .tc main_v161) = ReadP.val_main_v161 (F := F) x0 x1 x2
    ∧ after (RunP.ops8 (F := F)) W (Proc.devRef .tc main_v200) = ReadP.val_main_v200 (F := F) x4 := by
  refine ⟨by live_buffer, by live_buffer, by live_buffer, by live_buffer, ?_, by live_buffer, by live_buffer⟩
  read_fold; rw [h201, h202, h203, h204, h200]; rfl

/-- List 9 (operations 330 to 362). The four cell-number columns are joined as a family of four under the wrap of
    negative numbers, so at the wrapped cell numbers the incoming facts are put in by rewriting inside that family. -/
theorem live9
    (k221 : W (Proc.devRef .tc main_v221) = ReadP.val_main_v221 (F := F) x3) (k222 : W (Proc.devRef .tc main_v222) = ReadP.val_main_v222 (F := F) x3)
    (k223 : W (Proc.devRef .tc main_v223) = ReadP.val_main_v223 (F := F) x3) (k224 : W (Proc.devRef .tc main_v224) = ReadP.val_main_v224 (F := F) x3)
    (k208 : W (Proc.devRef .tc main_v208) = ReadP.val_main_v208 (F := F) x3 x4) (k161 : W (Proc.devRef .tc main_v161) = ReadP.val_main_v161 (F := F) x0 x1 x2)
    (k200 : W (Proc.devRef .tc main_v200) = ReadP.val_main_v200 (F := F) x4) :
    after (RunP.ops9 (F := F)) W (Proc.devRef .tc main_v248) = ReadP.val_main_v248 (F := F)
    ∧ after (RunP.ops9 (F := F)) W (Proc.devRef .tc main_v249) = ReadP.val_main_v249 (F := F)
    ∧ after (RunP.ops9 (F := F)) W (Proc.devRef .tc main_v250) = ReadP.val_main_v250 (F := F) x3
    ∧ after (RunP.ops9 (F := F)) W (Proc.devRef .tc main_v230) = ReadP.val_main_v230 (F := F)
    ∧ after (RunP.ops9 (F := F)) W (Proc.devRef .tc main_v208) = ReadP.val_main_v208 (F := F) x3 x4
    ∧ after (RunP.ops9 (F := F)) W (Proc.devRef .tc main_v161) = ReadP.val_main_v161 (F := F) x0 x1 x2
    ∧ after (RunP.ops9 (F := F)) W (Proc.devRef .tc main_v200) = ReadP.val_main_v200 (F := F) x4 := by
  refine ⟨by live_buffer, by live_buffer, ?_, by live_buffer, by live_buffer, by live_buffer, by live_buffer⟩
  read_fold; rw [k221, k222, k223, k224]; rfl

/-- Lists 8 and 9 one after the other: from the ten facts about the contents before list 8, the seven buffers read after
    list 9 hold their stages. -/
theorem live89 (W : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F))
    (h201 : W (Proc.devRef .tc main_v201) = ReadP.val_main_v201 (F := F) x3) (h202 : W (Proc.devRef .tc main_v202) = ReadP.val_main_v202 (F := F) x3)
    (h203 : W (Proc.devRef .tc main_v203) = ReadP.val_main_v203 (F := F) x3) (h204 : W (Proc.devRef .tc main_v204) = ReadP.val_main_v204 (F := F) x3)
    (h200 : W (Proc.devRef .tc main_v200) = ReadP.val_main_v200 (F := F) x4) (h178 : W (Proc.devRef .tc main_v178) = ReadP.val_main_v178 (F := F) x3)
    (h172 : W (Proc.devRef .tc main_v172) = ReadP.val_main_v172 (F := F) x3) (h181 : W (Proc.devRef .tc main_v181) = ReadP.val_main_v181 (F := F) x3)
    (h175 : W (Proc.devRef .tc main_v175) = ReadP.val_main_v175 (F := F) x3) (h161 : W (Proc.devRef .tc main_v161) = ReadP.val_main_v161 (F := F) x0 x1 x2) :
    let W' := after (RunP.ops9 (F := F)) (after (RunP.ops8 (F := F)) W)
    W' (Proc.devRef .tc main_v248) = ReadP.val_main_v248 (F := F) ∧ W' (Proc.devRef .tc main_v249) = ReadP.val_main_v249 (F := F)
    ∧ W' (Proc.devRef .tc main_v250) = ReadP.val_main_v250 (F := F) x3 ∧ W' (Proc.devRef .tc main_v230) = ReadP.val_main_v230 (F := F)
    ∧ W' (Proc.devRef .tc main_v208) = ReadP.val_main_v208 (F := F) x3 x4 ∧ W' (Proc.devRef .tc main_v161) = ReadP.val_main_v161 (F := F) x0 x1 x2
    ∧ W' (Proc.devRef .tc main_v200) = ReadP.val_main_v200 (F := F) x4 := by
  intro W'
  obtain ⟨k221, k222, k223, k224, k208, k161, k200⟩ := live8 h201 h202 h203 h204 h200 h178 h172 h181 h175 h161
  exact live9 k221 k222 k223 k224 k208 k161 k200

end Cert.ReferenceIdeal.Stages

end
-- ==== Proof.RefLoss10.lean ====
import proofs.«157332_j6846177869930_1_alg».proof.Proof.RefMid
import proofs.«157332_j6846177869930_1_alg».proof.Proof.LibNary3
import Idealize.ShloMosaic.Lib.StableHlo.Run

/-!
# The reference's last stretch: from the logits and the soft-target pieces to the loss

The last 29 operations of the reference join the three index columns of the scatter, scatter-add the masked target
weights into zeros (the soft targets), take the log-softmax of the logits row by row (row maximum from −∞, shifted
exponentials summed from 0, the logarithm subtracted), multiply, sum each row, negate, multiply by the mask, sum
over all keypoints and divide by the larger of the mask's sum and 1. Each operation's result is, by definition, the
next stage of the arguments; so reading the final buffer back through the 29 operations from a state in which the
seven buffers they still read hold their stages gives the final stage.
-/

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Reads the fold over a literal list of operations at one buffer. The fold is opened into the operations' results
    nested one inside the other; then, from the outside in and only at the head of the term, an operation's result at
    the buffer it writes becomes its function of the contents before it at its operands, and at any other buffer the
    contents before it (the buffers' inequality decided). Rewriting at the head first keeps the pass out of the nested
    contents-before, which it would otherwise traverse once per reader. -/
local macro "fold_at_buffer" : tactic =>
  `(tactic| (simp only [after_cons, after_nil]
             simp (disch := decide) only [
               ↓nullary_result', ↓unary_result', ↓binary_result', ↓ternary_result', ↓nary3_result',
               ↓nullary_result_ne', ↓unary_result_ne', ↓binary_result_ne', ↓ternary_result_ne', ↓nary_result_ne']))

/-- The contents after two lists run one after the other. -/
private theorem after_app : ∀ (l₁ l₂ : List (HloOp τ sig (Elt F))) (V : Valuation τ sig (Elt F)),
    after (l₁ ++ l₂) V = after l₂ (after l₁ V)
  | [], _, _ => rfl
  | op :: l₁, l₂, V => after_app l₁ l₂ (op.result V)

/-! ## The three stretches of the list -/

/-- The index columns joined and the masked target weights scattered into zeros: 2 operations. -/
abbrev opsScatter : List (HloOp τ sig (Elt F)) := (RunP.ops10 (F := F)).take 2
/-- The log-softmax of the logits, the callee's 15 operations. -/
abbrev opsSoftmax : List (HloOp τ sig (Elt F)) := ((RunP.ops10 (F := F)).drop 2).take 15
/-- The product with the soft targets, the row sums, the sign, the mask, the total and the division: 12 operations. -/
abbrev opsClose : List (HloOp τ sig (Elt F)) := (RunP.ops10 (F := F)).drop 17

/-! ## The scatter stretch -/

/-- The soft targets: the scatter-add of the masked weights at the joined index columns, into zeros. -/
theorem scatter_v252 (W : Valuation τ sig (Elt F)) (x3 : (⟨S32x128x2, .f32⟩ : BufTy).Contents (Elt F)) (x4 : (⟨S32x128, .i32⟩ : BufTy).Contents (Elt F))
    (h248 : W (Proc.devRef .tc main_v248) = ReadP.val_main_v248 (F := F))
    (h249 : W (Proc.devRef .tc main_v249) = ReadP.val_main_v249 (F := F))
    (h250 : W (Proc.devRef .tc main_v250) = ReadP.val_main_v250 (F := F) x3)
    (h230 : W (Proc.devRef .tc main_v230) = ReadP.val_main_v230 (F := F))
    (h208 : W (Proc.devRef .tc main_v208) = ReadP.val_main_v208 (F := F) x3 x4) :
    after (opsScatter (F := F)) W (Proc.devRef .tc main_v252) = ReadP.val_main_v252 (F := F) x3 x4 := by
  show after [_, _] W _ = _
  fold_at_buffer
  rw [h248, h249, h250, h230, h208]
  rfl

/-- The stretch writes neither the logits nor the mask. -/
theorem scatter_keeps (W : Valuation τ sig (Elt F)) :
    after (opsScatter (F := F)) W (Proc.devRef .tc main_v161) = W (Proc.devRef .tc main_v161)
    ∧ after (opsScatter (F := F)) W (Proc.devRef .tc main_v200) = W (Proc.devRef .tc main_v200) := by
  constructor
  · show after [_, _] _ _ = _
    fold_at_buffer
  · show after [_, _] _ _ = _
    fold_at_buffer

/-! ## The log-softmax -/

/-! ## Typed references: moving contents to a buffer and back -/

/-- Moving contents into a typed reference's buffer and back is the identity. -/
theorem ofBuf_toBuf {T : BufTy} (x : TRef sig T) (v : T.Contents (Elt F)) : x.ofBuf (x.toBuf v) = v := by
  obtain ⟨r, rfl, _, _⟩ := x
  rfl

/-- Read at the callee's type, the logits' buffer holds what it holds: its type is that type. -/
theorem ofBuf_v161 (p : main_v161.ty = (⟨S32x128x4096, .f32⟩ : BufTy)) (q : main_v161.space ≠ .host) (s : main_v161.isScoped = false)
    (v : (⟨S32x128x4096, .f32⟩ : BufTy).Contents (Elt F)) : (TRef.of main_v161 p q s).ofBuf v = v := rfl

/-- Likewise what the callee writes to its result buffer is what it computed. -/
theorem toBuf_v253 (p : main_v253.ty = (⟨S32x128x4096, .f32⟩ : BufTy)) (q : main_v253.space ≠ .host) (s : main_v253.isScoped = false)
    (v : (⟨S32x128x4096, .f32⟩ : BufTy).Contents (Elt F)) : (TRef.of main_v253 p q s).toBuf v = v := rfl

set_option maxHeartbeats 1000000 in
/-- The log-softmax of the logits: row maximum from −∞, the shifted exponentials summed from 0, the logarithm of the
    sum subtracted from the shifted logits. The callee's buffers carry their tensor types; moving contents to and from
    them is the identity. -/
theorem softmax_v253 (V : Valuation τ sig (Elt F)) (x0 x1 : (⟨S32x256x64x64, .f32⟩ : BufTy).Contents (Elt F))
    (x2 : (⟨S32x128x2, .f32⟩ : BufTy).Contents (Elt F))
    (h161 : V (Proc.devRef .tc main_v161) = ReadP.val_main_v161 (F := F) x0 x1 x2) :
    after (opsSoftmax (F := F)) V (Proc.devRef .tc main_v253) = ReadP.val_main_v253 (F := F) x0 x1 x2 := by
  show after [_, _, _, _, _, _, _, _, _, _, _, _, _, _, _] V _ = _
  fold_at_buffer
  rw [h161]
  repeat rw [ofBuf_toBuf]
  rw [ofBuf_v161, toBuf_v253]
  rfl

/-- The callee writes neither the soft targets nor the mask. -/
theorem softmax_keeps (V : Valuation τ sig (Elt F)) :
    after (opsSoftmax (F := F)) V (Proc.devRef .tc main_v252) = V (Proc.devRef .tc main_v252)
    ∧ after (opsSoftmax (F := F)) V (Proc.devRef .tc main_v200) = V (Proc.devRef .tc main_v200) := by
  constructor
  · show after [_, _, _, _, _, _, _, _, _, _, _, _, _, _, _] _ _ = _
    fold_at_buffer
  · show after [_, _, _, _, _, _, _, _, _, _, _, _, _, _, _] _ _ = _
    fold_at_buffer

/-! ## The closing sums -/

set_option maxHeartbeats 1000000 in
/-- From the soft targets, the log-softmax and the mask to the loss. -/
theorem close_v261 (U : Valuation τ sig (Elt F)) (x0 x1 : (⟨S32x256x64x64, .f32⟩ : BufTy).Contents (Elt F))
    (x2 x3 : (⟨S32x128x2, .f32⟩ : BufTy).Contents (Elt F)) (x4 : (⟨S32x128, .i32⟩ : BufTy).Contents (Elt F))
    (h252 : U (Proc.devRef .tc main_v252) = ReadP.val_main_v252 (F := F) x3 x4)
    (h253 : U (Proc.devRef .tc main_v253) = ReadP.val_main_v253 (F := F) x0 x1 x2)
    (h200 : U (Proc.devRef .tc main_v200) = ReadP.val_main_v200 (F := F) x4) :
    after (opsClose (F := F)) U (Proc.devRef .tc main_v261) = ReadP.val_main_v261 (F := F) x0 x1 x2 x3 x4 := by
  show after [_, _, _, _, _, _, _, _, _, _, _, _] U _ = _
  fold_at_buffer
  rw [h252, h253, h200]
  rfl

/-! ## The whole list -/

/-- After the last 29 operations, run from contents `W` in which the three index columns, the zero tensor, the masked
    target weights, the logits and the mask hold their stages of the arguments, the result buffer holds the loss. -/
theorem loss10 (W : Valuation τ sig (Elt F)) (x0 x1 : (⟨S32x256x64x64, .f32⟩ : BufTy).Contents (Elt F))
    (x2 x3 : (⟨S32x128x2, .f32⟩ : BufTy).Contents (Elt F)) (x4 : (⟨S32x128, .i32⟩ : BufTy).Contents (Elt F))
    (h248 : W (Proc.devRef .tc main_v248) = ReadP.val_main_v248 (F := F))
    (h249 : W (Proc.devRef .tc main_v249) = ReadP.val_main_v249 (F := F))
    (h250 : W (Proc.devRef .tc main_v250) = ReadP.val_main_v250 (F := F) x3)
    (h230 : W (Proc.devRef .tc main_v230) = ReadP.val_main_v230 (F := F))
    (h208 : W (Proc.devRef .tc main_v208) = ReadP.val_main_v208 (F := F) x3 x4)
    (h161 : W (Proc.devRef .tc main_v161) = ReadP.val_main_v161 (F := F) x0 x1 x2)
    (h200 : W (Proc.devRef .tc main_v200) = ReadP.val_main_v200 (F := F) x4) :
    after (RunP.ops10 (F := F)) W (Proc.devRef .tc main_v261) = ReadP.val_main_v261 (F := F) x0 x1 x2 x3 x4 := by
  show after (opsScatter (F := F) ++ (opsSoftmax (F := F) ++ opsClose (F := F))) W _ = _
  rw [after_app, after_app]
  obtain ⟨k161, k200⟩ := scatter_keeps (F := F) W
  obtain ⟨k252, k200'⟩ := softmax_keeps (F := F) (after (opsScatter (F := F)) W)
  refine close_v261 _ x0 x1 x2 x3 x4 ?_ ?_ ?_
  · rw [k252]; exact scatter_v252 W x3 x4 h248 h249 h250 h230 h208
  · exact softmax_v253 _ x0 x1 x2 (k161.trans h161)
  · rw [k200', k200]; exact h200

end Cert.ReferenceIdeal.Stages

end
-- ==== Proof.RefStagesB.lean ====
/-
  The second half of the reference program: its first two lists, the chain of all five, and the arguments.

  The 172 operations after the first 219 are five consecutive lists. Each list reads a few buffers written before
  it and leaves a few that are read after it; every buffer is written once. For a list one statement: if the
  buffers it reads hold their stages of the five arguments on entry, the buffers still read afterwards hold
  theirs on exit. A stage is, by definition, its operation applied to its operands' stages, so each such fact is
  the fold of the list unrolled at that buffer — every operation's result at its own buffer, the entry contents at
  any other — with the entry contents replaced by their stages. Here the first two lists (the logits; the target
  keypoints' cells, bilinear weights and validity mask) are read; the third and fourth (the masked weights, the
  scatter's index columns) and the fifth (the soft targets, the log-softmax, the masked mean) are read in their own
  modules. Chained, the five give the loss as the last stage. The arguments' buffers are written by no operation
  and keep their contents.
-/
import proofs.«157332_j6846177869930_1_alg».proof.Proof.RefMid
import proofs.«157332_j6846177869930_1_alg».proof.Proof.RefLive89
import proofs.«157332_j6846177869930_1_alg».proof.Proof.RefLoss10

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- After operations 220 to 262 — the fourth corner's term added to the sampled source feature, the logits (its product with the flattened target map, over the temperature), the target keypoints' grid coordinates gx, gy, and x0, x1 (the clipped floor of gx and its clipped successor) —: the buffers read later. `main_v176` is the floor of gy, `main_c_52` the lower clip bound of the next list. -/
structure Live6 (V : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F)) : Prop where
  c52 : V (Proc.devRef .tc main_c_52) = ReadP.val_main_c_52 (F := F)
  v176 : V (Proc.devRef .tc main_v176) = ReadP.val_main_v176 (F := F) x3
  v172 : V (Proc.devRef .tc main_v172) = ReadP.val_main_v172 (F := F) x3
  v175 : V (Proc.devRef .tc main_v175) = ReadP.val_main_v175 (F := F) x3
  v165 : V (Proc.devRef .tc main_v165) = ReadP.val_main_v165 (F := F) x3
  v169 : V (Proc.devRef .tc main_v169) = ReadP.val_main_v169 (F := F) x3
  v161 : V (Proc.devRef .tc main_v161) = ReadP.val_main_v161 (F := F) x0 x1 x2
  a4 : V (Proc.devRef .tc main_arg4) = x4

/-- After operations 263 to 305 — y0 and y1, the four bilinear weights (x1 - gx)(y1 - gy), (x1 - gx)(gy - y0), (gx - x0)(y1 - gy), (gx - x0)(gy - y0) as columns, and the validity mask as a float —: the buffers read later. -/
structure Live7 (V : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F)) : Prop where
  v201 : V (Proc.devRef .tc main_v201) = ReadP.val_main_v201 (F := F) x3
  v202 : V (Proc.devRef .tc main_v202) = ReadP.val_main_v202 (F := F) x3
  v203 : V (Proc.devRef .tc main_v203) = ReadP.val_main_v203 (F := F) x3
  v204 : V (Proc.devRef .tc main_v204) = ReadP.val_main_v204 (F := F) x3
  v200 : V (Proc.devRef .tc main_v200) = ReadP.val_main_v200 (F := F) x4
  v178 : V (Proc.devRef .tc main_v178) = ReadP.val_main_v178 (F := F) x3
  v172 : V (Proc.devRef .tc main_v172) = ReadP.val_main_v172 (F := F) x3
  v181 : V (Proc.devRef .tc main_v181) = ReadP.val_main_v181 (F := F) x3
  v175 : V (Proc.devRef .tc main_v175) = ReadP.val_main_v175 (F := F) x3
  v161 : V (Proc.devRef .tc main_v161) = ReadP.val_main_v161 (F := F) x0 x1 x2

/-! ## One buffer after one list

Each fact below is proved the same way: the fold of the list is unrolled at the buffer (an operation's result at its
own buffer is its function of its operands' contents, at any other buffer what was there), the operand family of a
concatenate is read at its literal positions, a called function's typed buffers are read at their own types (the
transport along a reflexive type equation is the identity), the entry contents are replaced by their stages, and what
is left is the stage's definition unfolded. A buffer the list does not write holds what it held. -/

section Steps

variable (W : Valuation τ sig (Elt F))
  (x0 x1 : (⟨S32x256x64x64, .f32⟩ : BufTy).Contents (Elt F)) (x2 x3 : (⟨S32x128x2, .f32⟩ : BufTy).Contents (Elt F)) (x4 : (⟨S32x128, .i32⟩ : BufTy).Contents (Elt F))

theorem ops6_c52 :
    after (RunP.ops6 (F := F)) W (Proc.devRef .tc main_c_52) = ReadP.val_main_c_52 (F := F) := by
  after_results_simp
  rfl

theorem ops6_v176 (h : Mid W x0 x1 x2 x3 x4) :
    after (RunP.ops6 (F := F)) W (Proc.devRef .tc main_v176) = ReadP.val_main_v176 (F := F) x3 := by
  after_results_simp
  rw [h.a3]
  rfl

theorem ops6_v172 (h : Mid W x0 x1 x2 x3 x4) :
    after (RunP.ops6 (F := F)) W (Proc.devRef .tc main_v172) = ReadP.val_main_v172 (F := F) x3 := by
  after_results_simp
  simp only [TRef.ofBuf, TRef.toBuf, cast_eq]
  rw [h.a3]
  rfl

theorem ops6_v175 (h : Mid W x0 x1 x2 x3 x4) :
    after (RunP.ops6 (F := F)) W (Proc.devRef .tc main_v175) = ReadP.val_main_v175 (F := F) x3 := by
  after_results_simp
  simp only [TRef.ofBuf, TRef.toBuf, cast_eq]
  rw [h.a3]
  rfl

theorem ops6_v165 (h : Mid W x0 x1 x2 x3 x4) :
    after (RunP.ops6 (F := F)) W (Proc.devRef .tc main_v165) = ReadP.val_main_v165 (F := F) x3 := by
  after_results_simp
  rw [h.a3]
  rfl

theorem ops6_v169 (h : Mid W x0 x1 x2 x3 x4) :
    after (RunP.ops6 (F := F)) W (Proc.devRef .tc main_v169) = ReadP.val_main_v169 (F := F) x3 := by
  after_results_simp
  rw [h.a3]
  rfl

theorem ops6_v161 (h : Mid W x0 x1 x2 x3 x4) :
    after (RunP.ops6 (F := F)) W (Proc.devRef .tc main_v161) = ReadP.val_main_v161 (F := F) x0 x1 x2 := by
  after_results_simp
  simp only [Matrix.cons_val_zero, Matrix.cons_val_one, Matrix.cons_val]
  rw [h.v133, h.v62, h.v44, h.v150, h.v151, h.v152, h.v15]
  rfl

theorem ops6_a4 (h : Mid W x0 x1 x2 x3 x4) :
    after (RunP.ops6 (F := F)) W (Proc.devRef .tc main_arg4) = x4 := by
  after_results_simp
  exact h.a4

/-- The first list, from the nine buffers of `Mid`. -/
theorem live6_of_mid (h : Mid W x0 x1 x2 x3 x4) : Live6 (after (RunP.ops6 (F := F)) W) x0 x1 x2 x3 x4 :=
  ⟨ops6_c52 W,
   ops6_v176 W x0 x1 x2 x3 x4 h,
   ops6_v172 W x0 x1 x2 x3 x4 h,
   ops6_v175 W x0 x1 x2 x3 x4 h,
   ops6_v165 W x0 x1 x2 x3 x4 h,
   ops6_v169 W x0 x1 x2 x3 x4 h,
   ops6_v161 W x0 x1 x2 x3 x4 h,
   ops6_a4 W x0 x1 x2 x3 x4 h⟩

theorem ops7_v201 (h : Live6 W x0 x1 x2 x3 x4) :
    after (RunP.ops7 (F := F)) W (Proc.devRef .tc main_v201) = ReadP.val_main_v201 (F := F) x3 := by
  after_results_simp
  simp only [TRef.ofBuf, TRef.toBuf, cast_eq]
  rw [h.v175, h.v165, h.c52, h.v176, h.v169]
  rfl

theorem ops7_v202 (h : Live6 W x0 x1 x2 x3 x4) :
    after (RunP.ops7 (F := F)) W (Proc.devRef .tc main_v202) = ReadP.val_main_v202 (F := F) x3 := by
  after_results_simp
  simp only [TRef.ofBuf, TRef.toBuf, cast_eq]
  rw [h.v175, h.v165, h.v169, h.c52, h.v176]
  rfl

theorem ops7_v203 (h : Live6 W x0 x1 x2 x3 x4) :
    after (RunP.ops7 (F := F)) W (Proc.devRef .tc main_v203) = ReadP.val_main_v203 (F := F) x3 := by
  after_results_simp
  simp only [TRef.ofBuf, TRef.toBuf, cast_eq]
  rw [h.v165, h.v172, h.c52, h.v176, h.v169]
  rfl

theorem ops7_v204 (h : Live6 W x0 x1 x2 x3 x4) :
    after (RunP.ops7 (F := F)) W (Proc.devRef .tc main_v204) = ReadP.val_main_v204 (F := F) x3 := by
  after_results_simp
  simp only [TRef.ofBuf, TRef.toBuf, cast_eq]
  rw [h.v165, h.v172, h.v169, h.c52, h.v176]
  rfl

theorem ops7_v200 (h : Live6 W x0 x1 x2 x3 x4) :
    after (RunP.ops7 (F := F)) W (Proc.devRef .tc main_v200) = ReadP.val_main_v200 (F := F) x4 := by
  after_results_simp
  rw [h.a4]
  rfl

theorem ops7_v178 (h : Live6 W x0 x1 x2 x3 x4) :
    after (RunP.ops7 (F := F)) W (Proc.devRef .tc main_v178) = ReadP.val_main_v178 (F := F) x3 := by
  after_results_simp
  simp only [TRef.ofBuf, TRef.toBuf, cast_eq]
  rw [h.c52, h.v176]
  rfl

theorem ops7_v172 (h : Live6 W x0 x1 x2 x3 x4) :
    after (RunP.ops7 (F := F)) W (Proc.devRef .tc main_v172) = ReadP.val_main_v172 (F := F) x3 := by
  after_results_simp
  exact h.v172

theorem ops7_v181 (h : Live6 W x0 x1 x2 x3 x4) :
    after (RunP.ops7 (F := F)) W (Proc.devRef .tc main_v181) = ReadP.val_main_v181 (F := F) x3 := by
  after_results_simp
  simp only [TRef.ofBuf, TRef.toBuf, cast_eq]
  rw [h.c52, h.v176]
  rfl

theorem ops7_v175 (h : Live6 W x0 x1 x2 x3 x4) :
    after (RunP.ops7 (F := F)) W (Proc.devRef .tc main_v175) = ReadP.val_main_v175 (F := F) x3 := by
  after_results_simp
  exact h.v175

theorem ops7_v161 (h : Live6 W x0 x1 x2 x3 x4) :
    after (RunP.ops7 (F := F)) W (Proc.devRef .tc main_v161) = ReadP.val_main_v161 (F := F) x0 x1 x2 := by
  after_results_simp
  exact h.v161

/-- The second list. -/
theorem live7_of_live6 (h : Live6 W x0 x1 x2 x3 x4) : Live7 (after (RunP.ops7 (F := F)) W) x0 x1 x2 x3 x4 :=
  ⟨ops7_v201 W x0 x1 x2 x3 x4 h,
   ops7_v202 W x0 x1 x2 x3 x4 h,
   ops7_v203 W x0 x1 x2 x3 x4 h,
   ops7_v204 W x0 x1 x2 x3 x4 h,
   ops7_v200 W x0 x1 x2 x3 x4 h,
   ops7_v178 W x0 x1 x2 x3 x4 h,
   ops7_v172 W x0 x1 x2 x3 x4 h,
   ops7_v181 W x0 x1 x2 x3 x4 h,
   ops7_v175 W x0 x1 x2 x3 x4 h,
   ops7_v161 W x0 x1 x2 x3 x4 h⟩

end Steps

/-- From the nine buffers the second half reads, the loss: the five lists one after the other, each list's entry
    facts the previous list's exit facts. -/
theorem result_of_mid (V : Valuation τ sig (Elt F))
    (x0 x1 : (⟨S32x256x64x64, .f32⟩ : BufTy).Contents (Elt F)) (x2 x3 : (⟨S32x128x2, .f32⟩ : BufTy).Contents (Elt F))
    (x4 : (⟨S32x128, .i32⟩ : BufTy).Contents (Elt F))
    (h : Mid V x0 x1 x2 x3 x4) :
    after (opsB (F := F)) V (Proc.devRef .tc main_v261) = ReadP.val_main_v261 (F := F) x0 x1 x2 x3 x4 := by
  show after (RunP.ops6 ++ RunP.ops7 ++ RunP.ops8 ++ RunP.ops9 ++ RunP.ops10) V _ = _
  rw [after_append, after_append, after_append, after_append]
  have h7 := live7_of_live6 _ x0 x1 x2 x3 x4 (live6_of_mid V x0 x1 x2 x3 x4 h)
  obtain ⟨k248, k249, k250, k230, k208, k161, k200⟩ :=
    live89 _ x0 x1 x2 x3 x4 h7.v201 h7.v202 h7.v203 h7.v204 h7.v200 h7.v178 h7.v172 h7.v181 h7.v175 h7.v161
  exact loss10 _ x0 x1 x2 x3 x4 k248 k249 k250 k230 k208 k161 k200

/-! ## The arguments

No operation writes an argument's buffer: at each of the five the fold of any of the eleven lists is the entry
contents, and so is the fold of their concatenation. -/

/-- A line of operations leaves the five arguments' buffers as they were. -/
def Keeps (l : List (HloOp τ sig (Elt F))) : Prop :=
  ∀ V : Valuation τ sig (Elt F),
    after l V (Proc.devRef .tc main_arg0) = V (Proc.devRef .tc main_arg0)
    ∧ after l V (Proc.devRef .tc main_arg1) = V (Proc.devRef .tc main_arg1)
    ∧ after l V (Proc.devRef .tc main_arg2) = V (Proc.devRef .tc main_arg2)
    ∧ after l V (Proc.devRef .tc main_arg3) = V (Proc.devRef .tc main_arg3)
    ∧ after l V (Proc.devRef .tc main_arg4) = V (Proc.devRef .tc main_arg4)

theorem Keeps.append {l₁ l₂ : List (HloOp τ sig (Elt F))} (h₁ : Keeps l₁) (h₂ : Keeps l₂) : Keeps (l₁ ++ l₂) := fun V => by
  rw [after_append]
  obtain ⟨a0, a1, a2, a3, a4⟩ := h₁ V
  obtain ⟨b0, b1, b2, b3, b4⟩ := h₂ (after l₁ V)
  exact ⟨b0.trans a0, b1.trans a1, b2.trans a2, b3.trans a3, b4.trans a4⟩

theorem keeps0 : Keeps (RunP.ops0 (F := F)) := fun V => by
  refine ⟨?_, ?_, ?_, ?_, ?_⟩ <;> after_results_simp
theorem keeps1 : Keeps (RunP.ops1 (F := F)) := fun V => by
  refine ⟨?_, ?_, ?_, ?_, ?_⟩ <;> after_results_simp
theorem keeps2 : Keeps (RunP.ops2 (F := F)) := fun V => by
  refine ⟨?_, ?_, ?_, ?_, ?_⟩ <;> after_results_simp
theorem keeps3 : Keeps (RunP.ops3 (F := F)) := fun V => by
  refine ⟨?_, ?_, ?_, ?_, ?_⟩ <;> after_results_simp
theorem keeps4 : Keeps (RunP.ops4 (F := F)) := fun V => by
  refine ⟨?_, ?_, ?_, ?_, ?_⟩ <;> after_results_simp
theorem keeps5 : Keeps (RunP.ops5 (F := F)) := fun V => by
  refine ⟨?_, ?_, ?_, ?_, ?_⟩ <;> after_results_simp
theorem keeps6 : Keeps (RunP.ops6 (F := F)) := fun V => by
  refine ⟨?_, ?_, ?_, ?_, ?_⟩ <;> after_results_simp
theorem keeps7 : Keeps (RunP.ops7 (F := F)) := fun V => by
  refine ⟨?_, ?_, ?_, ?_, ?_⟩ <;> after_results_simp
theorem keeps8 : Keeps (RunP.ops8 (F := F)) := fun V => by
  refine ⟨?_, ?_, ?_, ?_, ?_⟩ <;> after_results_simp
theorem keeps9 : Keeps (RunP.ops9 (F := F)) := fun V => by
  refine ⟨?_, ?_, ?_, ?_, ?_⟩ <;> after_results_simp
theorem keeps10 : Keeps (RunP.ops10 (F := F)) := fun V => by
  refine ⟨?_, ?_, ?_, ?_, ?_⟩ <;> after_results_simp

theorem keeps : Keeps (RunP.ops (F := F)) :=
  ((((((((((keeps0.append keeps1).append keeps2).append keeps3).append keeps4).append keeps5).append keeps6).append keeps7).append
    keeps8).append keeps9).append keeps10)

/-- Every argument's buffer holds after the whole program what it held before. -/
theorem args_kept (V : Valuation τ sig (Elt F)) :
    ∀ b ∈ ([main_arg0, main_arg1, main_arg2, main_arg3, main_arg4] : List (Ref sig .tc)),
      after (RunP.ops (F := F)) V (Proc.devRef .tc b) = V (Proc.devRef .tc b) := by
  obtain ⟨a0, a1, a2, a3, a4⟩ := keeps (F := F) V
  exact List.forall_mem_cons.2 ⟨a0, List.forall_mem_cons.2 ⟨a1, List.forall_mem_cons.2 ⟨a2, List.forall_mem_cons.2 ⟨a3,
    List.forall_mem_cons.2 ⟨a4, fun _ hb => nomatch hb⟩⟩⟩⟩⟩

end Cert.ReferenceIdeal.Stages

end
-- ==== Proof.RefWhole.lean ====
/- The reference program's whole run, read at its result: every weakly fair execution of its @main terminates, the loss
   buffer ends at the composed value of the five arguments' launch contents (the stage of its operation, one stage per
   operation of the program), and the arguments end as they were. The line of 391 operations is run in two halves: the
   first brings the nine buffers the second still reads to their stages, the second computes the loss from those. -/
import proofs.«157332_j6846177869930_1_alg».proof.Proof.RefRun
import proofs.«157332_j6846177869930_1_alg».proof.Proof.RefMid
import proofs.«157332_j6846177869930_1_alg».proof.Proof.RefStagesA
import proofs.«157332_j6846177869930_1_alg».proof.Proof.RefStagesB

noncomputable section

namespace Cert.ReferenceIdeal.Whole

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-! ## The result, as a function of the launch contents -/

/-- After the whole line, the loss buffer holds its stage of the five arguments' entry contents: the first half brings
    the nine buffers still read to their stages, the second half computes the loss from them. -/
theorem result_eq (V : Valuation τ sig (Elt F)) :
    after (RunP.ops (F := F)) V (Proc.devRef .tc main_v261)
      = ReadP.val_main_v261 (F := F) (V (Proc.devRef .tc main_arg0)) (V (Proc.devRef .tc main_arg1)) (V (Proc.devRef .tc main_arg2)) (V (Proc.devRef .tc main_arg3)) (V (Proc.devRef .tc main_arg4)) := by
  rw [ops_split, after_append]
  exact result_of_mid _ _ _ _ _ _ (mid_of_launch V)

/-! ## The run -/

/-- On every device, for any float values, from any memory with zero counters: every weakly fair execution of @main
    terminates with the loss at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v261)
          = ReadP.val_main_v261 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v261).trans (result_eq (launchContents m c)),
       (h c main_arg0).trans (args_kept (launchContents m c) main_arg0 (List.mem_cons_self)),
       (h c main_arg1).trans (args_kept (launchContents m c) main_arg1 (List.mem_cons_of_mem _ List.mem_cons_self)),
       (h c main_arg2).trans (args_kept (launchContents m c) main_arg2 (List.mem_cons_of_mem _ (List.mem_cons_of_mem _ List.mem_cons_self))),
       (h c main_arg3).trans (args_kept (launchContents m c) main_arg3 (List.mem_cons_of_mem _ (List.mem_cons_of_mem _ (List.mem_cons_of_mem _ List.mem_cons_self)))),
       (h c main_arg4).trans (args_kept (launchContents m c) main_arg4 (List.mem_cons_of_mem _ (List.mem_cons_of_mem _ (List.mem_cons_of_mem _ (List.mem_cons_of_mem _ List.mem_cons_self)))))⟩)
    (RunH.run_after m ρ)

/-- The same run, claiming only that it terminates with the arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => (h c).2) (run m ρ)

end Cert.ReferenceIdeal.Whole

end
-- ==== Proof.LossValue.lean ====
import proofs.«157332_j6846177869930_1_alg».proof.Proof.LossRegion
import Idealize.ShloMosaic.Lib.Pipeline.Value
import Idealize.ShloMosaic.Lib.ValueIdx
import Idealize.ShloMosaic.Lib.Tactic

/-!
# The second call's output array, element by element

The second call runs one grid point per batch: at point `b` every window's block index is `(b, 0, 0)`, so each
input block is slab `b` of its array and the output tile is tile `b` of the output array. The tiles of
different points are disjoint, hence tile `b` of the array after the call is exactly what point `b` wrote:
the stored tile of the six input slabs of batch `b`.
-/

set_option maxRecDepth 16384

noncomputable section

namespace Cert.KernelIdeal.LossValue

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F] [Named F]

variable (V : (c : Dev nD) → (b : Ref sig .tc) → Buf (Elt F) ((c : Thread nD τ).loc b))

/-! ## The index maps over the grid -/

/-- At grid point `t` every window's block index is `(t, 0, 0)`: checked point by point over the 32 points. -/
theorem index_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0) :=
  (by decide +kernel : ∀ t : Fin grid1.N, _)

/-- Distinct points write distinct output tiles. -/
theorem index6_inj : ∀ t t' : Fin cfg1.N, win1_6.index t = win1_6.index t' → t = t' :=
  (by decide +kernel : ∀ t t' : Fin grid1.N, win1_6.index t = win1_6.index t' → t = t')

/-- So the tiles two points write back share no element of the output array. -/
theorem tiles_disjoint : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (index6_inj t t' h)

/-- The grid point that handles batch `b`. -/
def pointOf (b : Fin 32) : Fin cfg1.N := ⟨b.val, by rw [show cfg1.N = 32 from N_1]; exact b.isLt⟩

theorem zeros3 : (![0, 0, 0] : Fin 3 → Nat) = fun _ => 0 := funext fun a => by fin_cases a <;> rfl

/-! ## What a point writes back -/

/-- Point `t` writes back the stored tile of the six input blocks at `t`: the one store is the whole tile, and each
    load reads its whole block. -/
theorem flushed6 (c : Dev nD) (t : Fin cfg1.N) :
    (Loss.dat V c).flushed 6 t = Loss.lossPayload (Loss.blockAt V c 0 t) (Loss.blockAt V c 1 t) (Loss.blockAt V c 2 t)
      (Loss.blockAt V c 3 t) (Loss.blockAt V c 4 t) (Loss.blockAt V c 5 t) := by
  show (cfg1.win 6).cut (grid1.coords t) ((Loss.dat V c).after 6 t) = _
  rw [Loss.dat_after6]
  unfold Loss.stored6
  rw [View.canon_unit_zero zeros3]
  simp only [View.ld_unit_zero (S := S1x256x4096) zeros3, View.ld_unit_zero (S := S1x128x4) zeros3]
  rfl

/-! ## The input blocks at the point of batch `b` -/

/-- Window 0's block at the point of batch `b` is slab `b` of its array: any `x0` that reads that slab IS the block. -/
theorem block0_eq (c : Dev nD) (b : Fin 32) (x0 : Vec F S1x256x4096 .bf16)
    (h0 : ∀ (ch : Fin 256) (p : Fin 4096), x0 (ix3 0 ch p) = (V c (Pipeline.arrRef spec1 0) : S32x256x4096.Idx → Elt F .bf16) (ix3 b ch p)) :
    (Loss.blockAt V c 0 (pointOf b) : Vec F S1x256x4096 .bf16) = x0 := by
  refine funext fun (y : S1x256x4096.Idx) => ?_
  obtain ⟨r0, r1, r2⟩ := (index_facts (pointOf b)).1
  have hy0 : (y 0).val = 0 := Fin.val_eq_zero (y 0 : Fin 1)
  have hy : y = ix3 (0 : Fin 1) (y 1) (y 2) :=
    (eq_ix3 y).trans (congrArg (fun z : Fin 1 => ix3 z (y 1) (y 2)) (Fin.eq_zero (y 0 : Fin 1)))
  have hx : x0 y = (V c (Pipeline.arrRef spec1 0) : S32x256x4096.Idx → Elt F .bf16) (ix3 b (y 1) (y 2)) :=
    (congrArg x0 hy).trans (h0 (y 1) (y 2))
  refine Eq.trans ?_ hx.symm
  unfold Loss.blockAt
  rw [View.read_apply]
  show (V c (Pipeline.arrRef spec1 0) : S32x256x4096.Idx → Elt F .bf16) _ = (V c (Pipeline.arrRef spec1 0) : S32x256x4096.Idx → Elt F .bf16) _
  congr 1
  funext a; apply Fin.ext
  match a with
  | ⟨0, _⟩ => show win1_0.index (pointOf b) (0 : Fin 3) * 1 + 1 * (y 0).val = b.val; rw [r0, hy0]; show b.val * 1 + 1 * 0 = b.val; omega
  | ⟨1, _⟩ => show win1_0.index (pointOf b) (1 : Fin 3) * 256 + 1 * (y 1).val = (y 1).val; rw [r1]; omega
  | ⟨2, _⟩ => show win1_0.index (pointOf b) (2 : Fin 3) * 4096 + 1 * (y 2).val = (y 2).val; rw [r2]; omega

/-- Window 1's block at the point of batch `b` is slab `b` of its array: any `x1` that reads that slab IS the block. -/
theorem block1_eq (c : Dev nD) (b : Fin 32) (x1 : Vec F S1x256x4096 .bf16)
    (h1 : ∀ (ch : Fin 256) (p : Fin 4096), x1 (ix3 0 ch p) = (V c (Pipeline.arrRef spec1 1) : S32x256x4096.Idx → Elt F .bf16) (ix3 b ch p)) :
    (Loss.blockAt V c 1 (pointOf b) : Vec F S1x256x4096 .bf16) = x1 := by
  refine funext fun (y : S1x256x4096.Idx) => ?_
  obtain ⟨r0, r1, r2⟩ := (index_facts (pointOf b)).2.1
  have hy0 : (y 0).val = 0 := Fin.val_eq_zero (y 0 : Fin 1)
  have hy : y = ix3 (0 : Fin 1) (y 1) (y 2) :=
    (eq_ix3 y).trans (congrArg (fun z : Fin 1 => ix3 z (y 1) (y 2)) (Fin.eq_zero (y 0 : Fin 1)))
  have hx : x1 y = (V c (Pipeline.arrRef spec1 1) : S32x256x4096.Idx → Elt F .bf16) (ix3 b (y 1) (y 2)) :=
    (congrArg x1 hy).trans (h1 (y 1) (y 2))
  refine Eq.trans ?_ hx.symm
  unfold Loss.blockAt
  rw [View.read_apply]
  show (V c (Pipeline.arrRef spec1 1) : S32x256x4096.Idx → Elt F .bf16) _ = (V c (Pipeline.arrRef spec1 1) : S32x256x4096.Idx → Elt F .bf16) _
  congr 1
  funext a; apply Fin.ext
  match a with
  | ⟨0, _⟩ => show win1_1.index (pointOf b) (0 : Fin 3) * 1 + 1 * (y 0).val = b.val; rw [r0, hy0]; show b.val * 1 + 1 * 0 = b.val; omega
  | ⟨1, _⟩ => show win1_1.index (pointOf b) (1 : Fin 3) * 256 + 1 * (y 1).val = (y 1).val; rw [r1]; omega
  | ⟨2, _⟩ => show win1_1.index (pointOf b) (2 : Fin 3) * 4096 + 1 * (y 2).val = (y 2).val; rw [r2]; omega

/-- Window 2's block at the point of batch `b` is slab `b` of its array: any `x2` that reads that slab IS the block. -/
theorem block2_eq (c : Dev nD) (b : Fin 32) (x2 : Vec F S1x128x4 .i32)
    (h2 : ∀ (n : Fin 128) (k : Fin 4), x2 (ix3 0 n k) = (V c (Pipeline.arrRef spec1 2) : S32x128x4.Idx → Elt F .i32) (ix3 b n k)) :
    (Loss.blockAt V c 2 (pointOf b) : Vec F S1x128x4 .i32) = x2 := by
  refine funext fun (y : S1x128x4.Idx) => ?_
  obtain ⟨r0, r1, r2⟩ := (index_facts (pointOf b)).2.2.1
  have hy0 : (y 0).val = 0 := Fin.val_eq_zero (y 0 : Fin 1)
  have hy : y = ix3 (0 : Fin 1) (y 1) (y 2) :=
    (eq_ix3 y).trans (congrArg (fun z : Fin 1 => ix3 z (y 1) (y 2)) (Fin.eq_zero (y 0 : Fin 1)))
  have hx : x2 y = (V c (Pipeline.arrRef spec1 2) : S32x128x4.Idx → Elt F .i32) (ix3 b (y 1) (y 2)) :=
    (congrArg x2 hy).trans (h2 (y 1) (y 2))
  refine Eq.trans ?_ hx.symm
  unfold Loss.blockAt
  rw [View.read_apply]
  show (V c (Pipeline.arrRef spec1 2) : S32x128x4.Idx → Elt F .i32) _ = (V c (Pipeline.arrRef spec1 2) : S32x128x4.Idx → Elt F .i32) _
  congr 1
  funext a; apply Fin.ext
  match a with
  | ⟨0, _⟩ => show win1_2.index (pointOf b) (0 : Fin 3) * 1 + 1 * (y 0).val = b.val; rw [r0, hy0]; show b.val * 1 + 1 * 0 = b.val; omega
  | ⟨1, _⟩ => show win1_2.index (pointOf b) (1 : Fin 3) * 128 + 1 * (y 1).val = (y 1).val; rw [r1]; omega
  | ⟨2, _⟩ => show win1_2.index (pointOf b) (2 : Fin 3) * 4 + 1 * (y 2).val = (y 2).val; rw [r2]; omega

/-- Window 3's block at the point of batch `b` is slab `b` of its array: any `x3` that reads that slab IS the block. -/
theorem block3_eq (c : Dev nD) (b : Fin 32) (x3 : Vec F S1x128x4 .f32)
    (h3 : ∀ (n : Fin 128) (k : Fin 4), x3 (ix3 0 n k) = (V c (Pipeline.arrRef spec1 3) : S32x128x4.Idx → Elt F .f32) (ix3 b n k)) :
    (Loss.blockAt V c 3 (pointOf b) : Vec F S1x128x4 .f32) = x3 := by
  refine funext fun (y : S1x128x4.Idx) => ?_
  obtain ⟨r0, r1, r2⟩ := (index_facts (pointOf b)).2.2.2.1
  have hy0 : (y 0).val = 0 := Fin.val_eq_zero (y 0 : Fin 1)
  have hy : y = ix3 (0 : Fin 1) (y 1) (y 2) :=
    (eq_ix3 y).trans (congrArg (fun z : Fin 1 => ix3 z (y 1) (y 2)) (Fin.eq_zero (y 0 : Fin 1)))
  have hx : x3 y = (V c (Pipeline.arrRef spec1 3) : S32x128x4.Idx → Elt F .f32) (ix3 b (y 1) (y 2)) :=
    (congrArg x3 hy).trans (h3 (y 1) (y 2))
  refine Eq.trans ?_ hx.symm
  unfold Loss.blockAt
  rw [View.read_apply]
  show (V c (Pipeline.arrRef spec1 3) : S32x128x4.Idx → Elt F .f32) _ = (V c (Pipeline.arrRef spec1 3) : S32x128x4.Idx → Elt F .f32) _
  congr 1
  funext a; apply Fin.ext
  match a with
  | ⟨0, _⟩ => show win1_3.index (pointOf b) (0 : Fin 3) * 1 + 1 * (y 0).val = b.val; rw [r0, hy0]; show b.val * 1 + 1 * 0 = b.val; omega
  | ⟨1, _⟩ => show win1_3.index (pointOf b) (1 : Fin 3) * 128 + 1 * (y 1).val = (y 1).val; rw [r1]; omega
  | ⟨2, _⟩ => show win1_3.index (pointOf b) (2 : Fin 3) * 4 + 1 * (y 2).val = (y 2).val; rw [r2]; omega

/-- Window 4's block at the point of batch `b` is slab `b` of its array: any `x4` that reads that slab IS the block. -/
theorem block4_eq (c : Dev nD) (b : Fin 32) (x4 : Vec F S1x128x4 .i32)
    (h4 : ∀ (n : Fin 128) (k : Fin 4), x4 (ix3 0 n k) = (V c (Pipeline.arrRef spec1 4) : S32x128x4.Idx → Elt F .i32) (ix3 b n k)) :
    (Loss.blockAt V c 4 (pointOf b) : Vec F S1x128x4 .i32) = x4 := by
  refine funext fun (y : S1x128x4.Idx) => ?_
  obtain ⟨r0, r1, r2⟩ := (index_facts (pointOf b)).2.2.2.2.1
  have hy0 : (y 0).val = 0 := Fin.val_eq_zero (y 0 : Fin 1)
  have hy : y = ix3 (0 : Fin 1) (y 1) (y 2) :=
    (eq_ix3 y).trans (congrArg (fun z : Fin 1 => ix3 z (y 1) (y 2)) (Fin.eq_zero (y 0 : Fin 1)))
  have hx : x4 y = (V c (Pipeline.arrRef spec1 4) : S32x128x4.Idx → Elt F .i32) (ix3 b (y 1) (y 2)) :=
    (congrArg x4 hy).trans (h4 (y 1) (y 2))
  refine Eq.trans ?_ hx.symm
  unfold Loss.blockAt
  rw [View.read_apply]
  show (V c (Pipeline.arrRef spec1 4) : S32x128x4.Idx → Elt F .i32) _ = (V c (Pipeline.arrRef spec1 4) : S32x128x4.Idx → Elt F .i32) _
  congr 1
  funext a; apply Fin.ext
  match a with
  | ⟨0, _⟩ => show win1_4.index (pointOf b) (0 : Fin 3) * 1 + 1 * (y 0).val = b.val; rw [r0, hy0]; show b.val * 1 + 1 * 0 = b.val; omega
  | ⟨1, _⟩ => show win1_4.index (pointOf b) (1 : Fin 3) * 128 + 1 * (y 1).val = (y 1).val; rw [r1]; omega
  | ⟨2, _⟩ => show win1_4.index (pointOf b) (2 : Fin 3) * 4 + 1 * (y 2).val = (y 2).val; rw [r2]; omega

/-- Window 5's block at the point of batch `b` is slab `b` of its array: any `x5` that reads that slab IS the block. -/
theorem block5_eq (c : Dev nD) (b : Fin 32) (x5 : Vec F S1x128x4 .f32)
    (h5 : ∀ (n : Fin 128) (k : Fin 4), x5 (ix3 0 n k) = (V c (Pipeline.arrRef spec1 5) : S32x128x4.Idx → Elt F .f32) (ix3 b n k)) :
    (Loss.blockAt V c 5 (pointOf b) : Vec F S1x128x4 .f32) = x5 := by
  refine funext fun (y : S1x128x4.Idx) => ?_
  obtain ⟨r0, r1, r2⟩ := (index_facts (pointOf b)).2.2.2.2.2.1
  have hy0 : (y 0).val = 0 := Fin.val_eq_zero (y 0 : Fin 1)
  have hy : y = ix3 (0 : Fin 1) (y 1) (y 2) :=
    (eq_ix3 y).trans (congrArg (fun z : Fin 1 => ix3 z (y 1) (y 2)) (Fin.eq_zero (y 0 : Fin 1)))
  have hx : x5 y = (V c (Pipeline.arrRef spec1 5) : S32x128x4.Idx → Elt F .f32) (ix3 b (y 1) (y 2)) :=
    (congrArg x5 hy).trans (h5 (y 1) (y 2))
  refine Eq.trans ?_ hx.symm
  unfold Loss.blockAt
  rw [View.read_apply]
  show (V c (Pipeline.arrRef spec1 5) : S32x128x4.Idx → Elt F .f32) _ = (V c (Pipeline.arrRef spec1 5) : S32x128x4.Idx → Elt F .f32) _
  congr 1
  funext a; apply Fin.ext
  match a with
  | ⟨0, _⟩ => show win1_5.index (pointOf b) (0 : Fin 3) * 1 + 1 * (y 0).val = b.val; rw [r0, hy0]; show b.val * 1 + 1 * 0 = b.val; omega
  | ⟨1, _⟩ => show win1_5.index (pointOf b) (1 : Fin 3) * 128 + 1 * (y 1).val = (y 1).val; rw [r1]; omega
  | ⟨2, _⟩ => show win1_5.index (pointOf b) (2 : Fin 3) * 4 + 1 * (y 2).val = (y 2).val; rw [r2]; omega

/-! ## The output array at one element -/

/-- Element `(b, i, j)` of the output array after the call is element `(0, i, j)` of the stored tile of batch `b`'s six
    input slabs. -/
theorem loss_at (c : Dev nD) (b : Fin 32)
    (x0 x1 : Vec F S1x256x4096 .bf16) (x2 : Vec F S1x128x4 .i32) (x3 : Vec F S1x128x4 .f32) (x4 : Vec F S1x128x4 .i32) (x5 : Vec F S1x128x4 .f32)
    (h0 : ∀ (ch : Fin 256) (p : Fin 4096), x0 (ix3 0 ch p) = (V c (Pipeline.arrRef spec1 0) : S32x256x4096.Idx → Elt F .bf16) (ix3 b ch p))
    (h1 : ∀ (ch : Fin 256) (p : Fin 4096), x1 (ix3 0 ch p) = (V c (Pipeline.arrRef spec1 1) : S32x256x4096.Idx → Elt F .bf16) (ix3 b ch p))
    (h2 : ∀ (n : Fin 128) (k : Fin 4), x2 (ix3 0 n k) = (V c (Pipeline.arrRef spec1 2) : S32x128x4.Idx → Elt F .i32) (ix3 b n k))
    (h3 : ∀ (n : Fin 128) (k : Fin 4), x3 (ix3 0 n k) = (V c (Pipeline.arrRef spec1 3) : S32x128x4.Idx → Elt F .f32) (ix3 b n k))
    (h4 : ∀ (n : Fin 128) (k : Fin 4), x4 (ix3 0 n k) = (V c (Pipeline.arrRef spec1 4) : S32x128x4.Idx → Elt F .i32) (ix3 b n k))
    (h5 : ∀ (n : Fin 128) (k : Fin 4), x5 (ix3 0 n k) = (V c (Pipeline.arrRef spec1 5) : S32x128x4.Idx → Elt F .f32) (ix3 b n k))
    (i : Fin 8) (j : Fin 128) :
    ((Loss.dat V c).arrAt 6 cfg1.N : S32x8x128.Idx → Elt F .f32) (ix3 b i j) = Loss.lossPayload x0 x1 x2 x3 x4 x5 (ix3 0 i j) := by
  obtain ⟨r0, r1, r2⟩ := (index_facts (pointOf b)).2.2.2.2.2.2
  have hemb : (((cfg1.win 6).blk (pointOf b)).view.emb (ix3 (0 : Fin 1) i j) : S32x8x128.Idx) = ix3 b i j := by
    funext a; apply Fin.ext
    match a with
    | ⟨0, _⟩ => show win1_6.index (pointOf b) (0 : Fin 3) * 1 + 1 * 0 = b.val; rw [r0]; show b.val * 1 + 1 * 0 = b.val; omega
    | ⟨1, _⟩ => show win1_6.index (pointOf b) (1 : Fin 3) * 8 + 1 * i.val = i.val; rw [r1]; omega
    | ⟨2, _⟩ => show win1_6.index (pointOf b) (2 : Fin 3) * 128 + 1 * j.val = j.val; rw [r2]; omega
  rw [← hemb]
  refine ((Loss.dat V c).arrAt_emb_eq_flushed 6 (tiles_disjoint) (pointOf b) (flush1_6 (pointOf b)) (ix3 (0 : Fin 1) i j)).trans ?_
  show (Loss.dat V c).flushed 6 (pointOf b) (ix3 (0 : Fin 1) i j) = _
  rw [flushed6, block0_eq V c b x0 h0, block1_eq V c b x1 h1, block2_eq V c b x2 h2, block3_eq V c b x3 h3,
    block4_eq V c b x4 h4, block5_eq V c b x5 h5]

end Cert.KernelIdeal.LossValue

end
-- ==== Proof.BridgeTail.lean ====
/-
  The last stretch of the keypoint cross-entropy loss, per batch b, on the extended reals.

  Kernel: logits L[n,m] = (Σ_c s[n,c] · t[c,m]) · κ, with κ = 134217728 / 13421773; row maximum mx[n] from −∞;
  S = L − mx; lse[n] = log Σ_m exp S[n,m]; logp = S − lse; row[n] = 0 − Σ_m w[n,m] · logp[n,m]; total = Σ_n row[n],
  written to every cell of a [1, 8, 128] block.

  Reference: logits = (Σ_c sampled[b,n,c] · target[b,c,m]) / d with d = 13421773 / 134217728 (the f32 nearest to 0.1), and
  x / d = x · κ for every extended real x; the same log-softmax (its row maximum is max(−∞, fold) = fold, its sum
  starts from 0); term[b,n] = (−Σ_m soft[b,n,m] · logp[b,n,m]) · mask[b,n]; result = (0 + Σ_{b,n} term[b,n]) / count.

  The kernel does not multiply by the mask again. Where mask[b,n] = 0 the soft-target row is 0, so both terms are 0
  (0 · x = 0 for every extended real x); where it is 1, the product with 1 changes nothing. No finiteness is used.
-/
import proofs.«157332_j6846177869930_1_alg».proof.Proof.Gen.KernelIdeal.Skeleton
import proofs.«157332_j6846177869930_1_alg».proof.Proof.RefRead
import Idealize.ShloMosaic.Lib.ValueIdx
import Idealize.ShloMosaic.Lib.Pipeline.Value
import Idealize.ShloMosaic.PureOps.Ideal.Laws

noncomputable section

namespace Cert.Bridge

open Idealize.ShloMosaic Idealize.SL.Sem Idealize.ShloMosaic.ValueIdx
open Cert.KernelIdeal Cert.KernelIdeal.Gen

/-- A block's row maxima, from −∞. -/
def rowMaxV (X : FVec Ideal S128x4096 .f32) : FVec Ideal S128 .f32 :=
  multiReduction .maximumf [1] S128 X 0xFF800000#32 reduces_S128x4096_S128 (.inl rfl) rfl
/-- A block's row sums. -/
def rowAddV (X : FVec Ideal S128x4096 .f32) : FVec Ideal S128 .f32 :=
  multiReduction .add [1] S128 X 0x00000000#32 reduces_S128x4096_S128 (.inl rfl) rfl
/-- The sum of a one-row block. -/
def totV (Y : FVec Ideal S1x128 .f32) : FVec Ideal S1 .f32 :=
  multiReduction .add [1] S1 Y 0x00000000#32 reduces_S1x128_S1 (.inl rfl) rfl

/-- The kernel's logits: the product of the two blocks into zeros, times the named constant. -/
def kLogits (v3 : FVec Ideal S256x4096 .bf16) (v89 : FVec Ideal S128x256 .bf16) : FVec Ideal S128x4096 .f32 :=
  mulf (matmul dot_S128x256_S256x4096_S128x4096_1_0_0_1_n_n none v89 v3 (constant S128x4096 .f32 0x00000000#32))
    (broadcast S128x4096 (Named.named κ "fold_c_134217728_13421773" (φ := .f32) 0x41200000#32))

/-- The kernel's log-softmax of a block of logits, row by row. -/
def kLogp (L : FVec Ideal S128x4096 .f32) : FVec Ideal S128x4096 .f32 :=
  have v93 : FVec Ideal S128 .f32 := rowMaxV L
  have v94 : FVec Ideal S128x1 .f32 := shapeCast S128x1 v93 shapeCasts_S128_S128x1
  have v95 : FVec Ideal S128x4096 .f32 := broadcastTo S128x4096 v94 broadcasts_S128x1_S128x4096
  have v96 : FVec Ideal S128x4096 .f32 := subf L v95
  have v97 : FVec Ideal S128x4096 .f32 := exp v96
  have v98 : FVec Ideal S128 .f32 := rowAddV v97
  have v99 : FVec Ideal S128x1 .f32 := shapeCast S128x1 v98 shapeCasts_S128_S128x1
  have v100 : FVec Ideal S128x1 .f32 := log v99
  have v101 : FVec Ideal S128x4096 .f32 := broadcastTo S128x4096 v100 broadcasts_S128x1_S128x4096
  subf v96 v101

/-- The kernel's total: zero less each row's weighted sum, summed over the rows, in every cell of the block. -/
def kTotal (v86 P : FVec Ideal S128x4096 .f32) : FVec Ideal S1x8x128 .f32 :=
  have v103 : FVec Ideal S128x4096 .f32 := mulf v86 P
  have v104 : FVec Ideal S128 .f32 := rowAddV v103
  have v105 : FVec Ideal S128 .f32 := broadcast S128 (Scalar.ofBits .f32 0x00000000#32)
  have v106 : FVec Ideal S128 .f32 := subf v105 v104
  have v107 : FVec Ideal S1x128 .f32 := shapeCast S1x128 v106 shapeCasts_S128_S1x128
  have v108 : FVec Ideal S1 .f32 := totV v107
  have v109 : FVec Ideal S1x1 .f32 := shapeCast S1x1 v108 shapeCasts_S1_S1x1
  have v110 : Ideal .f32 := extractAt ![0, 0] v109 inpos_S1x1_p0_0
  have v111 : FVec Ideal S8x128 .f32 := broadcast S8x128 v110
  shapeCast S1x8x128 v111 shapeCasts_S8x128_S1x8x128

theorem k1_pay1_eq (v3 : FVec Ideal S256x4096 .bf16) (v86 : FVec Ideal S128x4096 .f32) (v89 : FVec Ideal S128x256 .bf16) :
    k1_pay1 (F := Ideal) v3 v86 v89 = kTotal v86 (kLogp (kLogits v3 v89)) := rfl

/-- The named constant is the exact reciprocal of the reference's divisor. -/
theorem kappa_val : Named.named (F := Ideal) κ "fold_c_134217728_13421773" (φ := .f32) 0x41200000#32
    = ((134217728 / 13421773 : ℝ) : EReal) :=
  IdealRules.named_const.ideal_named_scalar _ _ _ _ rfl

abbrev DK := dot_S128x256_S256x4096_S128x4096_1_0_0_1_n_n

theorem DK_lhs0 (j : S128x4096.Idx) (q : DK.contr.Idx) : (DK.lhsIdx j q 0).val = (j 0).val := by
  unfold DotDims.lhsIdx
  rw [dif_neg (show ¬(0 : Fin S128x256.rank) ∈ DK.lhsBatch by decide), dif_pos (show (0 : Fin S128x256.rank) ∈ DK.lhsNonContracting by decide)]
  rfl
theorem DK_lhs1 (j : S128x4096.Idx) (q : DK.contr.Idx) : (DK.lhsIdx j q 1).val = (q ⟨0, by decide⟩).val :=
  DK.lhsIdx_val_of_single rfl j q
theorem DK_rhs0 (j : S128x4096.Idx) (q : DK.contr.Idx) : (DK.rhsIdx j q 0).val = (q ⟨0, by decide⟩).val :=
  DK.rhsIdx_val_of_single rfl j q
theorem DK_rhs1 (j : S128x4096.Idx) (q : DK.contr.Idx) : (DK.rhsIdx j q 1).val = (j 1).val := by
  unfold DotDims.rhsIdx
  rw [dif_neg (show ¬(1 : Fin S256x4096.rank) ∈ DK.rhsBatch by decide), dif_pos (show (1 : Fin S256x4096.rank) ∈ DK.rhsNonContracting by decide)]
  rfl

/-- The kernel's logits at a row and a cell: the dot product over the 256 channels, times the constant. -/
theorem kLogits_apply (v3 : FVec Ideal S256x4096 .bf16) (v89 : FVec Ideal S128x256 .bf16) (n : Fin 128) (m : Fin 4096) :
    kLogits v3 v89 (ix2 n m) = (∑ c : Fin 256, v89 (ix2 n c) * v3 (ix2 c m)) * ((134217728 / 13421773 : ℝ) : EReal) := by
  unfold kLogits
  rw [mulf_apply, broadcast_apply, kappa_val]
  refine congrArg (· * _) ?_
  show FloatOps.matmul DK none v89 v3 (constant S128x4096 .f32 0x00000000#32) (ix2 n m) = _
  rw [Ideal.matmul_constant_zero_apply, ← Equiv.sum_comp (contrEquiv1 DK 256 rfl rfl).symm]
  refine Finset.sum_congr rfl fun c _ => ?_
  have hk := contrEquiv1_symm_val DK 256 rfl rfl c
  have el : DK.lhsIdx (ix2 n m) ((contrEquiv1 DK 256 rfl rfl).symm c) = ix2 n c := funext fun a => Fin.ext (by
    match a with
    | ⟨0, _⟩ => exact DK_lhs0 _ _
    | ⟨1, _⟩ => exact (DK_lhs1 _ _).trans hk)
  have er : DK.rhsIdx (ix2 n m) ((contrEquiv1 DK 256 rfl rfl).symm c) = ix2 c m := funext fun a => Fin.ext (by
    match a with
    | ⟨0, _⟩ => exact (DK_rhs0 _ _).trans hk
    | ⟨1, _⟩ => exact DK_rhs1 _ _)
  rw [el, er]

/-! ## One row on the extended reals -/

/-- A row's maximum, from −∞. -/
def rowMax (L : Fin 4096 → EReal) : EReal := (Finset.univ : Finset (Fin 4096)).fold max ⊥ L

/-- The log-softmax of a row at a cell: the logit less the row maximum, less the logarithm of the row's sum of the
    exponentials of those differences. -/
def rowLogp (L : Fin 4096 → EReal) (m : Fin 4096) : EReal :=
  (L m - rowMax L) - Ideal.log (∑ k : Fin 4096, Ideal.exp (L k - rowMax L))

/-- The f32 pattern of −∞ is the bottom of the extended reals. -/
theorem ofBits_neg_inf : Ideal.ofBits .f32 0xFF800000#32 = ⊥ := by simp [Ideal.ofBits, Ideal.ieee]

/-! ## The kernel's reductions and layout changes read at an index -/

theorem lift_row (n : Fin 128) (k : Fin 4096) : reduces_S128x4096_S128.lift (ix1 n) k = ix2 n k :=
  funext fun a => Fin.ext (by match a with | ⟨0, _⟩ => rfl | ⟨1, _⟩ => rfl)

theorem rowAddV_apply (X : FVec Ideal S128x4096 .f32) (n : Fin 128) :
    rowAddV X (ix1 n) = ∑ k : Fin 4096, X (ix2 n k) :=
  (Ideal.multiReduction_add_single X 0x00000000#32 reduces_S128x4096_S128 (.inl rfl) rfl (ix1 n)).trans
    (Finset.sum_congr rfl fun k _ => congrArg X (lift_row n k))

theorem rowMaxV_apply (X : FVec Ideal S128x4096 .f32) (n : Fin 128) :
    rowMaxV X (ix1 n) = rowMax (fun k => X (ix2 n k)) := by
  refine (Ideal.multiReduction_maximumf_single X 0xFF800000#32 reduces_S128x4096_S128 (.inl rfl) rfl (ix1 n)).trans ?_
  rw [Ideal.ofBits_def, ofBits_neg_inf]
  unfold rowMax
  refine congrArg (Finset.fold max ⊥ · Finset.univ) (funext fun k => ?_)
  exact congrArg X (lift_row n k)

theorem lift_tot (j : S1.Idx) (n : Fin 128) : reduces_S1x128_S1.lift j n = ix2 0 n :=
  funext fun a => Fin.ext (by
    match a with
    | ⟨0, _⟩ =>
      have h : (reduces_S1x128_S1.lift j n 0).val < 1 := (reduces_S1x128_S1.lift j n 0).isLt
      show (reduces_S1x128_S1.lift j n 0).val = 0
      omega
    | ⟨1, _⟩ => rfl)

theorem totV_apply (Y : FVec Ideal S1x128 .f32) (j : S1.Idx) : totV Y j = ∑ n : Fin 128, Y (ix2 0 n) :=
  (Ideal.multiReduction_add_single Y 0x00000000#32 reduces_S1x128_S1 (.inl rfl) rfl j).trans
    (Finset.sum_congr rfl fun n _ => congrArg Y (lift_tot j n))

theorem col_apply (Z : FVec Ideal S128 .f32) (n : Fin 128) (z : Fin 1) :
    shapeCast S128x1 Z shapeCasts_S128_S128x1 (ix2 n z) = Z (ix1 n) :=
  shapeCast_apply Z shapeCasts_S128_S128x1 (ix2 n z) (ix1 n) (by
    rw [Shape.rowMajor_val_one, Shape.rowMajor_val_two]; show n.val = n.val * 1 + z.val; omega)

theorem oneRow_apply (Z : FVec Ideal S128 .f32) (n : Fin 128) :
    shapeCast S1x128 Z shapeCasts_S128_S1x128 (ix2 0 n) = Z (ix1 n) :=
  shapeCast_apply Z shapeCasts_S128_S1x128 (ix2 0 n) (ix1 n) (by
    rw [Shape.rowMajor_val_one, Shape.rowMajor_val_two]; show n.val = 0 * 128 + n.val; omega)

theorem spread_apply (Y : FVec Ideal S128x1 .f32) (n : Fin 128) (m : Fin 4096) :
    broadcastTo S128x4096 Y broadcasts_S128x1_S128x4096 (ix2 n m) = Y (ix2 n 0) :=
  broadcastTo_apply Y broadcasts_S128x1_S128x4096 (ix2 n m) (ix2 n 0) (fun a => by
    match a with
    | ⟨0, _⟩ => show n.val = if (128 : Nat) = 1 then 0 else n.val; rw [if_neg (by decide)]
    | ⟨1, _⟩ => show (0 : Nat) = if (1 : Nat) = 1 then 0 else m.val; rw [if_pos rfl])

theorem vexp_apply {s : Shape} {φ : FTy} (x : FVec Ideal s φ) (i : s.Idx) : exp x i = Ideal.exp (x i) := rfl
theorem vlog_apply {s : Shape} {φ : FTy} (x : FVec Ideal s φ) (i : s.Idx) : log x i = Ideal.log (x i) := rfl

/-- The kernel's log-softmax block at a row and a cell is the row's log-softmax. -/
theorem kLogp_apply (L : FVec Ideal S128x4096 .f32) (n : Fin 128) (m : Fin 4096) :
    kLogp L (ix2 n m) = rowLogp (fun k => L (ix2 n k)) m := by
  unfold kLogp rowLogp
  simp only [subf_apply, spread_apply, col_apply, vlog_apply, rowAddV_apply, vexp_apply, rowMaxV_apply]

/-- The kernel's total at any cell of its block: over the rows, zero less the row's weighted sum. -/
theorem kTotal_apply (v86 P : FVec Ideal S128x4096 .f32) (i : Fin 8) (j : Fin 128) :
    kTotal v86 P (ix3 0 i j) = ∑ n : Fin 128, (0 - ∑ m : Fin 4096, v86 (ix2 n m) * P (ix2 n m)) := by
  unfold kTotal
  show totV _ (Shape.reshapeEquiv shapeCasts_S1_S1x1 (fun a => ⟨(![0, 0] : Fin 2 → Nat) a, inpos_S1x1_p0_0 a⟩)) = _
  rw [totV_apply]
  refine Finset.sum_congr rfl fun n _ => ?_
  rw [oneRow_apply, subf_apply, broadcast_apply, rowAddV_apply]
  show Ideal.ofBits .f32 0x00000000#32 - _ = _
  rw [Ideal.ofBits_zero_f32]
  rfl

end Cert.Bridge

/-! ## The reference's last stretch read at an index -/

namespace Cert.Bridge

open Idealize.ShloMosaic Idealize.SL.Sem Idealize.ShloMosaic.ValueIdx
open Cert.ReferenceIdeal Cert.ReferenceIdeal.Gen Cert.ReferenceIdeal.ReadP

section Ref

variable (A0 A1 : (⟨S32x256x64x64, .f32⟩ : BufTy).Contents (Elt Ideal)) (A2 A3 : (⟨S32x128x2, .f32⟩ : BufTy).Contents (Elt Ideal))
  (A4 : (⟨S32x128, .i32⟩ : BufTy).Contents (Elt Ideal))

/-- The f32 nearest to one tenth is 13421773 / 2^27. -/
theorem ofBits_tenth : Ideal.ofBits .f32 0x3DCCCCCD#32 = ((13421773 / 134217728 : ℝ) : EReal) := by
  simp [Ideal.ofBits, Ideal.ieee, -EReal.coe_mul]; norm_num

theorem lidx159_eq (b : Fin 32) (n : Fin 128) (m : Fin 4096) (c : Fin 256) : lidx_main_v159 (ix3 b n m) c = ix3 b n c :=
  funext fun a => by match a with | ⟨0, _⟩ => rfl | ⟨1, _⟩ => rfl | ⟨2, _⟩ => rfl
theorem ridx159_eq (b : Fin 32) (n : Fin 128) (m : Fin 4096) (c : Fin 256) : ridx_main_v159 (ix3 b n m) c = ix3 b c m :=
  funext fun a => by match a with | ⟨0, _⟩ => rfl | ⟨1, _⟩ => rfl | ⟨2, _⟩ => rfl
/-- Cell p of the flattened 64 × 64 map is row p / 64, column p % 64. -/
theorem idx158_eq (b : Fin 32) (c : Fin 256) (m : Fin 4096) :
    idx_main_v158 (ix3 b c m) = ix4 b c (⟨m.val / 64, by omega⟩ : Fin 64) (⟨m.val % 64, by omega⟩ : Fin 64) :=
  funext fun a => Fin.ext (by
    have hb := b.isLt; have hc := c.isLt; have hm := m.isLt
    match a with
    | ⟨0, _⟩ => show ((b.val * 256 + c.val) * 4096 + m.val) / 1048576 = b.val; omega
    | ⟨1, _⟩ => show ((b.val * 256 + c.val) * 4096 + m.val) / 4096 % 256 = c.val; omega
    | ⟨2, _⟩ => show ((b.val * 256 + c.val) * 4096 + m.val) / 64 % 64 = m.val / 64; omega
    | ⟨3, _⟩ => show ((b.val * 256 + c.val) * 4096 + m.val) % 64 = m.val % 64; omega)

/-- The reference's logits at (b, n, m): the dot product over the 256 channels of the sampled features and the
    normalised target map, times the reciprocal of its divisor. -/
theorem ref_logits (b : Fin 32) (n : Fin 128) (m : Fin 4096) :
    val_main_v161 (F := Ideal) A0 A1 A2 (ix3 b n m)
      = (∑ c : Fin 256, val_main_v157 (F := Ideal) A0 A2 (ix3 b n c)
            * val_main_v15 (F := Ideal) A1 (ix4 b c (⟨m.val / 64, by omega⟩ : Fin 64) (⟨m.val % 64, by omega⟩ : Fin 64)))
          * ((134217728 / 13421773 : ℝ) : EReal) := by
  rw [val_main_v161_apply, val_main_v160_apply, val_main_cst_44_apply, Ideal.hostDivf_def, Ideal.ofBits_def, ofBits_tenth,
    Ideal.div_coe (by norm_num), val_main_v159_apply]
  have e : ((1 / (13421773 / 134217728) : ℝ)) = (134217728 / 13421773 : ℝ) := by norm_num
  rw [e]
  refine congrArg (· * _) (Finset.sum_congr rfl fun c _ => ?_)
  rw [lidx159_eq, ridx159_eq, val_main_v158_apply, idx158_eq]

theorem red_cells : S32x128x4096.Reduces [2] S32x128 := by decide

theorem lift_cells (b : Fin 32) (n : Fin 128) (k : Fin 4096) : red_cells.lift (ix2 b n) k = ix3 b n k :=
  funext fun a => Fin.ext (by match a with | ⟨0, _⟩ => rfl | ⟨1, _⟩ => rfl | ⟨2, _⟩ => rfl)

theorem idx_c8v4_eq (b : Fin 32) (n : Fin 128) (m : Fin 4096) : idx_main_call8_v4 (ix3 b n m) = ix3 b n (0 : Fin 1) :=
  funext fun a => by match a with | ⟨0, _⟩ => rfl | ⟨1, _⟩ => rfl | ⟨2, _⟩ => rfl
theorem idx_c8v3_eq (b : Fin 32) (n : Fin 128) (z : Fin 1) : idx_main_call8_v3 (ix3 b n z) = ix2 b n :=
  funext fun a => by match a with | ⟨0, _⟩ => rfl | ⟨1, _⟩ => rfl
theorem idx_c8v10_eq (b : Fin 32) (n : Fin 128) (m : Fin 4096) : idx_main_call8_v10 (ix3 b n m) = ix3 b n (0 : Fin 1) :=
  funext fun a => by match a with | ⟨0, _⟩ => rfl | ⟨1, _⟩ => rfl | ⟨2, _⟩ => rfl
theorem idx_c8v8_eq (b : Fin 32) (n : Fin 128) (z : Fin 1) : idx_main_call8_v8 (ix3 b n z) = ix2 b n :=
  funext fun a => by match a with | ⟨0, _⟩ => rfl | ⟨1, _⟩ => rfl
theorem idx_c8v7_eq (b : Fin 32) (n : Fin 128) (k : Fin 4096) : idx_main_call8_v7 (ix2 b n) k = ix3 b n k :=
  funext fun a => by match a with | ⟨0, _⟩ => rfl | ⟨1, _⟩ => rfl | ⟨2, _⟩ => rfl
theorem idx_v255_eq (b : Fin 32) (n : Fin 128) (k : Fin 4096) : idx_main_v255 (ix2 b n) k = ix3 b n k :=
  funext fun a => by match a with | ⟨0, _⟩ => rfl | ⟨1, _⟩ => rfl | ⟨2, _⟩ => rfl

/-- The reference's row maximum: the maximum of −∞ and the fold of the maximum from −∞ over the row's cells is that fold. -/
theorem ref_max (b : Fin 32) (n : Fin 128) :
    val_main_call8_v2 (F := Ideal) A0 A1 A2 (ix2 b n) = rowMax (fun k => val_main_v161 (F := Ideal) A0 A1 A2 (ix3 b n k)) := by
  rw [val_main_call8_v2_apply, val_main_call8_v1_apply, val_main_call8_cst_0_apply, Ideal.maximumf_def, Ideal.ofBits_def,
    ofBits_neg_inf, max_bot_left]
  unfold val_main_call8_v0
  refine (Host.reduce_eq_fold_single (FloatOps.maximumf (F := Ideal) (φ := .f32)) (val_main_v161 (F := Ideal) A0 A1 A2)
    (val_main_call8_cst (F := Ideal)) reducesTo_S32x128x4096_S32x128_d2 red_cells h_S_ (ix2 b n)).trans ?_
  rw [val_main_call8_cst_apply, Ideal.ofBits_def, ofBits_neg_inf]
  unfold rowMax
  show Finset.fold max ⊥ _ Finset.univ = _
  refine congrArg (Finset.fold max ⊥ · Finset.univ) (funext fun k => ?_)
  exact congrArg (val_main_v161 (F := Ideal) A0 A1 A2) (lift_cells b n k)

/-- The reference's log-softmax at (b, n, m) is the row's log-softmax of its logits. -/
theorem ref_logp (b : Fin 32) (n : Fin 128) (m : Fin 4096) :
    val_main_v253 (F := Ideal) A0 A1 A2 (ix3 b n m) = rowLogp (fun k => val_main_v161 (F := Ideal) A0 A1 A2 (ix3 b n k)) m := by
  have h5 : ∀ k : Fin 4096, val_main_call8_v5 (F := Ideal) A0 A1 A2 (ix3 b n k)
      = val_main_v161 (F := Ideal) A0 A1 A2 (ix3 b n k) - rowMax (fun k => val_main_v161 (F := Ideal) A0 A1 A2 (ix3 b n k)) := fun k => by
    rw [val_main_call8_v5_apply, val_main_call8_v4_apply, idx_c8v4_eq, val_main_call8_v3_apply, idx_c8v3_eq, ref_max, Ideal.subf_def]
  unfold rowLogp
  rw [val_main_v253_apply, h5, val_main_call8_v10_apply, idx_c8v10_eq, val_main_call8_v9_apply, val_main_call8_v8_apply, idx_c8v8_eq,
    val_main_call8_v7_apply, val_main_call8_cst_1_apply, Ideal.ofBits_def, Ideal.ofBits_zero_f32, zero_add, Ideal.subf_def,
    Ideal.hostUnary_log_def]
  refine congrArg (fun s => _ - Ideal.log s) (Finset.sum_congr rfl fun k _ => ?_)
  rw [idx_c8v7_eq, val_main_call8_v6_apply, h5, Ideal.hostUnary_exp_def]

/-- The reference's masked row term at (b, n). -/
theorem ref_row (b : Fin 32) (n : Fin 128) :
    val_main_v259 (F := Ideal) A0 A1 A2 A3 A4 (ix2 b n)
      = (-(∑ m : Fin 4096, val_main_v252 (F := Ideal) A3 A4 (ix3 b n m)
            * rowLogp (fun k => val_main_v161 (F := Ideal) A0 A1 A2 (ix3 b n k)) m))
          * val_main_v200 (F := Ideal) A4 (ix2 b n) := by
  rw [val_main_v259_apply, val_main_v256_apply, val_main_v255_apply, val_main_cst_69_apply, Ideal.ofBits_def, Ideal.ofBits_zero_f32,
    zero_add, Ideal.mulf_def, Ideal.hostNegf_def, Ideal.negf_def]
  refine congrArg (fun s => -s * _) (Finset.sum_congr rfl fun m _ => ?_)
  rw [idx_v255_eq, val_main_v254_apply, ref_logp, Ideal.mulf_def]

end Ref

/-! ## The kernel's block total is the reference's masked row terms, summed -/

/-- Per batch: the kernel's stored total is the sum over the keypoints of the reference's masked loss terms. Where the
    mask is 0 the soft-target row is 0, so both terms are 0; where it is 1 the product with it changes nothing. -/
theorem tail_eq (A0 A1 : (⟨S32x256x64x64, .f32⟩ : BufTy).Contents (Elt Ideal)) (A2 A3 : (⟨S32x128x2, .f32⟩ : BufTy).Contents (Elt Ideal))
    (A4 : (⟨S32x128, .i32⟩ : BufTy).Contents (Elt Ideal)) (b : Fin 32)
    (v3 : FVec Ideal KernelIdeal.S256x4096 .bf16) (v86 : FVec Ideal KernelIdeal.S128x4096 .f32) (v89 : FVec Ideal KernelIdeal.S128x256 .bf16)
    (h3 : ∀ (ch : Fin 256) (p : Fin 4096), v3 (ix2 ch p)
      = val_main_v15 (F := Ideal) A1 (ix4 b ch (⟨p.val / 64, by omega⟩ : Fin 64) (⟨p.val % 64, by omega⟩ : Fin 64)))
    (h86 : ∀ (n : Fin 128) (mm : Fin 4096), v86 (ix2 n mm) = val_main_v252 (F := Ideal) A3 A4 (ix3 b n mm))
    (h89 : ∀ (n : Fin 128) (c : Fin 256), v89 (ix2 n c) = val_main_v157 (F := Ideal) A0 A2 (ix3 b n c))
    (hrow : ∀ n : Fin 128, val_main_v200 (F := Ideal) A4 (ix2 b n) = 0 →
      ∀ mm : Fin 4096, val_main_v252 (F := Ideal) A3 A4 (ix3 b n mm) = 0)
    (hmask : ∀ n : Fin 128, val_main_v200 (F := Ideal) A4 (ix2 b n) = 0 ∨ val_main_v200 (F := Ideal) A4 (ix2 b n) = 1)
    (i : Fin 8) (j : Fin 128) :
    KernelIdeal.Gen.k1_pay1 (F := Ideal) v3 v86 v89 (ix3 0 i j)
      = ∑ n : Fin 128, val_main_v259 (F := Ideal) A0 A1 A2 A3 A4 (ix2 b n) := by
  rw [k1_pay1_eq, kTotal_apply]
  refine Finset.sum_congr rfl fun n _ => ?_
  have hL : (fun k => kLogits v3 v89 (ix2 n k)) = fun k => val_main_v161 (F := Ideal) A0 A1 A2 (ix3 b n k) := funext fun k => by
    rw [kLogits_apply, ref_logits]
    refine congrArg (· * _) (Finset.sum_congr rfl fun c _ => ?_)
    rw [h89, h3]
  rw [ref_row]
  simp only [kLogp_apply, hL, h86]
  rcases hmask n with h0 | h1
  · rw [h0, mul_zero]
    simp only [hrow n h0, zero_mul, Finset.sum_const_zero, sub_zero]
  · rw [h1, mul_one, zero_sub]

/-- The reference's result: its sum over all (b, n) of the masked terms, split by batch, divided by its count. -/
theorem result_sum (A0 A1 : (⟨S32x256x64x64, .f32⟩ : BufTy).Contents (Elt Ideal)) (A2 A3 : (⟨S32x128x2, .f32⟩ : BufTy).Contents (Elt Ideal))
    (A4 : (⟨S32x128, .i32⟩ : BufTy).Contents (Elt Ideal)) (g : Fin 32 → EReal)
    (hg : ∀ b, g b = ∑ n : Fin 128, val_main_v259 (F := Ideal) A0 A1 A2 A3 A4 (ix2 b n)) :
    Ideal.div (0 + ∑ b : Fin 32, g b) (val_main_v258 (F := Ideal) A4 ix0)
      = val_main_v261 (F := Ideal) A0 A1 A2 A3 A4 ix0 := by
  rw [val_main_v261_apply, Ideal.hostDivf_def, val_main_v260_apply, val_main_cst_72_apply, Ideal.ofBits_def, Ideal.ofBits_zero_f32,
    sum_idx2]
  simp only [hg]

end Cert.Bridge
end
-- ==== Proof.PreFinite.lean ====
/-
  The precondition read back at the ideal instance. The printed predicate is the conjunction of four
  `all(|a_k| < +∞)`, k = 0 … 3 (the integer array a4 is unconstrained). Each `all` is a reduction by `and`
  from 1 over every axis, so the predicate being 1 gives `|a_k i| < +∞` at every index i. Over the extended
  reals `|x| = max x (-x)` equals `⊤` at both `⊥` and `⊤`, hence `|x| < ⊤` says that x is a real number.
-/
import proofs.«157332_j6846177869930_1_alg».proof.Pre_finite_inputs
import proofs.«157332_j6846177869930_1_alg».proof.Proof.Gen.Pre_finite_inputs
import Idealize.ShloMosaic.PureOps.Ideal
import Idealize.ShloMosaic.Lib.ReduceAll
import Idealize.ShloMosaic.Lib.ValueIdx

noncomputable section

namespace Cert.PreRead

open Idealize.ShloMosaic Idealize.ShloMosaic.ValueIdx Cert.Pre_finite_inputs

/-- The scalar shape has exactly one index. -/
instance : Subsingleton S_.Idx := ⟨fun a b => funext fun d => d.elim0⟩

/-- The f32 pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` is strictly below `+∞` is a real number:
    at `⊥` and at `⊤` the absolute value is `⊤`, which is not below itself. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every element of the four float inputs is a real number. The predicate's one
    element splits by `and` into the four reductions; each reduction being 1 gives the comparison
    `|a_k i| < +∞` at every index, and that comparison makes `a_k i` real. -/
theorem finite_of_pre (a0 a1 : FVec Ideal Cert.Pre_finite_inputs.S32x256x64x64 .f32)
    (a2 a3 : FVec Ideal Cert.Pre_finite_inputs.S32x128x2 .f32) (a4 : IVec Cert.Pre_finite_inputs.S32x128 32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ix0
  dsimp only [fn, fn_part1] at h0
  -- ((all0 ∧ all1) ∧ all2) ∧ all3, each conjunct a one-bit word
  obtain ⟨h012, h3⟩ := IntOp.andi_eq_one.1 h0
  obtain ⟨h01, h2⟩ := IntOp.andi_eq_one.1 h012
  obtain ⟨hh0, hh1⟩ := IntOp.andi_eq_one.1 h01
  refine ⟨fun i => ?_, fun i => ?_, fun i => ?_, fun i => ?_⟩
  · exact real_of_abs_lt_top (a0 i) (Host.reduce_andi_all _ _ _ _ ix0 hh0 i)
  · exact real_of_abs_lt_top (a1 i) (Host.reduce_andi_all _ _ _ _ ix0 hh1 i)
  · exact real_of_abs_lt_top (a2 i) (Host.reduce_andi_all _ _ _ _ ix0 h2 i)
  · exact real_of_abs_lt_top (a3 i) (Host.reduce_andi_all _ _ _ _ ix0 h3 i)

end Cert.PreRead
-- ==== Proof.NormValue.lean ====
/- REGION 0 of @main, THE VALUES: what the normalizing region leaves in its two output arrays, at the ideal
   (extended-real) reading of the floats, against the reference's normalized maps.

   Each grid point `t` takes batch `t` of an input array — a block of 256 channels by 4096 cells —, divides every
   element by the larger of the root of the sum over the channels of the squares at its cell and a clamp (the f32
   word of 1e-12), and writes the block back as batch `t` of the output array; the narrowing to bf16 is the identity
   on extended reals. The reduction never leaves the block, so the 32 blocks written back are the 32 batches of ONE
   function of the input array (`normAt`), and the blocks tile the output array: after the region the output array
   IS that function of the input array as the region found it (`final2`, `final3`). The input array is the
   flattening of a [32, 256, 64, 64] map to [32, 256, 4096]; read at batch, channel and cell it is the map at batch,
   channel, row = cell / 64 and column = cell % 64, and the reference normalizes the un-flattened map by the same
   operations (a sum over axis 1, a root, a maximum with the same clamp, a quotient): `fsn_at`, `ftgn_at`. The
   normalized map is finite wherever the map is (`map_real`): the clamp is a positive real. -/
import proofs.«157332_j6846177869930_1_alg».proof.Proof.NormRegion
import proofs.«157332_j6846177869930_1_alg».proof.Proof.RefRead
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.KernelIdeal.NormValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- the clamp under the square root: the f32 word of 1e-12 -/
abbrev epsW : BitVec 32 := 0x2B8CBCCC#32

/-- An array of `n` blocks normalized over the channel axis, at an index: the element over the larger of the root
    of the channel-wise sum of squares at its cell and the clamp. -/
def normAt {n : Nat} (A : (⟨3, ![n, 256, 4096]⟩ : Shape).Idx → EReal) (i : (⟨3, ![n, 256, 4096]⟩ : Shape).Idx) : EReal :=
  Ideal.div (A i) (max (Ideal.sqrt (∑ k : Fin 256, A (ix3 (i 0) k (i 2)) * A (ix3 (i 0) k (i 2)))) (Ideal.ofBits .f32 epsW))

/-- The block with its unit axis dropped reads the block at channel and cell. -/
theorem drop_apply (x : Vec Ideal S1x256x4096 .f32) (ch : Fin 256) (p : Fin 4096) :
    shapeCast S256x4096 x shapeCasts_S1x256x4096_S256x4096 (ix2 ch p) = x (ix3 0 ch p) :=
  shapeCast_apply x _ (ix2 ch p) (ix3 0 ch p) (by
    rw [Shape.rowMajor_val_three, Shape.rowMajor_val_two]
    show ((0 * 256 + ch.val) * 4096 + p.val) = ch.val * 4096 + p.val
    omega)

/-- The channel-wise sum of squares at a cell. -/
theorem sumsq_apply (x : Vec Ideal S1x256x4096 .f32) (hφ) (hacc) (p : Fin 4096) :
    multiReduction (F := Ideal) (φ := .f32) .add [0] S4096 (mulf (shapeCast S256x4096 x shapeCasts_S1x256x4096_S256x4096) (shapeCast S256x4096 x shapeCasts_S1x256x4096_S256x4096))
        0x00000000#32 reduces_S256x4096_S4096 hφ hacc (ix1 p)
      = ∑ k : Fin 256, x (ix3 0 k p) * x (ix3 0 k p) := by
  rw [Ideal.multiReduction_add_single]
  show (∑ k : Fin 256, _) = _
  refine Finset.sum_congr rfl fun k _ => ?_
  have hl : reduces_S256x4096_S4096.lift (ix1 p) k = ix2 k p := by
    funext a
    match a with
    | ⟨0, _⟩ => exact Fin.ext rfl
    | ⟨1, _⟩ => exact Fin.ext rfl
  rw [hl, mulf_apply, drop_apply]

theorem pay1_apply (x : Vec Ideal S1x256x4096 .f32) (j : S1x256x4096.Idx) :
    k0_pay1 (F := Ideal) x j = normAt (n := 1) x j := by
  obtain ⟨a, ch, p, rfl⟩ : ∃ a ch p, j = ix3 a ch p := ⟨j 0, j 1, j 2, eq_ix3 j⟩
  obtain rfl : a = 0 := Subsingleton.elim _ _
  unfold k0_pay1 normAt
  rw [shapeCast_apply _ shapeCasts_S256x4096_S1x256x4096 (ix3 0 ch p) (ix2 ch p) (by
    rw [Shape.rowMajor_val_three, Shape.rowMajor_val_two]
    show ch.val * 4096 + p.val = ((0 * 256 + ch.val) * 4096 + p.val)
    omega)]
  rw [truncf_apply, divf_apply, drop_apply]
  rw [broadcastTo_apply _ broadcasts_S1x4096_S256x4096 (ix2 ch p) (ix2 0 p) (fun a => match a with
    | ⟨0, _⟩ => by show 0 = if (1 : Nat) = 1 then 0 else _; rw [if_pos rfl]
    | ⟨1, _⟩ => by show p.val = if (4096 : Nat) = 1 then 0 else p.val; rw [if_neg (by decide)])]
  rw [maximumf_apply, broadcast_apply]
  show Ideal.div _ (max (Ideal.sqrt (shapeCast S1x4096 _ shapeCasts_S4096_S1x4096 (ix2 0 p))) (Ideal.ofBits .f32 epsW)) = _
  rw [shapeCast_apply _ shapeCasts_S4096_S1x4096 (ix2 0 p) (ix1 p) (by
    rw [Shape.rowMajor_val_one, Shape.rowMajor_val_two]
    show p.val = 0 * 4096 + p.val
    omega)]
  exact congrArg (fun s => Ideal.div (x (ix3 0 ch p)) (max (Ideal.sqrt s) (Ideal.ofBits .f32 epsW))) (sumsq_apply x _ _ p)

/-- The reference's normalized map at an index (the map is the reference's first argument; its second is treated by
    the same operations). -/
theorem ref7_apply (A0 : (⟨S32x256x64x64, .f32⟩ : BufTy).Contents (Elt Ideal)) (b : Fin 32) (ch : Fin 256) (y x : Fin 64) :
    Cert.ReferenceIdeal.ReadP.val_main_v7 (F := Ideal) A0 (ix4 b ch y x)
      = Ideal.div (A0 (ix4 b ch y x)) (max (Ideal.sqrt (∑ k : Fin 256, A0 (ix4 b k y x) * A0 (ix4 b k y x))) (Ideal.ofBits .f32 epsW)) := by
  rw [Cert.ReferenceIdeal.ReadP.val_main_v7_apply, Cert.ReferenceIdeal.ReadP.val_main_v6_apply, Cert.ReferenceIdeal.ReadP.val_main_v5_apply,
    Cert.ReferenceIdeal.ReadP.val_main_v3_apply, Cert.ReferenceIdeal.ReadP.val_main_v4_apply, Cert.ReferenceIdeal.ReadP.val_main_cst_0_apply,
    Cert.ReferenceIdeal.ReadP.val_main_v2_apply, Cert.ReferenceIdeal.ReadP.val_main_v1_apply, Cert.ReferenceIdeal.ReadP.val_main_cst_apply]
  simp only [Cert.ReferenceIdeal.ReadP.val_main_v0_apply, Ideal.hostDivf_def, Ideal.hostUnary_sqrt_def, Ideal.maximumf_def, Ideal.ofBits_def,
    Ideal.mulf_def, Ideal.ofBits_zero_f32, zero_add]
  have hidx : ∀ k : Fin 256, Cert.ReferenceIdeal.ReadP.idx_main_v1
      (Cert.ReferenceIdeal.ReadP.idx_main_v2 (Cert.ReferenceIdeal.ReadP.idx_main_v6 (ix4 b ch y x))) k = ix4 b k y x := fun k => by
    funext a
    match a with
    | ⟨0, _⟩ => exact Fin.ext rfl
    | ⟨1, _⟩ => exact Fin.ext rfl
    | ⟨2, _⟩ => exact Fin.ext rfl
    | ⟨3, _⟩ => exact Fin.ext rfl
  simp only [hidx]

/-- The second map is normalized by the same operations. -/
theorem ref15_eq : @Cert.ReferenceIdeal.ReadP.val_main_v15 Ideal _ = @Cert.ReferenceIdeal.ReadP.val_main_v7 Ideal _ := rfl

/-- the clamp is a positive real -/
theorem eps_eq : Ideal.ofBits .f32 epsW = (((9223372 : ℝ) * (2 : ℝ) ^ (-63 : ℤ) : ℝ) : EReal) := by
  have h1 : (epsW.extractLsb' (8 + 23) 1 == 1#1) = false := by decide
  have h2 : (epsW.extractLsb' 23 8).toNat = 87 := by decide
  have h3 : (epsW.extractLsb' 0 23).toNat = 834764 := by decide
  show Ideal.ieee 8 23 epsW = _
  unfold Ideal.ieee
  simp only [h1, h2, h3]
  norm_num

theorem eps_pos : ∃ e : ℝ, 0 < e ∧ Ideal.ofBits .f32 epsW = (e : EReal) :=
  ⟨_, by positivity, eps_eq⟩

/-- A finite sum of reals, read in the extended reals, is the sum of their readings. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The normalized map is finite wherever the map is: the clamp keeps the divisor a positive real. -/
theorem map_real (A0 : (⟨S32x256x64x64, .f32⟩ : BufTy).Contents (Elt Ideal)) (hA0 : ∀ i, ∃ r : ℝ, A0 i = (r : EReal)) :
    ∀ i, ∃ r : ℝ, Cert.ReferenceIdeal.ReadP.val_main_v7 (F := Ideal) A0 i = (r : EReal) := by
  intro i
  obtain ⟨b, ch, y, x, rfl⟩ : ∃ b ch y x, i = ix4 b ch y x := ⟨i 0, i 1, i 2, i 3, eq_ix4 i⟩
  rw [ref7_apply]
  choose f hf using hA0
  obtain ⟨e, he, hee⟩ := eps_pos
  simp only [hf, hee]
  have hs : (∑ k : Fin 256, (f (ix4 b k y x) : EReal) * (f (ix4 b k y x) : EReal))
      = ((∑ k : Fin 256, f (ix4 b k y x) * f (ix4 b k y x) : ℝ) : EReal) := by
    rw [coe_sum]
    exact Finset.sum_congr rfl fun k _ => (EReal.coe_mul _ _).symm
  have hnn : ¬ (∑ k : Fin 256, f (ix4 b k y x) * f (ix4 b k y x) : ℝ) < 0 :=
    not_lt.mpr (Finset.sum_nonneg fun k _ => mul_self_nonneg _)
  rw [hs, Ideal.sqrt_coe, if_neg hnn, ← EReal.coe_strictMono.monotone.map_max]
  have hm : max (Real.sqrt (∑ k : Fin 256, f (ix4 b k y x) * f (ix4 b k y x))) e ≠ 0 :=
    ne_of_gt (lt_of_lt_of_le he (le_max_right _ _))
  rw [Ideal.div_coe hm, ← EReal.coe_mul]
  exact ⟨_, rfl⟩

/-! ## From the blocks to the arrays -/

section Blocks
variable (V : (c : Dev nD) → (b : Ref sig .tc) → Buf (Elt Ideal) ((c : Thread nD τ).loc b))

theorem hz : (![0, 0, 0] : Fin 3 → Nat) = fun _ => 0 := funext fun a => by fin_cases a <;> rfl

/-- The printed index maps, decided over the grid: at point `t` every window's block is batch `t`, whole along the
    channels and the cells. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- a grid point as a batch index, -/
def batchOf (t : Fin cfg0.N) : Fin 32 := ⟨t.val, lt_of_lt_of_eq t.isLt (show cfg0.N = 32 from N_0)⟩
/-- and a batch index as a grid point. -/
def pointOf (b : Fin 32) : Fin cfg0.N := ⟨b.val, lt_of_lt_of_eq b.isLt (show 32 = cfg0.N from N_0.symm)⟩

/-- Where a block's index lands in its array: batch `t`, same channel, same cell. Input window 0; -/
theorem emb0 (t : Fin cfg0.N) (j : S1x256x4096.Idx) :
    ((cfg0.win 0).blk t).view.emb j = ix3 (batchOf t) (j 1) (j 2) := by
  obtain ⟨⟨e0, e1, e2⟩, -, -, -⟩ := idx_facts t
  funext a; apply Fin.ext
  match a with
  | ⟨0, _⟩ => show win0_0.index t (0 : Fin 3) * 1 + 1 * (j 0).val = t.val; have hj : (j 0).val < 1 := (j 0).isLt; omega
  | ⟨1, _⟩ => show win0_0.index t (1 : Fin 3) * 256 + 1 * (j 1).val = (j 1).val; omega
  | ⟨2, _⟩ => show win0_0.index t (2 : Fin 3) * 4096 + 1 * (j 2).val = (j 2).val; omega

/-- input window 1; -/
theorem emb1 (t : Fin cfg0.N) (j : S1x256x4096.Idx) :
    ((cfg0.win 1).blk t).view.emb j = ix3 (batchOf t) (j 1) (j 2) := by
  obtain ⟨-, ⟨e0, e1, e2⟩, -, -⟩ := idx_facts t
  funext a; apply Fin.ext
  match a with
  | ⟨0, _⟩ => show win0_1.index t (0 : Fin 3) * 1 + 1 * (j 0).val = t.val; have hj : (j 0).val < 1 := (j 0).isLt; omega
  | ⟨1, _⟩ => show win0_1.index t (1 : Fin 3) * 256 + 1 * (j 1).val = (j 1).val; omega
  | ⟨2, _⟩ => show win0_1.index t (2 : Fin 3) * 4096 + 1 * (j 2).val = (j 2).val; omega

/-- output window 2; -/
theorem emb2 (t : Fin cfg0.N) (j : S1x256x4096.Idx) :
    ((cfg0.win 2).blk t).view.emb j = ix3 (batchOf t) (j 1) (j 2) := by
  obtain ⟨-, -, ⟨e0, e1, e2⟩, -⟩ := idx_facts t
  funext a; apply Fin.ext
  match a with
  | ⟨0, _⟩ => show win0_2.index t (0 : Fin 3) * 1 + 1 * (j 0).val = t.val; have hj : (j 0).val < 1 := (j 0).isLt; omega
  | ⟨1, _⟩ => show win0_2.index t (1 : Fin 3) * 256 + 1 * (j 1).val = (j 1).val; omega
  | ⟨2, _⟩ => show win0_2.index t (2 : Fin 3) * 4096 + 1 * (j 2).val = (j 2).val; omega

/-- output window 3. -/
theorem emb3 (t : Fin cfg0.N) (j : S1x256x4096.Idx) :
    ((cfg0.win 3).blk t).view.emb j = ix3 (batchOf t) (j 1) (j 2) := by
  obtain ⟨-, -, -, ⟨e0, e1, e2⟩⟩ := idx_facts t
  funext a; apply Fin.ext
  match a with
  | ⟨0, _⟩ => show win0_3.index t (0 : Fin 3) * 1 + 1 * (j 0).val = t.val; have hj : (j 0).val < 1 := (j 0).isLt; omega
  | ⟨1, _⟩ => show win0_3.index t (1 : Fin 3) * 256 + 1 * (j 1).val = (j 1).val; omega
  | ⟨2, _⟩ => show win0_3.index t (2 : Fin 3) * 4096 + 1 * (j 2).val = (j 2).val; omega

/-- An input block at an index is the array, as the region finds it, at batch `t`. -/
theorem block0_apply (c : Dev nD) (t : Fin cfg0.N) (j : S1x256x4096.Idx) :
    Norm.blockAt V c 0 t j = V c (Pipeline.arrRef spec0 0) (ix3 (batchOf t) (j 1) (j 2)) := by
  unfold Norm.blockAt
  rw [View.read_apply]
  show V c (Pipeline.arrRef spec0 0) (((cfg0.win 0).blk t).view.emb j) = _
  rw [emb0]
  rfl

theorem block1_apply (c : Dev nD) (t : Fin cfg0.N) (j : S1x256x4096.Idx) :
    Norm.blockAt V c 1 t j = V c (Pipeline.arrRef spec0 1) (ix3 (batchOf t) (j 1) (j 2)) := by
  unfold Norm.blockAt
  rw [View.read_apply]
  show V c (Pipeline.arrRef spec0 1) (((cfg0.win 1).blk t).view.emb j) = _
  rw [emb1]
  rfl

/-- The second payload is the first (the same operations on the other block). -/
theorem pay2_eq (x : Vec Ideal S1x256x4096 .f32) : k0_pay2 (F := Ideal) x = k0_pay1 (F := Ideal) x := rfl

/-- WHAT POINT `t` WRITES BACK to window 2's array is block `t` of window 0's array as the region finds it,
    normalized; -/
theorem flushed2_eq (c : Dev nD) (t : Fin cfg0.N) :
    (Norm.dat V c).flushed 2 t = ((cfg0.win 2).blk t).view.read (Elt Ideal) (normAt (n := 32) (V c (Pipeline.arrRef spec0 0))) := by
  show (cfg0.win 2).cut (grid0.coords t) ((Norm.dat V c).after 2 t) = _
  rw [Norm.dat_after2]
  unfold Norm.stored2
  rw [View.canon_unit_zero hz]
  simp only [View.ld_unit_zero (S := S1x256x4096) hz]
  funext j
  show k0_pay1 (Norm.blockAt V c 0 t) j = normAt (n := 32) (V c (Pipeline.arrRef spec0 0)) (((cfg0.win 2).blk t).view.emb j)
  rw [pay1_apply, emb2]
  unfold normAt
  simp only [block0_apply]
  rfl

/-- to window 3's, block `t` of window 1's. -/
theorem flushed3_eq (c : Dev nD) (t : Fin cfg0.N) :
    (Norm.dat V c).flushed 3 t = ((cfg0.win 3).blk t).view.read (Elt Ideal) (normAt (n := 32) (V c (Pipeline.arrRef spec0 1))) := by
  show (cfg0.win 3).cut (grid0.coords t) ((Norm.dat V c).after 3 t) = _
  rw [Norm.dat_after3]
  unfold Norm.stored3
  rw [View.canon_unit_zero hz]
  simp only [View.ld_unit_zero (S := S1x256x4096) hz]
  funext j
  show k0_pay2 (Norm.blockAt V c 1 t) j = normAt (n := 32) (V c (Pipeline.arrRef spec0 1)) (((cfg0.win 3).blk t).view.emb j)
  rw [pay2_eq, pay1_apply, emb3]
  unfold normAt
  simp only [block1_apply]
  rfl

/-- An index of window 2's array is in point `t`'s block iff each coordinate is in the block's range on its axis; -/
theorem mem_blk2 (t : Fin cfg0.N) (i : S32x256x4096.Idx) :
    i ∈ ((cfg0.win 2).blk t).view.set ↔ ∀ a : Fin 3, win0_2.index t a * S1x256x4096.size a ≤ (i a).val ∧ (i a).val < win0_2.index t a * S1x256x4096.size a + S1x256x4096.size a := by
  show i ∈ ((View.whole main_v2_0).slice (win0_2.rect t)).set ↔ _
  rw [View.set_slice_whole, Rect.mem_set_unit]
  exact Iff.rfl

/-- of window 3's likewise. -/
theorem mem_blk3 (t : Fin cfg0.N) (i : S32x256x4096.Idx) :
    i ∈ ((cfg0.win 3).blk t).view.set ↔ ∀ a : Fin 3, win0_3.index t a * S1x256x4096.size a ≤ (i a).val ∧ (i a).val < win0_3.index t a * S1x256x4096.size a + S1x256x4096.size a := by
  show i ∈ ((View.whole main_v2_1).slice (win0_3.rect t)).set ↔ _
  rw [View.set_slice_whole, Rect.mem_set_unit]
  exact Iff.rfl

/-- THE ARRAY of window 2 after the region: every index is in the block of the point of its batch, so the array is
    the entry contents of window 0's array, normalized. -/
theorem final2 (c : Dev nD) : (Norm.dat V c).arrAt 2 cfg0.N = normAt (n := 32) (V c (Pipeline.arrRef spec0 0)) :=
  (Norm.dat V c).arrAt_eq_of_cover 2 _ (fun t _ => flushed2_eq V c t) fun i => by
    refine ⟨pointOf (i 0), flush0_2 _, ?_⟩
    rw [mem_blk2]
    obtain ⟨-, -, ⟨e0, e1, e2⟩, -⟩ := idx_facts (pointOf (i 0))
    have h1 : (i 1).val < 256 := (i 1).isLt
    have h2 : (i 2).val < 4096 := (i 2).isLt
    intro a
    match a with
    | ⟨0, _⟩ => show win0_2.index (pointOf (i 0)) (0 : Fin 3) * 1 ≤ (i 0).val ∧ (i 0).val < win0_2.index (pointOf (i 0)) (0 : Fin 3) * 1 + 1; rw [e0]; show (i 0).val * 1 ≤ (i 0).val ∧ (i 0).val < (i 0).val * 1 + 1; omega
    | ⟨1, _⟩ => show win0_2.index (pointOf (i 0)) (1 : Fin 3) * 256 ≤ (i 1).val ∧ (i 1).val < win0_2.index (pointOf (i 0)) (1 : Fin 3) * 256 + 256; omega
    | ⟨2, _⟩ => show win0_2.index (pointOf (i 0)) (2 : Fin 3) * 4096 ≤ (i 2).val ∧ (i 2).val < win0_2.index (pointOf (i 0)) (2 : Fin 3) * 4096 + 4096; omega

theorem final3 (c : Dev nD) : (Norm.dat V c).arrAt 3 cfg0.N = normAt (n := 32) (V c (Pipeline.arrRef spec0 1)) :=
  (Norm.dat V c).arrAt_eq_of_cover 3 _ (fun t _ => flushed3_eq V c t) fun i => by
    refine ⟨pointOf (i 0), flush0_3 _, ?_⟩
    rw [mem_blk3]
    obtain ⟨-, -, -, ⟨e0, e1, e2⟩⟩ := idx_facts (pointOf (i 0))
    have h1 : (i 1).val < 256 := (i 1).isLt
    have h2 : (i 2).val < 4096 := (i 2).isLt
    intro a
    match a with
    | ⟨0, _⟩ => show win0_3.index (pointOf (i 0)) (0 : Fin 3) * 1 ≤ (i 0).val ∧ (i 0).val < win0_3.index (pointOf (i 0)) (0 : Fin 3) * 1 + 1; rw [e0]; show (i 0).val * 1 ≤ (i 0).val ∧ (i 0).val < (i 0).val * 1 + 1; omega
    | ⟨1, _⟩ => show win0_3.index (pointOf (i 0)) (1 : Fin 3) * 256 ≤ (i 1).val ∧ (i 1).val < win0_3.index (pointOf (i 0)) (1 : Fin 3) * 256 + 256; omega
    | ⟨2, _⟩ => show win0_3.index (pointOf (i 0)) (2 : Fin 3) * 4096 ≤ (i 2).val ∧ (i 2).val < win0_3.index (pointOf (i 0)) (2 : Fin 3) * 4096 + 4096; omega

/-- The flattened map at batch, channel and cell is the map at batch, channel, row and column. -/
theorem flat_apply (A : (⟨S32x256x64x64, .f32⟩ : BufTy).Contents (Elt Ideal)) (b : Fin 32) (k : Fin 256) (p : Fin 4096) :
    shapeCast S32x256x4096 A shapeCasts_S32x256x64x64_S32x256x4096 (ix3 b k p)
      = A (ix4 b k (⟨p.val / 64, by omega⟩ : Fin 64) (⟨p.val % 64, by omega⟩ : Fin 64)) :=
  shapeCast_apply A _ (ix3 b k p) _ (by
    rw [Shape.rowMajor_val_four, Shape.rowMajor_val_three]
    show ((b.val * 256 + k.val) * 64 + p.val / 64) * 64 + p.val % 64 = (b.val * 256 + k.val) * 4096 + p.val
    omega)

/-- THE FIRST NORMALIZED MAP: window 2's array after the region, at batch, channel and cell, is the reference's
    normalized first map at batch, channel, row and column. -/
theorem fsn_at (c : Dev nD) (A0 : (⟨S32x256x64x64, .f32⟩ : BufTy).Contents (Elt Ideal))
    (hV : V c (Pipeline.arrRef spec0 0) = shapeCast S32x256x4096 A0 shapeCasts_S32x256x64x64_S32x256x4096)
    (b : Fin 32) (ch : Fin 256) (p : Fin 4096) :
    (Norm.dat V c).arrAt 2 cfg0.N (ix3 b ch p)
      = Cert.ReferenceIdeal.ReadP.val_main_v7 (F := Ideal) A0 (ix4 b ch (⟨p.val / 64, by omega⟩ : Fin 64) (⟨p.val % 64, by omega⟩ : Fin 64)) := by
  rw [final2, ref7_apply, hV]
  unfold normAt
  show Ideal.div (shapeCast S32x256x4096 A0 shapeCasts_S32x256x64x64_S32x256x4096 (ix3 b ch p))
      (max (Ideal.sqrt (∑ k : Fin 256, shapeCast S32x256x4096 A0 shapeCasts_S32x256x64x64_S32x256x4096 (ix3 b k p)
        * shapeCast S32x256x4096 A0 shapeCasts_S32x256x64x64_S32x256x4096 (ix3 b k p))) (Ideal.ofBits .f32 epsW)) = _
  have hs : (∑ k : Fin 256, shapeCast S32x256x4096 A0 shapeCasts_S32x256x64x64_S32x256x4096 (ix3 b k p)
        * shapeCast S32x256x4096 A0 shapeCasts_S32x256x64x64_S32x256x4096 (ix3 b k p))
      = ∑ k : Fin 256, A0 (ix4 b k (⟨p.val / 64, by omega⟩ : Fin 64) (⟨p.val % 64, by omega⟩ : Fin 64))
        * A0 (ix4 b k (⟨p.val / 64, by omega⟩ : Fin 64) (⟨p.val % 64, by omega⟩ : Fin 64)) :=
    Finset.sum_congr rfl fun k _ => by rw [flat_apply A0 b k p]
  rw [hs, flat_apply A0 b ch p]

/-- THE SECOND NORMALIZED MAP: window 3's array likewise, against the reference's normalized second map. -/
theorem ftgn_at (c : Dev nD) (A1 : (⟨S32x256x64x64, .f32⟩ : BufTy).Contents (Elt Ideal))
    (hV : V c (Pipeline.arrRef spec0 1) = shapeCast S32x256x4096 A1 shapeCasts_S32x256x64x64_S32x256x4096)
    (b : Fin 32) (ch : Fin 256) (p : Fin 4096) :
    (Norm.dat V c).arrAt 3 cfg0.N (ix3 b ch p)
      = Cert.ReferenceIdeal.ReadP.val_main_v15 (F := Ideal) A1 (ix4 b ch (⟨p.val / 64, by omega⟩ : Fin 64) (⟨p.val % 64, by omega⟩ : Fin 64)) := by
  show _ = Cert.ReferenceIdeal.ReadP.val_main_v7 (F := Ideal) A1 _
  rw [final3, ref7_apply, hV]
  unfold normAt
  show Ideal.div (shapeCast S32x256x4096 A1 shapeCasts_S32x256x64x64_S32x256x4096 (ix3 b ch p))
      (max (Ideal.sqrt (∑ k : Fin 256, shapeCast S32x256x4096 A1 shapeCasts_S32x256x64x64_S32x256x4096 (ix3 b k p)
        * shapeCast S32x256x4096 A1 shapeCasts_S32x256x64x64_S32x256x4096 (ix3 b k p))) (Ideal.ofBits .f32 epsW)) = _
  have hs : (∑ k : Fin 256, shapeCast S32x256x4096 A1 shapeCasts_S32x256x64x64_S32x256x4096 (ix3 b k p)
        * shapeCast S32x256x4096 A1 shapeCasts_S32x256x64x64_S32x256x4096 (ix3 b k p))
      = ∑ k : Fin 256, A1 (ix4 b k (⟨p.val / 64, by omega⟩ : Fin 64) (⟨p.val % 64, by omega⟩ : Fin 64))
        * A1 (ix4 b k (⟨p.val / 64, by omega⟩ : Fin 64) (⟨p.val % 64, by omega⟩ : Fin 64)) :=
    Finset.sum_congr rfl fun k _ => by rw [flat_apply A1 b k p]
  rw [hs, flat_apply A1 b ch p]

end Blocks

end Cert.KernelIdeal.NormValue

end
-- ==== Proof.BridgeSampleKer.lean ====
/-
  The loss kernel's sampling step read at one element. The kernel multiplies a [128, 4096] weight matrix into the
  batch's normalised source block [256, 4096], contracting the 4096 cells of both operands. Row n of the weight matrix
  is built lane by lane: for each of the four bilinear corners the corner's weight is kept on the lane whose number
  equals the corner's flat cell index and zero is kept elsewhere, and the four rows are added from zero in corner
  order. This module reads that product at (n, c): the sum over the cells m of (row n at m) times (channel c at m).
-/
import proofs.«157332_j6846177869930_1_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.Bridge.Sample

open Idealize.ShloMosaic Idealize.ShloMosaic.ValueIdx Idealize.SL.Sem
open Cert.KernelIdeal (S1x256x4096 S1x128x4 S128x4096 S128x256 S256x4096 S128x4 S128x1)

abbrev KD := Cert.KernelIdeal.dot_S128x4096_S256x4096_S128x256_1_1_0_0_n_n

/-- The left operand's row is the result's row. -/
theorem lhs_KD_0 (i : S128x256.Idx) (q : KD.contr.Idx) : (KD.lhsIdx i q 0).val = (i 0).val := by
  unfold DotDims.lhsIdx
  rw [dif_neg (show ¬(0 : Fin S128x4096.rank) ∈ KD.lhsBatch by decide), dif_pos (show (0 : Fin S128x4096.rank) ∈ KD.lhsNonContracting by decide)]
  rfl
/-- The left operand's column is the contracted cell. -/
theorem lhs_KD_1 (i : S128x256.Idx) (q : KD.contr.Idx) : (KD.lhsIdx i q 1).val = (q ⟨0, by decide⟩).val :=
  KD.lhsIdx_val_of_single rfl i q
/-- The right operand's row is the result's column (the channel). -/
theorem rhs_KD_0 (i : S128x256.Idx) (q : KD.contr.Idx) : (KD.rhsIdx i q 0).val = (i 1).val := by
  unfold DotDims.rhsIdx
  rw [dif_neg (show ¬(0 : Fin S256x4096.rank) ∈ KD.rhsBatch by decide), dif_pos (show (0 : Fin S256x4096.rank) ∈ KD.rhsNonContracting by decide)]
  rfl
/-- The right operand's column is the contracted cell. -/
theorem rhs_KD_1 (i : S128x256.Idx) (q : KD.contr.Idx) : (KD.rhsIdx i q 1).val = (q ⟨0, by decide⟩).val :=
  KD.rhsIdx_val_of_single rfl i q

/-- Column `k` of a [1,128,4] block, squeezed, cut out as a [128,1] column and laid along the 4096 lanes,
    reads the block at (0, n, k) on every lane. -/
theorem lane_read {α : Type} (o : Nat) (v : S1x128x4.Idx → α)
    (hc : S1x128x4.ShapeCasts S128x4) (hs : S128x4.Slices ![0, o] S128x1) (hb : S128x1.Broadcasts S128x4096)
    (n : Fin 128) (m : Fin 4096) (k : Fin 4) (hk : k.val = o) :
    broadcastTo S128x4096 (extractStridedSlice S128x1 ![0, o] (shapeCast S128x4 v hc) hs) hb (ix2 n m) = v (ix3 0 n k) := by
  rw [broadcastTo_apply _ hb (ix2 n m) (ix2 n (0 : Fin 1)) (fun a => match a with
    | ⟨0, _⟩ => by show n.val = if (128 : Nat) = 1 then 0 else n.val; rw [if_neg (by decide)]
    | ⟨1, _⟩ => by show 0 = if (1 : Nat) = 1 then 0 else m.val; rw [if_pos rfl])]
  rw [slice2_axis1_apply o _ hs n 0 k (by rw [hk]; rfl)]
  exact shapeCast_1ab_ab_apply v hc n k

/-- One corner of the weight row: the corner's weight on the lane whose number is the corner's cell, zero elsewhere. -/
theorem corner_read (o : Nat) (x2 : Vec Ideal S1x128x4 .i32) (x3 : Vec Ideal S1x128x4 .f32)
    (hI : S128x4096.Iotas .tc 32 [1]) (hc : S1x128x4.ShapeCasts S128x4) (hs : S128x4.Slices ![0, o] S128x1)
    (hb : S128x1.Broadcasts S128x4096) (hcc : S128x1.ShapeCasts S128x1)
    (n : Fin 128) (m : Fin 4096) (k : Fin 4) (hk : k.val = o) :
    select (cmpi .eq (iota .tc S128x4096 32 [1] hI)
        (broadcastTo S128x4096 (extractStridedSlice S128x1 ![0, o] (shapeCast S128x4 x2 hc) hs) hb))
      (broadcastTo S128x4096 (shapeCast S128x1 (extractStridedSlice S128x1 ![0, o] (shapeCast S128x4 x3 hc) hs) hcc) hb)
      (broadcast S128x4096 (FloatOps.ofBits (F := Ideal) .f32 0x00000000#32)) (ix2 n m)
      = if BitVec.ofNat 32 m.val = x2 (ix3 0 n k) then x3 (ix3 0 n k) else 0 := by
  have h1 : iota .tc S128x4096 32 [1] hI (ix2 n m) = BitVec.ofNat 32 m.val :=
    iota_single_apply .tc S128x4096 32 1 hI (ix2 n m)
  have h2 := lane_read o x2 hc hs hb n m k hk
  have h3 : broadcastTo S128x4096 (shapeCast S128x1 (extractStridedSlice S128x1 ![0, o] (shapeCast S128x4 x3 hc) hs) hcc) hb (ix2 n m)
      = x3 (ix3 0 n k) := by
    rw [shapeCast_self]; exact lane_read o x3 hc hs hb n m k hk
  show Scalar.select (IntOp.cmpi .eq _ _) _ _ = _
  rw [h1, h2, h3]
  by_cases h : BitVec.ofNat 32 m.val = x2 (ix3 0 n k)
  · rw [if_pos h, StableHlo.Predicate.cmpi_eq_iff.2 h, select_one]
  · rw [if_neg h, eq_zero_of_ne_one (mt StableHlo.Predicate.cmpi_eq_iff.1 h), select_zero]
    exact Ideal.ofBits_zero_f32

/-- The kernel's weight row at keypoint `n` and cell `m`: the four corner weights, each kept where the cell is
    that corner's, added from zero in corner order. -/
def Wk (x2 : Vec Ideal S1x128x4 .i32) (x3 : Vec Ideal S1x128x4 .f32) (n : Fin 128) (m : Fin 4096) : EReal :=
  ((((0 : EReal) + (if BitVec.ofNat 32 m.val = x2 (ix3 0 n 0) then x3 (ix3 0 n 0) else 0))
      + (if BitVec.ofNat 32 m.val = x2 (ix3 0 n 1) then x3 (ix3 0 n 1) else 0))
      + (if BitVec.ofNat 32 m.val = x2 (ix3 0 n 2) then x3 (ix3 0 n 2) else 0))
      + (if BitVec.ofNat 32 m.val = x2 (ix3 0 n 3) then x3 (ix3 0 n 3) else 0)

theorem kernel_sample_read (x0 : Vec Ideal S1x256x4096 .bf16) (x2 : Vec Ideal S1x128x4 .i32) (x3 : Vec Ideal S1x128x4 .f32)
    (n : Fin 128) (c : Fin 256) :
    Cert.KernelIdeal.Gen.k1_pay12 (F := Ideal) (Cert.KernelIdeal.Gen.k1_pay2 x0) (Cert.KernelIdeal.Gen.k1_pay4 x2) (Cert.KernelIdeal.Gen.k1_pay5 x3) (iota .tc S128x4096 32 [1] Cert.KernelIdeal.Gen.iota_S128x4096_d1_w32) (Cert.KernelIdeal.Gen.k1_pay8 x2 x3) (Cert.KernelIdeal.Gen.k1_pay9 x2) (Scalar.ofBits .f32 0x00000000#32) (Cert.KernelIdeal.Gen.k1_pay10 x3) (ix2 n c)
      = ∑ m : Fin 4096, Wk x2 x3 n m * x0 (ix3 0 c m) := by
  unfold Cert.KernelIdeal.Gen.k1_pay12
  dsimp only
  rw [truncf_apply]
  show FloatOps.matmul KD none _ _ (constant S128x256 .f32 0x00000000#32) (ix2 n c) = _
  rw [Ideal.matmul_constant_zero_apply, ← Equiv.sum_comp (contrEquiv1 KD 4096 rfl rfl).symm]
  refine Finset.sum_congr rfl fun m _ => ?_
  have hm := contrEquiv1_symm_val KD 4096 rfl rfl m
  have el : KD.lhsIdx (ix2 n c) ((contrEquiv1 KD 4096 rfl rfl).symm m) = ix2 n m := funext fun a => Fin.ext (by
    match a with
    | ⟨0, _⟩ => exact lhs_KD_0 _ _
    | ⟨1, _⟩ => exact (lhs_KD_1 _ _).trans hm)
  have er : KD.rhsIdx (ix2 n c) ((contrEquiv1 KD 4096 rfl rfl).symm m) = ix2 c m := funext fun a => Fin.ext (by
    match a with
    | ⟨0, _⟩ => exact rhs_KD_0 _ _
    | ⟨1, _⟩ => exact (rhs_KD_1 _ _).trans hm)
  rw [el, er]
  congr 1
  · rw [truncf_apply, addf_apply, addf_apply]
    unfold Cert.KernelIdeal.Gen.k1_pay8 Cert.KernelIdeal.Gen.k1_pay9 Cert.KernelIdeal.Gen.k1_pay10 Cert.KernelIdeal.Gen.k1_pay4 Cert.KernelIdeal.Gen.k1_pay5
    dsimp only
    rw [addf_apply, addf_apply,
      corner_read 0 x2 x3 _ _ _ _ _ n m 0 rfl, corner_read 1 x2 x3 _ _ _ _ _ n m 1 rfl,
      corner_read 2 x2 x3 _ _ _ _ _ n m 2 rfl, corner_read 3 x2 x3 _ _ _ _ _ n m 3 rfl]
    show Ideal.ofBits .f32 0x00000000#32 + _ + _ + _ + _ = _
    rw [Ideal.ofBits_zero_f32]
    rfl
  · exact shapeCast_1ab_ab_apply x0 _ c m

end Cert.Bridge.Sample

end
-- ==== Proof.CellRange.lean ====
/-
  Cell coordinates of the reference. Every cell coordinate the reference computes is a clip to `[0, 63]`: either a float
  clipped to `[0, 63]` and then converted to a signed word (the conversion truncates, and an extended real between 0 and
  63 is a real number, so no corner of the conversion is met), or a signed word clipped to `[0, 63]`. Hence every
  coordinate lies in `0 … 63` for EVERY input, finite or not; a flattened cell index `y·64 + x` lies in `0 … 4095`
  with no wrap-around in 32-bit arithmetic; and the "negative index wraps" selects never fire.
-/
import proofs.«157332_j6846177869930_1_alg».proof.Proof.RefRead
import Idealize.ShloMosaic.PureOps.Ideal
import Idealize.ShloMosaic.Lib.StableHlo.Predicate

noncomputable section

namespace Cert.Bridge

open Idealize.ShloMosaic Cert.ReferenceIdeal Cert.ReferenceIdeal.Gen Idealize.SL.Sem

/-- A signed word in `0 … 63` is its own unsigned value. -/
theorem toNat_of_range (w : BitVec 32) (h : 0 ≤ w.toInt ∧ w.toInt ≤ 63) : w.toNat ≤ 63 ∧ w.toInt = (w.toNat : Int) := by
  have := BitVec.toInt_eq_toNat_cond w
  have := w.isLt
  split_ifs at * <;> omega

theorem toInt_ofInt_small (n : Int) (h0 : 0 ≤ n) (h1 : n ≤ 63) : (BitVec.ofInt 32 n).toInt = n := by
  rw [BitVec.toInt_ofInt]
  rw [Int.bmod_def]
  split_ifs <;> omega

theorem fptosi_clip (w : EReal) :
    0 ≤ (Ideal.fptosi 32 (min (((63 : ℤ) : ℝ) : EReal) (max (((0 : ℤ) : ℝ) : EReal) w))).toInt ∧
      (Ideal.fptosi 32 (min (((63 : ℤ) : ℝ) : EReal) (max (((0 : ℤ) : ℝ) : EReal) w))).toInt ≤ 63 := by
  generalize hz : min (((63 : ℤ) : ℝ) : EReal) (max (((0 : ℤ) : ℝ) : EReal) w) = z
  have h1 : z ≤ (((63 : ℤ) : ℝ) : EReal) := hz ▸ min_le_left _ _
  have h0 : (((0 : ℤ) : ℝ) : EReal) ≤ z := hz ▸ le_min (by exact_mod_cast (by norm_num : (0:ℝ) ≤ 63)) (le_max_left _ _)
  clear hz
  induction z using EReal.rec with
  | bot => simp at h0
  | top => simp at h1
  | coe r =>
    have hr0 : (0 : ℝ) ≤ r := by exact_mod_cast h0
    have hr1 : r ≤ 63 := by exact_mod_cast h1
    have hf0 : 0 ≤ ⌊r⌋ := Int.floor_nonneg.2 hr0
    have hf1 : ⌊r⌋ ≤ 63 := by
      have : ⌊r⌋ ≤ ⌊(63 : ℝ)⌋ := Int.floor_le_floor hr1
      simpa using this
    have : Ideal.fptosi 32 (r : EReal) = BitVec.ofInt 32 ⌊r⌋ := by
      rw [Ideal.fptosi, Ideal.toIntClamped_coe, if_pos hr0]
      congr 1
      omega
    rw [this, toInt_ofInt_small _ hf0 hf1]
    exact ⟨hf0, hf1⟩

theorem int_clip (u : BitVec 32) :
    0 ≤ (IntOp.minsi 63#32 (IntOp.maxsi 0#32 u)).toInt ∧ (IntOp.minsi 63#32 (IntOp.maxsi 0#32 u)).toInt ≤ 63 := by
  unfold IntOp.minsi IntOp.maxsi
  have e63 : (63#32 : BitVec 32).toInt = 63 := by decide
  have e0 : (0#32 : BitVec 32).toInt = 0 := by decide
  simp only [BitVec.slt, decide_eq_true_eq]
  split_ifs <;> omega

/-- The float clip followed by the conversion, in the spelling the reference's stages read in: the bounds are the
    conversions of the words 0 and 63. -/
theorem fptosi_clip' (w : EReal) :
    0 ≤ (FloatOps.fptosi (F := Ideal) (φ := .f32) 32 (FloatOps.minimumf (FloatOps.sitofp .f32 (63#32 : BitVec 32))
        (FloatOps.maximumf (FloatOps.sitofp .f32 (0#32 : BitVec 32)) w))).toInt ∧
      (FloatOps.fptosi (F := Ideal) (φ := .f32) 32 (FloatOps.minimumf (FloatOps.sitofp .f32 (63#32 : BitVec 32))
        (FloatOps.maximumf (FloatOps.sitofp .f32 (0#32 : BitVec 32)) w))).toInt ≤ 63 := by
  have e63 : FloatOps.sitofp (F := Ideal) .f32 (63#32 : BitVec 32) = (((63 : ℤ) : ℝ) : EReal) := by
    show ((((63#32 : BitVec 32).toInt : ℤ) : ℝ) : EReal) = _
    rw [show (63#32 : BitVec 32).toInt = 63 from by decide]
  have e0 : FloatOps.sitofp (F := Ideal) .f32 (0#32 : BitVec 32) = (((0 : ℤ) : ℝ) : EReal) := by
    show ((((0#32 : BitVec 32).toInt : ℤ) : ℝ) : EReal) = _
    rw [show (0#32 : BitVec 32).toInt = 0 from by decide]
  rw [e63, e0]
  exact fptosi_clip w

/-- Cell coordinate `%30`: the conversion of a float clipped to `[0, 63]` lies in `0 … 63`, for every extended real input. -/
theorem cell_v30 (A2 : (⟨S32x128x2, .f32⟩ : BufTy).Contents (Elt Ideal)) (i : S32x128.Idx) :
    0 ≤ (ReadP.val_main_v30 (F := Ideal) A2 i).toInt ∧ (ReadP.val_main_v30 (F := Ideal) A2 i).toInt ≤ 63 := by
  rw [ReadP.val_main_v30_apply, ReadP.val_main_v29_apply, ReadP.val_main_call0_v4_apply, ReadP.val_main_call0_v3_apply,
    ReadP.val_main_c_7_apply, ReadP.val_main_call0_v2_apply, ReadP.val_main_call0_v1_apply, ReadP.val_main_call0_v0_apply,
    ReadP.val_main_c_apply]
  exact fptosi_clip' _

/-- Cell coordinate `%33`: the conversion of a float clipped to `[0, 63]` lies in `0 … 63`, for every extended real input. -/
theorem cell_v33 (A2 : (⟨S32x128x2, .f32⟩ : BufTy).Contents (Elt Ideal)) (i : S32x128.Idx) :
    0 ≤ (ReadP.val_main_v33 (F := Ideal) A2 i).toInt ∧ (ReadP.val_main_v33 (F := Ideal) A2 i).toInt ≤ 63 := by
  rw [ReadP.val_main_v33_apply, ReadP.val_main_v32_apply, ReadP.val_main_call1_v4_apply, ReadP.val_main_call1_v3_apply,
    ReadP.val_main_c_9_apply, ReadP.val_main_call1_v2_apply, ReadP.val_main_call1_v1_apply, ReadP.val_main_call1_v0_apply,
    ReadP.val_main_c_8_apply]
  exact fptosi_clip' _

/-- Cell coordinate `%36`: an integer clipped to `[0, 63]` lies in `0 … 63`. -/
theorem cell_v36 (A2 : (⟨S32x128x2, .f32⟩ : BufTy).Contents (Elt Ideal)) (i : S32x128.Idx) :
    0 ≤ (ReadP.val_main_v36 (F := Ideal) A2 i).toInt ∧ (ReadP.val_main_v36 (F := Ideal) A2 i).toInt ≤ 63 := by
  rw [ReadP.val_main_v36_apply, ReadP.val_main_call2_v4_apply, ReadP.val_main_call2_v3_apply,
    ReadP.val_main_c_12_apply, ReadP.val_main_call2_v2_apply, ReadP.val_main_call2_v1_apply, ReadP.val_main_call2_v0_apply,
    ReadP.val_main_c_11_apply]
  exact int_clip _

/-- Cell coordinate `%39`: an integer clipped to `[0, 63]` lies in `0 … 63`. -/
theorem cell_v39 (A2 : (⟨S32x128x2, .f32⟩ : BufTy).Contents (Elt Ideal)) (i : S32x128.Idx) :
    0 ≤ (ReadP.val_main_v39 (F := Ideal) A2 i).toInt ∧ (ReadP.val_main_v39 (F := Ideal) A2 i).toInt ≤ 63 := by
  rw [ReadP.val_main_v39_apply, ReadP.val_main_call3_v4_apply, ReadP.val_main_call3_v3_apply,
    ReadP.val_main_c_15_apply, ReadP.val_main_call3_v2_apply, ReadP.val_main_call3_v1_apply, ReadP.val_main_call3_v0_apply,
    ReadP.val_main_c_14_apply]
  exact int_clip _

/-- Cell coordinate `%172`: the conversion of a float clipped to `[0, 63]` lies in `0 … 63`, for every extended real input. -/
theorem cell_v172 (A3 : (⟨S32x128x2, .f32⟩ : BufTy).Contents (Elt Ideal)) (i : S32x128.Idx) :
    0 ≤ (ReadP.val_main_v172 (F := Ideal) A3 i).toInt ∧ (ReadP.val_main_v172 (F := Ideal) A3 i).toInt ≤ 63 := by
  rw [ReadP.val_main_v172_apply, ReadP.val_main_v171_apply, ReadP.val_main_call4_v4_apply, ReadP.val_main_call4_v3_apply,
    ReadP.val_main_c_48_apply, ReadP.val_main_call4_v2_apply, ReadP.val_main_call4_v1_apply, ReadP.val_main_call4_v0_apply,
    ReadP.val_main_c_47_apply]
  exact fptosi_clip' _

/-- Cell coordinate `%175`: an integer clipped to `[0, 63]` lies in `0 … 63`. -/
theorem cell_v175 (A3 : (⟨S32x128x2, .f32⟩ : BufTy).Contents (Elt Ideal)) (i : S32x128.Idx) :
    0 ≤ (ReadP.val_main_v175 (F := Ideal) A3 i).toInt ∧ (ReadP.val_main_v175 (F := Ideal) A3 i).toInt ≤ 63 := by
  rw [ReadP.val_main_v175_apply, ReadP.val_main_call5_v4_apply, ReadP.val_main_call5_v3_apply,
    ReadP.val_main_c_51_apply, ReadP.val_main_call5_v2_apply, ReadP.val_main_call5_v1_apply, ReadP.val_main_call5_v0_apply,
    ReadP.val_main_c_50_apply]
  exact int_clip _

/-- Cell coordinate `%178`: the conversion of a float clipped to `[0, 63]` lies in `0 … 63`, for every extended real input. -/
theorem cell_v178 (A3 : (⟨S32x128x2, .f32⟩ : BufTy).Contents (Elt Ideal)) (i : S32x128.Idx) :
    0 ≤ (ReadP.val_main_v178 (F := Ideal) A3 i).toInt ∧ (ReadP.val_main_v178 (F := Ideal) A3 i).toInt ≤ 63 := by
  rw [ReadP.val_main_v178_apply, ReadP.val_main_v177_apply, ReadP.val_main_call6_v4_apply, ReadP.val_main_call6_v3_apply,
    ReadP.val_main_c_53_apply, ReadP.val_main_call6_v2_apply, ReadP.val_main_call6_v1_apply, ReadP.val_main_call6_v0_apply,
    ReadP.val_main_c_52_apply]
  exact fptosi_clip' _

/-- Cell coordinate `%181`: an integer clipped to `[0, 63]` lies in `0 … 63`. -/
theorem cell_v181 (A3 : (⟨S32x128x2, .f32⟩ : BufTy).Contents (Elt Ideal)) (i : S32x128.Idx) :
    0 ≤ (ReadP.val_main_v181 (F := Ideal) A3 i).toInt ∧ (ReadP.val_main_v181 (F := Ideal) A3 i).toInt ≤ 63 := by
  rw [ReadP.val_main_v181_apply, ReadP.val_main_call7_v4_apply, ReadP.val_main_call7_v3_apply,
    ReadP.val_main_c_56_apply, ReadP.val_main_call7_v2_apply, ReadP.val_main_call7_v1_apply, ReadP.val_main_call7_v0_apply,
    ReadP.val_main_c_55_apply]
  exact int_clip _

/-- The flattened cell index `y·64 + x` of two coordinates in `0 … 63` does not wrap in 32-bit arithmetic. -/
theorem flat_cell (y x : BitVec 32) (hy : 0 ≤ y.toInt ∧ y.toInt ≤ 63) (hx : 0 ≤ x.toInt ∧ x.toInt ≤ 63) :
    (y * 64#32 + x).toNat = y.toNat * 64 + x.toNat ∧ y.toNat ≤ 63 ∧ x.toNat ≤ 63 ∧ 0 ≤ (y * 64#32 + x).toInt ∧
      (y * 64#32 + x).toInt = (y.toNat * 64 + x.toNat : ℕ) := by
  obtain ⟨hy1, -⟩ := toNat_of_range y hy
  obtain ⟨hx1, -⟩ := toNat_of_range x hx
  have hn : (y * 64#32 + x).toNat = y.toNat * 64 + x.toNat := by
    rw [BitVec.toNat_add, BitVec.toNat_mul]
    simp only [BitVec.toNat_ofNat]
    omega
  have hi : (y * 64#32 + x).toInt = ((y * 64#32 + x).toNat : Int) := by
    have := BitVec.toInt_eq_toNat_cond (y * 64#32 + x)
    split_ifs at this <;> omega
  refine ⟨hn, hy1, hx1, by omega, ?_⟩
  rw [hi, hn]

/-- A cell number `m < 4096` as a 32-bit word equals the flattened index exactly when the numbers agree. -/
theorem cell_eq_iff (y x : BitVec 32) (hy : 0 ≤ y.toInt ∧ y.toInt ≤ 63) (hx : 0 ≤ x.toInt ∧ x.toInt ≤ 63) (m : Fin 4096) :
    BitVec.ofNat 32 m.val = y * 64#32 + x ↔ m.val = y.toNat * 64 + x.toNat := by
  obtain ⟨hn, -, -, -, -⟩ := flat_cell y x hy hx
  have hm : (BitVec.ofNat 32 m.val).toNat = m.val := by
    rw [BitVec.toNat_ofNat]; have := m.isLt; omega
  rw [← BitVec.toNat_inj, hm, hn]

/-- A word that is nonnegative as a signed number is not below zero. -/
theorem not_neg (w : BitVec 32) (h : 0 ≤ w.toInt) : IntOp.cmpi .slt w 0#32 = 0#1 := by
  unfold IntOp.cmpi
  have e0 : (0#32 : BitVec 32).toInt = 0 := by decide
  have : w.slt 0#32 = false := by
    simp only [BitVec.slt, decide_eq_false_iff_not]; omega
  simp [this]

end Cert.Bridge
-- ==== Proof.CellSelect.lean ====
/-
  The reference reads its sampled cells through a gather whose index arithmetic wraps a negative index around
  (`i < 0 ? i + 64 : i`). Every cell coordinate lies in `0 … 63`, so the comparison with 0 is false and each of these
  selects returns the coordinate itself.
-/
import proofs.«157332_j6846177869930_1_alg».proof.Proof.CellRange
import Idealize.ShloMosaic.Lib.ValueIdx

noncomputable section

namespace Cert.Bridge

open Idealize.ShloMosaic Cert.ReferenceIdeal Cert.ReferenceIdeal.Gen Idealize.SL.Sem

/-- `%72`: the coordinate `%33` is nonnegative, so the "negative index wraps" select returns it unchanged. -/
theorem select_v72 (A2 : (⟨S32x128x2, .f32⟩ : BufTy).Contents (Elt Ideal)) (i : S32x128.Idx) :
    ReadP.val_main_v72 (F := Ideal) A2 i = ReadP.val_main_v33 (F := Ideal) A2 i := by
  rw [ReadP.val_main_v72_apply, ReadP.val_main_v69_apply, ReadP.val_main_v68_apply, ReadP.val_main_c_22_apply,
    not_neg _ (cell_v33 A2 i).1, ValueIdx.select_zero]

/-- `%77`: the coordinate `%30` is nonnegative, so the "negative index wraps" select returns it unchanged. -/
theorem select_v77 (A2 : (⟨S32x128x2, .f32⟩ : BufTy).Contents (Elt Ideal)) (i : S32x128.Idx) :
    ReadP.val_main_v77 (F := Ideal) A2 i = ReadP.val_main_v30 (F := Ideal) A2 i := by
  rw [ReadP.val_main_v77_apply, ReadP.val_main_v74_apply, ReadP.val_main_v73_apply, ReadP.val_main_c_24_apply,
    not_neg _ (cell_v30 A2 i).1, ValueIdx.select_zero]

/-- `%95`: the coordinate `%39` is nonnegative, so the "negative index wraps" select returns it unchanged. -/
theorem select_v95 (A2 : (⟨S32x128x2, .f32⟩ : BufTy).Contents (Elt Ideal)) (i : S32x128.Idx) :
    ReadP.val_main_v95 (F := Ideal) A2 i = ReadP.val_main_v39 (F := Ideal) A2 i := by
  rw [ReadP.val_main_v95_apply, ReadP.val_main_v92_apply, ReadP.val_main_v91_apply, ReadP.val_main_c_28_apply,
    not_neg _ (cell_v39 A2 i).1, ValueIdx.select_zero]

/-- `%100`: the coordinate `%30` is nonnegative, so the "negative index wraps" select returns it unchanged. -/
theorem select_v100 (A2 : (⟨S32x128x2, .f32⟩ : BufTy).Contents (Elt Ideal)) (i : S32x128.Idx) :
    ReadP.val_main_v100 (F := Ideal) A2 i = ReadP.val_main_v30 (F := Ideal) A2 i := by
  rw [ReadP.val_main_v100_apply, ReadP.val_main_v97_apply, ReadP.val_main_v96_apply, ReadP.val_main_c_30_apply,
    not_neg _ (cell_v30 A2 i).1, ValueIdx.select_zero]

/-- `%119`: the coordinate `%33` is nonnegative, so the "negative index wraps" select returns it unchanged. -/
theorem select_v119 (A2 : (⟨S32x128x2, .f32⟩ : BufTy).Contents (Elt Ideal)) (i : S32x128.Idx) :
    ReadP.val_main_v119 (F := Ideal) A2 i = ReadP.val_main_v33 (F := Ideal) A2 i := by
  rw [ReadP.val_main_v119_apply, ReadP.val_main_v116_apply, ReadP.val_main_v115_apply, ReadP.val_main_c_34_apply,
    not_neg _ (cell_v33 A2 i).1, ValueIdx.select_zero]

/-- `%124`: the coordinate `%36` is nonnegative, so the "negative index wraps" select returns it unchanged. -/
theorem select_v124 (A2 : (⟨S32x128x2, .f32⟩ : BufTy).Contents (Elt Ideal)) (i : S32x128.Idx) :
    ReadP.val_main_v124 (F := Ideal) A2 i = ReadP.val_main_v36 (F := Ideal) A2 i := by
  rw [ReadP.val_main_v124_apply, ReadP.val_main_v121_apply, ReadP.val_main_v120_apply, ReadP.val_main_c_36_apply,
    not_neg _ (cell_v36 A2 i).1, ValueIdx.select_zero]

/-- `%143`: the coordinate `%39` is nonnegative, so the "negative index wraps" select returns it unchanged. -/
theorem select_v143 (A2 : (⟨S32x128x2, .f32⟩ : BufTy).Contents (Elt Ideal)) (i : S32x128.Idx) :
    ReadP.val_main_v143 (F := Ideal) A2 i = ReadP.val_main_v39 (F := Ideal) A2 i := by
  rw [ReadP.val_main_v143_apply, ReadP.val_main_v140_apply, ReadP.val_main_v139_apply, ReadP.val_main_c_40_apply,
    not_neg _ (cell_v39 A2 i).1, ValueIdx.select_zero]

/-- `%148`: the coordinate `%36` is nonnegative, so the "negative index wraps" select returns it unchanged. -/
theorem select_v148 (A2 : (⟨S32x128x2, .f32⟩ : BufTy).Contents (Elt Ideal)) (i : S32x128.Idx) :
    ReadP.val_main_v148 (F := Ideal) A2 i = ReadP.val_main_v36 (F := Ideal) A2 i := by
  rw [ReadP.val_main_v148_apply, ReadP.val_main_v145_apply, ReadP.val_main_v144_apply, ReadP.val_main_c_42_apply,
    not_neg _ (cell_v36 A2 i).1, ValueIdx.select_zero]

end Cert.Bridge
-- ==== Proof.BridgeSampleRef.lean ====
/-
  The reference's sampled features read at one element. The reference transposes the normalised source map to
  [32, 64, 64, 256] and gathers, for each keypoint and each of the four bilinear corners, the channel vector at
  (batch, row cell, column cell); the index vector of a gather is the concatenation of a batch number, a row cell and a
  column cell, each passed through a "negative index wraps" select. A gather reads every index word signed and clamped
  into its axis. The four gathered vectors are scaled by the four bilinear weights and added in corner order.
  This module reads the result at (b, n, c) as that weighted sum of four elements of the normalised map.
-/
import proofs.«157332_j6846177869930_1_alg».proof.Proof.RefRead
import proofs.«157332_j6846177869930_1_alg».proof.Proof.CellRange
import proofs.«157332_j6846177869930_1_alg».proof.Proof.CellSelect
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.Bridge.Sample

open Idealize.ShloMosaic Idealize.ShloMosaic.ValueIdx Idealize.SL.Sem
open Cert.ReferenceIdeal (S32x256x64x64 S32x128x2 S32x128 S32x128x256 S32x64x64x256 S32x128x3 S32x128x1 S32x1 S32)
open Cert.ReferenceIdeal.ReadP

abbrev GD := Cert.ReferenceIdeal.gather_S32x64x64x256_S32x128x3_S32x128x256_2_012_n_n_012_2_111256

/-- A gather of one channel vector per keypoint out of a [32,64,64,256] map, the index vector (batch, row, column) on
    the last axis of the indices: result (b, n, c) is the map at the three index words, each read signed and clamped
    into its axis, and channel c. -/
theorem gather_read {α : Type} (X : S32x64x64x256.Idx → α) (I : IVec S32x128x3 32) (b : Fin 32) (n : Fin 128) (c : Fin 256) :
    Host.gather GD X I (ix3 b n c)
      = X (ix4 (⟨min (I (ix3 b n 0)).toInt.toNat 31, by omega⟩ : Fin 32) (⟨min (I (ix3 b n 1)).toInt.toNat 63, by omega⟩ : Fin 64)
            (⟨min (I (ix3 b n 2)).toInt.toNat 63, by omega⟩ : Fin 64) c) := by
  unfold Host.gather
  congr 1
  funext a
  apply Fin.ext
  fin_cases a
  · simp [GatherDims.operandIdx, GatherDims.start, GatherDims.offCoord, GatherDims.batchCoord, GD,
      Cert.ReferenceIdeal.gather_S32x64x64x256_S32x128x3_S32x128x256_2_012_n_n_012_2_111256, GatherDims.sKept, Shape.kept]
    refine congrArg (fun i => min (I i).toInt.toNat 31) ?_
    funext a; fin_cases a <;> rfl
  · simp [GatherDims.operandIdx, GatherDims.start, GatherDims.offCoord, GatherDims.batchCoord, GD,
      Cert.ReferenceIdeal.gather_S32x64x64x256_S32x128x3_S32x128x256_2_012_n_n_012_2_111256, GatherDims.sKept, Shape.kept]
    refine congrArg (fun i => min (I i).toInt.toNat 63) ?_
    funext a; fin_cases a <;> rfl
  · simp [GatherDims.operandIdx, GatherDims.start, GatherDims.offCoord, GatherDims.batchCoord, GD,
      Cert.ReferenceIdeal.gather_S32x64x64x256_S32x128x3_S32x128x256_2_012_n_n_012_2_111256, GatherDims.sKept, Shape.kept]
    refine congrArg (fun i => min (I i).toInt.toNat 63) ?_
    funext a; fin_cases a <;> rfl
  · simp [GatherDims.operandIdx, GatherDims.start, GatherDims.offCoord, GatherDims.batchCoord, GD,
      Cert.ReferenceIdeal.gather_S32x64x64x256_S32x128x3_S32x128x256_2_012_n_n_012_2_111256, GatherDims.sKept, Shape.kept]
    rfl

/-- An index word read signed and clamped into an axis of 64. -/
def cl64 (w : BitVec 32) : Fin 64 := ⟨min w.toInt.toNat 63, by omega⟩

/-- Three [32,128,1] columns joined on the last axis: column `k` of the result is piece `k`. -/
theorem concat3_read {α : Type} (p0 p1 p2 : S32x128x1.Idx → α)
    (h : Shape.Concatenates ([⟨S32x128x1, p0⟩, ⟨S32x128x1, p1⟩, (⟨S32x128x1, p2⟩ : (s : Shape) × (s.Idx → α))].map (·.1)) S32x128x3 2)
    (b : Fin 32) (n : Fin 128) :
    concatenate S32x128x3 2 [⟨S32x128x1, p0⟩, ⟨S32x128x1, p1⟩, ⟨S32x128x1, p2⟩] h (ix3 b n 0) = p0 (ix3 b n 0)
    ∧ concatenate S32x128x3 2 [⟨S32x128x1, p0⟩, ⟨S32x128x1, p1⟩, ⟨S32x128x1, p2⟩] h (ix3 b n 1) = p1 (ix3 b n 0)
    ∧ concatenate S32x128x3 2 [⟨S32x128x1, p0⟩, ⟨S32x128x1, p1⟩, ⟨S32x128x1, p2⟩] h (ix3 b n 2) = p2 (ix3 b n 0) := by
  refine ⟨?_, ?_, ?_⟩
  · exact concatenate_apply_piece 2 _ h (ix3 b n 0) 0 (by show 0 < 3; omega) S32x128x1 p0 rfl rfl 0 rfl (ix3 b n 0)
      (fun a ha => by match a with | ⟨0, _⟩ => rfl | ⟨1, _⟩ => rfl | ⟨2, _⟩ => exact absurd rfl ha) rfl
  · exact concatenate_apply_piece 2 _ h (ix3 b n 1) 1 (by show 1 < 3; omega) S32x128x1 p1 rfl rfl 1 rfl (ix3 b n 0)
      (fun a ha => by match a with | ⟨0, _⟩ => rfl | ⟨1, _⟩ => rfl | ⟨2, _⟩ => exact absurd rfl ha) rfl
  · exact concatenate_apply_piece 2 _ h (ix3 b n 2) 2 (by show 2 < 3; omega) S32x128x1 p2 rfl rfl 2 rfl (ix3 b n 0)
      (fun a ha => by match a with | ⟨0, _⟩ => rfl | ⟨1, _⟩ => rfl | ⟨2, _⟩ => exact absurd rfl ha) rfl

/-- The batch number column: the iota along the batch axis, which the "negative index wraps" select leaves alone. -/
theorem batch_word (i : S32x1.Idx) : val_main_v46 (F := Ideal) i = BitVec.ofNat 32 (i 0).val := by
  rw [val_main_v46_apply, val_main_v45_apply]

theorem batch_word_nonneg (i : S32x1.Idx) : 0 ≤ (val_main_v46 (F := Ideal) i).toInt := by
  rw [batch_word, StableHlo.Predicate.toInt_ofNat_small _ (by have := (i 0).isLt; simp at this; omega)]
  exact Int.natCast_nonneg _

theorem v67_read (i : S32x1.Idx) : val_main_v67 (F := Ideal) i = BitVec.ofNat 32 (i 0).val := by
  rw [val_main_v67_apply, val_main_v64_apply, val_main_v63_apply, val_main_c_20_apply, not_neg _ (batch_word_nonneg i),
    select_zero, batch_word]

theorem v90_read (i : S32x1.Idx) : val_main_v90 (F := Ideal) i = BitVec.ofNat 32 (i 0).val := by
  rw [val_main_v90_apply, val_main_v87_apply, val_main_v86_apply, val_main_c_26_apply, not_neg _ (batch_word_nonneg i),
    select_zero, batch_word]

theorem v114_read (i : S32x1.Idx) : val_main_v114 (F := Ideal) i = BitVec.ofNat 32 (i 0).val := by
  rw [val_main_v114_apply, val_main_v111_apply, val_main_v110_apply, val_main_c_32_apply, not_neg _ (batch_word_nonneg i),
    select_zero, batch_word]

theorem v138_read (i : S32x1.Idx) : val_main_v138 (F := Ideal) i = BitVec.ofNat 32 (i 0).val := by
  rw [val_main_v138_apply, val_main_v135_apply, val_main_v134_apply, val_main_c_38_apply, not_neg _ (batch_word_nonneg i),
    select_zero, batch_word]

/-- A batch number read signed and clamped into the batch axis is itself. -/
theorem batch_clamp (b : Fin 32) : min (BitVec.ofNat 32 b.val).toInt.toNat 31 = b.val := by
  rw [StableHlo.Predicate.toInt_ofNat_small _ (by have := b.isLt; omega)]
  have := b.isLt
  omega

/-- A cell index in 0..63 read signed and clamped into an axis of 64 is itself. -/
theorem clamp_cell (w : BitVec 32) (h : 0 ≤ w.toInt ∧ w.toInt ≤ 63) : min w.toInt.toNat 63 = w.toNat := by
  have := toNat_of_range w h
  omega

/-- A cell index in 0..63 as a coordinate of an axis of 64. -/
def cellFin (w : BitVec 32) (h : 0 ≤ w.toInt ∧ w.toInt ≤ 63) : Fin 64 := ⟨w.toNat, by have := (toNat_of_range w h).1; omega⟩

theorem words_c0 (A2 : (⟨S32x128x2, .f32⟩ : BufTy).Contents (Elt Ideal)) (b : Fin 32) (n : Fin 128) :
    val_main_v82 (F := Ideal) A2 (ix3 b n 0) = BitVec.ofNat 32 b.val
    ∧ val_main_v82 (F := Ideal) A2 (ix3 b n 1) = val_main_v33 (F := Ideal) A2 (ix2 b n)
    ∧ val_main_v82 (F := Ideal) A2 (ix3 b n 2) = val_main_v30 (F := Ideal) A2 (ix2 b n) := by
  unfold val_main_v82
  refine ⟨(concat3_read _ _ _ _ b n).1.trans ?_, (concat3_read _ _ _ _ b n).2.1.trans ?_, (concat3_read _ _ _ _ b n).2.2.trans ?_⟩
  · rw [val_main_v79_apply, val_main_v78_apply, v67_read]
  · rw [val_main_v80_apply, select_v72]
    exact congrArg _ (funext fun a => by match a with | ⟨0, _⟩ => rfl | ⟨1, _⟩ => rfl)
  · rw [val_main_v81_apply, select_v77]
    exact congrArg _ (funext fun a => by match a with | ⟨0, _⟩ => rfl | ⟨1, _⟩ => rfl)

theorem words_c1 (A2 : (⟨S32x128x2, .f32⟩ : BufTy).Contents (Elt Ideal)) (b : Fin 32) (n : Fin 128) :
    val_main_v105 (F := Ideal) A2 (ix3 b n 0) = BitVec.ofNat 32 b.val
    ∧ val_main_v105 (F := Ideal) A2 (ix3 b n 1) = val_main_v39 (F := Ideal) A2 (ix2 b n)
    ∧ val_main_v105 (F := Ideal) A2 (ix3 b n 2) = val_main_v30 (F := Ideal) A2 (ix2 b n) := by
  unfold val_main_v105
  refine ⟨(concat3_read _ _ _ _ b n).1.trans ?_, (concat3_read _ _ _ _ b n).2.1.trans ?_, (concat3_read _ _ _ _ b n).2.2.trans ?_⟩
  · rw [val_main_v102_apply, val_main_v101_apply, v90_read]
  · rw [val_main_v103_apply, select_v95]
    exact congrArg _ (funext fun a => by match a with | ⟨0, _⟩ => rfl | ⟨1, _⟩ => rfl)
  · rw [val_main_v104_apply, select_v100]
    exact congrArg _ (funext fun a => by match a with | ⟨0, _⟩ => rfl | ⟨1, _⟩ => rfl)

theorem words_c2 (A2 : (⟨S32x128x2, .f32⟩ : BufTy).Contents (Elt Ideal)) (b : Fin 32) (n : Fin 128) :
    val_main_v129 (F := Ideal) A2 (ix3 b n 0) = BitVec.ofNat 32 b.val
    ∧ val_main_v129 (F := Ideal) A2 (ix3 b n 1) = val_main_v33 (F := Ideal) A2 (ix2 b n)
    ∧ val_main_v129 (F := Ideal) A2 (ix3 b n 2) = val_main_v36 (F := Ideal) A2 (ix2 b n) := by
  unfold val_main_v129
  refine ⟨(concat3_read _ _ _ _ b n).1.trans ?_, (concat3_read _ _ _ _ b n).2.1.trans ?_, (concat3_read _ _ _ _ b n).2.2.trans ?_⟩
  · rw [val_main_v126_apply, val_main_v125_apply, v114_read]
  · rw [val_main_v127_apply, select_v119]
    exact congrArg _ (funext fun a => by match a with | ⟨0, _⟩ => rfl | ⟨1, _⟩ => rfl)
  · rw [val_main_v128_apply, select_v124]
    exact congrArg _ (funext fun a => by match a with | ⟨0, _⟩ => rfl | ⟨1, _⟩ => rfl)

theorem words_c3 (A2 : (⟨S32x128x2, .f32⟩ : BufTy).Contents (Elt Ideal)) (b : Fin 32) (n : Fin 128) :
    val_main_v153 (F := Ideal) A2 (ix3 b n 0) = BitVec.ofNat 32 b.val
    ∧ val_main_v153 (F := Ideal) A2 (ix3 b n 1) = val_main_v39 (F := Ideal) A2 (ix2 b n)
    ∧ val_main_v153 (F := Ideal) A2 (ix3 b n 2) = val_main_v36 (F := Ideal) A2 (ix2 b n) := by
  unfold val_main_v153
  refine ⟨(concat3_read _ _ _ _ b n).1.trans ?_, (concat3_read _ _ _ _ b n).2.1.trans ?_, (concat3_read _ _ _ _ b n).2.2.trans ?_⟩
  · rw [val_main_v150_apply, val_main_v149_apply, v138_read]
  · rw [val_main_v151_apply, select_v143]
    exact congrArg _ (funext fun a => by match a with | ⟨0, _⟩ => rfl | ⟨1, _⟩ => rfl)
  · rw [val_main_v152_apply, select_v148]
    exact congrArg _ (funext fun a => by match a with | ⟨0, _⟩ => rfl | ⟨1, _⟩ => rfl)

/-- Corner 0's gathered vector: the normalised map at (b, c, row cell v33, column cell v30). -/
theorem gather_v83 (A0 : (⟨S32x256x64x64, .f32⟩ : BufTy).Contents (Elt Ideal)) (A2 : (⟨S32x128x2, .f32⟩ : BufTy).Contents (Elt Ideal))
    (b : Fin 32) (n : Fin 128) (c : Fin 256) :
    val_main_v83 (F := Ideal) A0 A2 (ix3 b n c)
      = val_main_v7 (F := Ideal) A0 (ix4 b c (cellFin _ (cell_v33 A2 (ix2 b n))) (cellFin _ (cell_v30 A2 (ix2 b n)))) := by
  unfold val_main_v83
  rw [gather_read, val_main_v44_apply]
  obtain ⟨h0, h1, h2⟩ := words_c0 A2 b n
  refine congrArg _ (funext fun a => Fin.ext ?_)
  match a with
  | ⟨0, _⟩ =>
    show min (val_main_v82 (F := Ideal) A2 (ix3 b n 0)).toInt.toNat 31 = b.val
    rw [h0]; exact batch_clamp b
  | ⟨1, _⟩ => rfl
  | ⟨2, _⟩ =>
    show min (val_main_v82 (F := Ideal) A2 (ix3 b n 1)).toInt.toNat 63 = (val_main_v33 (F := Ideal) A2 (ix2 b n)).toNat
    rw [h1]; exact clamp_cell _ (cell_v33 A2 _)
  | ⟨3, _⟩ =>
    show min (val_main_v82 (F := Ideal) A2 (ix3 b n 2)).toInt.toNat 63 = (val_main_v30 (F := Ideal) A2 (ix2 b n)).toNat
    rw [h2]; exact clamp_cell _ (cell_v30 A2 _)

/-- Corner 1's gathered vector: the normalised map at (b, c, row cell v39, column cell v30). -/
theorem gather_v106 (A0 : (⟨S32x256x64x64, .f32⟩ : BufTy).Contents (Elt Ideal)) (A2 : (⟨S32x128x2, .f32⟩ : BufTy).Contents (Elt Ideal))
    (b : Fin 32) (n : Fin 128) (c : Fin 256) :
    val_main_v106 (F := Ideal) A0 A2 (ix3 b n c)
      = val_main_v7 (F := Ideal) A0 (ix4 b c (cellFin _ (cell_v39 A2 (ix2 b n))) (cellFin _ (cell_v30 A2 (ix2 b n)))) := by
  unfold val_main_v106
  rw [gather_read, val_main_v44_apply]
  obtain ⟨h0, h1, h2⟩ := words_c1 A2 b n
  refine congrArg _ (funext fun a => Fin.ext ?_)
  match a with
  | ⟨0, _⟩ =>
    show min (val_main_v105 (F := Ideal) A2 (ix3 b n 0)).toInt.toNat 31 = b.val
    rw [h0]; exact batch_clamp b
  | ⟨1, _⟩ => rfl
  | ⟨2, _⟩ =>
    show min (val_main_v105 (F := Ideal) A2 (ix3 b n 1)).toInt.toNat 63 = (val_main_v39 (F := Ideal) A2 (ix2 b n)).toNat
    rw [h1]; exact clamp_cell _ (cell_v39 A2 _)
  | ⟨3, _⟩ =>
    show min (val_main_v105 (F := Ideal) A2 (ix3 b n 2)).toInt.toNat 63 = (val_main_v30 (F := Ideal) A2 (ix2 b n)).toNat
    rw [h2]; exact clamp_cell _ (cell_v30 A2 _)

/-- Corner 2's gathered vector: the normalised map at (b, c, row cell v33, column cell v36). -/
theorem gather_v130 (A0 : (⟨S32x256x64x64, .f32⟩ : BufTy).Contents (Elt Ideal)) (A2 : (⟨S32x128x2, .f32⟩ : BufTy).Contents (Elt Ideal))
    (b : Fin 32) (n : Fin 128) (c : Fin 256) :
    val_main_v130 (F := Ideal) A0 A2 (ix3 b n c)
      = val_main_v7 (F := Ideal) A0 (ix4 b c (cellFin _ (cell_v33 A2 (ix2 b n))) (cellFin _ (cell_v36 A2 (ix2 b n)))) := by
  unfold val_main_v130
  rw [gather_read, val_main_v44_apply]
  obtain ⟨h0, h1, h2⟩ := words_c2 A2 b n
  refine congrArg _ (funext fun a => Fin.ext ?_)
  match a with
  | ⟨0, _⟩ =>
    show min (val_main_v129 (F := Ideal) A2 (ix3 b n 0)).toInt.toNat 31 = b.val
    rw [h0]; exact batch_clamp b
  | ⟨1, _⟩ => rfl
  | ⟨2, _⟩ =>
    show min (val_main_v129 (F := Ideal) A2 (ix3 b n 1)).toInt.toNat 63 = (val_main_v33 (F := Ideal) A2 (ix2 b n)).toNat
    rw [h1]; exact clamp_cell _ (cell_v33 A2 _)
  | ⟨3, _⟩ =>
    show min (val_main_v129 (F := Ideal) A2 (ix3 b n 2)).toInt.toNat 63 = (val_main_v36 (F := Ideal) A2 (ix2 b n)).toNat
    rw [h2]; exact clamp_cell _ (cell_v36 A2 _)

/-- Corner 3's gathered vector: the normalised map at (b, c, row cell v39, column cell v36). -/
theorem gather_v154 (A0 : (⟨S32x256x64x64, .f32⟩ : BufTy).Contents (Elt Ideal)) (A2 : (⟨S32x128x2, .f32⟩ : BufTy).Contents (Elt Ideal))
    (b : Fin 32) (n : Fin 128) (c : Fin 256) :
    val_main_v154 (F := Ideal) A0 A2 (ix3 b n c)
      = val_main_v7 (F := Ideal) A0 (ix4 b c (cellFin _ (cell_v39 A2 (ix2 b n))) (cellFin _ (cell_v36 A2 (ix2 b n)))) := by
  unfold val_main_v154
  rw [gather_read, val_main_v44_apply]
  obtain ⟨h0, h1, h2⟩ := words_c3 A2 b n
  refine congrArg _ (funext fun a => Fin.ext ?_)
  match a with
  | ⟨0, _⟩ =>
    show min (val_main_v153 (F := Ideal) A2 (ix3 b n 0)).toInt.toNat 31 = b.val
    rw [h0]; exact batch_clamp b
  | ⟨1, _⟩ => rfl
  | ⟨2, _⟩ =>
    show min (val_main_v153 (F := Ideal) A2 (ix3 b n 1)).toInt.toNat 63 = (val_main_v39 (F := Ideal) A2 (ix2 b n)).toNat
    rw [h1]; exact clamp_cell _ (cell_v39 A2 _)
  | ⟨3, _⟩ =>
    show min (val_main_v153 (F := Ideal) A2 (ix3 b n 2)).toInt.toNat 63 = (val_main_v36 (F := Ideal) A2 (ix2 b n)).toNat
    rw [h2]; exact clamp_cell _ (cell_v36 A2 _)

theorem weight_c0 (A2 : (⟨S32x128x2, .f32⟩ : BufTy).Contents (Elt Ideal)) (b : Fin 32) (n : Fin 128) (c : Fin 256) :
    val_main_v84 (F := Ideal) A2 (ix3 b n c) = val_main_v51 (F := Ideal) A2 (ix2 b n) := by
  rw [val_main_v84_apply, val_main_v52_apply]
  exact congrArg _ (funext fun a => by match a with | ⟨0, _⟩ => rfl | ⟨1, _⟩ => rfl)

theorem weight_c1 (A2 : (⟨S32x128x2, .f32⟩ : BufTy).Contents (Elt Ideal)) (b : Fin 32) (n : Fin 128) (c : Fin 256) :
    val_main_v107 (F := Ideal) A2 (ix3 b n c) = val_main_v55 (F := Ideal) A2 (ix2 b n) := by
  rw [val_main_v107_apply, val_main_v56_apply]
  exact congrArg _ (funext fun a => by match a with | ⟨0, _⟩ => rfl | ⟨1, _⟩ => rfl)

theorem weight_c2 (A2 : (⟨S32x128x2, .f32⟩ : BufTy).Contents (Elt Ideal)) (b : Fin 32) (n : Fin 128) (c : Fin 256) :
    val_main_v131 (F := Ideal) A2 (ix3 b n c) = val_main_v59 (F := Ideal) A2 (ix2 b n) := by
  rw [val_main_v131_apply, val_main_v60_apply]
  exact congrArg _ (funext fun a => by match a with | ⟨0, _⟩ => rfl | ⟨1, _⟩ => rfl)

theorem weight_c3 (A2 : (⟨S32x128x2, .f32⟩ : BufTy).Contents (Elt Ideal)) (b : Fin 32) (n : Fin 128) (c : Fin 256) :
    val_main_v155 (F := Ideal) A2 (ix3 b n c) = val_main_v61 (F := Ideal) A2 (ix2 b n) := by
  rw [val_main_v155_apply, val_main_v62_apply]
  exact congrArg _ (funext fun a => by match a with | ⟨0, _⟩ => rfl | ⟨1, _⟩ => rfl)

/-- The sampled feature (b, n, c): the four corner elements of the normalised map, each times its bilinear weight, added
    in corner order. -/
theorem ref_sample_read (A0 : (⟨S32x256x64x64, .f32⟩ : BufTy).Contents (Elt Ideal)) (A2 : (⟨S32x128x2, .f32⟩ : BufTy).Contents (Elt Ideal))
    (b : Fin 32) (n : Fin 128) (c : Fin 256) :
    val_main_v157 (F := Ideal) A0 A2 (ix3 b n c)
      = ((val_main_v51 (F := Ideal) A2 (ix2 b n) * val_main_v7 (F := Ideal) A0 (ix4 b c (cellFin _ (cell_v33 A2 (ix2 b n))) (cellFin _ (cell_v30 A2 (ix2 b n))))
          + val_main_v55 (F := Ideal) A2 (ix2 b n) * val_main_v7 (F := Ideal) A0 (ix4 b c (cellFin _ (cell_v39 A2 (ix2 b n))) (cellFin _ (cell_v30 A2 (ix2 b n)))))
          + val_main_v59 (F := Ideal) A2 (ix2 b n) * val_main_v7 (F := Ideal) A0 (ix4 b c (cellFin _ (cell_v33 A2 (ix2 b n))) (cellFin _ (cell_v36 A2 (ix2 b n)))))
          + val_main_v61 (F := Ideal) A2 (ix2 b n) * val_main_v7 (F := Ideal) A0 (ix4 b c (cellFin _ (cell_v39 A2 (ix2 b n))) (cellFin _ (cell_v36 A2 (ix2 b n)))) := by
  rw [val_main_v157_apply, val_main_v133_apply, val_main_v109_apply, val_main_v85_apply, val_main_v108_apply,
    val_main_v132_apply, val_main_v156_apply, gather_v83, gather_v106, gather_v130, gather_v154,
    weight_c0, weight_c1, weight_c2, weight_c3]
  rfl

end Cert.Bridge.Sample

end
-- ==== Proof.FiniteStages.lean ====
/-
  Finiteness carried through the reference's early stages. With real inputs every value the reference computes before
  its gathers is a real number: sums, differences and products of reals are real; the square root of a nonnegative
  real is a real; the maximum of a real with a positive real is a nonzero real; and the quotient of a real by a
  nonzero real is a real. So the normalised map `%7` and the four bilinear weights `%51`, `%55`, `%59`, `%61` are real.
-/
import proofs.«157332_j6846177869930_1_alg».proof.Proof.RefRead
import Idealize.ShloMosaic.PureOps.Ideal
import Idealize.ShloMosaic.PureOps.Ideal.Laws

noncomputable section

namespace Cert.Bridge

open Idealize.ShloMosaic Cert.ReferenceIdeal Cert.ReferenceIdeal.Gen Idealize.SL.Sem
open scoped BigOperators

/-! ## Real numbers among the extended reals are closed under the arithmetic -/

theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) : ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

/-- The quotient of a real by a nonzero real is a real. -/
theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx; obtain ⟨b, hb, rfl⟩ := hy
  rw [Ideal.div, if_neg (by exact_mod_cast hb), ← EReal.coe_inv, ← EReal.coe_mul]
  exact ⟨_, rfl⟩

/-- The square root of a nonnegative real is a nonnegative real. -/
theorem real_sqrt {x : EReal} (hx : ∃ r : ℝ, 0 ≤ r ∧ x = (r : EReal)) : ∃ r : ℝ, 0 ≤ r ∧ Ideal.sqrt x = (r : EReal) := by
  obtain ⟨a, ha, rfl⟩ := hx
  refine ⟨Real.sqrt a, Real.sqrt_nonneg a, ?_⟩
  rw [Ideal.sqrt_coe, if_neg (not_lt.2 ha)]

/-- The maximum of a real with a positive real is a nonzero real. -/
theorem real_max_pos {x y : EReal} (hx : ∃ r : ℝ, x = (r : EReal)) (hy : ∃ r : ℝ, 0 < r ∧ y = (r : EReal)) :
    ∃ r : ℝ, r ≠ 0 ∧ max x y = (r : EReal) := by
  obtain ⟨a, rfl⟩ := hx; obtain ⟨b, hb, rfl⟩ := hy
  exact ⟨max a b, ne_of_gt (lt_of_lt_of_le hb (le_max_right a b)), (EReal.coe_strictMono.monotone.map_max (a := a) (b := b)).symm⟩

/-- A finite sum of nonnegative reals is a nonnegative real. -/
theorem real_sum_nonneg {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  refine Finset.sum_induction f (fun x => ∃ r : ℝ, 0 ≤ r ∧ x = (r : EReal)) ?_ ⟨0, le_refl 0, rfl⟩ h
  rintro _ _ ⟨a, ha, rfl⟩ ⟨b, hb, rfl⟩
  exact ⟨a + b, add_nonneg ha hb, (EReal.coe_add a b).symm⟩

/-- An f32 pattern with sign bit 0 and exponent field neither 0 nor all ones denotes a positive real. -/
theorem ofBits_normal_pos (b : BitVec 32) (hs : (b.extractLsb' 31 1 == 1#1) = false)
    (he1 : (b.extractLsb' 23 8).toNat ≠ 2 ^ 8 - 1) (he0 : (b.extractLsb' 23 8).toNat ≠ 0) :
    ∃ r : ℝ, 0 < r ∧ Ideal.ofBits .f32 b = (r : EReal) := by
  unfold Ideal.ofBits Ideal.ieee
  simp only [hs, if_neg he1, if_neg he0, Bool.false_eq_true, if_false]
  refine ⟨_, ?_, rfl⟩
  positivity

theorem pos_ne {y : EReal} (h : ∃ r : ℝ, 0 < r ∧ y = (r : EReal)) : ∃ r : ℝ, r ≠ 0 ∧ y = (r : EReal) := by
  obtain ⟨b, hb, rfl⟩ := h; exact ⟨b, ne_of_gt hb, rfl⟩

theorem pos_real {y : EReal} (h : ∃ r : ℝ, 0 < r ∧ y = (r : EReal)) : ∃ r : ℝ, y = (r : EReal) := by
  obtain ⟨b, -, rfl⟩ := h; exact ⟨b, rfl⟩

theorem nonneg_real {y : EReal} (h : ∃ r : ℝ, 0 ≤ r ∧ y = (r : EReal)) : ∃ r : ℝ, y = (r : EReal) := by
  obtain ⟨b, -, rfl⟩ := h; exact ⟨b, rfl⟩

/-- The conversion of a signed word is a real. -/
theorem real_sitofp (w : BitVec 32) : ∃ r : ℝ, FloatOps.sitofp (F := Ideal) .f32 w = (r : EReal) := ⟨(w.toInt : ℝ), rfl⟩

/-! ## The normalised map -/

/-- `%7 = x / max(sqrt(Σ_c x²), ε)` is real when `x` is. -/
theorem finite_v7 (A0 : (⟨S32x256x64x64, .f32⟩ : BufTy).Contents (Elt Ideal)) (hA0 : ∀ i, ∃ r : ℝ, A0 i = (r : EReal)) :
    ∀ i, ∃ r : ℝ, ReadP.val_main_v7 (F := Ideal) A0 i = (r : EReal) := by
  -- the channel sum of squares: a nonnegative real
  have h1 : ∀ i, ∃ r : ℝ, 0 ≤ r ∧ ReadP.val_main_v1 (F := Ideal) A0 i = (r : EReal) := fun i => by
    rw [ReadP.val_main_v1_apply, ReadP.val_main_cst_apply]
    obtain ⟨s, hs, e⟩ := real_sum_nonneg Finset.univ (fun k : Fin 256 => ReadP.val_main_v0 (F := Ideal) A0 (ReadP.idx_main_v1 i k))
      (fun k _ => by
        obtain ⟨a, ha⟩ := hA0 (ReadP.idx_main_v1 i k)
        refine ⟨a * a, mul_self_nonneg a, ?_⟩
        rw [ReadP.val_main_v0_apply, ha]; exact (EReal.coe_mul a a).symm)
    refine ⟨s, hs, ?_⟩
    rw [e]
    show Ideal.ofBits .f32 0x00000000#32 + (s : EReal) = s
    rw [Ideal.ofBits_zero_f32, zero_add]
  have h5 : ∀ i, ∃ r : ℝ, r ≠ 0 ∧ ReadP.val_main_v5 (F := Ideal) A0 i = (r : EReal) := fun i => by
    rw [ReadP.val_main_v5_apply, ReadP.val_main_v3_apply, ReadP.val_main_v2_apply, ReadP.val_main_v4_apply, ReadP.val_main_cst_0_apply]
    exact real_max_pos (nonneg_real (real_sqrt (h1 _))) (ofBits_normal_pos _ (by decide) (by decide) (by decide))
  intro i
  rw [ReadP.val_main_v7_apply, ReadP.val_main_v6_apply]
  exact real_div (hA0 i) (h5 _)

/-! ## The bilinear weights -/

theorem finite_w (A2 : (⟨S32x128x2, .f32⟩ : BufTy).Contents (Elt Ideal)) (hA2 : ∀ i, ∃ r : ℝ, A2 i = (r : EReal)) :
    ∀ i : S32x128.Idx, (∃ r : ℝ, ReadP.val_main_v51 (F := Ideal) A2 i = (r : EReal)) ∧
      (∃ r : ℝ, ReadP.val_main_v55 (F := Ideal) A2 i = (r : EReal)) ∧
      (∃ r : ℝ, ReadP.val_main_v59 (F := Ideal) A2 i = (r : EReal)) ∧
      (∃ r : ℝ, ReadP.val_main_v61 (F := Ideal) A2 i = (r : EReal)) := by
  intro i
  have c1023 := ofBits_normal_pos 0x447FC000#32 (by decide) (by decide) (by decide)
  have c63 := ofBits_normal_pos 0x427C0000#32 (by decide) (by decide) (by decide)
  have c1 := ofBits_normal_pos 0x3F800000#32 (by decide) (by decide) (by decide)
  -- the sample position in cells, x = A2[…,0] / 1023 · 63 and y = A2[…,1] / 1023 · 63
  have h21 : ∃ r : ℝ, ReadP.val_main_v21 (F := Ideal) A2 i = (r : EReal) := by
    rw [ReadP.val_main_v21_apply, ReadP.val_main_v19_apply, ReadP.val_main_v17_apply, ReadP.val_main_v16_apply,
      ReadP.val_main_v18_apply, ReadP.val_main_cst_3_apply, ReadP.val_main_v20_apply, ReadP.val_main_cst_4_apply]
    exact real_mul (real_div (hA2 _) (pos_ne c1023)) (pos_real c63)
  have h27 : ∃ r : ℝ, ReadP.val_main_v27 (F := Ideal) A2 i = (r : EReal) := by
    rw [ReadP.val_main_v27_apply, ReadP.val_main_v25_apply, ReadP.val_main_v23_apply, ReadP.val_main_v22_apply,
      ReadP.val_main_v24_apply, ReadP.val_main_cst_5_apply, ReadP.val_main_v26_apply, ReadP.val_main_cst_6_apply]
    exact real_mul (real_div (hA2 _) (pos_ne c1023)) (pos_real c63)
  -- the fractional parts fx = x − x0, fy = y − y0 (the cells converted back to floats)
  have h41 : ∃ r : ℝ, ReadP.val_main_v41 (F := Ideal) A2 i = (r : EReal) := by
    rw [ReadP.val_main_v41_apply, ReadP.val_main_v40_apply]
    exact real_sub h21 (real_sitofp _)
  have h43 : ∃ r : ℝ, ReadP.val_main_v43 (F := Ideal) A2 i = (r : EReal) := by
    rw [ReadP.val_main_v43_apply, ReadP.val_main_v42_apply]
    exact real_sub h27 (real_sitofp _)
  refine ⟨?_, ?_, ?_, ?_⟩
  · rw [ReadP.val_main_v51_apply, ReadP.val_main_v48_apply, ReadP.val_main_v50_apply, ReadP.val_main_v47_apply,
      ReadP.val_main_cst_16_apply, ReadP.val_main_v49_apply, ReadP.val_main_cst_17_apply]
    exact real_mul (real_sub (pos_real c1) h41) (real_sub (pos_real c1) h43)
  · rw [ReadP.val_main_v55_apply, ReadP.val_main_v54_apply, ReadP.val_main_v53_apply, ReadP.val_main_cst_18_apply]
    exact real_mul (real_sub (pos_real c1) h41) h43
  · rw [ReadP.val_main_v59_apply, ReadP.val_main_v58_apply, ReadP.val_main_v57_apply, ReadP.val_main_cst_19_apply]
    exact real_mul h41 (real_sub (pos_real c1) h43)
  · rw [ReadP.val_main_v61_apply]
    exact real_mul h41 h43

end Cert.Bridge
-- ==== Proof.BridgeSample.lean ====
/-
  The loss kernel's sampled features are the reference's. The kernel contracts a one-hot weight row with the batch's
  normalised source block over the 4096 cells; the reference adds the four corner elements of the normalised map, each
  times its bilinear weight. Every corner's cell index lies in 0..4095, so exactly the lane whose number is the corner's
  flat cell index keeps the corner's weight; the weights and the map are finite reals, so the product distributes over
  the corner sum and the sum over the cells collapses to the four corner terms, in the reference's association.
-/
import proofs.«157332_j6846177869930_1_alg».proof.Proof.BridgeSampleKer
import proofs.«157332_j6846177869930_1_alg».proof.Proof.BridgeSampleRef
import proofs.«157332_j6846177869930_1_alg».proof.Proof.FiniteStages

noncomputable section

namespace Cert.Bridge

open Idealize.ShloMosaic Idealize.ShloMosaic.ValueIdx Idealize.SL.Sem
open Cert.KernelIdeal (S1x256x4096 S1x128x4 S128x4096 S128x256 S256x4096 S128x4 S128x1)
open Cert.ReferenceIdeal (S32x256x64x64 S32x128x2 S32x128 S32x128x256 S32x64x64x256 S32x128x3 S32x128x1)

namespace Sample

/-- A finite sum of reals, read in the extended reals, is the sum of the terms read there. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A one-hot weight row contracted with a real vector: the sum over the cells of (the four corner weights, each kept
    on its own cell, added from zero) times the vector is the four corner products, added in corner order. -/
theorem onehot_contract (w0 w1 w2 w3 : ℝ) (c0 c1 c2 c3 : Fin 4096) (f : Fin 4096 → ℝ) (W G : Fin 4096 → EReal)
    (hW : ∀ m, W m = ((((0 : EReal) + (if m = c0 then (w0 : EReal) else 0)) + (if m = c1 then (w1 : EReal) else 0))
        + (if m = c2 then (w2 : EReal) else 0)) + (if m = c3 then (w3 : EReal) else 0))
    (hG : ∀ m, G m = (f m : EReal)) :
    ∑ m, W m * G m = (((w0 : EReal) * (f c0 : EReal) + (w1 : EReal) * (f c1 : EReal)) + (w2 : EReal) * (f c2 : EReal))
      + (w3 : EReal) * (f c3 : EReal) := by
  have e : ∀ (p : Prop) [Decidable p] (w : ℝ), (if p then (w : EReal) else 0) = ((if p then w else 0 : ℝ) : EReal) := by
    intro p _ w; split <;> simp
  have key : ∀ m, W m * G m
      = ((((((if m = c0 then w0 else 0) + (if m = c1 then w1 else 0)) + (if m = c2 then w2 else 0)) + (if m = c3 then w3 else 0)) * f m : ℝ) : EReal) := by
    intro m
    rw [hW, hG, e, e, e, e, zero_add, ← EReal.coe_add, ← EReal.coe_add, ← EReal.coe_add, ← EReal.coe_mul]
  rw [Finset.sum_congr rfl (fun m _ => key m), ← coe_sum, ← EReal.coe_mul, ← EReal.coe_mul, ← EReal.coe_mul, ← EReal.coe_mul,
    ← EReal.coe_add, ← EReal.coe_add, ← EReal.coe_add]
  congr 1
  simp [add_mul, Finset.sum_add_distrib, ite_mul, Finset.sum_ite_eq']

end Sample

open Cert.ReferenceIdeal.ReadP in
/-- The flat cell of a row cell and a column cell, both in 0..63. -/
def Sample.flatFin (y x : BitVec 32) (hy : 0 ≤ y.toInt ∧ y.toInt ≤ 63) (hx : 0 ≤ x.toInt ∧ x.toInt ≤ 63) : Fin 4096 :=
  ⟨y.toNat * 64 + x.toNat, by have := (toNat_of_range y hy).1; have := (toNat_of_range x hx).1; omega⟩

/-- One corner's lane test: the lane number is the corner's cell word exactly on the corner's flat cell. -/
theorem Sample.lane_iff (y x : BitVec 32) (hy : 0 ≤ y.toInt ∧ y.toInt ≤ 63) (hx : 0 ≤ x.toInt ∧ x.toInt ≤ 63) (m : Fin 4096) :
    BitVec.ofNat 32 m.val = y * 64#32 + x ↔ m = Sample.flatFin y x hy hx := by
  rw [cell_eq_iff y x hy hx m, Fin.ext_iff]
  rfl

/-- The normalised map at a flat cell's row and column is the map at the two cells. -/
theorem Sample.map_at_flat {α : Type} (X : S32x256x64x64.Idx → α) (b : Fin 32) (c : Fin 256) (y x : BitVec 32)
    (hy : 0 ≤ y.toInt ∧ y.toInt ≤ 63) (hx : 0 ≤ x.toInt ∧ x.toInt ≤ 63) :
    X (ix4 b c (⟨(Sample.flatFin y x hy hx).val / 64, by have := (Sample.flatFin y x hy hx).isLt; omega⟩ : Fin 64)
        (⟨(Sample.flatFin y x hy hx).val % 64, by omega⟩ : Fin 64))
      = X (ix4 b c (Sample.cellFin y hy) (Sample.cellFin x hx)) := by
  have h1 := (toNat_of_range y hy).1
  have h2 := (toNat_of_range x hx).1
  refine congrArg X (funext fun a => Fin.ext ?_)
  match a with
  | ⟨0, _⟩ => rfl
  | ⟨1, _⟩ => rfl
  | ⟨2, _⟩ => show (y.toNat * 64 + x.toNat) / 64 = y.toNat; omega
  | ⟨3, _⟩ => show (y.toNat * 64 + x.toNat) % 64 = x.toNat; omega

theorem sampled_eq (A0 : (⟨S32x256x64x64, .f32⟩ : BufTy).Contents (Elt Ideal)) (A2 : (⟨S32x128x2, .f32⟩ : BufTy).Contents (Elt Ideal))
    (hA0 : ∀ i, ∃ r : ℝ, A0 i = (r : EReal)) (hA2 : ∀ i, ∃ r : ℝ, A2 i = (r : EReal)) (b : Fin 32)
    (x0 : Vec Ideal S1x256x4096 .bf16) (x2 : Vec Ideal S1x128x4 .i32) (x3 : Vec Ideal S1x128x4 .f32)
    (hx0 : ∀ (ch : Fin 256) (p : Fin 4096), x0 (ix3 0 ch p) = Cert.ReferenceIdeal.ReadP.val_main_v7 (F := Ideal) A0 (ix4 b ch (⟨p.val / 64, by omega⟩ : Fin 64) (⟨p.val % 64, by omega⟩ : Fin 64)))
    (hx2 : ∀ n : Fin 128, x2 (ix3 0 n 0) = Cert.ReferenceIdeal.ReadP.val_main_v33 A2 (ix2 b n) * 64#32 + Cert.ReferenceIdeal.ReadP.val_main_v30 A2 (ix2 b n) ∧ x2 (ix3 0 n 1) = Cert.ReferenceIdeal.ReadP.val_main_v39 A2 (ix2 b n) * 64#32 + Cert.ReferenceIdeal.ReadP.val_main_v30 A2 (ix2 b n) ∧ x2 (ix3 0 n 2) = Cert.ReferenceIdeal.ReadP.val_main_v33 A2 (ix2 b n) * 64#32 + Cert.ReferenceIdeal.ReadP.val_main_v36 A2 (ix2 b n) ∧ x2 (ix3 0 n 3) = Cert.ReferenceIdeal.ReadP.val_main_v39 A2 (ix2 b n) * 64#32 + Cert.ReferenceIdeal.ReadP.val_main_v36 A2 (ix2 b n))
    (hx3 : ∀ n : Fin 128, x3 (ix3 0 n 0) = Cert.ReferenceIdeal.ReadP.val_main_v51 A2 (ix2 b n) ∧ x3 (ix3 0 n 1) = Cert.ReferenceIdeal.ReadP.val_main_v55 A2 (ix2 b n) ∧ x3 (ix3 0 n 2) = Cert.ReferenceIdeal.ReadP.val_main_v59 A2 (ix2 b n) ∧ x3 (ix3 0 n 3) = Cert.ReferenceIdeal.ReadP.val_main_v61 A2 (ix2 b n))
    (n : Fin 128) (c : Fin 256) :
    Cert.KernelIdeal.Gen.k1_pay12 (F := Ideal) (Cert.KernelIdeal.Gen.k1_pay2 x0) (Cert.KernelIdeal.Gen.k1_pay4 x2) (Cert.KernelIdeal.Gen.k1_pay5 x3) (iota .tc S128x4096 32 [1] Cert.KernelIdeal.Gen.iota_S128x4096_d1_w32) (Cert.KernelIdeal.Gen.k1_pay8 x2 x3) (Cert.KernelIdeal.Gen.k1_pay9 x2) (Scalar.ofBits .f32 0x00000000#32) (Cert.KernelIdeal.Gen.k1_pay10 x3) (ix2 n c)
      = Cert.ReferenceIdeal.ReadP.val_main_v157 (F := Ideal) A0 A2 (ix3 b n c) := by
  rw [Sample.kernel_sample_read, Sample.ref_sample_read]
  obtain ⟨e0, e1, e2, e3⟩ := hx2 n
  obtain ⟨u0, u1, u2, u3⟩ := hx3 n
  obtain ⟨⟨r0, hr0⟩, ⟨r1, hr1⟩, ⟨r2, hr2⟩, ⟨r3, hr3⟩⟩ := finite_w A2 hA2 (ix2 b n)
  choose fr hfr using finite_v7 A0 hA0
  have hy0 := cell_v33 A2 (ix2 b n)
  have hy1 := cell_v39 A2 (ix2 b n)
  have hX0 := cell_v30 A2 (ix2 b n)
  have hX1 := cell_v36 A2 (ix2 b n)
  refine (Sample.onehot_contract r0 r1 r2 r3 (Sample.flatFin _ _ hy0 hX0) (Sample.flatFin _ _ hy1 hX0)
    (Sample.flatFin _ _ hy0 hX1) (Sample.flatFin _ _ hy1 hX1)
    (fun m => fr (ix4 b c (⟨m.val / 64, by omega⟩ : Fin 64) (⟨m.val % 64, by omega⟩ : Fin 64))) _ _ (fun m => ?_) (fun m => ?_)).trans ?_
  · unfold Sample.Wk
    rw [e0, e1, e2, e3, u0, u1, u2, u3, hr0, hr1, hr2, hr3]
    simp only [Sample.lane_iff _ _ hy0 hX0, Sample.lane_iff _ _ hy1 hX0, Sample.lane_iff _ _ hy0 hX1, Sample.lane_iff _ _ hy1 hX1]
  · rw [hx0, hfr]
  · rw [hr0, hr1, hr2, hr3]
    simp only [← hfr]
    rw [Sample.map_at_flat (Cert.ReferenceIdeal.ReadP.val_main_v7 (F := Ideal) A0) b c _ _ hy0 hX0,
      Sample.map_at_flat (Cert.ReferenceIdeal.ReadP.val_main_v7 (F := Ideal) A0) b c _ _ hy1 hX0,
      Sample.map_at_flat (Cert.ReferenceIdeal.ReadP.val_main_v7 (F := Ideal) A0) b c _ _ hy0 hX1,
      Sample.map_at_flat (Cert.ReferenceIdeal.ReadP.val_main_v7 (F := Ideal) A0) b c _ _ hy1 hX1]

end Cert.Bridge

end
-- ==== Proof.BridgeTargets.lean ====
/-
  The soft targets.

  The reference builds its soft targets by a scatter-add into zeros [32,128,4096]: the update w[b,n,k] (a bilinear
  weight times the 0/1 mask) is added at the index vector (b, n, cell[b,n,k]), the three components being a batch
  iota, a keypoint iota and the corner's cell index ty·64 + tx, each after a "negative index wraps around" select that
  never fires (the iotas are nonnegative, and every cell index lies in 0..4095). On the extended reals a float
  scatter-add is the exact sum: each operand element plus the sum of the updates whose index vector, read signed,
  is that element's coordinates. So the element (b, n, m) is the sum over the four corners k of w[b,n,k] where
  cell[b,n,k] = m.

  The kernel, for one batch, compares an iota over the 4096 cells with each corner's cell index, selects the corner's
  weight where they agree and 0 elsewhere, and adds the four selections from 0 in corner order: the same sum.

  Parts: a concatenation of extent-one pieces read at an index; the scatter's "lands on" condition for these
  dimension numbers; the index vectors' three components; the scatter read at (b, n, m); the kernel's value read at
  (n, m); the two agree; an unmasked keypoint's row is zero; the mask is 0 or 1.
-/
import proofs.«157332_j6846177869930_1_alg».proof.Proof.Gen.KernelIdeal.Skeleton
import proofs.«157332_j6846177869930_1_alg».proof.Proof.RefRead
import proofs.«157332_j6846177869930_1_alg».proof.Proof.CellRange
import Idealize.ShloMosaic.Lib.ValueIdx
import Idealize.ShloMosaic.Lib.Pipeline.Value
import Idealize.ShloMosaic.Lib.StableHlo.Predicate
import Idealize.ShloMosaic.PureOps.Ideal.Laws

noncomputable section

namespace Cert.Bridge

open Idealize.ShloMosaic Idealize.ShloMosaic.ValueIdx Idealize.SL.Sem
open Idealize.ShloMosaic.StableHlo.Predicate
open Cert.ReferenceIdeal.ReadP
open Cert.ReferenceIdeal (S32x128x2 S32x128 S32x128x4 S32x128x1 S32x128x4096 S32x128x4x1 S32x128x4x3 S_)
open Cert.KernelIdeal (S1x128x4 S128x4 S128x4096 S128x1)
open Cert.KernelIdeal.Gen (k1_pay11 k1_pay6 k1_pay7)
open scoped BigOperators

namespace Targets

/-- Four pieces of extent one joined along the last of three axes: the element at corner k is piece k's. -/
theorem concat4_apply {α : Type} (y0 y1 y2 y3 : S32x128x1.Idx → α)
    (h : Shape.Concatenates [S32x128x1, S32x128x1, S32x128x1, S32x128x1] S32x128x4 2)
    (b : Fin 32) (n : Fin 128) (k : Fin 4) :
    concatenate S32x128x4 2 [⟨S32x128x1, y0⟩, ⟨S32x128x1, y1⟩, ⟨S32x128x1, y2⟩, ⟨S32x128x1, y3⟩] h (ix3 b n k)
      = (![y0, y1, y2, y3] k) (ix3 b n 0) := by
  match k with
  | ⟨0, _⟩ =>
    show y0 _ = y0 _
    congr 1; funext c
    match c with
    | ⟨0, _⟩ => rfl
    | ⟨1, _⟩ => rfl
    | ⟨2, _⟩ => rfl
  | ⟨1, _⟩ =>
    show y1 _ = y1 _
    congr 1; funext c
    match c with
    | ⟨0, _⟩ => rfl
    | ⟨1, _⟩ => rfl
    | ⟨2, _⟩ => rfl
  | ⟨2, _⟩ =>
    show y2 _ = y2 _
    congr 1; funext c
    match c with
    | ⟨0, _⟩ => rfl
    | ⟨1, _⟩ => rfl
    | ⟨2, _⟩ => rfl
  | ⟨3, _⟩ =>
    show y3 _ = y3 _
    congr 1; funext c
    match c with
    | ⟨0, _⟩ => rfl
    | ⟨1, _⟩ => rfl
    | ⟨2, _⟩ => rfl

/-- The reference's scatter dimension numbers: no window axes, all three operand axes addressed by the index vector. -/
abbrev sd : ScatterDims S32x128x4096 S32x128x4x3 S32x128x4 :=
  Cert.ReferenceIdeal.scatter_S32x128x4096_S32x128x4x3_S32x128x4_n_012_012_3

theorem sd_window (j : S32x128x4.Idx) (a : Fin 3) : sd.window j a = 0 := by
  unfold ScatterDims.window
  exact dif_neg (by
    have : sd.sKept = [] := by decide
    rw [this]; exact List.not_mem_nil)

theorem sd_start {w : Nat} (j : S32x128x4.Idx) (idx : IVec S32x128x4x3 w) (a : Fin 3) :
    sd.start j idx a = (idx (ix4 (j 0) (j 1) (j 2) a)).toInt := by
  match a with
  | ⟨0, _⟩ =>
    show (idx _).toInt = (idx _).toInt
    congr 2; funext c
    match c with
    | ⟨0, _⟩ => rfl
    | ⟨1, _⟩ => rfl
    | ⟨2, _⟩ => rfl
    | ⟨3, _⟩ => rfl
  | ⟨1, _⟩ =>
    show (idx _).toInt = (idx _).toInt
    congr 2; funext c
    match c with
    | ⟨0, _⟩ => rfl
    | ⟨1, _⟩ => rfl
    | ⟨2, _⟩ => rfl
    | ⟨3, _⟩ => rfl
  | ⟨2, _⟩ =>
    show (idx _).toInt = (idx _).toInt
    congr 2; funext c
    match c with
    | ⟨0, _⟩ => rfl
    | ⟨1, _⟩ => rfl
    | ⟨2, _⟩ => rfl
    | ⟨3, _⟩ => rfl

/-- An update lands on operand element i exactly when its three index words, read signed, are i's coordinates. -/
theorem sd_resultIdx_eq_some_iff {w : Nat} (j : S32x128x4.Idx) (idx : IVec S32x128x4x3 w) (i : S32x128x4096.Idx) :
    sd.resultIdx? j idx = some i ↔ ∀ a : Fin 3, (idx (ix4 (j 0) (j 1) (j 2) a)).toInt = ((i a).val : Int) := by
  unfold ScatterDims.resultIdx?
  simp only [sd_window, sd_start, Nat.cast_zero, add_zero]
  split
  · rename_i h
    rw [Option.some.injEq]
    constructor
    · intro e a
      have := congrArg (fun f => (f a).val) e
      simp only at this
      have h1 := (h a).1
      omega
    · intro e
      funext a
      apply Fin.ext
      show ((idx (ix4 (j 0) (j 1) (j 2) a)).toInt).toNat = (i a).val
      rw [e a]; simp
  · rename_i h
    constructor
    · intro e; exact absurd e (by simp)
    · intro e
      exfalso; apply h
      intro a
      rw [e a]
      exact ⟨by omega, by exact_mod_cast (i a).isLt⟩

/-- Three pieces of extent one joined along the last of four axes: the element at component c is piece c's. -/
theorem concat3_apply {α : Type} (y0 y1 y2 : S32x128x4x1.Idx → α)
    (h : Shape.Concatenates [S32x128x4x1, S32x128x4x1, S32x128x4x1] S32x128x4x3 3)
    (b : Fin 32) (n : Fin 128) (k : Fin 4) (c : Fin 3) :
    concatenate S32x128x4x3 3 [⟨S32x128x4x1, y0⟩, ⟨S32x128x4x1, y1⟩, ⟨S32x128x4x1, y2⟩] h (ix4 b n k c)
      = (![y0, y1, y2] c) (ix4 b n k 0) := by
  match c with
  | ⟨0, _⟩ =>
    show y0 _ = y0 _
    congr 1; funext e
    match e with
    | ⟨0, _⟩ => rfl
    | ⟨1, _⟩ => rfl
    | ⟨2, _⟩ => rfl
    | ⟨3, _⟩ => rfl
  | ⟨1, _⟩ =>
    show y1 _ = y1 _
    congr 1; funext e
    match e with
    | ⟨0, _⟩ => rfl
    | ⟨1, _⟩ => rfl
    | ⟨2, _⟩ => rfl
    | ⟨3, _⟩ => rfl
  | ⟨2, _⟩ =>
    show y2 _ = y2 _
    congr 1; funext e
    match e with
    | ⟨0, _⟩ => rfl
    | ⟨1, _⟩ => rfl
    | ⟨2, _⟩ => rfl
    | ⟨3, _⟩ => rfl

/-- The batch component of an update's index vector is its batch number. -/
theorem v251_batch (A3 : (⟨S32x128x2, .f32⟩ : BufTy).Contents (Elt Ideal)) (b : Fin 32) (n : Fin 128) (k : Fin 4) :
    val_main_v251 (F := Ideal) A3 (ix4 b n k 0) = BitVec.ofNat 32 b.val := by
  unfold val_main_v251
  rw [concat3_apply]
  show val_main_v248 (F := Ideal) (ix4 b n k 0) = _
  rw [val_main_v248_apply, val_main_v246_apply, val_main_v235_apply, val_main_v232_apply, val_main_v227_apply,
    val_main_v231_apply, val_main_c_63_apply, val_main_v226_apply]
  have hlt : ¬ IntOp.cmpi .slt (BitVec.ofNat 32 b.val) 0#32 = 1#1 := by
    rw [slt_iff_toNat (by simp [BitVec.toNat_ofNat]; omega) (by decide)]
    simp
  show Scalar.select (IntOp.cmpi .slt (BitVec.ofNat 32 b.val) 0#32) _ (BitVec.ofNat 32 b.val) = _
  rw [eq_zero_of_ne_one hlt, select_zero]

/-- The keypoint component of an update's index vector is its keypoint number. -/
theorem v251_keypoint (A3 : (⟨S32x128x2, .f32⟩ : BufTy).Contents (Elt Ideal)) (b : Fin 32) (n : Fin 128) (k : Fin 4) :
    val_main_v251 (F := Ideal) A3 (ix4 b n k 1) = BitVec.ofNat 32 n.val := by
  unfold val_main_v251
  rw [concat3_apply]
  show val_main_v249 (F := Ideal) (ix4 b n k 0) = _
  rw [val_main_v249_apply, val_main_v247_apply, val_main_v240_apply, val_main_v237_apply, val_main_v229_apply,
    val_main_v236_apply, val_main_c_65_apply, val_main_v228_apply]
  have hlt : ¬ IntOp.cmpi .slt (BitVec.ofNat 32 n.val) 0#32 = 1#1 := by
    rw [slt_iff_toNat (by simp [BitVec.toNat_ofNat]; omega) (by decide)]
    simp
  show Scalar.select (IntOp.cmpi .slt (BitVec.ofNat 32 n.val) 0#32) _ (BitVec.ofNat 32 n.val) = _
  rw [eq_zero_of_ne_one hlt, select_zero]

/-- The cell component of an update's index vector is the wrapped cell index of that corner. -/
theorem v251_cell (A3 : (⟨S32x128x2, .f32⟩ : BufTy).Contents (Elt Ideal)) (b : Fin 32) (n : Fin 128) (k : Fin 4) :
    val_main_v251 (F := Ideal) A3 (ix4 b n k 2) = val_main_v245 (F := Ideal) A3 (ix3 b n k) := by
  unfold val_main_v251
  rw [concat3_apply]
  show val_main_v250 (F := Ideal) A3 (ix4 b n k 0) = _
  rw [val_main_v250_apply]
  congr 1
  funext e
  match e with
  | ⟨0, _⟩ => rfl
  | ⟨1, _⟩ => rfl
  | ⟨2, _⟩ => rfl

/-- Every target cell index, ty·64 + tx with both coordinates in 0..63, is nonnegative as a signed word. -/
theorem v225_nonneg (A3 : (⟨S32x128x2, .f32⟩ : BufTy).Contents (Elt Ideal)) (b : Fin 32) (n : Fin 128) (k : Fin 4) :
    0 ≤ (val_main_v225 (F := Ideal) A3 (ix3 b n k)).toInt := by
  unfold val_main_v225
  rw [concat4_apply]
  match k with
  | ⟨0, _⟩ =>
    show 0 ≤ (val_main_v221 (F := Ideal) A3 (ix3 b n 0)).toInt
    rw [val_main_v221_apply, val_main_v211_apply, val_main_v210_apply, val_main_v209_apply, val_main_c_58_apply]
    exact (flat_cell _ _ (cell_v178 A3 _) (cell_v172 A3 _)).2.2.2.1
  | ⟨1, _⟩ =>
    show 0 ≤ (val_main_v222 (F := Ideal) A3 (ix3 b n 0)).toInt
    rw [val_main_v222_apply, val_main_v214_apply, val_main_v213_apply, val_main_v212_apply, val_main_c_59_apply]
    exact (flat_cell _ _ (cell_v181 A3 _) (cell_v172 A3 _)).2.2.2.1
  | ⟨2, _⟩ =>
    show 0 ≤ (val_main_v223 (F := Ideal) A3 (ix3 b n 0)).toInt
    rw [val_main_v223_apply, val_main_v217_apply, val_main_v216_apply, val_main_v215_apply, val_main_c_60_apply]
    exact (flat_cell _ _ (cell_v178 A3 _) (cell_v175 A3 _)).2.2.2.1
  | ⟨3, _⟩ =>
    show 0 ≤ (val_main_v224 (F := Ideal) A3 (ix3 b n 0)).toInt
    rw [val_main_v224_apply, val_main_v220_apply, val_main_v219_apply, val_main_v218_apply, val_main_c_61_apply]
    exact (flat_cell _ _ (cell_v181 A3 _) (cell_v175 A3 _)).2.2.2.1

/-- The negative-index wrap of the cell indices never fires. -/
theorem v245_eq_v225 (A3 : (⟨S32x128x2, .f32⟩ : BufTy).Contents (Elt Ideal)) (b : Fin 32) (n : Fin 128) (k : Fin 4) :
    val_main_v245 (F := Ideal) A3 (ix3 b n k) = val_main_v225 (F := Ideal) A3 (ix3 b n k) := by
  rw [val_main_v245_apply, val_main_v242_apply, val_main_v241_apply, val_main_c_67_apply,
    not_neg _ (v225_nonneg A3 b n k), select_zero]

/-- A 32-bit word read signed is the small natural m exactly when it is the word of m. -/
theorem toInt_eq_small_iff (v : BitVec 32) (m : Nat) (hm : m < 2 ^ 31) : v.toInt = (m : Int) ↔ v = BitVec.ofNat 32 m := by
  constructor
  · intro h
    apply BitVec.eq_of_toInt_eq
    rw [h, toInt_ofNat_small m hm]
  · rintro rfl
    exact toInt_ofNat_small m hm

/-- A statement about the three axes, axis by axis. -/
theorem forall_fin3 {p : Fin 3 → Prop} : (∀ a, p a) ↔ p 0 ∧ p 1 ∧ p 2 :=
  ⟨fun h => ⟨h 0, h 1, h 2⟩, fun h a => by
    match a with
    | ⟨0, _⟩ => exact h.1
    | ⟨1, _⟩ => exact h.2.1
    | ⟨2, _⟩ => exact h.2.2⟩

/-- Which updates land on element (b, n, m) of the soft targets: those of batch b, keypoint n whose corner's cell is m. -/
theorem lands_iff (A3 : (⟨S32x128x2, .f32⟩ : BufTy).Contents (Elt Ideal)) (b' b : Fin 32) (n' n : Fin 128) (k : Fin 4) (mm : Fin 4096) :
    sd.resultIdx? (ix3 b' n' k) (val_main_v251 (F := Ideal) A3) = some (ix3 b n mm)
      ↔ b' = b ∧ n' = n ∧ val_main_v225 (F := Ideal) A3 (ix3 b' n' k) = BitVec.ofNat 32 mm.val := by
  rw [sd_resultIdx_eq_some_iff, forall_fin3]
  show (val_main_v251 (F := Ideal) A3 (ix4 b' n' k 0)).toInt = (b.val : Int)
      ∧ (val_main_v251 (F := Ideal) A3 (ix4 b' n' k 1)).toInt = (n.val : Int)
      ∧ (val_main_v251 (F := Ideal) A3 (ix4 b' n' k 2)).toInt = (mm.val : Int) ↔ _
  rw [v251_batch, v251_keypoint, v251_cell, v245_eq_v225,
    toInt_ofNat_small _ (by omega), toInt_ofNat_small _ (by omega), toInt_eq_small_iff _ _ (by omega)]
  simp only [Nat.cast_inj, Fin.val_inj]

/-- THE SOFT TARGETS READ AT (b, n, m): the sum over the four corners of the masked weight where the corner's cell is m. -/
theorem v252_apply (A3 : (⟨S32x128x2, .f32⟩ : BufTy).Contents (Elt Ideal)) (A4 : (⟨S32x128, .i32⟩ : BufTy).Contents (Elt Ideal))
    (b : Fin 32) (n : Fin 128) (mm : Fin 4096) :
    val_main_v252 (F := Ideal) A3 A4 (ix3 b n mm)
      = ∑ k : Fin 4, if val_main_v225 (F := Ideal) A3 (ix3 b n k) = BitVec.ofNat 32 mm.val
          then val_main_v208 (F := Ideal) A3 A4 (ix3 b n k) else 0 := by
  show val_main_v230 (F := Ideal) (ix3 b n mm)
      + ∑ j ∈ Finset.univ.filter (fun j => sd.resultIdx? j (val_main_v251 (F := Ideal) A3) = some (ix3 b n mm)),
          val_main_v208 (F := Ideal) A3 A4 j = _
  rw [val_main_v230_apply, val_main_cst_62_apply, Ideal.ofBits_def, Ideal.ofBits_zero_f32, zero_add, ← Finset.sum_filter]
  symm
  refine Finset.sum_bij (fun k _ => ix3 b n k) ?_ ?_ ?_ ?_
  · intro k hk
    rw [Finset.mem_filter] at hk ⊢
    exact ⟨Finset.mem_univ _, (lands_iff A3 b b n n k mm).mpr ⟨rfl, rfl, hk.2⟩⟩
  · intro k _ k' _ e
    have := congrFun e 2
    exact this
  · intro j hj
    rw [Finset.mem_filter] at hj
    have hj2 := hj.2
    rw [eq_ix3 j] at hj2
    obtain ⟨hb, hn, hc⟩ := (lands_iff A3 (j 0) b (j 1) n (j 2) mm).mp hj2
    subst hb; subst hn
    exact ⟨(j 2 : Fin 4), Finset.mem_filter.mpr ⟨Finset.mem_univ _, hc⟩, (eq_ix3 j).symm⟩
  · intro k _; rfl

/-- One column of a [128,4] table spread over the 4096 cells: at (n, m) it is the table at (n, k). -/
theorem column_spread {α : Type} (v : S128x4.Idx → α) (k : Fin 4) (off : Fin 2 → Nat) (h0 : off 0 = 0) (h1 : off 1 = k.val)
    (hs : S128x4.Slices off S128x1) (hb : S128x1.Broadcasts S128x4096) (n : Fin 128) (mm : Fin 4096) :
    broadcastTo S128x4096 (extractStridedSlice S128x1 off v hs) hb (ix2 n mm) = v (ix2 n k) := by
  refine (broadcastTo_apply _ hb (ix2 n mm) (ix2 n (0 : Fin 1)) (fun a => ?_)).trans ?_
  · match a with
    | ⟨0, _⟩ => show n.val = if (128 : Nat) = 1 then 0 else n.val; rw [if_neg (by decide)]
    | ⟨1, _⟩ => show 0 = if (1 : Nat) = 1 then 0 else mm.val; rw [if_pos rfl]
  · refine extractStridedSlice_apply off v hs (ix2 n (0 : Fin 1)) (ix2 n k) (fun a => ?_)
    match a with
    | ⟨0, _⟩ => show n.val = off 0 + n.val; rw [h0]; omega
    | ⟨1, _⟩ => show k.val = off 1 + 0; rw [h1]; rfl

/-- A [1,128,4] block viewed as [128,4] reads (0, n, k) at (n, k). -/
theorem drop_unit {α : Type} (x : S1x128x4.Idx → α) (h : S1x128x4.ShapeCasts S128x4) (n : Fin 128) (k : Fin 4) :
    shapeCast S128x4 x h (ix2 n k) = x (ix3 0 n k) := by
  refine shapeCast_apply x h (ix2 n k) (ix3 0 n k) ?_
  rw [Shape.rowMajor_val_three, Shape.rowMajor_val_two]
  show ((0 : Nat) * 128 + n.val) * 4 + k.val = n.val * 4 + k.val
  omega

/-- A shape cast between equal shapes is the identity. -/
theorem cast_same {α : Type} (x : S128x1.Idx → α) (h : S128x1.ShapeCasts S128x1) : shapeCast S128x1 x h = x := by
  funext j
  exact shapeCast_apply x h j j rfl

/-- A comparison of two integer vectors at an index compares the elements. -/
theorem cmpi_apply {s : Shape} {w : Nat} (p : CmpIPredicate) (a c : IVec s w) (i : s.Idx) :
    cmpi p a c i = IntOp.cmpi p (a i) (c i) := rfl

/-- A select on a bit is the if-then-else on that bit being one. -/
theorem select_eq_ite {α : Type} (c : BitVec 1) (a e : α) : Scalar.select c a e = if c = 1#1 then a else e := rfl

/-- The equality comparison is the bit one exactly when the words are equal (read right to left). -/
theorem cmpi_eq_iff' {w : Nat} {a c : BitVec w} : IntOp.cmpi .eq a c = 1#1 ↔ c = a :=
  cmpi_eq_iff.trans eq_comm

/-- The kernel's soft targets at (n, m): the four corners' weights, each where its cell index equals m, summed from zero
    in corner order. -/
theorem k1_pay11_apply (x4 : Vec Ideal S1x128x4 .i32) (x5 : Vec Ideal S1x128x4 .f32) (n : Fin 128) (mm : Fin 4096) :
    k1_pay11 (F := Ideal) (k1_pay6 x4) (k1_pay7 x5) (iota .tc S128x4096 32 [1] Cert.KernelIdeal.Gen.iota_S128x4096_d1_w32) (ix2 n mm)
      = ∑ k : Fin 4, if x4 (ix3 0 n k) = BitVec.ofNat 32 mm.val then x5 (ix3 0 n k) else 0 := by
  unfold k1_pay11 k1_pay6 k1_pay7
  simp only [addf_apply, select_apply, ValueIdx.broadcast_apply, cast_same, cmpi_apply]
  rw [column_spread _ 0 ![0, 0] rfl rfl, column_spread _ 0 ![0, 0] rfl rfl,
    column_spread _ 1 ![0, 1] rfl rfl, column_spread _ 1 ![0, 1] rfl rfl,
    column_spread _ 2 ![0, 2] rfl rfl, column_spread _ 2 ![0, 2] rfl rfl,
    column_spread _ 3 ![0, 3] rfl rfl, column_spread _ 3 ![0, 3] rfl rfl]
  have hi : iota .tc S128x4096 32 [1] Cert.KernelIdeal.Gen.iota_S128x4096_d1_w32 (ix2 n mm) = BitVec.ofNat 32 mm.val :=
    iota_single_apply .tc S128x4096 32 1 _ (ix2 n mm)
  simp only [drop_unit, hi, select_eq_ite, cmpi_eq_iff', Ideal.ofBits_def, Ideal.ofBits_zero_f32, zero_add,
    Fin.sum_univ_four]

/-- The mask column a masked weight is multiplied by is the mask at (b, n). -/
theorem v207_apply' (A4 : (⟨S32x128, .i32⟩ : BufTy).Contents (Elt Ideal)) (b : Fin 32) (n : Fin 128) (k : Fin 4) :
    val_main_v207 (F := Ideal) A4 (ix3 b n k) = val_main_v200 (F := Ideal) A4 (ix2 b n) := by
  rw [val_main_v207_apply, val_main_v206_apply]
  congr 1
  funext a
  match a with
  | ⟨0, _⟩ => rfl
  | ⟨1, _⟩ => rfl

end Targets

open Targets

/-- The kernel's soft targets of batch b at (n, m) are the reference's at (b, n, m): both are the sum over the four
    corners of the masked bilinear weight where the corner's cell is m. -/
theorem softTargets_eq (A3 : (⟨S32x128x2, .f32⟩ : BufTy).Contents (Elt Ideal)) (A4 : (⟨S32x128, .i32⟩ : BufTy).Contents (Elt Ideal))
    (b : Fin 32) (x4 : Vec Ideal S1x128x4 .i32) (x5 : Vec Ideal S1x128x4 .f32)
    (hx4 : ∀ (n : Fin 128) (k : Fin 4), x4 (ix3 0 n k) = val_main_v225 (F := Ideal) A3 (ix3 b n k))
    (hx5 : ∀ (n : Fin 128) (k : Fin 4), x5 (ix3 0 n k) = val_main_v208 (F := Ideal) A3 A4 (ix3 b n k))
    (n : Fin 128) (mm : Fin 4096) :
    k1_pay11 (F := Ideal) (k1_pay6 x4) (k1_pay7 x5) (iota .tc S128x4096 32 [1] Cert.KernelIdeal.Gen.iota_S128x4096_d1_w32) (ix2 n mm)
      = val_main_v252 (F := Ideal) A3 A4 (ix3 b n mm) := by
  rw [k1_pay11_apply, v252_apply]
  simp only [hx4, hx5]

/-- An unmasked keypoint's row of soft targets is zero: each of its four updates is a weight times the mask 0. -/
theorem softTargets_unmasked (A3 : (⟨S32x128x2, .f32⟩ : BufTy).Contents (Elt Ideal)) (A4 : (⟨S32x128, .i32⟩ : BufTy).Contents (Elt Ideal))
    (b : Fin 32) (n : Fin 128) (h0 : val_main_v200 (F := Ideal) A4 (ix2 b n) = 0) :
    ∀ mm : Fin 4096, val_main_v252 (F := Ideal) A3 A4 (ix3 b n mm) = 0 := by
  intro mm
  rw [v252_apply]
  refine Finset.sum_eq_zero (fun k _ => ?_)
  have hz : val_main_v208 (F := Ideal) A3 A4 (ix3 b n k) = 0 := by
    rw [val_main_v208_apply, v207_apply', h0]
    exact mul_zero _
  rw [hz, ite_self]

/-- The mask is the number 0 or the number 1: the conversion of the one-bit word "the keypoint's flag is not zero". -/
theorem mask_zero_or_one (A4 : (⟨S32x128, .i32⟩ : BufTy).Contents (Elt Ideal)) (i : S32x128.Idx) :
    val_main_v200 (F := Ideal) A4 i = 0 ∨ val_main_v200 (F := Ideal) A4 i = 1 := by
  rw [val_main_v200_apply]
  rcases BitVec.eq_zero_or_eq_one (val_main_v199 (F := Ideal) A4 i) with h | h
  · left
    rw [h]
    show ((((0#1 : BitVec 1).toNat : ℝ)) : EReal) = 0
    simp
  · right
    rw [h]
    show ((((1#1 : BitVec 1).toNat : ℝ)) : EReal) = 1
    simp

end Cert.Bridge
-- ==== Proof.BatchLoss.lean ====
import proofs.«157332_j6846177869930_1_alg».proof.Proof.LossRegion
import proofs.«157332_j6846177869930_1_alg».proof.Proof.RefRead
import proofs.«157332_j6846177869930_1_alg».proof.Proof.BridgeSample
import proofs.«157332_j6846177869930_1_alg».proof.Proof.BridgeTargets
import proofs.«157332_j6846177869930_1_alg».proof.Proof.BridgeTail
import Idealize.ShloMosaic.Lib.ValueIdx
import Idealize.ShloMosaic.Lib.Pipeline.Value
import Idealize.ShloMosaic.PureOps.Ideal.Laws

/-!
# One batch of the loss: the kernel's stored tile against the reference's stages

The body of the second call stores, for each batch, one number in every cell of a `[1, 8, 128]` tile. That number is
computed from six blocks: the two normalised feature maps of the batch, the source keypoints' four cell indices and
four bilinear weights, and the target keypoints' four cell indices and four masked weights. This file joins three
comparisons made elsewhere — the sampled source features, the scattered soft targets, and the last stretch from logits
to the total — into one statement per batch: the stored number is the sum over the batch's 128 keypoints of the
reference's masked loss terms.
-/

noncomputable section

namespace Cert.Bridge

open Idealize.ShloMosaic Idealize.SL.Sem Idealize.ShloMosaic.ValueIdx
open Cert.KernelIdeal Cert.KernelIdeal.Gen
open Cert.ReferenceIdeal.ReadP

/-! ## The target block without its unit axis -/

/-- Dropping the leading unit axis of a `[1, 256, 4096]` block: entry `(ch, p)` of the result is entry `(0, ch, p)`. -/
theorem pay3_apply (x1 : Vec Ideal S1x256x4096 .bf16) (ch : Fin 256) (p : Fin 4096) :
    k1_pay3 (F := Ideal) x1 (ix2 ch p) = x1 (ix3 0 ch p) := by
  unfold k1_pay3
  refine (shapeCast_dropUnit_apply ![256, 4096] x1 shapeCasts_S1x256x4096_S256x4096 (ix2 ch p)).trans (congrArg x1 ?_)
  funext a
  match a with
  | ⟨0, _⟩ => rfl
  | ⟨1, _⟩ => rfl
  | ⟨2, _⟩ => rfl

/-! ## One batch: the stored tile is the batch's sum of the reference's masked terms -/

/-- For batch `b`, with the six input blocks holding the reference's stages for that batch — the two normalised maps,
    the four source cell indices and bilinear weights, the four target cell indices and masked target weights — every
    entry of the tile the body stores is the sum over the 128 keypoints of the reference's masked loss term.
    The stored value is, by definition, the last stretch (`k1_pay1`) applied to the target block without its unit axis,
    the scattered soft targets and the sampled features; each of the three is the reference's stage, and a keypoint
    whose mask is 0 has a zero soft-target row. -/
theorem batch_loss (A0 A1 : (⟨S32x256x64x64, .f32⟩ : BufTy).Contents (Elt Ideal)) (A2 A3 : (⟨S32x128x2, .f32⟩ : BufTy).Contents (Elt Ideal))
    (A4 : (⟨S32x128, .i32⟩ : BufTy).Contents (Elt Ideal))
    (hA0 : ∀ i, ∃ r : ℝ, A0 i = (r : EReal)) (hA2 : ∀ i, ∃ r : ℝ, A2 i = (r : EReal)) (b : Fin 32)
    (x0 x1 : Vec Ideal S1x256x4096 .bf16) (x2 : Vec Ideal S1x128x4 .i32) (x3 : Vec Ideal S1x128x4 .f32)
    (x4 : Vec Ideal S1x128x4 .i32) (x5 : Vec Ideal S1x128x4 .f32)
    (hx0 : ∀ (ch : Fin 256) (p : Fin 4096), x0 (ix3 0 ch p) = val_main_v7 (F := Ideal) A0 (ix4 b ch (⟨p.val / 64, by omega⟩ : Fin 64) (⟨p.val % 64, by omega⟩ : Fin 64)))
    (hx1 : ∀ (ch : Fin 256) (p : Fin 4096), x1 (ix3 0 ch p) = val_main_v15 (F := Ideal) A1 (ix4 b ch (⟨p.val / 64, by omega⟩ : Fin 64) (⟨p.val % 64, by omega⟩ : Fin 64)))
    (hx2 : ∀ n : Fin 128, x2 (ix3 0 n 0) = val_main_v33 (F := Ideal) A2 (ix2 b n) * 64#32 + val_main_v30 (F := Ideal) A2 (ix2 b n)
      ∧ x2 (ix3 0 n 1) = val_main_v39 (F := Ideal) A2 (ix2 b n) * 64#32 + val_main_v30 (F := Ideal) A2 (ix2 b n)
      ∧ x2 (ix3 0 n 2) = val_main_v33 (F := Ideal) A2 (ix2 b n) * 64#32 + val_main_v36 (F := Ideal) A2 (ix2 b n)
      ∧ x2 (ix3 0 n 3) = val_main_v39 (F := Ideal) A2 (ix2 b n) * 64#32 + val_main_v36 (F := Ideal) A2 (ix2 b n))
    (hx3 : ∀ n : Fin 128, x3 (ix3 0 n 0) = val_main_v51 (F := Ideal) A2 (ix2 b n) ∧ x3 (ix3 0 n 1) = val_main_v55 (F := Ideal) A2 (ix2 b n)
      ∧ x3 (ix3 0 n 2) = val_main_v59 (F := Ideal) A2 (ix2 b n) ∧ x3 (ix3 0 n 3) = val_main_v61 (F := Ideal) A2 (ix2 b n))
    (hx4 : ∀ (n : Fin 128) (k : Fin 4), x4 (ix3 0 n k) = val_main_v225 (F := Ideal) A3 (ix3 b n k))
    (hx5 : ∀ (n : Fin 128) (k : Fin 4), x5 (ix3 0 n k) = val_main_v208 (F := Ideal) A3 A4 (ix3 b n k))
    (i : Fin 8) (j : Fin 128) :
    Loss.lossPayload (F := Ideal) x0 x1 x2 x3 x4 x5 (ix3 0 i j)
      = ∑ n : Fin 128, val_main_v259 (F := Ideal) A0 A1 A2 A3 A4 (ix2 b n) := by
  unfold Loss.lossPayload
  exact tail_eq A0 A1 A2 A3 A4 b _ _ _
    (fun ch p => (pay3_apply x1 ch p).trans (hx1 ch p))
    (fun n mm => softTargets_eq A3 A4 b x4 x5 hx4 hx5 n mm)
    (fun n c => sampled_eq A0 A2 hA0 hA2 b x0 x2 x3 hx0 hx2 hx3 n c)
    (fun n h0 => softTargets_unmasked A3 A4 b n h0)
    (fun n => mask_zero_or_one A4 (ix2 b n))
    i j

end Cert.Bridge

end
-- ==== Proof.KHostDefs.lean ====
import proofs.«157332_j6846177869930_1_alg».proof.Proof.Gen.KernelIdeal.Regions
import proofs.«157332_j6846177869930_1_alg».proof.Proof.RefRead

/-!
# The two tables of the source keypoints that the loss kernel is given

Per keypoint the loss kernel takes the four corner cells of the source map, as flat indices `row · 64 + column`, and the
four bilinear weights, each as a `[32,128,4]` table: corner `k` of keypoint `n` of batch `b` at `(b, n, k)`, the corners
in the order (top, left), (bottom, left), (top, right), (bottom, right). Both are written over the reference program's
stages of the source keypoints: the clipped cell coordinates x0, y0, x1, y1 and the four weights.
-/

noncomputable section

namespace Cert.KernelIdeal.HostRead

open Cert.KernelIdeal Cert.KernelIdeal.Gen
open Idealize.ShloMosaic Idealize.ShloMosaic.TcCoe Idealize.SL.Sem Idealize.ShloMosaic.StableHlo
open Cert.ReferenceIdeal

variable {F : FTy → Type} [FloatOps F] [Named F]

/-- The row stride of a 64-wide map, at every keypoint. -/
def stride64 : (⟨S32x128, .i32⟩ : BufTy).Contents (Elt F) :=
  broadcastInDim S32x128 ![] bcast_S_S32x128 (constantI S_ 32 64#32)

/-- The flat cell index `row · 64 + column`, at every keypoint. -/
def flatCell (row col : (⟨S32x128, .i32⟩ : BufTy).Contents (Elt F)) : (⟨S32x128, .i32⟩ : BufTy).Contents (Elt F) :=
  addi (muli row (stride64 (F := F))) col

/-- The four corner cells of the source keypoints: (y0, x0), (y1, x0), (y0, x1), (y1, x1) as flat indices. -/
def cellSrc (x2 : (⟨S32x128x2, .f32⟩ : BufTy).Contents (Elt F)) : (⟨S32x128x4, .i32⟩ : BufTy).Contents (Elt F) :=
  concatenate S32x128x4 2
    [⟨S32x128x1, broadcastInDim S32x128x1 ![0, 1] bcast_S32x128_S32x128x1_0_1 (flatCell (F := F) (ReadP.val_main_v33 (F := F) x2) (ReadP.val_main_v30 (F := F) x2))⟩,
     ⟨S32x128x1, broadcastInDim S32x128x1 ![0, 1] bcast_S32x128_S32x128x1_0_1 (flatCell (F := F) (ReadP.val_main_v39 (F := F) x2) (ReadP.val_main_v30 (F := F) x2))⟩,
     ⟨S32x128x1, broadcastInDim S32x128x1 ![0, 1] bcast_S32x128_S32x128x1_0_1 (flatCell (F := F) (ReadP.val_main_v33 (F := F) x2) (ReadP.val_main_v36 (F := F) x2))⟩,
     ⟨S32x128x1, broadcastInDim S32x128x1 ![0, 1] bcast_S32x128_S32x128x1_0_1 (flatCell (F := F) (ReadP.val_main_v39 (F := F) x2) (ReadP.val_main_v36 (F := F) x2))⟩]
    concatenates_S32x128x1_S32x128x1_S32x128x1_S32x128x1_S32x128x4_d2

/-- The four bilinear weights of the source keypoints, in the corners' order. -/
def wSrc (x2 : (⟨S32x128x2, .f32⟩ : BufTy).Contents (Elt F)) : (⟨S32x128x4, .f32⟩ : BufTy).Contents (Elt F) :=
  concatenate S32x128x4 2
    [⟨S32x128x1, ReadP.val_main_v52 (F := F) x2⟩, ⟨S32x128x1, ReadP.val_main_v56 (F := F) x2⟩,
     ⟨S32x128x1, ReadP.val_main_v60 (F := F) x2⟩, ⟨S32x128x1, ReadP.val_main_v62 (F := F) x2⟩]
    concatenates_S32x128x1_S32x128x1_S32x128x1_S32x128x1_S32x128x4_d2

end Cert.KernelIdeal.HostRead

end
-- ==== Proof.KHost.lean ====
import proofs.«157332_j6846177869930_1_alg».proof.Proof.KHostDefs

/-!
# The kernel program's host stretches, read back

Between its two kernel regions the kernel program runs seventeen straight lines of tensor operations on the host side:
the source keypoints' chain (scaled coordinates, their floors clipped to the map, the neighbouring cells, the four
bilinear weights), the two tables the loss kernel is given for the source keypoints, and the start of the target
keypoints' chain. Operation for operation this is the reference program's own chain, so each buffer is read back as the
reference's stage of the same argument.

Every stretch is read from ANY contents `W` of the buffers before it: what it needs of earlier stretches is a hypothesis,
what it leaves for later ones is the conclusion. The last section chains the stretches over the program's items.
-/

set_option maxRecDepth 4096

noncomputable section

namespace Cert.KernelIdeal.HostRead

open Cert.KernelIdeal Cert.KernelIdeal.Gen
open Idealize.ShloMosaic Idealize.ShloMosaic.TcCoe Idealize.SL.Sem Idealize.ShloMosaic.StableHlo
open Cert.ReferenceIdeal

variable {F : FTy → Type} [FloatOps F] [Named F]

/-! ## A stretch in two halves -/

/-- Running a joined list is running its halves in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Any stretch is its first `n` operations followed by the rest. -/
theorem after_split (n : Nat) (l : List (HloOp τ sig (Elt F))) (V : Valuation τ sig (Elt F)) :
    after l V = after (l.drop n) (after (l.take n) V) := by
  rw [← after_append, List.take_append_drop]

/-! ## The source keypoints' chain, stretch by stretch -/

section Source
variable (W : Valuation τ sig (Elt F)) (x2 : (⟨S32x128x2, .f32⟩ : BufTy).Contents (Elt F))

theorem s1_x (h2 : W (Proc.devRef .tc main_arg2) = x2) :
    after hostOps1 W (Proc.devRef .tc main_v8) = ReadP.val_main_v21 (F := F) x2 := by
  after_results; simp only [h2]; rfl
theorem s1_y (h2 : W (Proc.devRef .tc main_arg2) = x2) :
    after hostOps1 W (Proc.devRef .tc main_v14) = ReadP.val_main_v27 (F := F) x2 := by
  after_results; simp only [h2]; rfl
theorem s1_fx (h2 : W (Proc.devRef .tc main_arg2) = x2) :
    after hostOps1 W (Proc.devRef .tc main_v15) = ReadP.val_main_v28 (F := F) x2 := by
  after_results; simp only [h2]; rfl
theorem s1_c : after hostOps1 W (Proc.devRef .tc main_c) = ReadP.val_main_c (F := F) := by
  after_results; rfl
theorem s1_c3 : after hostOps1 W (Proc.devRef .tc main_c_3) = ReadP.val_main_c_7 (F := F) := by
  after_results; rfl

theorem s2_clip (h15 : W (Proc.devRef .tc main_v15) = ReadP.val_main_v28 (F := F) x2)
    (hc : W (Proc.devRef .tc main_c) = ReadP.val_main_c (F := F)) (hc3 : W (Proc.devRef .tc main_c_3) = ReadP.val_main_c_7 (F := F)) :
    after hostOps1_1 W (Proc.devRef .tc main_v16) = ReadP.val_main_v29 (F := F) x2 := by
  after_results; simp only [h15, hc, hc3]; rfl
end Source

section Source2
variable (W : Valuation τ sig (Elt F)) (x2 : (⟨S32x128x2, .f32⟩ : BufTy).Contents (Elt F))

theorem s3_x0 (h16 : W (Proc.devRef .tc main_v16) = ReadP.val_main_v29 (F := F) x2) :
    after hostOps1_2 W (Proc.devRef .tc main_v17) = ReadP.val_main_v30 (F := F) x2 := by
  after_results; simp only [h16]; rfl
theorem s3_fy (h14 : W (Proc.devRef .tc main_v14) = ReadP.val_main_v27 (F := F) x2) :
    after hostOps1_2 W (Proc.devRef .tc main_v18) = ReadP.val_main_v31 (F := F) x2 := by
  after_results; simp only [h14]; rfl
theorem s3_c4 : after hostOps1_2 W (Proc.devRef .tc main_c_4) = ReadP.val_main_c_8 (F := F) := by
  after_results; rfl
theorem s3_c5 : after hostOps1_2 W (Proc.devRef .tc main_c_5) = ReadP.val_main_c_9 (F := F) := by
  after_results; rfl

theorem s4_clip (h18 : W (Proc.devRef .tc main_v18) = ReadP.val_main_v31 (F := F) x2)
    (hc : W (Proc.devRef .tc main_c_4) = ReadP.val_main_c_8 (F := F)) (hc' : W (Proc.devRef .tc main_c_5) = ReadP.val_main_c_9 (F := F)) :
    after hostOps1_3 W (Proc.devRef .tc main_v19) = ReadP.val_main_v32 (F := F) x2 := by
  after_results; simp only [h18, hc, hc']; rfl

theorem s5_y0 (h19 : W (Proc.devRef .tc main_v19) = ReadP.val_main_v32 (F := F) x2) :
    after hostOps1_4 W (Proc.devRef .tc main_v20) = ReadP.val_main_v33 (F := F) x2 := by
  after_results; simp only [h19]; rfl
theorem s5_x0p (h17 : W (Proc.devRef .tc main_v17) = ReadP.val_main_v30 (F := F) x2) :
    after hostOps1_4 W (Proc.devRef .tc main_v22) = ReadP.val_main_v35 (F := F) x2 := by
  after_results; simp only [h17]; rfl
theorem s5_c7 : after hostOps1_4 W (Proc.devRef .tc main_c_7) = ReadP.val_main_c_11 (F := F) := by
  after_results; rfl
theorem s5_c8 : after hostOps1_4 W (Proc.devRef .tc main_c_8) = ReadP.val_main_c_12 (F := F) := by
  after_results; rfl

theorem s6_clip (h22 : W (Proc.devRef .tc main_v22) = ReadP.val_main_v35 (F := F) x2)
    (hc : W (Proc.devRef .tc main_c_7) = ReadP.val_main_c_11 (F := F)) (hc' : W (Proc.devRef .tc main_c_8) = ReadP.val_main_c_12 (F := F)) :
    after hostOps1_5 W (Proc.devRef .tc main_v23) = ReadP.val_main_v36 (F := F) x2 := by
  after_results; simp only [h22, hc, hc']; rfl

theorem s7_y0p (h20 : W (Proc.devRef .tc main_v20) = ReadP.val_main_v33 (F := F) x2) :
    after hostOps1_6 W (Proc.devRef .tc main_v25) = ReadP.val_main_v38 (F := F) x2 := by
  after_results; simp only [h20]; rfl
theorem s7_c10 : after hostOps1_6 W (Proc.devRef .tc main_c_10) = ReadP.val_main_c_14 (F := F) := by
  after_results; rfl
theorem s7_c11 : after hostOps1_6 W (Proc.devRef .tc main_c_11) = ReadP.val_main_c_15 (F := F) := by
  after_results; rfl

theorem s8_clip (h25 : W (Proc.devRef .tc main_v25) = ReadP.val_main_v38 (F := F) x2)
    (hc : W (Proc.devRef .tc main_c_10) = ReadP.val_main_c_14 (F := F)) (hc' : W (Proc.devRef .tc main_c_11) = ReadP.val_main_c_15 (F := F)) :
    after hostOps1_7 W (Proc.devRef .tc main_v26) = ReadP.val_main_v39 (F := F) x2 := by
  after_results; simp only [h25, hc, hc']; rfl
end Source2

/-! ## The long stretch that builds the source windows, in five pieces

Its first 40 operations compute the four corner cells and the four weights per keypoint and broadcast the cells to
columns; operation 41 joins the cell columns; operations 42 to 45 broadcast the weights to columns; operation 46 joins
them; the remaining 13 begin the target keypoints' chain. -/

abbrev ops8A : List (HloOp τ sig (Elt F)) := (hostOps1_8 (F := F)).take 40
abbrev ops8B : List (HloOp τ sig (Elt F)) := ((hostOps1_8 (F := F)).drop 40).take 1
abbrev ops8C : List (HloOp τ sig (Elt F)) := ((hostOps1_8 (F := F)).drop 41).take 4
abbrev ops8D : List (HloOp τ sig (Elt F)) := ((hostOps1_8 (F := F)).drop 45).take 1
abbrev ops8E : List (HloOp τ sig (Elt F)) := (hostOps1_8 (F := F)).drop 46

theorem after8_eq (W : Valuation τ sig (Elt F)) :
    after hostOps1_8 W = after ops8E (after ops8D (after ops8C (after ops8B (after ops8A W)))) := by
  have h : (hostOps1_8 : List (HloOp τ sig (Elt F))) = ops8A ++ (ops8B ++ (ops8C ++ (ops8D ++ ops8E))) := rfl
  exact (congrArg (fun l => after l W) h).trans (by rw [after_append, after_append, after_append, after_append])

section Pieces
variable (W : Valuation τ sig (Elt F)) (x2 : (⟨S32x128x2, .f32⟩ : BufTy).Contents (Elt F))

set_option maxHeartbeats 4000000 in
/-- What the first 40 operations leave: the cell columns and the weights. -/
theorem ops8A_facts
    (h8 : W (Proc.devRef .tc main_v8) = ReadP.val_main_v21 (F := F) x2)
    (h14 : W (Proc.devRef .tc main_v14) = ReadP.val_main_v27 (F := F) x2)
    (h17 : W (Proc.devRef .tc main_v17) = ReadP.val_main_v30 (F := F) x2)
    (h20 : W (Proc.devRef .tc main_v20) = ReadP.val_main_v33 (F := F) x2)
    (h23 : W (Proc.devRef .tc main_v23) = ReadP.val_main_v36 (F := F) x2)
    (h26 : W (Proc.devRef .tc main_v26) = ReadP.val_main_v39 (F := F) x2) :
    (after ops8A W (Proc.devRef .tc main_v55)
        = broadcastInDim S32x128x1 ![0, 1] bcast_S32x128_S32x128x1_0_1 (flatCell (F := F) (ReadP.val_main_v33 (F := F) x2) (ReadP.val_main_v30 (F := F) x2)))
    ∧ (after ops8A W (Proc.devRef .tc main_v56)
        = broadcastInDim S32x128x1 ![0, 1] bcast_S32x128_S32x128x1_0_1 (flatCell (F := F) (ReadP.val_main_v39 (F := F) x2) (ReadP.val_main_v30 (F := F) x2)))
    ∧ (after ops8A W (Proc.devRef .tc main_v57)
        = broadcastInDim S32x128x1 ![0, 1] bcast_S32x128_S32x128x1_0_1 (flatCell (F := F) (ReadP.val_main_v33 (F := F) x2) (ReadP.val_main_v36 (F := F) x2)))
    ∧ (after ops8A W (Proc.devRef .tc main_v58)
        = broadcastInDim S32x128x1 ![0, 1] bcast_S32x128_S32x128x1_0_1 (flatCell (F := F) (ReadP.val_main_v39 (F := F) x2) (ReadP.val_main_v36 (F := F) x2)))
    ∧ (after ops8A W (Proc.devRef .tc main_v35) = ReadP.val_main_v51 (F := F) x2)
    ∧ (after ops8A W (Proc.devRef .tc main_v38) = ReadP.val_main_v55 (F := F) x2)
    ∧ (after ops8A W (Proc.devRef .tc main_v41) = ReadP.val_main_v59 (F := F) x2)
    ∧ (after ops8A W (Proc.devRef .tc main_v42) = ReadP.val_main_v61 (F := F) x2) := by
  simp only [List.take_succ_cons, List.take_zero]
  after_results_simp
  simp only [h8, h14, h17, h20, h23, h26]
  exact ⟨rfl, rfl, rfl, rfl, rfl, rfl, rfl, rfl⟩
end Pieces

section Pieces2
variable (W : Valuation τ sig (Elt F)) (x2 : (⟨S32x128x2, .f32⟩ : BufTy).Contents (Elt F))
  (y0 y1 y2 y3 : (⟨S32x128x1, .i32⟩ : BufTy).Contents (Elt F)) (z0 z1 z2 z3 : (⟨S32x128x1, .f32⟩ : BufTy).Contents (Elt F))
  (w0 w1 w2 w3 : (⟨S32x128, .f32⟩ : BufTy).Contents (Elt F))

/-- Operation 41 joins the four cell columns. -/
theorem ops8B_cells (h0 : W (Proc.devRef .tc main_v55) = y0) (h1 : W (Proc.devRef .tc main_v56) = y1)
    (h2 : W (Proc.devRef .tc main_v57) = y2) (h3 : W (Proc.devRef .tc main_v58) = y3) :
    after ops8B W (Proc.devRef .tc main_v59)
      = concatenate S32x128x4 2 [⟨S32x128x1, y0⟩, ⟨S32x128x1, y1⟩, ⟨S32x128x1, y2⟩, ⟨S32x128x1, y3⟩]
          concatenates_S32x128x1_S32x128x1_S32x128x1_S32x128x1_S32x128x4_d2 := by
  simp only [ops8B, List.drop_succ_cons, List.drop_zero, List.take_succ_cons, List.take_zero, after_cons, after_nil]
  rw [nary4_result]
  subst h0 h1 h2 h3; rfl
/-- It leaves the weights as they were. -/
theorem ops8B_keep : after ops8B W (Proc.devRef .tc main_v35) = W (Proc.devRef .tc main_v35)
    ∧ after ops8B W (Proc.devRef .tc main_v38) = W (Proc.devRef .tc main_v38)
    ∧ after ops8B W (Proc.devRef .tc main_v41) = W (Proc.devRef .tc main_v41)
    ∧ after ops8B W (Proc.devRef .tc main_v42) = W (Proc.devRef .tc main_v42) := by
  simp only [ops8B, List.drop_succ_cons, List.drop_zero, List.take_succ_cons, List.take_zero]
  refine ⟨?_, ?_, ?_, ?_⟩ <;> after_results

/-- Operations 42 to 45 broadcast the four weights to columns, and leave the joined cells. -/
theorem ops8C_cols (h0 : W (Proc.devRef .tc main_v35) = w0) (h1 : W (Proc.devRef .tc main_v38) = w1)
    (h2 : W (Proc.devRef .tc main_v41) = w2) (h3 : W (Proc.devRef .tc main_v42) = w3) :
    after ops8C W (Proc.devRef .tc main_v60) = broadcastInDim S32x128x1 ![0, 1] bcast_S32x128_S32x128x1_0_1 w0
    ∧ after ops8C W (Proc.devRef .tc main_v61) = broadcastInDim S32x128x1 ![0, 1] bcast_S32x128_S32x128x1_0_1 w1
    ∧ after ops8C W (Proc.devRef .tc main_v62) = broadcastInDim S32x128x1 ![0, 1] bcast_S32x128_S32x128x1_0_1 w2
    ∧ after ops8C W (Proc.devRef .tc main_v63) = broadcastInDim S32x128x1 ![0, 1] bcast_S32x128_S32x128x1_0_1 w3
    ∧ after ops8C W (Proc.devRef .tc main_v59) = W (Proc.devRef .tc main_v59) := by
  simp only [ops8C, List.drop_succ_cons, List.drop_zero, List.take_succ_cons, List.take_zero]
  refine ⟨?_, ?_, ?_, ?_, ?_⟩ <;> after_results
  · rw [h0]
  · rw [h1]
  · rw [h2]
  · rw [h3]

/-- Operation 46 joins the four weight columns, and leaves the joined cells. -/
theorem ops8D_weights (h0 : W (Proc.devRef .tc main_v60) = z0) (h1 : W (Proc.devRef .tc main_v61) = z1)
    (h2 : W (Proc.devRef .tc main_v62) = z2) (h3 : W (Proc.devRef .tc main_v63) = z3) :
    after ops8D W (Proc.devRef .tc main_v64)
      = concatenate S32x128x4 2 [⟨S32x128x1, z0⟩, ⟨S32x128x1, z1⟩, ⟨S32x128x1, z2⟩, ⟨S32x128x1, z3⟩]
          concatenates_S32x128x1_S32x128x1_S32x128x1_S32x128x1_S32x128x4_d2 := by
  simp only [ops8D, List.drop_succ_cons, List.drop_zero, List.take_succ_cons, List.take_zero, after_cons, after_nil]
  rw [nary4_result]
  subst h0 h1 h2 h3; rfl
theorem ops8D_keep : after ops8D W (Proc.devRef .tc main_v59) = W (Proc.devRef .tc main_v59) := by
  simp only [ops8D, List.drop_succ_cons, List.drop_zero, List.take_succ_cons, List.take_zero]
  after_results

/-- The last 13 operations leave both joined tables. -/
theorem ops8E_keep : after ops8E W (Proc.devRef .tc main_v59) = W (Proc.devRef .tc main_v59)
    ∧ after ops8E W (Proc.devRef .tc main_v64) = W (Proc.devRef .tc main_v64) := by
  simp only [ops8E, List.drop_succ_cons, List.drop_zero]
  refine ⟨?_, ?_⟩ <;> after_results
end Pieces2

section Stage9
variable (W : Valuation τ sig (Elt F)) (x2 : (⟨S32x128x2, .f32⟩ : BufTy).Contents (Elt F))

/-- The stretch leaves the source keypoints' cell table. -/
theorem s9_cellS
    (h8 : W (Proc.devRef .tc main_v8) = ReadP.val_main_v21 (F := F) x2)
    (h14 : W (Proc.devRef .tc main_v14) = ReadP.val_main_v27 (F := F) x2)
    (h17 : W (Proc.devRef .tc main_v17) = ReadP.val_main_v30 (F := F) x2)
    (h20 : W (Proc.devRef .tc main_v20) = ReadP.val_main_v33 (F := F) x2)
    (h23 : W (Proc.devRef .tc main_v23) = ReadP.val_main_v36 (F := F) x2)
    (h26 : W (Proc.devRef .tc main_v26) = ReadP.val_main_v39 (F := F) x2) :
    after hostOps1_8 W (Proc.devRef .tc main_v59) = cellSrc (F := F) x2 := by
  obtain ⟨a0, a1, a2, a3, -, -, -, -⟩ := ops8A_facts W x2 h8 h14 h17 h20 h23 h26
  rw [after8_eq, (ops8E_keep _).1, ops8D_keep, (ops8C_cols _ _ _ _ _ rfl rfl rfl rfl).2.2.2.2]
  exact ops8B_cells _ _ _ _ _ a0 a1 a2 a3

/-- The stretch leaves the source keypoints' weight table. -/
theorem s9_wS
    (h8 : W (Proc.devRef .tc main_v8) = ReadP.val_main_v21 (F := F) x2)
    (h14 : W (Proc.devRef .tc main_v14) = ReadP.val_main_v27 (F := F) x2)
    (h17 : W (Proc.devRef .tc main_v17) = ReadP.val_main_v30 (F := F) x2)
    (h20 : W (Proc.devRef .tc main_v20) = ReadP.val_main_v33 (F := F) x2)
    (h23 : W (Proc.devRef .tc main_v23) = ReadP.val_main_v36 (F := F) x2)
    (h26 : W (Proc.devRef .tc main_v26) = ReadP.val_main_v39 (F := F) x2) :
    after hostOps1_8 W (Proc.devRef .tc main_v64) = wSrc (F := F) x2 := by
  obtain ⟨-, -, -, -, b0, b1, b2, b3⟩ := ops8A_facts W x2 h8 h14 h17 h20 h23 h26
  obtain ⟨k0, k1, k2, k3⟩ := ops8B_keep (after ops8A W)
  obtain ⟨c0, c1, c2, c3, -⟩ := ops8C_cols (after ops8B (after ops8A W)) _ _ _ _ (k0.trans b0) (k1.trans b1) (k2.trans b2) (k3.trans b3)
  rw [after8_eq, (ops8E_keep _).2]
  exact ops8D_weights _ _ _ _ _ c0 c1 c2 c3
end Stage9

section Target9
variable (W : Valuation τ sig (Elt F)) (x3 : (⟨S32x128x2, .f32⟩ : BufTy).Contents (Elt F))

theorem t9_x (h3 : W (Proc.devRef .tc main_arg3) = x3) :
    after hostOps1_8 W (Proc.devRef .tc main_v68) = ReadP.val_main_v165 (F := F) x3 := by
  after_results; simp only [h3]; rfl
theorem t9_y (h3 : W (Proc.devRef .tc main_arg3) = x3) :
    after hostOps1_8 W (Proc.devRef .tc main_v72) = ReadP.val_main_v169 (F := F) x3 := by
  after_results; simp only [h3]; rfl
theorem t9_fx (h3 : W (Proc.devRef .tc main_arg3) = x3) :
    after hostOps1_8 W (Proc.devRef .tc main_v73) = ReadP.val_main_v170 (F := F) x3 := by
  after_results; simp only [h3]; rfl
theorem t9_c22 : after hostOps1_8 W (Proc.devRef .tc main_c_22) = ReadP.val_main_c_47 (F := F) := by
  after_results; rfl
theorem t9_c23 : after hostOps1_8 W (Proc.devRef .tc main_c_23) = ReadP.val_main_c_48 (F := F) := by
  after_results; rfl
end Target9

/-! ## The kernel program's buffers between its items

`Gen.VJ m outs c` is what core `c` holds after item `J - 1`. A reference keeps its contents through every item that does
not write it (`Gen.VJ_of`); `carry_back` walks a read back to the item that wrote the reference. -/

/-- Walk a read of `Gen.VJ` back through the items that do not write the reference. -/
macro "carry_back" : tactic =>
  `(tactic| repeat (first
      | (rw [Gen.V19_of]; rotate_left; decide) | (rw [Gen.V18_of]; rotate_left; decide)
      | (rw [Gen.V17_of]; rotate_left; decide) | (rw [Gen.V16_of]; rotate_left; decide)
      | (rw [Gen.V15_of]; rotate_left; decide) | (rw [Gen.V14_of]; rotate_left; decide)
      | (rw [Gen.V13_of]; rotate_left; decide) | (rw [Gen.V12_of]; rotate_left; decide)
      | (rw [Gen.V11_of]; rotate_left; decide) | (rw [Gen.V10_of]; rotate_left; decide)
      | (rw [Gen.V9_of]; rotate_left; decide) | (rw [Gen.V8_of]; rotate_left; decide)
      | (rw [Gen.V7_of]; rotate_left; decide) | (rw [Gen.V6_of]; rotate_left; decide)
      | (rw [Gen.V5_of]; rotate_left; decide) | (rw [Gen.V4_of]; rotate_left; decide)
      | (rw [Gen.V3_of]; rotate_left; decide) | (rw [Gen.V2_of]; rotate_left; decide)
      | (rw [Gen.V1_of]; rotate_left; decide)))

section Chain
variable (m : (ℓ : Loc nD τ sig) → Buf (Elt F) ℓ) (outs : Gen.Outs (F := F)) (c : Dev nD)

/-! ### The reshaped feature maps (item 0) -/

theorem flat_src : Gen.V1 m c (Proc.devRef .tc main_v0)
    = shapeCast S32x256x4096 (m ((c.tc : Thread nD τ).loc main_arg0)) shapeCasts_S32x256x64x64_S32x256x4096 := by
  show StableHlo.after hostOps0 (Gen.V0 m c) (Proc.devRef .tc main_v0) = _
  after_results
  rfl

theorem flat_trg : Gen.V1 m c (Proc.devRef .tc main_v1)
    = shapeCast S32x256x4096 (m ((c.tc : Thread nD τ).loc main_arg1)) shapeCasts_S32x256x64x64_S32x256x4096 := by
  show StableHlo.after hostOps0 (Gen.V0 m c) (Proc.devRef .tc main_v1) = _
  after_results
  rfl

/-! ### What the first kernel region leaves is still there when the second is entered -/

theorem entry1_fsn : Gen.V19 m outs c (Proc.devRef .tc main_v2_0) = outs 2 main_v2_0 c := by
  carry_back
  show Function.update (Function.update (Gen.V1 m c) (Proc.devRef .tc main_v2_0) (outs 2 main_v2_0 c))
      (Proc.devRef .tc main_v2_1) (outs 2 main_v2_1 c) (Proc.devRef .tc main_v2_0) = _
  rw [Function.update_of_ne (devRef_ne_of_ne (by decide)), Function.update_self]

theorem entry1_ftgn : Gen.V19 m outs c (Proc.devRef .tc main_v2_1) = outs 2 main_v2_1 c := by
  carry_back
  show Function.update (Function.update (Gen.V1 m c) (Proc.devRef .tc main_v2_0) (outs 2 main_v2_0 c))
      (Proc.devRef .tc main_v2_1) (outs 2 main_v2_1 c) (Proc.devRef .tc main_v2_1) = _
  rw [Function.update_self]

/-! ### The arguments, where the stretches read them -/

theorem V2_arg2 : Gen.V2 m outs c (Proc.devRef .tc main_arg2) = m ((c.tc : Thread nD τ).loc main_arg2) := by
  carry_back
theorem V10_arg3 : Gen.V10 m outs c (Proc.devRef .tc main_arg3) = m ((c.tc : Thread nD τ).loc main_arg3) := by
  carry_back

/-! ### The source keypoints' chain (items 2 to 9), each buffer at its stage of `main_arg2` -/

theorem V3_v8 : Gen.V3 m outs c (Proc.devRef .tc main_v8) = ReadP.val_main_v21 (F := F) (m ((c.tc : Thread nD τ).loc main_arg2)) := s1_x _ _ (V2_arg2 m outs c)
theorem V3_v14 : Gen.V3 m outs c (Proc.devRef .tc main_v14) = ReadP.val_main_v27 (F := F) (m ((c.tc : Thread nD τ).loc main_arg2)) := s1_y _ _ (V2_arg2 m outs c)
theorem V3_v15 : Gen.V3 m outs c (Proc.devRef .tc main_v15) = ReadP.val_main_v28 (F := F) (m ((c.tc : Thread nD τ).loc main_arg2)) := s1_fx _ _ (V2_arg2 m outs c)
theorem V4_v16 : Gen.V4 m outs c (Proc.devRef .tc main_v16) = ReadP.val_main_v29 (F := F) (m ((c.tc : Thread nD τ).loc main_arg2)) :=
  s2_clip _ _ (V3_v15 m outs c) (s1_c _) (s1_c3 _)
theorem V4_v14 : Gen.V4 m outs c (Proc.devRef .tc main_v14) = ReadP.val_main_v27 (F := F) (m ((c.tc : Thread nD τ).loc main_arg2)) := by
  carry_back; exact V3_v14 m outs c
theorem V5_v17 : Gen.V5 m outs c (Proc.devRef .tc main_v17) = ReadP.val_main_v30 (F := F) (m ((c.tc : Thread nD τ).loc main_arg2)) := s3_x0 _ _ (V4_v16 m outs c)
theorem V5_v18 : Gen.V5 m outs c (Proc.devRef .tc main_v18) = ReadP.val_main_v31 (F := F) (m ((c.tc : Thread nD τ).loc main_arg2)) := s3_fy _ _ (V4_v14 m outs c)
theorem V6_v19 : Gen.V6 m outs c (Proc.devRef .tc main_v19) = ReadP.val_main_v32 (F := F) (m ((c.tc : Thread nD τ).loc main_arg2)) :=
  s4_clip _ _ (V5_v18 m outs c) (s3_c4 _) (s3_c5 _)
theorem V6_v17 : Gen.V6 m outs c (Proc.devRef .tc main_v17) = ReadP.val_main_v30 (F := F) (m ((c.tc : Thread nD τ).loc main_arg2)) := by
  carry_back; exact V5_v17 m outs c
theorem V7_v20 : Gen.V7 m outs c (Proc.devRef .tc main_v20) = ReadP.val_main_v33 (F := F) (m ((c.tc : Thread nD τ).loc main_arg2)) := s5_y0 _ _ (V6_v19 m outs c)
theorem V7_v22 : Gen.V7 m outs c (Proc.devRef .tc main_v22) = ReadP.val_main_v35 (F := F) (m ((c.tc : Thread nD τ).loc main_arg2)) := s5_x0p _ _ (V6_v17 m outs c)
theorem V8_v23 : Gen.V8 m outs c (Proc.devRef .tc main_v23) = ReadP.val_main_v36 (F := F) (m ((c.tc : Thread nD τ).loc main_arg2)) :=
  s6_clip _ _ (V7_v22 m outs c) (s5_c7 _) (s5_c8 _)
theorem V8_v20 : Gen.V8 m outs c (Proc.devRef .tc main_v20) = ReadP.val_main_v33 (F := F) (m ((c.tc : Thread nD τ).loc main_arg2)) := by
  carry_back; exact V7_v20 m outs c
theorem V9_v25 : Gen.V9 m outs c (Proc.devRef .tc main_v25) = ReadP.val_main_v38 (F := F) (m ((c.tc : Thread nD τ).loc main_arg2)) := s7_y0p _ _ (V8_v20 m outs c)
theorem V10_v26 : Gen.V10 m outs c (Proc.devRef .tc main_v26) = ReadP.val_main_v39 (F := F) (m ((c.tc : Thread nD τ).loc main_arg2)) :=
  s8_clip _ _ (V9_v25 m outs c) (s7_c10 _) (s7_c11 _)
theorem V10_v8 : Gen.V10 m outs c (Proc.devRef .tc main_v8) = ReadP.val_main_v21 (F := F) (m ((c.tc : Thread nD τ).loc main_arg2)) := by
  carry_back; exact V3_v8 m outs c
theorem V10_v14 : Gen.V10 m outs c (Proc.devRef .tc main_v14) = ReadP.val_main_v27 (F := F) (m ((c.tc : Thread nD τ).loc main_arg2)) := by
  carry_back; exact V3_v14 m outs c
theorem V10_v17 : Gen.V10 m outs c (Proc.devRef .tc main_v17) = ReadP.val_main_v30 (F := F) (m ((c.tc : Thread nD τ).loc main_arg2)) := by
  carry_back; exact V5_v17 m outs c
theorem V10_v20 : Gen.V10 m outs c (Proc.devRef .tc main_v20) = ReadP.val_main_v33 (F := F) (m ((c.tc : Thread nD τ).loc main_arg2)) := by
  carry_back; exact V7_v20 m outs c
theorem V10_v23 : Gen.V10 m outs c (Proc.devRef .tc main_v23) = ReadP.val_main_v36 (F := F) (m ((c.tc : Thread nD τ).loc main_arg2)) := by
  carry_back; exact V8_v23 m outs c

/-! ### The second kernel region's two source windows, as it finds them -/

/-- The window of source cells holds the four corner cells of every source keypoint. -/
theorem entry1_cellS : Gen.V19 m outs c (Proc.devRef .tc main_v59) = cellSrc (F := F) (m ((c.tc : Thread nD τ).loc main_arg2)) := by
  carry_back
  exact s9_cellS _ _ (V10_v8 m outs c) (V10_v14 m outs c) (V10_v17 m outs c) (V10_v20 m outs c) (V10_v23 m outs c) (V10_v26 m outs c)

/-- The window of source weights holds the four bilinear weights of every source keypoint. -/
theorem entry1_wS : Gen.V19 m outs c (Proc.devRef .tc main_v64) = wSrc (F := F) (m ((c.tc : Thread nD τ).loc main_arg2)) := by
  carry_back
  exact s9_wS _ _ (V10_v8 m outs c) (V10_v14 m outs c) (V10_v17 m outs c) (V10_v20 m outs c) (V10_v23 m outs c) (V10_v26 m outs c)

/-! ### The start of the target keypoints' chain, after item 10 -/

theorem after8_v68 : Gen.V11 m outs c (Proc.devRef .tc main_v68) = ReadP.val_main_v165 (F := F) (m ((c.tc : Thread nD τ).loc main_arg3)) := t9_x _ _ (V10_arg3 m outs c)
theorem after8_v72 : Gen.V11 m outs c (Proc.devRef .tc main_v72) = ReadP.val_main_v169 (F := F) (m ((c.tc : Thread nD τ).loc main_arg3)) := t9_y _ _ (V10_arg3 m outs c)
theorem after8_v73 : Gen.V11 m outs c (Proc.devRef .tc main_v73) = ReadP.val_main_v170 (F := F) (m ((c.tc : Thread nD τ).loc main_arg3)) := t9_fx _ _ (V10_arg3 m outs c)
theorem after8_c22 : Gen.V11 m outs c (Proc.devRef .tc main_c_22) = ReadP.val_main_c_47 (F := F) := t9_c22 _
theorem after8_c23 : Gen.V11 m outs c (Proc.devRef .tc main_c_23) = ReadP.val_main_c_48 (F := F) := t9_c23 _
end Chain

end Cert.KernelIdeal.HostRead

end
-- ==== Proof.KHostIdx.lean ====
/-
  The two tables of the source keypoints read at an entry. The cell table joins four [32,128,1] columns, each a
  flat cell index row · 64 + column of one bilinear corner; the weight table joins the four bilinear weights' columns.
  Entry (b, n, k) of a table is corner k's column at (b, n, 0): the corner's flat cell index, or its weight, at
  keypoint (b, n).
-/
import proofs.«157332_j6846177869930_1_alg».proof.Proof.KHostDefs
import proofs.«157332_j6846177869930_1_alg».proof.Proof.BridgeTargets
import Idealize.ShloMosaic.Lib.ValueIdx
import Idealize.ShloMosaic.Lib.Pipeline.Value

noncomputable section

namespace Cert.KernelIdeal.HostRead

open Cert.KernelIdeal Cert.KernelIdeal.Gen
open Idealize.ShloMosaic Idealize.ShloMosaic.TcCoe Idealize.SL.Sem Idealize.ShloMosaic.StableHlo
open Cert.ReferenceIdeal

variable {F : FTy → Type} [FloatOps F] [Named F]

/-- The row stride read at a keypoint. -/
theorem stride64_at (i : S32x128.Idx) : stride64 (F := F) i = 64#32 := by
  unfold stride64
  rw [broadcastInDim_apply _ bcast_S_S32x128 _ i ValueIdx.ix0 (fun a => a.elim0)]
  rfl

/-- A [32,128] table laid out as a [32,128,1] column reads the table at (b, n). -/
theorem col_at {α : Type} (t : S32x128.Idx → α) (b : Fin 32) (n : Fin 128) :
    broadcastInDim S32x128x1 ![0, 1] bcast_S32x128_S32x128x1_0_1 t (ValueIdx.ix3 b n 0) = t (ValueIdx.ix2 b n) :=
  broadcastInDim_apply _ bcast_S32x128_S32x128x1_0_1 t (ValueIdx.ix3 b n 0) (ValueIdx.ix2 b n) (fun a => match a with
    | ⟨0, _⟩ => by show b.val = if (32 : Nat) = 1 then 0 else b.val; rw [if_neg (by decide)]
    | ⟨1, _⟩ => by show n.val = if (128 : Nat) = 1 then 0 else n.val; rw [if_neg (by decide)])

/-- The flat cell index read at a keypoint: row · 64 + column on 32-bit words. -/
theorem flatCell_at (row col : (⟨S32x128, .i32⟩ : BufTy).Contents (Elt F)) (i : S32x128.Idx) :
    flatCell (F := F) row col i = row i * 64#32 + col i := by
  show IntOp.addi (IntOp.muli (row i) (stride64 (F := F) i)) (col i) = _
  rw [stride64_at]
  rfl

variable (x2 : (⟨S32x128x2, .f32⟩ : BufTy).Contents (Elt F)) (b : Fin 32) (n : Fin 128)

theorem cellSrc_at0 : cellSrc (F := F) x2 (ValueIdx.ix3 b n 0)
    = ReadP.val_main_v33 (F := F) x2 (ValueIdx.ix2 b n) * 64#32 + ReadP.val_main_v30 (F := F) x2 (ValueIdx.ix2 b n) := by
  unfold cellSrc
  rw [Cert.Bridge.Targets.concat4_apply _ _ _ _ _ b n 0]
  refine (col_at (flatCell (F := F) (ReadP.val_main_v33 (F := F) x2) (ReadP.val_main_v30 (F := F) x2)) b n).trans ?_
  rw [flatCell_at]
theorem cellSrc_at1 : cellSrc (F := F) x2 (ValueIdx.ix3 b n 1)
    = ReadP.val_main_v39 (F := F) x2 (ValueIdx.ix2 b n) * 64#32 + ReadP.val_main_v30 (F := F) x2 (ValueIdx.ix2 b n) := by
  unfold cellSrc
  rw [Cert.Bridge.Targets.concat4_apply _ _ _ _ _ b n 1]
  refine (col_at (flatCell (F := F) (ReadP.val_main_v39 (F := F) x2) (ReadP.val_main_v30 (F := F) x2)) b n).trans ?_
  rw [flatCell_at]
theorem cellSrc_at2 : cellSrc (F := F) x2 (ValueIdx.ix3 b n 2)
    = ReadP.val_main_v33 (F := F) x2 (ValueIdx.ix2 b n) * 64#32 + ReadP.val_main_v36 (F := F) x2 (ValueIdx.ix2 b n) := by
  unfold cellSrc
  rw [Cert.Bridge.Targets.concat4_apply _ _ _ _ _ b n 2]
  refine (col_at (flatCell (F := F) (ReadP.val_main_v33 (F := F) x2) (ReadP.val_main_v36 (F := F) x2)) b n).trans ?_
  rw [flatCell_at]
theorem cellSrc_at3 : cellSrc (F := F) x2 (ValueIdx.ix3 b n 3)
    = ReadP.val_main_v39 (F := F) x2 (ValueIdx.ix2 b n) * 64#32 + ReadP.val_main_v36 (F := F) x2 (ValueIdx.ix2 b n) := by
  unfold cellSrc
  rw [Cert.Bridge.Targets.concat4_apply _ _ _ _ _ b n 3]
  refine (col_at (flatCell (F := F) (ReadP.val_main_v39 (F := F) x2) (ReadP.val_main_v36 (F := F) x2)) b n).trans ?_
  rw [flatCell_at]

theorem wSrc_at0 : wSrc (F := F) x2 (ValueIdx.ix3 b n 0) = ReadP.val_main_v51 (F := F) x2 (ValueIdx.ix2 b n) := by
  unfold wSrc
  rw [Cert.Bridge.Targets.concat4_apply _ _ _ _ _ b n 0]
  show ReadP.val_main_v52 (F := F) x2 (ValueIdx.ix3 b n 0) = _
  rw [ReadP.val_main_v52_apply]
  exact congrArg _ (funext fun a => by match a with | ⟨0, _⟩ => rfl | ⟨1, _⟩ => rfl)
theorem wSrc_at1 : wSrc (F := F) x2 (ValueIdx.ix3 b n 1) = ReadP.val_main_v55 (F := F) x2 (ValueIdx.ix2 b n) := by
  unfold wSrc
  rw [Cert.Bridge.Targets.concat4_apply _ _ _ _ _ b n 1]
  show ReadP.val_main_v56 (F := F) x2 (ValueIdx.ix3 b n 0) = _
  rw [ReadP.val_main_v56_apply]
  exact congrArg _ (funext fun a => by match a with | ⟨0, _⟩ => rfl | ⟨1, _⟩ => rfl)
theorem wSrc_at2 : wSrc (F := F) x2 (ValueIdx.ix3 b n 2) = ReadP.val_main_v59 (F := F) x2 (ValueIdx.ix2 b n) := by
  unfold wSrc
  rw [Cert.Bridge.Targets.concat4_apply _ _ _ _ _ b n 2]
  show ReadP.val_main_v60 (F := F) x2 (ValueIdx.ix3 b n 0) = _
  rw [ReadP.val_main_v60_apply]
  exact congrArg _ (funext fun a => by match a with | ⟨0, _⟩ => rfl | ⟨1, _⟩ => rfl)
theorem wSrc_at3 : wSrc (F := F) x2 (ValueIdx.ix3 b n 3) = ReadP.val_main_v61 (F := F) x2 (ValueIdx.ix2 b n) := by
  unfold wSrc
  rw [Cert.Bridge.Targets.concat4_apply _ _ _ _ _ b n 3]
  show ReadP.val_main_v62 (F := F) x2 (ValueIdx.ix3 b n 0) = _
  rw [ReadP.val_main_v62_apply]
  exact congrArg _ (funext fun a => by match a with | ⟨0, _⟩ => rfl | ⟨1, _⟩ => rfl)

end Cert.KernelIdeal.HostRead

end
-- ==== Proof.KHostT.lean ====
/-
  The kernel program's host operations on the target keypoints, read back against the reference's stages.

  Between its two calls the kernel program computes on the host, operation for operation as the reference does, the
  target keypoints' four corner cells (a float clip and an integer clip per coordinate), their flat indices
  row · 64 + column joined into a [32,128,4] table, the four bilinear weights joined likewise and multiplied by the
  0/1 mask. After the second call it sums the per-batch losses the call left in column (:, 0, 0) of its [32,8,128]
  result and divides by the clamped mask count. Each stretch of operations is read at the buffers a later one uses,
  for any contents before it, and the readings are chained from the stretch before the first clip to the second
  call's entry; the closing steps hold by unfolding, at every float instance.

  The longest stretch (49 operations) is read in five pieces: what its first 40 operations leave is read off the
  whole stretch (no later operation writes those buffers); the two joins and the operations between and after them
  are read one short list at a time.
-/
import proofs.«157332_j6846177869930_1_alg».proof.Proof.Gen.KernelIdeal.Regions
import proofs.«157332_j6846177869930_1_alg».proof.Proof.RefRead
import Idealize.ShloMosaic.Lib.ValueIdxRank1
import Idealize.ShloMosaic.Lib.Pipeline.Value
import Idealize.ShloMosaic.PureOps.Ideal.Laws

set_option maxRecDepth 16384

noncomputable section

namespace Cert.KernelIdeal.HostRead

open Cert.KernelIdeal Cert.KernelIdeal.Gen
open Idealize.ShloMosaic Idealize.ShloMosaic.TcCoe Idealize.SL.Sem Idealize.ShloMosaic.StableHlo
open Cert.ReferenceIdeal

variable {F : FTy → Type} [FloatOps F] [Named F]

namespace Target

section Stretches
variable (W : Valuation τ sig (Elt F)) (x3 : (⟨S32x128x2, .f32⟩ : BufTy).Contents (Elt F))
  (x4 : (⟨S32x128, .i32⟩ : BufTy).Contents (Elt F))

/-- The float clip of the floored column coordinate to [0, 63]. -/
theorem t10_clip (h73 : W (Proc.devRef .tc main_v73) = ReadP.val_main_v170 (F := F) x3)
    (hc : W (Proc.devRef .tc main_c_22) = ReadP.val_main_c_47 (F := F)) (hc' : W (Proc.devRef .tc main_c_23) = ReadP.val_main_c_48 (F := F)) :
    after hostOps1_9 W (Proc.devRef .tc main_v74) = ReadP.val_main_v171 (F := F) x3 := by
  after_results; simp only [h73, hc, hc']; rfl

/-- The left column cell: the clipped coordinate as an integer … -/
theorem t11_x0 (h74 : W (Proc.devRef .tc main_v74) = ReadP.val_main_v171 (F := F) x3) :
    after hostOps1_10 W (Proc.devRef .tc main_v75) = ReadP.val_main_v172 (F := F) x3 := by
  after_results; simp only [h74]; rfl
/-- … and one more. -/
theorem t11_x0p (h74 : W (Proc.devRef .tc main_v74) = ReadP.val_main_v171 (F := F) x3) :
    after hostOps1_10 W (Proc.devRef .tc main_v77) = ReadP.val_main_v174 (F := F) x3 := by
  after_results; simp only [h74]; rfl
theorem t11_c25 : after hostOps1_10 W (Proc.devRef .tc main_c_25) = ReadP.val_main_c_50 (F := F) := by
  after_results; rfl
theorem t11_c26 : after hostOps1_10 W (Proc.devRef .tc main_c_26) = ReadP.val_main_c_51 (F := F) := by
  after_results; rfl

/-- The right column cell: the integer clip to [0, 63]. -/
theorem t12_clip (h77 : W (Proc.devRef .tc main_v77) = ReadP.val_main_v174 (F := F) x3)
    (hc : W (Proc.devRef .tc main_c_25) = ReadP.val_main_c_50 (F := F)) (hc' : W (Proc.devRef .tc main_c_26) = ReadP.val_main_c_51 (F := F)) :
    after hostOps1_11 W (Proc.devRef .tc main_v78) = ReadP.val_main_v175 (F := F) x3 := by
  after_results; simp only [h77, hc, hc']; rfl

/-- The floored row coordinate. -/
theorem t13_fy (h72 : W (Proc.devRef .tc main_v72) = ReadP.val_main_v169 (F := F) x3) :
    after hostOps1_12 W (Proc.devRef .tc main_v79) = ReadP.val_main_v176 (F := F) x3 := by
  after_results; simp only [h72]; rfl
theorem t13_c27 : after hostOps1_12 W (Proc.devRef .tc main_c_27) = ReadP.val_main_c_52 (F := F) := by
  after_results; rfl
theorem t13_c28 : after hostOps1_12 W (Proc.devRef .tc main_c_28) = ReadP.val_main_c_53 (F := F) := by
  after_results; rfl

/-- Its float clip to [0, 63]. -/
theorem t14_clip (h79 : W (Proc.devRef .tc main_v79) = ReadP.val_main_v176 (F := F) x3)
    (hc : W (Proc.devRef .tc main_c_27) = ReadP.val_main_c_52 (F := F)) (hc' : W (Proc.devRef .tc main_c_28) = ReadP.val_main_c_53 (F := F)) :
    after hostOps1_13 W (Proc.devRef .tc main_v80) = ReadP.val_main_v177 (F := F) x3 := by
  after_results; simp only [h79, hc, hc']; rfl

/-- The top row cell … -/
theorem t15_y0 (h80 : W (Proc.devRef .tc main_v80) = ReadP.val_main_v177 (F := F) x3) :
    after hostOps1_14 W (Proc.devRef .tc main_v81) = ReadP.val_main_v178 (F := F) x3 := by
  after_results; simp only [h80]; rfl
/-- … and one more. -/
theorem t15_y0p (h80 : W (Proc.devRef .tc main_v80) = ReadP.val_main_v177 (F := F) x3) :
    after hostOps1_14 W (Proc.devRef .tc main_v83) = ReadP.val_main_v180 (F := F) x3 := by
  after_results; simp only [h80]; rfl
theorem t15_c30 : after hostOps1_14 W (Proc.devRef .tc main_c_30) = ReadP.val_main_c_55 (F := F) := by
  after_results; rfl
theorem t15_c31 : after hostOps1_14 W (Proc.devRef .tc main_c_31) = ReadP.val_main_c_56 (F := F) := by
  after_results; rfl

/-- The bottom row cell: the integer clip to [0, 63]. -/
theorem t16_clip (h83 : W (Proc.devRef .tc main_v83) = ReadP.val_main_v180 (F := F) x3)
    (hc : W (Proc.devRef .tc main_c_30) = ReadP.val_main_c_55 (F := F)) (hc' : W (Proc.devRef .tc main_c_31) = ReadP.val_main_c_56 (F := F)) :
    after hostOps1_15 W (Proc.devRef .tc main_v84) = ReadP.val_main_v181 (F := F) x3 := by
  after_results; simp only [h83, hc, hc']; rfl

end Stretches

/-! ## The last target stretch: 40 operations, a join, four spreads, a join, three operations -/

/-- Running a joined list is running its halves in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first 40 operations: the converted cells, the four weights, the mask, the four flat cell indices as columns. -/
abbrev opsA : List (HloOp τ sig (Elt F)) := (hostOps1_16 (F := F)).take 40
/-- Operation 41: the four cell columns joined. -/
abbrev opsB : List (HloOp τ sig (Elt F)) :=
  [ StableHlo.nary ![main_v116, main_v117, main_v118, main_v119] main_v120 (fun u => concatenate S32x128x4 2 [⟨S32x128x1, u 0⟩, ⟨S32x128x1, u 1⟩, ⟨S32x128x1, u 2⟩, ⟨S32x128x1, u 3⟩] concatenates_S32x128x1_S32x128x1_S32x128x1_S32x128x1_S32x128x4_d2) ]
/-- Operations 42 to 45: the four weights spread to columns. -/
abbrev opsC : List (HloOp τ sig (Elt F)) :=
  [ StableHlo.unary main_v91 main_v121 (broadcastInDim S32x128x1 ![0, 1] bcast_S32x128_S32x128x1_0_1 : (⟨S32x128, .f32⟩ : BufTy).Contents (Elt F) → (⟨S32x128x1, .f32⟩ : BufTy).Contents (Elt F)),
    StableHlo.unary main_v94 main_v122 (broadcastInDim S32x128x1 ![0, 1] bcast_S32x128_S32x128x1_0_1 : (⟨S32x128, .f32⟩ : BufTy).Contents (Elt F) → (⟨S32x128x1, .f32⟩ : BufTy).Contents (Elt F)),
    StableHlo.unary main_v97 main_v123 (broadcastInDim S32x128x1 ![0, 1] bcast_S32x128_S32x128x1_0_1 : (⟨S32x128, .f32⟩ : BufTy).Contents (Elt F) → (⟨S32x128x1, .f32⟩ : BufTy).Contents (Elt F)),
    StableHlo.unary main_v100 main_v124 (broadcastInDim S32x128x1 ![0, 1] bcast_S32x128_S32x128x1_0_1 : (⟨S32x128, .f32⟩ : BufTy).Contents (Elt F) → (⟨S32x128x1, .f32⟩ : BufTy).Contents (Elt F)) ]
/-- Operation 46: the four weight columns joined. -/
abbrev opsD : List (HloOp τ sig (Elt F)) :=
  [ StableHlo.nary ![main_v121, main_v122, main_v123, main_v124] main_v125 (fun u => concatenate S32x128x4 2 [⟨S32x128x1, u 0⟩, ⟨S32x128x1, u 1⟩, ⟨S32x128x1, u 2⟩, ⟨S32x128x1, u 3⟩] concatenates_S32x128x1_S32x128x1_S32x128x1_S32x128x1_S32x128x4_d2) ]
/-- Operations 47 to 49: the mask spread over the four corners, and the product. -/
abbrev opsE : List (HloOp τ sig (Elt F)) :=
  [ StableHlo.unary main_v103 main_v126 (broadcastInDim S32x128x1 ![0, 1] bcast_S32x128_S32x128x1_0_1 : (⟨S32x128, .f32⟩ : BufTy).Contents (Elt F) → (⟨S32x128x1, .f32⟩ : BufTy).Contents (Elt F)),
    StableHlo.unary main_v126 main_v127 (broadcastInDim S32x128x4 ![0, 1, 2] bcast_S32x128x1_S32x128x4_0_1_2 : (⟨S32x128x1, .f32⟩ : BufTy).Contents (Elt F) → (⟨S32x128x4, .f32⟩ : BufTy).Contents (Elt F)),
    StableHlo.binary main_v125 main_v127 main_v128 (mulf : (⟨S32x128x4, .f32⟩ : BufTy).Contents (Elt F) → (⟨S32x128x4, .f32⟩ : BufTy).Contents (Elt F) → (⟨S32x128x4, .f32⟩ : BufTy).Contents (Elt F)) ]

/-- The stretch is its five pieces in turn. -/
theorem after16_eq (W : Valuation τ sig (Elt F)) :
    after hostOps1_16 W = after opsE (after opsD (after opsC (after opsB (after opsA W)))) := by
  have h : (hostOps1_16 : List (HloOp τ sig (Elt F))) = opsA ++ (opsB ++ (opsC ++ (opsD ++ opsE))) := rfl
  exact (congrArg (fun l => after l W) h).trans (by rw [after_append, after_append, after_append, after_append])

section Full
variable (W : Valuation τ sig (Elt F)) (x3 : (⟨S32x128x2, .f32⟩ : BufTy).Contents (Elt F))
  (x4 : (⟨S32x128, .i32⟩ : BufTy).Contents (Elt F))

/-! What the whole stretch leaves in the buffers its first 40 operations write and no later one does: the four cell
columns, the four weights, the mask. -/

theorem t17_r116 (h75 : W (Proc.devRef .tc main_v75) = ReadP.val_main_v172 (F := F) x3) (h81 : W (Proc.devRef .tc main_v81) = ReadP.val_main_v178 (F := F) x3) :
    after hostOps1_16 W (Proc.devRef .tc main_v116) = ReadP.val_main_v221 (F := F) x3 := by
  after_results_simp
  simp only [h75, h81]
  rfl

theorem t17_r117 (h75 : W (Proc.devRef .tc main_v75) = ReadP.val_main_v172 (F := F) x3) (h84 : W (Proc.devRef .tc main_v84) = ReadP.val_main_v181 (F := F) x3) :
    after hostOps1_16 W (Proc.devRef .tc main_v117) = ReadP.val_main_v222 (F := F) x3 := by
  after_results_simp
  simp only [h75, h84]
  rfl

theorem t17_r118 (h78 : W (Proc.devRef .tc main_v78) = ReadP.val_main_v175 (F := F) x3) (h81 : W (Proc.devRef .tc main_v81) = ReadP.val_main_v178 (F := F) x3) :
    after hostOps1_16 W (Proc.devRef .tc main_v118) = ReadP.val_main_v223 (F := F) x3 := by
  after_results_simp
  simp only [h78, h81]
  rfl

theorem t17_r119 (h78 : W (Proc.devRef .tc main_v78) = ReadP.val_main_v175 (F := F) x3) (h84 : W (Proc.devRef .tc main_v84) = ReadP.val_main_v181 (F := F) x3) :
    after hostOps1_16 W (Proc.devRef .tc main_v119) = ReadP.val_main_v224 (F := F) x3 := by
  after_results_simp
  simp only [h78, h84]
  rfl

theorem t17_r91 (h68 : W (Proc.devRef .tc main_v68) = ReadP.val_main_v165 (F := F) x3) (h72 : W (Proc.devRef .tc main_v72) = ReadP.val_main_v169 (F := F) x3) (h78 : W (Proc.devRef .tc main_v78) = ReadP.val_main_v175 (F := F) x3) (h84 : W (Proc.devRef .tc main_v84) = ReadP.val_main_v181 (F := F) x3) :
    after hostOps1_16 W (Proc.devRef .tc main_v91) = ReadP.val_main_v188 (F := F) x3 := by
  after_results_simp
  simp only [h68, h72, h78, h84]
  rfl

theorem t17_r94 (h68 : W (Proc.devRef .tc main_v68) = ReadP.val_main_v165 (F := F) x3) (h72 : W (Proc.devRef .tc main_v72) = ReadP.val_main_v169 (F := F) x3) (h78 : W (Proc.devRef .tc main_v78) = ReadP.val_main_v175 (F := F) x3) (h81 : W (Proc.devRef .tc main_v81) = ReadP.val_main_v178 (F := F) x3) :
    after hostOps1_16 W (Proc.devRef .tc main_v94) = ReadP.val_main_v191 (F := F) x3 := by
  after_results_simp
  simp only [h68, h72, h78, h81]
  rfl

theorem t17_r97 (h68 : W (Proc.devRef .tc main_v68) = ReadP.val_main_v165 (F := F) x3) (h72 : W (Proc.devRef .tc main_v72) = ReadP.val_main_v169 (F := F) x3) (h75 : W (Proc.devRef .tc main_v75) = ReadP.val_main_v172 (F := F) x3) (h84 : W (Proc.devRef .tc main_v84) = ReadP.val_main_v181 (F := F) x3) :
    after hostOps1_16 W (Proc.devRef .tc main_v97) = ReadP.val_main_v194 (F := F) x3 := by
  after_results_simp
  simp only [h68, h72, h75, h84]
  rfl

theorem t17_r100 (h68 : W (Proc.devRef .tc main_v68) = ReadP.val_main_v165 (F := F) x3) (h72 : W (Proc.devRef .tc main_v72) = ReadP.val_main_v169 (F := F) x3) (h75 : W (Proc.devRef .tc main_v75) = ReadP.val_main_v172 (F := F) x3) (h81 : W (Proc.devRef .tc main_v81) = ReadP.val_main_v178 (F := F) x3) :
    after hostOps1_16 W (Proc.devRef .tc main_v100) = ReadP.val_main_v197 (F := F) x3 := by
  after_results_simp
  simp only [h68, h72, h75, h81]
  rfl

/-- The mask as a float. -/
theorem t17_mask (h4 : W (Proc.devRef .tc main_arg4) = x4) :
    after hostOps1_16 W (Proc.devRef .tc main_v103) = ReadP.val_main_v200 (F := F) x4 := by
  after_results_simp
  simp only [h4]
  rfl

/-- The last nine operations leave a buffer they do not write as the first 40 left it. -/
theorem after16_frame (r : Ref sig .tc)
    (hr : r ∉ ([main_v120, main_v121, main_v122, main_v123, main_v124, main_v125, main_v126, main_v127, main_v128] : List (Ref sig .tc))) :
    after hostOps1_16 W (Proc.devRef .tc r) = after opsA W (Proc.devRef .tc r) := by
  rw [after16_eq]
  have hne : ∀ y ∈ ([main_v120, main_v121, main_v122, main_v123, main_v124, main_v125, main_v126, main_v127, main_v128] : List (Ref sig .tc)), r ≠ y :=
    fun y hy e => hr (e ▸ hy)
  simp only [after_cons, after_nil]
  rw [binary_result_ne (h := hne _ (by decide)), unary_result_ne (h := hne _ (by decide)),
    unary_result_ne (h := hne _ (by decide)), nary_result_ne (h := hne _ (by decide)),
    unary_result_ne (h := hne _ (by decide)), unary_result_ne (h := hne _ (by decide)),
    unary_result_ne (h := hne _ (by decide)), unary_result_ne (h := hne _ (by decide)),
    nary_result_ne (h := hne _ (by decide))]

end Full

section PiecesBE
variable (V : Valuation τ sig (Elt F)) (x3 : (⟨S32x128x2, .f32⟩ : BufTy).Contents (Elt F))
  (x4 : (⟨S32x128, .i32⟩ : BufTy).Contents (Elt F))

/-- Operation 41 joins the four cell columns; everything else is left as found. -/
theorem opsB_facts
    (h116 : V (Proc.devRef .tc main_v116) = ReadP.val_main_v221 (F := F) x3)
    (h117 : V (Proc.devRef .tc main_v117) = ReadP.val_main_v222 (F := F) x3)
    (h118 : V (Proc.devRef .tc main_v118) = ReadP.val_main_v223 (F := F) x3)
    (h119 : V (Proc.devRef .tc main_v119) = ReadP.val_main_v224 (F := F) x3)
    (h91 : V (Proc.devRef .tc main_v91) = ReadP.val_main_v188 (F := F) x3)
    (h94 : V (Proc.devRef .tc main_v94) = ReadP.val_main_v191 (F := F) x3)
    (h97 : V (Proc.devRef .tc main_v97) = ReadP.val_main_v194 (F := F) x3)
    (h100 : V (Proc.devRef .tc main_v100) = ReadP.val_main_v197 (F := F) x3)
    (h103 : V (Proc.devRef .tc main_v103) = ReadP.val_main_v200 (F := F) x4) :
    (after opsB V (Proc.devRef .tc main_v120) = ReadP.val_main_v225 (F := F) x3)
    ∧ (after opsB V (Proc.devRef .tc main_v91) = ReadP.val_main_v188 (F := F) x3)
    ∧ (after opsB V (Proc.devRef .tc main_v94) = ReadP.val_main_v191 (F := F) x3)
    ∧ (after opsB V (Proc.devRef .tc main_v97) = ReadP.val_main_v194 (F := F) x3)
    ∧ (after opsB V (Proc.devRef .tc main_v100) = ReadP.val_main_v197 (F := F) x3)
    ∧ (after opsB V (Proc.devRef .tc main_v103) = ReadP.val_main_v200 (F := F) x4) := by
  refine ⟨?_, ?_, ?_, ?_, ?_, ?_⟩
  · simp only [after_cons, after_nil]
    rw [nary4_result]
    show concatenate S32x128x4 2 [⟨S32x128x1, V (Proc.devRef .tc main_v116)⟩, ⟨S32x128x1, V (Proc.devRef .tc main_v117)⟩,
      ⟨S32x128x1, V (Proc.devRef .tc main_v118)⟩, ⟨S32x128x1, V (Proc.devRef .tc main_v119)⟩] _ = _
    rw [h116, h117, h118, h119]
    rfl
  · after_results; exact h91
  · after_results; exact h94
  · after_results; exact h97
  · after_results; exact h100
  · after_results; exact h103

/-- Operations 42 to 45 spread the four weights to columns. -/
theorem opsC_facts
    (h120 : V (Proc.devRef .tc main_v120) = ReadP.val_main_v225 (F := F) x3)
    (h91 : V (Proc.devRef .tc main_v91) = ReadP.val_main_v188 (F := F) x3)
    (h94 : V (Proc.devRef .tc main_v94) = ReadP.val_main_v191 (F := F) x3)
    (h97 : V (Proc.devRef .tc main_v97) = ReadP.val_main_v194 (F := F) x3)
    (h100 : V (Proc.devRef .tc main_v100) = ReadP.val_main_v197 (F := F) x3)
    (h103 : V (Proc.devRef .tc main_v103) = ReadP.val_main_v200 (F := F) x4) :
    (after opsC V (Proc.devRef .tc main_v121) = ReadP.val_main_v201 (F := F) x3)
    ∧ (after opsC V (Proc.devRef .tc main_v122) = ReadP.val_main_v202 (F := F) x3)
    ∧ (after opsC V (Proc.devRef .tc main_v123) = ReadP.val_main_v203 (F := F) x3)
    ∧ (after opsC V (Proc.devRef .tc main_v124) = ReadP.val_main_v204 (F := F) x3)
    ∧ (after opsC V (Proc.devRef .tc main_v120) = ReadP.val_main_v225 (F := F) x3)
    ∧ (after opsC V (Proc.devRef .tc main_v103) = ReadP.val_main_v200 (F := F) x4) := by
  refine ⟨?_, ?_, ?_, ?_, ?_, ?_⟩
  · after_results; rw [h91]; rfl
  · after_results; rw [h94]; rfl
  · after_results; rw [h97]; rfl
  · after_results; rw [h100]; rfl
  · after_results; exact h120
  · after_results; exact h103

/-- Operation 46 joins the four weight columns. -/
theorem opsD_facts
    (h121 : V (Proc.devRef .tc main_v121) = ReadP.val_main_v201 (F := F) x3)
    (h122 : V (Proc.devRef .tc main_v122) = ReadP.val_main_v202 (F := F) x3)
    (h123 : V (Proc.devRef .tc main_v123) = ReadP.val_main_v203 (F := F) x3)
    (h124 : V (Proc.devRef .tc main_v124) = ReadP.val_main_v204 (F := F) x3)
    (h120 : V (Proc.devRef .tc main_v120) = ReadP.val_main_v225 (F := F) x3)
    (h103 : V (Proc.devRef .tc main_v103) = ReadP.val_main_v200 (F := F) x4) :
    (after opsD V (Proc.devRef .tc main_v125) = ReadP.val_main_v205 (F := F) x3)
    ∧ (after opsD V (Proc.devRef .tc main_v120) = ReadP.val_main_v225 (F := F) x3)
    ∧ (after opsD V (Proc.devRef .tc main_v103) = ReadP.val_main_v200 (F := F) x4) := by
  refine ⟨?_, ?_, ?_⟩
  · simp only [after_cons, after_nil]
    rw [nary4_result]
    show concatenate S32x128x4 2 [⟨S32x128x1, V (Proc.devRef .tc main_v121)⟩, ⟨S32x128x1, V (Proc.devRef .tc main_v122)⟩,
      ⟨S32x128x1, V (Proc.devRef .tc main_v123)⟩, ⟨S32x128x1, V (Proc.devRef .tc main_v124)⟩] _ = _
    rw [h121, h122, h123, h124]
    rfl
  · after_results; exact h120
  · after_results; exact h103

/-- The last three operations spread the mask over the four corners and multiply. -/
theorem opsE_facts
    (h125 : V (Proc.devRef .tc main_v125) = ReadP.val_main_v205 (F := F) x3)
    (h120 : V (Proc.devRef .tc main_v120) = ReadP.val_main_v225 (F := F) x3)
    (h103 : V (Proc.devRef .tc main_v103) = ReadP.val_main_v200 (F := F) x4) :
    (after opsE V (Proc.devRef .tc main_v120) = ReadP.val_main_v225 (F := F) x3)
    ∧ (after opsE V (Proc.devRef .tc main_v128) = ReadP.val_main_v208 (F := F) x3 x4)
    ∧ (after opsE V (Proc.devRef .tc main_v103) = ReadP.val_main_v200 (F := F) x4) := by
  refine ⟨?_, ?_, ?_⟩
  · after_results; exact h120
  · after_results; rw [h125, h103]; rfl
  · after_results; exact h103

end PiecesBE

section Assembly
variable (W : Valuation τ sig (Elt F)) (x3 : (⟨S32x128x2, .f32⟩ : BufTy).Contents (Elt F))
  (x4 : (⟨S32x128, .i32⟩ : BufTy).Contents (Elt F))

/-- THE LAST TARGET STRETCH: the four flat cell indices joined, the four masked weights joined, the mask. -/
theorem t17 (h4 : W (Proc.devRef .tc main_arg4) = x4)
    (h68 : W (Proc.devRef .tc main_v68) = ReadP.val_main_v165 (F := F) x3)
    (h72 : W (Proc.devRef .tc main_v72) = ReadP.val_main_v169 (F := F) x3)
    (h75 : W (Proc.devRef .tc main_v75) = ReadP.val_main_v172 (F := F) x3)
    (h78 : W (Proc.devRef .tc main_v78) = ReadP.val_main_v175 (F := F) x3)
    (h81 : W (Proc.devRef .tc main_v81) = ReadP.val_main_v178 (F := F) x3)
    (h84 : W (Proc.devRef .tc main_v84) = ReadP.val_main_v181 (F := F) x3) :
    (after hostOps1_16 W (Proc.devRef .tc main_v120) = ReadP.val_main_v225 (F := F) x3)
    ∧ (after hostOps1_16 W (Proc.devRef .tc main_v128) = ReadP.val_main_v208 (F := F) x3 x4)
    ∧ (after hostOps1_16 W (Proc.devRef .tc main_v103) = ReadP.val_main_v200 (F := F) x4) := by
  have f116 := t17_r116 W x3 h75 h81
  have f117 := t17_r117 W x3 h75 h84
  have f118 := t17_r118 W x3 h78 h81
  have f119 := t17_r119 W x3 h78 h84
  have f91 := t17_r91 W x3 h68 h72 h78 h84
  have f94 := t17_r94 W x3 h68 h72 h78 h81
  have f97 := t17_r97 W x3 h68 h72 h75 h84
  have f100 := t17_r100 W x3 h68 h72 h75 h81
  have f103 := t17_mask W x4 h4
  rw [after16_frame W _ (by decide)] at f116 f117 f118 f119 f91 f94 f97 f100 f103
  obtain ⟨b120, b91, b94, b97, b100, b103⟩ := opsB_facts (after opsA W) x3 x4 f116 f117 f118 f119 f91 f94 f97 f100 f103
  obtain ⟨c121, c122, c123, c124, c120, c103⟩ := opsC_facts (after opsB (after opsA W)) x3 x4 b120 b91 b94 b97 b100 b103
  obtain ⟨d125, d120, d103⟩ := opsD_facts (after opsC (after opsB (after opsA W))) x3 x4 c121 c122 c123 c124 c120 c103
  rw [after16_eq]
  exact opsE_facts (after opsD (after opsC (after opsB (after opsA W)))) x3 x4 d125 d120 d103

end Assembly

end Target

open Target

section Chain
variable (m : (ℓ : Loc nD τ sig) → Buf (Elt F) ℓ) (outs : Gen.Outs (F := F)) (c : Dev nD)

/-- The fifth argument reaches the last target stretch as launched. -/
theorem V18_arg4 : Gen.V18 m outs c main_arg4 = m ((c : Thread nD τ).loc main_arg4) :=
  (V18_of m outs c main_arg4 (by decide)).trans <| (V17_of m outs c main_arg4 (by decide)).trans <|
  (V16_of m outs c main_arg4 (by decide)).trans <| (V15_of m outs c main_arg4 (by decide)).trans <|
  (V14_of m outs c main_arg4 (by decide)).trans <| (V13_of m outs c main_arg4 (by decide)).trans <|
  (V12_of m outs c main_arg4 (by decide)).trans <| (V11_of m outs c main_arg4 (by decide)).trans <|
  (V10_of m outs c main_arg4 (by decide)).trans <| (V9_of m outs c main_arg4 (by decide)).trans <|
  (V8_of m outs c main_arg4 (by decide)).trans <| (V7_of m outs c main_arg4 (by decide)).trans <|
  (V6_of m outs c main_arg4 (by decide)).trans <| (V5_of m outs c main_arg4 (by decide)).trans <|
  (V4_of m outs c main_arg4 (by decide)).trans <| (V3_of m outs c main_arg4 (by decide)).trans <|
  (V2_of m outs c main_arg4 (by decide)).trans <| (V1_of m c main_arg4 (by decide)).trans rfl

/-- THE TARGET TABLES AT THE SECOND CALL'S ENTRY: from the scaled target coordinates and the floored column coordinate
    as the long stretch before leaves them, the eight stretches that follow build, operation for operation as the
    reference does, the four target cells' flat indices, the four masked bilinear weights and the mask. -/
theorem entry1_target
    (h68 : Gen.V11 m outs c (Proc.devRef .tc main_v68) = ReadP.val_main_v165 (F := F) (m ((c : Thread nD τ).loc main_arg3)))
    (h72 : Gen.V11 m outs c (Proc.devRef .tc main_v72) = ReadP.val_main_v169 (F := F) (m ((c : Thread nD τ).loc main_arg3)))
    (h73 : Gen.V11 m outs c (Proc.devRef .tc main_v73) = ReadP.val_main_v170 (F := F) (m ((c : Thread nD τ).loc main_arg3)))
    (hc22 : Gen.V11 m outs c (Proc.devRef .tc main_c_22) = ReadP.val_main_c_47 (F := F))
    (hc23 : Gen.V11 m outs c (Proc.devRef .tc main_c_23) = ReadP.val_main_c_48 (F := F)) :
    Gen.V19 m outs c (Proc.devRef .tc main_v120) = ReadP.val_main_v225 (F := F) (m ((c : Thread nD τ).loc main_arg3))
    ∧ Gen.V19 m outs c (Proc.devRef .tc main_v128)
        = ReadP.val_main_v208 (F := F) (m ((c : Thread nD τ).loc main_arg3)) (m ((c : Thread nD τ).loc main_arg4))
    ∧ Gen.V19 m outs c (Proc.devRef .tc main_v103) = ReadP.val_main_v200 (F := F) (m ((c : Thread nD τ).loc main_arg4)) := by
  have a74 := t10_clip (Gen.V11 m outs c) _ h73 hc22 hc23
  have a75 := t11_x0 (Gen.V12 m outs c) _ a74
  have a77 := t11_x0p (Gen.V12 m outs c) _ a74
  have a78 := t12_clip (Gen.V13 m outs c) _ a77 (t11_c25 (Gen.V12 m outs c)) (t11_c26 (Gen.V12 m outs c))
  have b72 : Gen.V14 m outs c (Proc.devRef .tc main_v72) = _ :=
    (V14_of m outs c main_v72 (by decide)).trans <| (V13_of m outs c main_v72 (by decide)).trans <|
    (V12_of m outs c main_v72 (by decide)).trans h72
  have a79 := t13_fy (Gen.V14 m outs c) _ b72
  have a80 := t14_clip (Gen.V15 m outs c) _ a79 (t13_c27 (Gen.V14 m outs c)) (t13_c28 (Gen.V14 m outs c))
  have a81 := t15_y0 (Gen.V16 m outs c) _ a80
  have a83 := t15_y0p (Gen.V16 m outs c) _ a80
  have a84 := t16_clip (Gen.V17 m outs c) _ a83 (t15_c30 (Gen.V16 m outs c)) (t15_c31 (Gen.V16 m outs c))
  have e68 : Gen.V18 m outs c (Proc.devRef .tc main_v68) = _ :=
    (V18_of m outs c main_v68 (by decide)).trans <| (V17_of m outs c main_v68 (by decide)).trans <|
    (V16_of m outs c main_v68 (by decide)).trans <| (V15_of m outs c main_v68 (by decide)).trans <|
    (V14_of m outs c main_v68 (by decide)).trans <| (V13_of m outs c main_v68 (by decide)).trans <|
    (V12_of m outs c main_v68 (by decide)).trans h68
  have e72 : Gen.V18 m outs c (Proc.devRef .tc main_v72) = _ :=
    (V18_of m outs c main_v72 (by decide)).trans <| (V17_of m outs c main_v72 (by decide)).trans <|
    (V16_of m outs c main_v72 (by decide)).trans <| (V15_of m outs c main_v72 (by decide)).trans b72
  have e75 : Gen.V18 m outs c (Proc.devRef .tc main_v75) = _ :=
    (V18_of m outs c main_v75 (by decide)).trans <| (V17_of m outs c main_v75 (by decide)).trans <|
    (V16_of m outs c main_v75 (by decide)).trans <| (V15_of m outs c main_v75 (by decide)).trans <|
    (V14_of m outs c main_v75 (by decide)).trans a75
  have e78 : Gen.V18 m outs c (Proc.devRef .tc main_v78) = _ :=
    (V18_of m outs c main_v78 (by decide)).trans <| (V17_of m outs c main_v78 (by decide)).trans <|
    (V16_of m outs c main_v78 (by decide)).trans <| (V15_of m outs c main_v78 (by decide)).trans a78
  have e81 : Gen.V18 m outs c (Proc.devRef .tc main_v81) = _ :=
    (V18_of m outs c main_v81 (by decide)).trans a81
  have e4 := V18_arg4 m outs c
  exact t17 (Gen.V18 m outs c) _ _ e4 e68 e72 e75 e78 e81 a84

end Chain

section Result
variable (m : (ℓ : Loc nD τ sig) → Buf (Elt F) ℓ) (outs : Gen.Outs (F := F)) (c : Dev nD)

/-- The loss kernel's [32,8,128] result as the second call leaves it on core c. -/
abbrev lossArr : S32x8x128.Idx → Elt F .f32 := outs 20 main_v129 c

/-- The per-batch losses summed: the column (:, 0, 0) of a [32,8,128] array viewed as [32], added up from zero. -/
def lossSum (o : S32x8x128.Idx → Elt F .f32) : S_.Idx → Elt F .f32 :=
  Host.reduceAdd (φ := .f32) (fun i => shapeCast S32 (extractStridedSlice S32x1x1 ![0, 0, 0] o slices_S32x8x128_S32x1x1_0_0_0) shapeCasts_S32x1x1_S32 i)
    (constant S_ .f32 0x00000000#32) reducesTo_S32_S_d0 h_S_

/-- THE PROGRAM'S RESULT: the summed per-batch losses over the clamped mask count, the reference's divisor. -/
theorem result_eq (hmask : Gen.V19 m outs c (Proc.devRef .tc main_v103) = ReadP.val_main_v200 (F := F) (m ((c : Thread nD τ).loc main_arg4))) :
    Gen.V21 m outs c (Proc.devRef .tc main_v135)
      = Host.divf (φ := .f32) (lossSum (F := F) (lossArr outs c)) (ReadP.val_main_v258 (F := F) (m ((c : Thread nD τ).loc main_arg4))) := by
  show after hostOps2 (Gen.V20 m outs c) (Proc.devRef .tc main_v135) = _
  after_results
  have e129 : Gen.V20 m outs c (Proc.devRef .tc main_v129) = outs 20 main_v129 c := Function.update_self ..
  have e103 : Gen.V20 m outs c (Proc.devRef .tc main_v103) = ReadP.val_main_v200 (F := F) (m ((c : Thread nD τ).loc main_arg4)) :=
    (V20_of m outs c main_v103 (by decide)).trans hmask
  rw [e129, e103]
  rfl

end Result

section ResultIdeal
open Idealize.ShloMosaic.ValueIdx

/-- At the extended reals the summed losses are zero plus the sum over the 32 batches of the array at (b, 0, 0). -/
theorem lossSum_apply (o : S32x8x128.Idx → Elt Ideal .f32) :
    lossSum (F := Ideal) o ix0 = 0 + ∑ b : Fin 32, o (ix3 b 0 0) := by
  unfold lossSum
  simp only [Host.reduceAdd, Ideal.hostReduceAdd_def]
  rw [Ideal.hostReduceAdd_total reducesTo_S32_S_d0 (fun b => b.elim0)]
  congr 1
  · show Ideal.ofBits .f32 0x00000000#32 = 0
    exact Ideal.ofBits_zero_f32
  · rw [← Equiv.sum_comp (idxEquiv1 (n := 32)).symm]
    refine Finset.sum_congr rfl (fun b _ => ?_)
    show shapeCast S32 (extractStridedSlice S32x1x1 ![0, 0, 0] o slices_S32x8x128_S32x1x1_0_0_0) shapeCasts_S32x1x1_S32 (ix1 b) = _
    refine (shapeCast_apply _ shapeCasts_S32x1x1_S32 (ix1 b) (ix3 b (0 : Fin 1) (0 : Fin 1)) ?_).trans ?_
    · rw [Shape.rowMajor_val_three, Shape.rowMajor_val_one]
      show (b.val * 1 + 0) * 1 + 0 = b.val
      omega
    · refine extractStridedSlice_apply _ o slices_S32x8x128_S32x1x1_0_0_0 (ix3 b (0 : Fin 1) (0 : Fin 1)) (ix3 b 0 0) (fun a => ?_)
      match a with
      | ⟨0, _⟩ => show b.val = 0 + b.val; omega
      | ⟨1, _⟩ => rfl
      | ⟨2, _⟩ => rfl

/-- The host's quotient at an index is the quotient of the elements. -/
theorem hostDivf_apply {s : Shape} (a b : s.Idx → Elt Ideal .f32) (i : s.Idx) :
    Host.divf (F := Ideal) (φ := .f32) a b i = Ideal.div (a i) (b i) := rfl

variable (m : (ℓ : Loc nD τ sig) → Buf (Elt Ideal) ℓ) (outs : Gen.Outs (F := Ideal)) (c : Dev nD)

/-- The program's result as a number. -/
abbrev resArr : S_.Idx → Elt Ideal .f32 := Gen.V21 m outs c (Proc.devRef .tc main_v135)

theorem result_at (hmask : Gen.V19 m outs c (Proc.devRef .tc main_v103) = ReadP.val_main_v200 (F := Ideal) (m ((c : Thread nD τ).loc main_arg4))) :
    resArr m outs c ix0
      = Ideal.div (0 + ∑ b : Fin 32, lossArr outs c (ix3 b 0 0)) (ReadP.val_main_v258 (F := Ideal) (m ((c : Thread nD τ).loc main_arg4)) ix0) := by
  show Gen.V21 m outs c (Proc.devRef .tc main_v135) ix0 = _
  rw [result_eq m outs c hmask, hostDivf_apply, lossSum_apply]

end ResultIdeal

end Cert.KernelIdeal.HostRead
-- ==== Proof.KernelValue.lean ====
/-
  The kernel program's value at the ideal instance: its one result is the reference's.

  The program runs a host stretch (the two feature maps flattened to [32, 256, 4096]), the first call (both maps
  normalised over the channels), host stretches (the source keypoints' four corner cells and bilinear weights, the target
  keypoints' four cells and masked weights, the mask), the second call (per batch b, one number written to every cell of
  tile b of a [32, 8, 128] array), and a last host stretch: result = (0 + Σ_b cell (b, 0, 0)) / max(Σ mask, 1).

  Per batch, tile b after the second call is the stored tile of the six input slabs of batch b (the tiles of different
  grid points are disjoint); with the slabs holding the reference's stages, that number is Σ_n term[b, n], the
  reference's masked loss terms. The reference's result is (0 + Σ_{b,n} term[b, n]) / max(Σ mask, 1), the same quotient
  once the double sum is split by batch. Finiteness of the source map and of the source keypoints, which the sampled
  features' comparison needs, comes from the precondition.
-/
import proofs.«157332_j6846177869930_1_alg».proof.Proof.IdealRun
import proofs.«157332_j6846177869930_1_alg».proof.Proof.LossValue
import proofs.«157332_j6846177869930_1_alg».proof.Proof.BridgeTail
import proofs.«157332_j6846177869930_1_alg».proof.Proof.PreFinite
import proofs.«157332_j6846177869930_1_alg».proof.Proof.NormValue
import proofs.«157332_j6846177869930_1_alg».proof.Proof.BatchLoss
import proofs.«157332_j6846177869930_1_alg».proof.Proof.KHost
import proofs.«157332_j6846177869930_1_alg».proof.Proof.KHostIdx
import proofs.«157332_j6846177869930_1_alg».proof.Proof.KHostT
import proofs.«157332_j6846177869930_1_alg».proof.Defs
import Idealize.ShloMosaic.Lib.ValueIdx

set_option maxRecDepth 16384

noncomputable section

namespace Cert.Proof.KValue

open Idealize.ShloMosaic Idealize.ShloMosaic.TcCoe Idealize.SL.Sem Idealize.ShloMosaic.ValueIdx
open Cert.KernelIdeal Cert.KernelIdeal.Gen
open Cert.ReferenceIdeal.ReadP

variable (m : (ℓ : Loc nD τ sig) → Buf (Elt Ideal) ℓ) (c : Dev nD)

/-- The five argument arrays on core c at launch. -/
abbrev arg0 : (⟨S32x256x64x64, .f32⟩ : BufTy).Contents (Elt Ideal) := m ((c.tc : Thread nD τ).loc main_arg0)
abbrev arg1 : (⟨S32x256x64x64, .f32⟩ : BufTy).Contents (Elt Ideal) := m ((c.tc : Thread nD τ).loc main_arg1)
abbrev arg2 : (⟨S32x128x2, .f32⟩ : BufTy).Contents (Elt Ideal) := m ((c.tc : Thread nD τ).loc main_arg2)
abbrev arg3 : (⟨S32x128x2, .f32⟩ : BufTy).Contents (Elt Ideal) := m ((c.tc : Thread nD τ).loc main_arg3)
abbrev arg4 : (⟨S32x128, .i32⟩ : BufTy).Contents (Elt Ideal) := m ((c.tc : Thread nD τ).loc main_arg4)

/-- The buffers the second call is entered from. -/
abbrev entry1 : (c : Dev nD) → (b : Ref sig .tc) → Buf (Elt Ideal) ((c : Thread nD τ).loc b) :=
  fun c b => Gen.V19 m (Whole.outs m) c (Proc.devRef .tc b)

/-- The second call's output array after the call. -/
abbrev lossArr : S32x8x128.Idx → Elt Ideal .f32 := Whole.outs m 20 main_v129 c
/-- The program's result buffer at the end. -/
abbrev resArr : S_.Idx → Elt Ideal .f32 := Gen.V21 m (Whole.outs m) c (Proc.devRef .tc main_v135)

/-- One batch of the second call's output array: with the six input arrays holding the reference's stages, every cell
    (b, i, j) of the output array holds the batch's sum of the reference's masked loss terms. -/
theorem batch_value (b : Fin 32)
    (hfin0 : ∀ i, ∃ r : ℝ, arg0 m c i = (r : EReal)) (hfin2 : ∀ i, ∃ r : ℝ, arg2 m c i = (r : EReal))
    (h_fsn : ∀ (ch : Fin 256) (p : Fin 4096), (entry1 m c main_v2_0 : S32x256x4096.Idx → Elt Ideal .bf16) (ix3 b ch p)
      = val_main_v7 (F := Ideal) (arg0 m c) (ix4 b ch (⟨p.val / 64, by omega⟩ : Fin 64) (⟨p.val % 64, by omega⟩ : Fin 64)))
    (h_ftgn : ∀ (ch : Fin 256) (p : Fin 4096), (entry1 m c main_v2_1 : S32x256x4096.Idx → Elt Ideal .bf16) (ix3 b ch p)
      = val_main_v15 (F := Ideal) (arg1 m c) (ix4 b ch (⟨p.val / 64, by omega⟩ : Fin 64) (⟨p.val % 64, by omega⟩ : Fin 64)))
    (h_cellS : ∀ n : Fin 128,
      (entry1 m c main_v59 : S32x128x4.Idx → Elt Ideal .i32) (ix3 b n 0) = val_main_v33 (F := Ideal) (arg2 m c) (ix2 b n) * 64#32 + val_main_v30 (F := Ideal) (arg2 m c) (ix2 b n)
      ∧ (entry1 m c main_v59 : S32x128x4.Idx → Elt Ideal .i32) (ix3 b n 1) = val_main_v39 (F := Ideal) (arg2 m c) (ix2 b n) * 64#32 + val_main_v30 (F := Ideal) (arg2 m c) (ix2 b n)
      ∧ (entry1 m c main_v59 : S32x128x4.Idx → Elt Ideal .i32) (ix3 b n 2) = val_main_v33 (F := Ideal) (arg2 m c) (ix2 b n) * 64#32 + val_main_v36 (F := Ideal) (arg2 m c) (ix2 b n)
      ∧ (entry1 m c main_v59 : S32x128x4.Idx → Elt Ideal .i32) (ix3 b n 3) = val_main_v39 (F := Ideal) (arg2 m c) (ix2 b n) * 64#32 + val_main_v36 (F := Ideal) (arg2 m c) (ix2 b n))
    (h_wS : ∀ n : Fin 128,
      (entry1 m c main_v64 : S32x128x4.Idx → Elt Ideal .f32) (ix3 b n 0) = val_main_v51 (F := Ideal) (arg2 m c) (ix2 b n)
      ∧ (entry1 m c main_v64 : S32x128x4.Idx → Elt Ideal .f32) (ix3 b n 1) = val_main_v55 (F := Ideal) (arg2 m c) (ix2 b n)
      ∧ (entry1 m c main_v64 : S32x128x4.Idx → Elt Ideal .f32) (ix3 b n 2) = val_main_v59 (F := Ideal) (arg2 m c) (ix2 b n)
      ∧ (entry1 m c main_v64 : S32x128x4.Idx → Elt Ideal .f32) (ix3 b n 3) = val_main_v61 (F := Ideal) (arg2 m c) (ix2 b n))
    (h_cellT : ∀ (n : Fin 128) (k : Fin 4), (entry1 m c main_v120 : S32x128x4.Idx → Elt Ideal .i32) (ix3 b n k)
      = val_main_v225 (F := Ideal) (arg3 m c) (ix3 b n k))
    (h_wT : ∀ (n : Fin 128) (k : Fin 4), (entry1 m c main_v128 : S32x128x4.Idx → Elt Ideal .f32) (ix3 b n k)
      = val_main_v208 (F := Ideal) (arg3 m c) (arg4 m c) (ix3 b n k))
    (i : Fin 8) (j : Fin 128) :
    lossArr m c (ix3 b i j)
      = ∑ n : Fin 128, val_main_v259 (F := Ideal) (arg0 m c) (arg1 m c) (arg2 m c) (arg3 m c) (arg4 m c) (ix2 b n) := by
  -- the six slabs of batch b
  let x0 : Vec Ideal S1x256x4096 .bf16 := fun y => (entry1 m c main_v2_0 : S32x256x4096.Idx → Elt Ideal .bf16) (ix3 b (y 1) (y 2))
  let x1 : Vec Ideal S1x256x4096 .bf16 := fun y => (entry1 m c main_v2_1 : S32x256x4096.Idx → Elt Ideal .bf16) (ix3 b (y 1) (y 2))
  let x2 : Vec Ideal S1x128x4 .i32 := fun y => (entry1 m c main_v59 : S32x128x4.Idx → Elt Ideal .i32) (ix3 b (y 1) (y 2))
  let x3 : Vec Ideal S1x128x4 .f32 := fun y => (entry1 m c main_v64 : S32x128x4.Idx → Elt Ideal .f32) (ix3 b (y 1) (y 2))
  let x4 : Vec Ideal S1x128x4 .i32 := fun y => (entry1 m c main_v120 : S32x128x4.Idx → Elt Ideal .i32) (ix3 b (y 1) (y 2))
  let x5 : Vec Ideal S1x128x4 .f32 := fun y => (entry1 m c main_v128 : S32x128x4.Idx → Elt Ideal .f32) (ix3 b (y 1) (y 2))
  have e1 : lossArr m c (ix3 b i j)
      = Loss.lossPayload (F := Ideal) x0 x1 x2 x3 x4 x5 (ix3 0 i j) :=
    (congrFun (Whole.outs_loss m c) (ix3 b i j)).trans
      (LossValue.loss_at (entry1 m) c b x0 x1 x2 x3 x4 x5 (fun _ _ => rfl) (fun _ _ => rfl) (fun _ _ => rfl) (fun _ _ => rfl)
        (fun _ _ => rfl) (fun _ _ => rfl) i j)
  refine e1.trans ?_
  exact Cert.Bridge.batch_loss (arg0 m c) (arg1 m c) (arg2 m c) (arg3 m c) (arg4 m c) hfin0 hfin2 b x0 x1 x2 x3 x4 x5
    (fun ch p => h_fsn ch p) (fun ch p => h_ftgn ch p) (fun n => h_cellS n) (fun n => h_wS n) (fun n k => h_cellT n k)
    (fun n k => h_wT n k) i j

/-- The kernel program's result, from what the host stretches around the two calls are known to hold: the last stretch
    divides the sum over the batches of cell (b, 0, 0) of the second call's output array by the count; each of those
    cells is the batch's sum of the reference's masked terms; the reference's result is that quotient. -/
theorem kernel_value_of
    (hfin0 : ∀ i, ∃ r : ℝ, arg0 m c i = (r : EReal)) (hfin2 : ∀ i, ∃ r : ℝ, arg2 m c i = (r : EReal))
    (h_result : resArr m c ix0
      = Ideal.div (0 + ∑ b : Fin 32, lossArr m c (ix3 b 0 0))
          (val_main_v258 (F := Ideal) (arg4 m c) ix0))
    (h_fsn : ∀ (b : Fin 32) (ch : Fin 256) (p : Fin 4096), (entry1 m c main_v2_0 : S32x256x4096.Idx → Elt Ideal .bf16) (ix3 b ch p)
      = val_main_v7 (F := Ideal) (arg0 m c) (ix4 b ch (⟨p.val / 64, by omega⟩ : Fin 64) (⟨p.val % 64, by omega⟩ : Fin 64)))
    (h_ftgn : ∀ (b : Fin 32) (ch : Fin 256) (p : Fin 4096), (entry1 m c main_v2_1 : S32x256x4096.Idx → Elt Ideal .bf16) (ix3 b ch p)
      = val_main_v15 (F := Ideal) (arg1 m c) (ix4 b ch (⟨p.val / 64, by omega⟩ : Fin 64) (⟨p.val % 64, by omega⟩ : Fin 64)))
    (h_cellS : ∀ (b : Fin 32) (n : Fin 128),
      (entry1 m c main_v59 : S32x128x4.Idx → Elt Ideal .i32) (ix3 b n 0) = val_main_v33 (F := Ideal) (arg2 m c) (ix2 b n) * 64#32 + val_main_v30 (F := Ideal) (arg2 m c) (ix2 b n)
      ∧ (entry1 m c main_v59 : S32x128x4.Idx → Elt Ideal .i32) (ix3 b n 1) = val_main_v39 (F := Ideal) (arg2 m c) (ix2 b n) * 64#32 + val_main_v30 (F := Ideal) (arg2 m c) (ix2 b n)
      ∧ (entry1 m c main_v59 : S32x128x4.Idx → Elt Ideal .i32) (ix3 b n 2) = val_main_v33 (F := Ideal) (arg2 m c) (ix2 b n) * 64#32 + val_main_v36 (F := Ideal) (arg2 m c) (ix2 b n)
      ∧ (entry1 m c main_v59 : S32x128x4.Idx → Elt Ideal .i32) (ix3 b n 3) = val_main_v39 (F := Ideal) (arg2 m c) (ix2 b n) * 64#32 + val_main_v36 (F := Ideal) (arg2 m c) (ix2 b n))
    (h_wS : ∀ (b : Fin 32) (n : Fin 128),
      (entry1 m c main_v64 : S32x128x4.Idx → Elt Ideal .f32) (ix3 b n 0) = val_main_v51 (F := Ideal) (arg2 m c) (ix2 b n)
      ∧ (entry1 m c main_v64 : S32x128x4.Idx → Elt Ideal .f32) (ix3 b n 1) = val_main_v55 (F := Ideal) (arg2 m c) (ix2 b n)
      ∧ (entry1 m c main_v64 : S32x128x4.Idx → Elt Ideal .f32) (ix3 b n 2) = val_main_v59 (F := Ideal) (arg2 m c) (ix2 b n)
      ∧ (entry1 m c main_v64 : S32x128x4.Idx → Elt Ideal .f32) (ix3 b n 3) = val_main_v61 (F := Ideal) (arg2 m c) (ix2 b n))
    (h_cellT : ∀ (b : Fin 32) (n : Fin 128) (k : Fin 4), (entry1 m c main_v120 : S32x128x4.Idx → Elt Ideal .i32) (ix3 b n k)
      = val_main_v225 (F := Ideal) (arg3 m c) (ix3 b n k))
    (h_wT : ∀ (b : Fin 32) (n : Fin 128) (k : Fin 4), (entry1 m c main_v128 : S32x128x4.Idx → Elt Ideal .f32) (ix3 b n k)
      = val_main_v208 (F := Ideal) (arg3 m c) (arg4 m c) (ix3 b n k)) :
    resArr m c
      = val_main_v261 (F := Ideal) (arg0 m c) (arg1 m c) (arg2 m c) (arg3 m c) (arg4 m c) := by
  funext i0
  obtain rfl : i0 = ix0 := eq_ix0 i0
  refine h_result.trans ?_
  exact Cert.Bridge.result_sum (arg0 m c) (arg1 m c) (arg2 m c) (arg3 m c) (arg4 m c)
    (fun b => lossArr m c (ix3 b 0 0))
    (fun b => batch_value m c b hfin0 hfin2 (h_fsn b) (h_ftgn b) (h_cellS b) (h_wS b) (h_cellT b) (h_wT b) 0 0)

/-- The kernel program's result buffer holds the reference's result, on every core, from any launch memory of which
    the precondition holds. -/
theorem kernel_value (m : (ℓ : Loc nD τ sig) → Buf (Elt Ideal) ℓ) (hpre : Cert.Pre_KernelIdeal m) (c : Dev nD) :
    resArr m c = val_main_v261 (F := Ideal) (arg0 m c) (arg1 m c) (arg2 m c) (arg3 m c) (arg4 m c) := by
  obtain ⟨hfin0, _, hfin2, _⟩ :=
    Cert.PreRead.finite_of_pre (arg0 m c) (arg1 m c) (arg2 m c) (arg3 m c) (arg4 m c) (hpre c)
  obtain ⟨hcellT, hwT, hmask⟩ := HostRead.entry1_target m (Whole.outs m) c
    (HostRead.after8_v68 m (Whole.outs m) c) (HostRead.after8_v72 m (Whole.outs m) c) (HostRead.after8_v73 m (Whole.outs m) c)
    (HostRead.after8_c22 m (Whole.outs m) c) (HostRead.after8_c23 m (Whole.outs m) c)
  have hcS := HostRead.entry1_cellS m (Whole.outs m) c
  have hwS := HostRead.entry1_wS m (Whole.outs m) c
  refine kernel_value_of m c hfin0 hfin2 (HostRead.result_at m (Whole.outs m) c hmask) ?_ ?_ ?_ ?_ ?_ ?_
  · intro b ch p
    exact (congrFun (HostRead.entry1_fsn m (Whole.outs m) c) (ix3 b ch p)).trans
      ((congrFun (Whole.outs_norm2 m c) (ix3 b ch p)).trans
        (NormValue.fsn_at (fun c b => Gen.V1 m c (Proc.devRef .tc b)) c (arg0 m c) (HostRead.flat_src m c) b ch p))
  · intro b ch p
    exact (congrFun (HostRead.entry1_ftgn m (Whole.outs m) c) (ix3 b ch p)).trans
      ((congrFun (Whole.outs_norm3 m c) (ix3 b ch p)).trans
        (NormValue.ftgn_at (fun c b => Gen.V1 m c (Proc.devRef .tc b)) c (arg1 m c) (HostRead.flat_trg m c) b ch p))
  · intro b n
    exact ⟨(congrFun hcS (ix3 b n 0)).trans (HostRead.cellSrc_at0 (arg2 m c) b n),
      (congrFun hcS (ix3 b n 1)).trans (HostRead.cellSrc_at1 (arg2 m c) b n),
      (congrFun hcS (ix3 b n 2)).trans (HostRead.cellSrc_at2 (arg2 m c) b n),
      (congrFun hcS (ix3 b n 3)).trans (HostRead.cellSrc_at3 (arg2 m c) b n)⟩
  · intro b n
    exact ⟨(congrFun hwS (ix3 b n 0)).trans (HostRead.wSrc_at0 (arg2 m c) b n),
      (congrFun hwS (ix3 b n 1)).trans (HostRead.wSrc_at1 (arg2 m c) b n),
      (congrFun hwS (ix3 b n 2)).trans (HostRead.wSrc_at2 (arg2 m c) b n),
      (congrFun hwS (ix3 b n 3)).trans (HostRead.wSrc_at3 (arg2 m c) b n)⟩
  · intro b n k
    exact congrFun hcellT (ix3 b n k)
  · intro b n k
    exact congrFun hwT (ix3 b n k)

end Cert.Proof.KValue
end
-- ==== Proof.lean ====
/-
  A keypoint matching loss in two pallas_calls against its jnp reference, equal over the extended reals.

  The kernel program L2-normalises two feature maps over their 256 channels (first call, one batch per grid
  point), builds on the host the four bilinear cells and weights of every source and target keypoint, and in
  the second call, per batch, samples the normalised source map at the keypoints as a one-hot matrix product
  over the 4096 cells, multiplies by the normalised target map to get logits, scales them, takes a log-softmax
  over the cells, and sums minus the soft targets (the target keypoints' bilinear weights spread over their
  four cells, again as one-hot sums) times the log-probabilities; the host adds the 32 batch sums and divides
  by the number of masked-in keypoints, at least one. The reference gathers the four corner values, scatter-adds
  the soft targets, divides the logits by the temperature and multiplies each keypoint's loss by its mask.

  The two agree at the ideal instance because (i) every cell index lies in 0..4095, so a one-hot sum over the
  cells picks exactly the gathered (resp. scattered) corners, the map and the weights being finite reals so
  that the product distributes over the four corners; (ii) dividing by the temperature's printed value is
  multiplying by its exact reciprocal, which is what the kernel's scale constant is named; (iii) a masked-out
  keypoint has an all-zero row of soft targets, so multiplying its loss by the mask once more changes nothing.

  The three frames: each kernel region's body is run once at a symbolic grid point and the launch is the
  several-region frame; the reference's run is read back list by list.
-/
import proofs.«157332_j6846177869930_1_alg».proof.Defs
import proofs.«157332_j6846177869930_1_alg».proof.Proof.IdealRun
import proofs.«157332_j6846177869930_1_alg».proof.Proof.BitsIdealRun
import proofs.«157332_j6846177869930_1_alg».proof.Proof.RefWhole
import proofs.«157332_j6846177869930_1_alg».proof.Proof.KernelValue
import Idealize.ShloMosaic.Adequacy
import Idealize.ShloMosaic.Init

noncomputable section

namespace Cert.Proof

open Idealize.ShloMosaic Idealize.SL.Sem

/-- The word-level program runs to the end and returns its five arguments unchanged. -/
theorem frame_k : Cert.frame_Kernel := fun m ρ _ => Cert.Kernel.Whole.frame m ρ

/-- So does its idealisation. -/
theorem frame_ki : Cert.frame_KernelIdeal := fun m ρ _ => Cert.KernelIdeal.Whole.frame m ρ

/-- So does the reference. -/
theorem frame_ri : Cert.frame_ReferenceIdeal := fun m ρ _ => Cert.ReferenceIdeal.Whole.frame (F := Ideal) m ρ

/-- The one rewrite of the idealisation: the logits' scale 10.0 is read as the exact reciprocal of the
    reference's temperature word, 134217728 / 13421773. -/
theorem preserves : Cert.preserves_Kernel_KernelIdeal :=
  IdealRules.named_const.statement Cert.KernelIdeal.κ "fold_c_134217728_13421773" .f32 0x41200000#32
    ((134217728 / 13421773 : ℝ) : EReal) rfl

/-- From memories that agree on the five arguments both programs end with the same loss: the kernel program's
    result buffer holds the host tail's term of the second call's output, which is the reference's last stage
    of the arguments (`KValue.kernel_value`), and the reference's run ends at that stage of its own arguments. -/
theorem algebraic : Cert.algebraic_KernelIdeal_ReferenceIdeal := by
  intro m ρ m' ρ' hpre hagree
  refine ⟨fun c => Cert.KernelIdeal.Gen.V21 m (Cert.KernelIdeal.Whole.outs m) c (Proc.devRef .tc Cert.KernelIdeal.main_v135), ?_, ?_⟩
  · refine (θ_run Cert.KernelIdeal.defs _ _).mono (fun r h c => ⟨?_, ?_, ?_, ?_, ?_, ?_⟩) (Cert.KernelIdeal.Whole.run_all m ρ)
    · exact h c _ (Cert.KernelIdeal.Whole.mem_uc Cert.KernelIdeal.main_v135 (by decide))
    · exact (h c _ (Cert.KernelIdeal.Whole.mem_uc Cert.KernelIdeal.main_arg0 (by decide))).trans (Cert.KernelIdeal.Gen.V21_main_arg0 m _ c)
    · exact (h c _ (Cert.KernelIdeal.Whole.mem_uc Cert.KernelIdeal.main_arg1 (by decide))).trans (Cert.KernelIdeal.Gen.V21_main_arg1 m _ c)
    · exact (h c _ (Cert.KernelIdeal.Whole.mem_uc Cert.KernelIdeal.main_arg2 (by decide))).trans (Cert.KernelIdeal.Gen.V21_main_arg2 m _ c)
    · exact (h c _ (Cert.KernelIdeal.Whole.mem_uc Cert.KernelIdeal.main_arg3 (by decide))).trans (Cert.KernelIdeal.Gen.V21_main_arg3 m _ c)
    · exact (h c _ (Cert.KernelIdeal.Whole.mem_uc Cert.KernelIdeal.main_arg4 (by decide))).trans (Cert.KernelIdeal.Gen.V21_main_arg4 m _ c)
  · refine (θ_run Cert.ReferenceIdeal.defs _ _).mono (fun r h c => ⟨(h c).1.trans ?_, (h c).2⟩)
      (Cert.ReferenceIdeal.Whole.run (F := Ideal) m' ρ')
    rw [(hagree c).1, (hagree c).2.1, (hagree c).2.2.1, (hagree c).2.2.2.1, (hagree c).2.2.2.2]
    exact (Cert.Proof.KValue.kernel_value m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
